-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S512 : Shape := ⟨1, ![512]⟩
abbrev S8x20x20 : Shape := ⟨3, ![8, 20, 20]⟩
abbrev S20 : Shape := ⟨1, ![20]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S8x20x20 : S_.BroadcastsInDim S8x20x20 (![] : Fin 0 → Fin S8x20x20.rank)
  reducesTo_S8x20x20_S_d0_1_2 : S8x20x20.ReducesTo [0, 1, 2] S_
  bcast_S_S20 : S_.BroadcastsInDim S20 (![] : Fin 0 → Fin S20.rank)
  reducesTo_S20_S_d0 : S20.ReducesTo [0] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_v13 : IVec S_ 1) (main_v15 : IVec S512x1024 1) (main_c_5 : IVec S_ 1) : IVec S_ 1 :=
  let main_v16 : IVec S_ 1 := (fun x v => Host.reduce IntOp.andi x v reducesTo_S512x1024_S_d0_1 h_S_) main_v15 main_c_5
  let main_v17 : IVec S_ 1 := andi main_v13 main_v16
  main_v17

def fn {F : FTy → Type} [FloatOps F] (main_arg0 : IVec S512x1024 32) (main_arg1 : IVec S512 32) (main_arg2 : FVec F S512 .f32) (main_arg3 : FVec F S8x20x20 .f32) (main_arg4 : FVec F S20 .f32) : IVec S_ 1 :=
  let main_v0 : FVec F S512 .f32 := Host.absf main_arg2
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S8x20x20 .f32 := Host.absf main_arg3
  let main_cst_0 : FVec F S_ .f32 := constant S_ .f32 0x7F800000#32
  let main_v5 : FVec F S8x20x20 .f32 := broadcastInDim S8x20x20 ![] bcast_S_S8x20x20 main_cst_0
  let main_v6 : IVec S8x20x20 1 := cmpf .olt main_v4 main_v5
  let main_c_1 : IVec S_ 1 := constantI S_ 1 1#1
  let main_v7 : IVec S_ 1 := (fun x v => Host.reduce IntOp.andi x v reducesTo_S8x20x20_S_d0_1_2 h_S_) main_v6 main_c_1
  let main_v8 : IVec S_ 1 := andi main_v3 main_v7
  let main_v9 : FVec F S20 .f32 := Host.absf main_arg4
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_c_4 : IVec S_ 32 := constantI S_ 32 0#32
  let main_v14 : IVec S512x1024 32 := broadcastInDim S512x1024 ![] bcast_S_S512x1024 main_c_4
  let main_v15 : IVec S512x1024 1 := cmpi .sge main_arg0 main_v14
  let main_c_5 : IVec S_ 1 := constantI S_ 1 1#1
  fn_part1 (F := F) main_v13 main_v15 main_c_5
-- ==== Kernel.lean ====
abbrev S512x1024 : Shape := ⟨2, ![512, 1024]⟩
abbrev S512 : Shape := ⟨1, ![512]⟩
abbrev S8x20x20 : Shape := ⟨3, ![8, 20, 20]⟩
abbrev S20 : Shape := ⟨1, ![20]⟩
abbrev S20x20 : Shape := ⟨2, ![20, 20]⟩
abbrev S_ : Shape := ⟨0, ![]⟩
abbrev S1x20x20 : Shape := ⟨3, ![1, 20, 20]⟩
abbrev S1x1x20 : Shape := ⟨3, ![1, 1, 20]⟩
abbrev S8x20 : Shape := ⟨2, ![8, 20]⟩
abbrev S8x20x1 : Shape := ⟨3, ![8, 20, 1]⟩
abbrev S1x20x1 : Shape := ⟨3, ![1, 20, 1]⟩
abbrev S8x1 : Shape := ⟨2, ![8, 1]⟩
abbrev S8x1x1 : Shape := ⟨3, ![8, 1, 1]⟩
abbrev S512x1 : Shape := ⟨2, ![512, 1]⟩
abbrev S512x1x1x1 : Shape := ⟨4, ![512, 1, 1, 1]⟩
abbrev S1x8x20x20 : Shape := ⟨4, ![1, 8, 20, 20]⟩
abbrev S512x8x20x20 : Shape := ⟨4, ![512, 8, 20, 20]⟩
abbrev S16x8x20x20 : Shape := ⟨4, ![16, 8, 20, 20]⟩
abbrev S128x20x20 : Shape := ⟨3, ![128, 20, 20]⟩
abbrev S512x20x8x20 : Shape := ⟨4, ![512, 20, 8, 20]⟩
abbrev S512x20x8x26 : Shape := ⟨4, ![512, 20, 8, 26]⟩
abbrev S512x20x208 : Shape := ⟨3, ![512, 20, 208]⟩
abbrev S6 : Shape := ⟨1, ![6]⟩
abbrev S208 : Shape := ⟨1, ![208]⟩
abbrev S1x208 : Shape := ⟨2, ![1, 208]⟩
abbrev S6x1 : Shape := ⟨2, ![6, 1]⟩
abbrev S6x208 : Shape := ⟨2, ![6, 208]⟩
abbrev S1x6x208 : Shape := ⟨3, ![1, 6, 208]⟩
abbrev S512x6x208 : Shape := ⟨3, ![512, 6, 208]⟩
abbrev S512x26x208 : Shape := ⟨3, ![512, 26, 208]⟩
abbrev S512x1024x208 : Shape := ⟨3, ![512, 1024, 208]⟩
abbrev S16x1024 : Shape := ⟨2, ![16, 1024]⟩
abbrev S16x26x208 : Shape := ⟨3, ![16, 26, 208]⟩
abbrev S16x1024x208 : Shape := ⟨3, ![16, 1024, 208]⟩
abbrev S16x128 : Shape := ⟨2, ![16, 128]⟩
abbrev S16x128x26 : Shape := ⟨3, ![16, 128, 26]⟩
abbrev S16x128x1 : Shape := ⟨3, ![16, 128, 1]⟩
abbrev S16x128x208 : Shape := ⟨3, ![16, 128, 208]⟩

abbrev nBuf : Space → Nat
  | .hbm => 130
  | .vmem => 10
  | .smem => 0
  | _ => 0

abbrev hbmTy0_0 (i : Nat) : BufTy := match i % 128 with
  | 0 => ⟨S512x1024, .i32⟩
  | 1 => ⟨S512, .i32⟩
  | 2 => ⟨S512, .f32⟩
  | 3 => ⟨S8x20x20, .f32⟩
  | 4 => ⟨S20, .f32⟩
  | 5 => ⟨S20x20, .i32⟩
  | 6 => ⟨S20x20, .i32⟩
  | 7 => ⟨S_, .i32⟩
  | 8 => ⟨S20x20, .i32⟩
  | 9 => ⟨S20x20, .i32⟩
  | 10 => ⟨S20x20, .i1⟩
  | 11 => ⟨S20x20, .f32⟩
  | 12 => ⟨S8x20x20, .f32⟩
  | 13 => ⟨S8x20x20, .f32⟩
  | 14 => ⟨S_, .f32⟩
  | 15 => ⟨S8x20x20, .f32⟩
  | 16 => ⟨S8x20x20, .f32⟩
  | 17 => ⟨S_, .f32⟩
  | 18 => ⟨S8x20x20, .f32⟩
  | 19 => ⟨S8x20x20, .f32⟩
  | 20 => ⟨S8x20x20, .f32⟩
  | 21 => ⟨S8x20x20, .f32⟩
  | 22 => ⟨S8x20x20, .i1⟩
  | 23 => ⟨S8x20x20, .f32⟩
  | 24 => ⟨S8x20x20, .f32⟩
  | 25 => ⟨S8x20x20, .f32⟩
  | 26 => ⟨S8x20x20, .f32⟩
  | 27 => ⟨S8x20x20, .f32⟩
  | 28 => ⟨S8x20x20, .f32⟩
  | 29 => ⟨S8x20x20, .f32⟩
  | 30 => ⟨S8x20x20, .f32⟩
  | 31 => ⟨S_, .f32⟩
  | 32 => ⟨S20x20, .f32⟩
  | 33 => ⟨S20x20, .f32⟩
  | 34 => ⟨S1x20x20, .f32⟩
  | 35 => ⟨S8x20x20, .f32⟩
  | 36 => ⟨S8x20x20, .f32⟩
  | 37 => ⟨S1x1x20, .f32⟩
  | 38 => ⟨S8x20x20, .f32⟩
  | 39 => ⟨S8x20x20, .f32⟩
  | 40 => ⟨S_, .f32⟩
  | 41 => ⟨S8x20, .f32⟩
  | 42 => ⟨S8x20x1, .f32⟩
  | 43 => ⟨S1x20x20, .f32⟩
  | 44 => ⟨S8x20x20, .f32⟩
  | 45 => ⟨S8x20x20, .f32⟩
  | 46 => ⟨S8x20x20, .f32⟩
  | 47 => ⟨S8x20x20, .f32⟩
  | 48 => ⟨S1x20x1, .f32⟩
  | 49 => ⟨S8x20x1, .f32⟩
  | 50 => ⟨S8x20x1, .f32⟩
  | 51 => ⟨S_, .f32⟩
  | 52 => ⟨S8x1, .f32⟩
  | 53 => ⟨S8x1x1, .f32⟩
  | 54 => ⟨S_, .f32⟩
  | 55 => ⟨S8x1x1, .f32⟩
  | 56 => ⟨S8x1x1, .f32⟩
  | 57 => ⟨S8x20x20, .f32⟩
  | 58 => ⟨S8x20x20, .f32⟩
  | 59 => ⟨S_, .f32⟩
  | 60 => ⟨S512, .f32⟩
  | 61 => ⟨S512, .f32⟩
  | 62 => ⟨S512, .f32⟩
  | 63 => ⟨S512, .f32⟩
  | 64 => ⟨S512, .i1⟩
  | 65 => ⟨S512, .f32⟩
  | 66 => ⟨S512, .f32⟩
  | 67 => ⟨S512, .f32⟩
  | 68 => ⟨S512, .f32⟩
  | 69 => ⟨S512, .f32⟩
  | 70 => ⟨S512, .f32⟩
  | 71 => ⟨S512, .f32⟩
  | 72 => ⟨S512, .f32⟩
  | 73 => ⟨S_, .i32⟩
  | 74 => ⟨S512, .i32⟩
  | 75 => ⟨S512, .i1⟩
  | 76 => ⟨S_, .i32⟩
  | 77 => ⟨S512, .i32⟩
  | 78 => ⟨S512, .i32⟩
  | 79 => ⟨S512, .i32⟩
  | 80 => ⟨S512x1, .i32⟩
  | 81 => ⟨S512, .f32⟩
  | 82 => ⟨S512x1x1x1, .f32⟩
  | 83 => ⟨S1x8x20x20, .f32⟩
  | 84 => ⟨S512x8x20x20, .f32⟩
  | 85 => ⟨S512x8x20x20, .f32⟩
  | 86 => ⟨S512x8x20x20, .f32⟩
  | 87 => ⟨S512x8x20x20, .f32⟩
  | 88 => ⟨S512x20x8x20, .f32⟩
  | 89 => ⟨S_, .i32⟩
  | 90 => ⟨S_, .f32⟩
  | 91 => ⟨S512x20x8x26, .f32⟩
  | 92 => ⟨S512x20x208, .f32⟩
  | 93 => ⟨S6, .i32⟩
  | 94 => ⟨S_, .i32⟩
  | 95 => ⟨S6, .i32⟩
  | 96 => ⟨S6, .i32⟩
  | 97 => ⟨S208, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S208, .i32⟩
  | 105 => ⟨S208, .i32⟩
  | 106 => ⟨S_, .i32⟩
  | 107 => ⟨S208, .i32⟩
  | 108 => ⟨S208, .i1⟩
  | 109 => ⟨S_, .i32⟩
  | 110 => ⟨S208, .i32⟩
  | 111 => ⟨S208, .i1⟩
  | 112 => ⟨S_, .i32⟩
  | 113 => ⟨S_, .i1⟩
  | 114 => ⟨S208, .i1⟩
  | 115 => ⟨S208, .i1⟩
  | 116 => ⟨S208, .i1⟩
  | 117 => ⟨S208, .i32⟩
  | 118 => ⟨S208, .i32⟩
  | 119 => ⟨S208, .i32⟩
  | 120 => ⟨S1x208, .i32⟩
  | 121 => ⟨S6x1, .i32⟩
  | 122 => ⟨S6x208, .i32⟩
  | 123 => ⟨S6x208, .i32⟩
  | 124 => ⟨S6x208, .i1⟩
  | 125 => ⟨S6x208, .f32⟩
  | 126 => ⟨S1x6x208, .f32⟩
  | 127 => ⟨S512x6x208, .f32⟩
  | _ => ⟨S512x1024, .i32⟩

abbrev hbmTy0_1 (i : Nat) : BufTy := match i % 128 with
  | 0 => ⟨S512x26x208, .f32⟩
  | 1 => ⟨S512x1024x208, .f32⟩
  | _ => ⟨S512x1024, .i32⟩

abbrev hbmTy (i : Nat) : BufTy := match i / 128 with
  | 0 => hbmTy0_0 i
  | 1 => hbmTy0_1 i
  | _ => ⟨S512x1024, .i32⟩

abbrev bufTy : (tb : Table) → Fin (tcTables nBuf tb) → BufTy
  | .hbm, ⟨i, _⟩ => hbmTy i
  | .local _ .vmem, ⟨0, _⟩ => ⟨S16x8x20x20, .f32⟩
  | .local _ .vmem, ⟨1, _⟩ => ⟨S16x8x20x20, .f32⟩
  | .local _ .vmem, ⟨2, _⟩ => ⟨S16x8x20x20, .f32⟩
  | .local _ .vmem, ⟨3, _⟩ => ⟨S16x8x20x20, .f32⟩
  | .local _ .vmem, ⟨4, _⟩ => ⟨S16x1024, .i32⟩
  | .local _ .vmem, ⟨5, _⟩ => ⟨S16x1024, .i32⟩
  | .local _ .vmem, ⟨6, _⟩ => ⟨S16x26x208, .f32⟩
  | .local _ .vmem, ⟨7, _⟩ => ⟨S16x26x208, .f32⟩
  | .local _ .vmem, ⟨8, _⟩ => ⟨S16x1024x208, .f32⟩
  | .local _ .vmem, ⟨9, _⟩ => ⟨S16x1024x208, .f32⟩
  | _, _ => ⟨S512x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_v35 : Ref sig .tc := ⟨.hbm, 72, rfl⟩
abbrev main_c_4 : Ref sig .tc := ⟨.hbm, 73, rfl⟩
abbrev main_v36 : Ref sig .tc := ⟨.hbm, 74, rfl⟩
abbrev main_v37 : Ref sig .tc := ⟨.hbm, 75, rfl⟩
abbrev main_c_5 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_6 : Ref sig .tc := ⟨.hbm, 89, rfl⟩
abbrev main_call2_v0 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_c_7 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_c_8 : Ref sig .tc := ⟨.hbm, 98, rfl⟩
abbrev main_call3_v0 : Ref sig .tc := ⟨.hbm, 99, rfl⟩
abbrev main_call3_c : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_c_1 : Ref sig .tc := ⟨.hbm, 106, rfl⟩
abbrev main_call3_v5 : Ref sig .tc := ⟨.hbm, 107, rfl⟩
abbrev main_call3_v6 : Ref sig .tc := ⟨.hbm, 108, rfl⟩
abbrev main_call3_c_2 : Ref sig .tc := ⟨.hbm, 109, rfl⟩
abbrev main_call3_v7 : Ref sig .tc := ⟨.hbm, 110, rfl⟩
abbrev main_call3_v8 : Ref sig .tc := ⟨.hbm, 111, rfl⟩
abbrev main_call3_c_3 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x8x20x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x20x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

@[reducible] def k1_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k1_mult1 (k1_t1 : Fin k1_t1_loop.trips) : BitVec 32 :=
  let c0_i32 : BitVec 32 := 0#32
  let c1_i32 : BitVec 32 := 1#32
  let arg4 : BitVec 32 := Scf.iv c0_i32 c1_i32 k1_t1
  let c128_i32 : BitVec 32 := 128#32
  let v3 : BitVec 32 := Scalar.muli arg4 c128_i32
  v3
def k1_off1 (k1_t1 : Fin k1_t1_loop.trips) : Fin 2 → Nat :=
  let c0_3 : Index := 0#32
  let c0_i32 : BitVec 32 := 0#32
  let c1_i32 : BitVec 32 := 1#32
  let arg4 : BitVec 32 := Scf.iv c0_i32 c1_i32 k1_t1
  let c128_i32 : BitVec 32 := 128#32
  let v3 : BitVec 32 := Scalar.muli arg4 c128_i32
  let v4 : BitVec 32 := v3
  let v5 : Index := Scalar.indexCast v4
  ![0, v5.toNat]
def k1_off2 (k1_t1 : Fin k1_t1_loop.trips) : Fin 3 → Nat :=
  let c0_4 : Index := 0#32
  let c0_i32 : BitVec 32 := 0#32
  let c1_i32 : BitVec 32 := 1#32
  let arg4 : BitVec 32 := Scf.iv c0_i32 c1_i32 k1_t1
  let c128_i32 : BitVec 32 := 128#32
  let v3 : BitVec 32 := Scalar.muli arg4 c128_i32
  let v4 : BitVec 32 := v3
  let v14 : Index := Scalar.indexCast v4
  let c0_5 : Index := 0#32
  ![0, v14.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x26x208 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1024x208 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S20x20 : S_.BroadcastsInDim S20x20 (![] : Fin 0 → Fin S20x20.rank)
  transposes_S8x20x20_S8x20x20_0_2_1 : S8x20x20.Transposes [0, 2, 1] S8x20x20
  bcast_S_S8x20x20 : S_.BroadcastsInDim S8x20x20 (![] : Fin 0 → Fin S8x20x20.rank)
  bcast_S20x20_S1x20x20_1_2 : S20x20.BroadcastsInDim S1x20x20 (![1, 2] : Fin 2 → Fin S1x20x20.rank)
  bcast_S1x20x20_S8x20x20_0_1_2 : S1x20x20.BroadcastsInDim S8x20x20 (![0, 1, 2] : Fin 3 → Fin S8x20x20.rank)
  bcast_S20_S1x1x20_2 : S20.BroadcastsInDim S1x1x20 (![2] : Fin 1 → Fin S1x1x20.rank)
  bcast_S1x1x20_S8x20x20_0_1_2 : S1x1x20.BroadcastsInDim S8x20x20 (![0, 1, 2] : Fin 3 → Fin S8x20x20.rank)
  reducesTo_S8x20x20_S8x20_d2 : S8x20x20.ReducesTo [2] S8x20
  h_S_ : 0 < S_.numel
  bcast_S8x20_S8x20x1_0_1 : S8x20.BroadcastsInDim S8x20x1 (![0, 1] : Fin 2 → Fin S8x20x1.rank)
  bcast_S8x20x1_S8x20x20_0_1_2 : S8x20x1.BroadcastsInDim S8x20x20 (![0, 1, 2] : Fin 3 → Fin S8x20x20.rank)
  bcast_S20_S1x20x1_1 : S20.BroadcastsInDim S1x20x1 (![1] : Fin 1 → Fin S1x20x1.rank)
  bcast_S1x20x1_S8x20x1_0_1_2 : S1x20x1.BroadcastsInDim S8x20x1 (![0, 1, 2] : Fin 3 → Fin S8x20x1.rank)
  reducesTo_S8x20x1_S8x1_d1 : S8x20x1.ReducesTo [1] S8x1
  bcast_S8x1_S8x1x1_0_2 : S8x1.BroadcastsInDim S8x1x1 (![0, 2] : Fin 2 → Fin S8x1x1.rank)
  bcast_S_S8x1x1 : S_.BroadcastsInDim S8x1x1 (![] : Fin 0 → Fin S8x1x1.rank)
  bcast_S8x1x1_S8x20x20_0_1_2 : S8x1x1.BroadcastsInDim S8x20x20 (![0, 1, 2] : Fin 3 → Fin S8x20x20.rank)
  bcast_S_S512 : S_.BroadcastsInDim S512 (![] : Fin 0 → Fin S512.rank)
  bcast_S512_S512x1_0 : S512.BroadcastsInDim S512x1 (![0] : Fin 1 → Fin S512x1.rank)
  bcast_S512_S512x1x1x1_0 : S512.BroadcastsInDim S512x1x1x1 (![0] : Fin 1 → Fin S512x1x1x1.rank)
  bcast_S8x20x20_S1x8x20x20_1_2_3 : S8x20x20.BroadcastsInDim S1x8x20x20 (![1, 2, 3] : Fin 3 → Fin S1x8x20x20.rank)
  bcast_S512x1x1x1_S512x8x20x20_0_1_2_3 : S512x1x1x1.BroadcastsInDim S512x8x20x20 (![0, 1, 2, 3] : Fin 4 → Fin S512x8x20x20.rank)
  bcast_S1x8x20x20_S512x8x20x20_0_1_2_3 : S1x8x20x20.BroadcastsInDim S512x8x20x20 (![0, 1, 2, 3] : Fin 4 → Fin S512x8x20x20.rank)
  inb_S16x8x20x20_S16x8x20x20_0_0_0_0 : ∀ a, (![0, 0, 0, 0] : Fin 4 → Nat) a + S16x8x20x20.size a ≤ S16x8x20x20.size a
  h_S16x8x20x20 : 0 < S16x8x20x20.numel
  shapeCasts_S16x8x20x20_S16x8x20x20 : S16x8x20x20.ShapeCasts S16x8x20x20
  shapeCasts_S16x8x20x20_S128x20x20 : S16x8x20x20.ShapeCasts S128x20x20
  iota_S20x20_d0_w32 : S20x20.Iotas .tc 32 [0]
  iota_S20x20_d1_w32 : S20x20.Iotas .tc 32 [1]
  natLt_1_32 : 1 < 32
  shapeCasts_S20x20_S1x20x20 : S20x20.ShapeCasts S1x20x20
  shapeCasts_S1x20x20_S1x20x20 : S1x20x20.ShapeCasts S1x20x20
  broadcasts_S1x20x20_S128x20x20 : S1x20x20.Broadcasts S128x20x20
  shapeCasts_S128x20x20_S16x8x20x20 : S128x20x20.ShapeCasts S16x8x20x20
  transposes_S512x8x20x20_S512x20x8x20_0_2_1_3 : S512x8x20x20.Transposes [0, 2, 1, 3] S512x20x8x20
  pads_S512x20x8x20_S512x20x8x26_000_000_000_060 : S512x20x8x20.Pads (![0, 0, 0, 0] : Fin 4 → Nat) ![0, 0, 0, 6] ![0, 0, 0, 0] S512x20x8x26
  shapeCasts_S512x20x8x26_S512x20x208 : S512x20x8x26.ShapeCasts S512x20x208
  bcast_S_S6 : S_.BroadcastsInDim S6 (![] : Fin 0 → Fin S6.rank)
  bcast_S_S208 : S_.BroadcastsInDim S208 (![] : Fin 0 → Fin S208.rank)
  bcast_S208_S1x208_1 : S208.BroadcastsInDim S1x208 (![1] : Fin 1 → Fin S1x208.rank)
  bcast_S6_S6x1_0 : S6.BroadcastsInDim S6x1 (![0] : Fin 1 → Fin S6x1.rank)
  bcast_S1x208_S6x208_0_1 : S1x208.BroadcastsInDim S6x208 (![0, 1] : Fin 2 → Fin S6x208.rank)
  bcast_S6x1_S6x208_0_1 : S6x1.BroadcastsInDim S6x208 (![0, 1] : Fin 2 → Fin S6x208.rank)
  bcast_S6x208_S1x6x208_1_2 : S6x208.BroadcastsInDim S1x6x208 (![1, 2] : Fin 2 → Fin S1x6x208.rank)
  bcast_S1x6x208_S512x6x208_0_1_2 : S1x6x208.BroadcastsInDim S512x6x208 (![0, 1, 2] : Fin 3 → Fin S512x6x208.rank)
  concatenates_S512x20x208_S512x6x208_S512x26x208_d1 : Shape.Concatenates [S512x20x208, S512x6x208] S512x26x208 1
  inb_S16x26x208_S16x26x208_0_0_0 : ∀ a, (![0, 0, 0] : Fin 3 → Nat) a + S16x26x208.size a ≤ S16x26x208.size a
  h_S16x26x208 : 0 < S16x26x208.numel
  shapeCasts_S16x26x208_S16x26x208 : S16x26x208.ShapeCasts S16x26x208
  h_S16x128 : 0 < S16x128.numel
  iota_S16x128x26_d2_w32 : S16x128x26.Iotas .tc 32 [2]
  shapeCasts_S16x128_S16x128x1 : S16x128.ShapeCasts S16x128x1
  broadcasts_S16x128x1_S16x128x26 : S16x128x1.Broadcasts S16x128x26
  h_S16x128x208 : 0 < S16x128x208.numel
  gather_S512_S512x1_S512_n_0_n_n_0_1_1_wf : GatherDims.WF S512 S512x1 S512 [] [0] [] [0] [] 1 ![1]
  dot_S128x20x20_S128x20x20_S128x20x20_2_1_1_2_0_0_wf : DotDims.WF S128x20x20 S128x20x20 S128x20x20 [2] [1] [1] [2] [0] [0]
  dot_S16x128x26_S16x26x208_S16x128x208_2_1_1_2_0_0_wf : DotDims.WF S16x128x26 S16x26x208 S16x128x208 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8x20x20.size a ≤ S512x8x20x20.size a
  hwx0_0 : ∀ i : grid0.Coords, EltTy.bits .f32 = 32 ∨ (Rect.block (s := S512x8x20x20) S16x8x20x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x20x20.size a ≤ S512x8x20x20.size a
  hwx0_1 : ∀ i : grid0.Coords, EltTy.bits .f32 = 32 ∨ (Rect.block (s := S512x8x20x20) S16x8x20x20.size (cc0_transform_1 i) (hinb0_1 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S16x128.size a ≤ S16x1024.size a
  k1_off2_inb : ∀ k1_t1 : Fin k1_t1_loop.trips, ∀ a, (k1_off2 k1_t1) a + S16x128x208.size a ≤ S16x1024x208.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x1024.size a ≤ S512x1024.size a
  hwx1_0 : ∀ i : grid1.Coords, EltTy.bits .i32 = 32 ∨ (Rect.block (s := S512x1024) S16x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x26x208.size a ≤ S512x26x208.size a
  hwx1_1 : ∀ i : grid1.Coords, EltTy.bits .f32 = 32 ∨ (Rect.block (s := S512x26x208) S16x26x208.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x1024x208.size a ≤ S512x1024x208.size a
  hwx1_2 : ∀ i : grid1.Coords, EltTy.bits .f32 = 32 ∨ (Rect.block (s := S512x1024x208) S16x1024x208.size (cc1_transform_2 i) (hinb1_2 i)).WholeWords (EltTy.packing .f32)

variable [Facts₀]

def gather_S512_S512x1_S512_n_0_n_n_0_1_1 : GatherDims S512 S512x1 S512 where
  offsetDims := []
  collapsedSliceDims := [0]
  operandBatchingDims := []
  startIndicesBatchingDims := []
  startIndexMap := [0]
  indexVectorDim := 1
  sliceSizes := ![1]
  wf := gather_S512_S512x1_S512_n_0_n_n_0_1_1_wf
def dot_S128x20x20_S128x20x20_S128x20x20_2_1_1_2_0_0 : DotDims S128x20x20 S128x20x20 S128x20x20 where
  lhsContracting := [2]
  rhsContracting := [1]
  lhsNonContracting := [1]
  rhsNonContracting := [2]
  lhsBatch := [0]
  rhsBatch := [0]
  wf := dot_S128x20x20_S128x20x20_S128x20x20_2_1_1_2_0_0_wf
def dot_S16x128x26_S16x26x208_S16x128x208_2_1_1_2_0_0 : DotDims S16x128x26 S16x26x208 S16x128x208 where
  lhsContracting := [2]
  rhsContracting := [1]
  lhsNonContracting := [1]
  rhsNonContracting := [2]
  lhsBatch := [0]
  rhsBatch := [0]
  wf := dot_S16x128x26_S16x26x208_S16x128x208_2_1_1_2_0_0_wf

abbrev win0_0 : Pipeline.Window sig grid0 :=
  Pipeline.Window.ofSpec (Memref.whole main_v47) S16x8x20x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S16x8x20x20.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S16x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S16x26x208.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S16x1024x208.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x1024 : Shape := ⟨2, ![512, 1024]⟩
abbrev S512 : Shape := ⟨1, ![512]⟩
abbrev S8x20x20 : Shape := ⟨3, ![8, 20, 20]⟩
abbrev S20 : Shape := ⟨1, ![20]⟩
abbrev S_ : Shape := ⟨0, ![]⟩
abbrev S512x1024x1x1 : Shape := ⟨4, ![512, 1024, 1, 1]⟩
abbrev S20x20 : Shape := ⟨2, ![20, 20]⟩
abbrev S1x20x20 : Shape := ⟨3, ![1, 20, 20]⟩
abbrev S1x1x20 : Shape := ⟨3, ![1, 1, 20]⟩
abbrev S8x20 : Shape := ⟨2, ![8, 20]⟩
abbrev S8x20x1 : Shape := ⟨3, ![8, 20, 1]⟩
abbrev S1x20x1 : Shape := ⟨3, ![1, 20, 1]⟩
abbrev S8x1 : Shape := ⟨2, ![8, 1]⟩
abbrev S8x1x1 : Shape := ⟨3, ![8, 1, 1]⟩
abbrev S512x1 : Shape := ⟨2, ![512, 1]⟩
abbrev S512x1x1x1 : Shape := ⟨4, ![512, 1, 1, 1]⟩
abbrev S1x8x20x20 : Shape := ⟨4, ![1, 8, 20, 20]⟩
abbrev S512x8x20x20 : Shape := ⟨4, ![512, 8, 20, 20]⟩
abbrev S1x1x20x20 : Shape := ⟨4, ![1, 1, 20, 20]⟩
abbrev S512x1024x1 : Shape := ⟨3, ![512, 1024, 1]⟩
abbrev S512x1024x2 : Shape := ⟨3, ![512, 1024, 2]⟩
abbrev S512x1024x8x20 : Shape := ⟨4, ![512, 1024, 8, 20]⟩
abbrev S512x1024x8x26 : Shape := ⟨4, ![512, 1024, 8, 26]⟩
abbrev S1x1x26 : Shape := ⟨3, ![1, 1, 26]⟩
abbrev S512x1024x26 : Shape := ⟨3, ![512, 1024, 26]⟩
abbrev S512x1024x1x26 : Shape := ⟨4, ![512, 1024, 1, 26]⟩
abbrev S512x1024x208 : Shape := ⟨3, ![512, 1024, 208]⟩

abbrev nBuf : Space → Nat
  | .hbm => 231
  | .vmem => 0
  | .smem => 0
  | _ => 0

abbrev hbmTy0_0 (i : Nat) : BufTy := match i % 128 with
  | 0 => ⟨S512x1024, .i32⟩
  | 1 => ⟨S512, .i32⟩
  | 2 => ⟨S512, .f32⟩
  | 3 => ⟨S8x20x20, .f32⟩
  | 4 => ⟨S20, .f32⟩
  | 5 => ⟨S_, .i32⟩
  | 6 => ⟨S512x1024, .i32⟩
  | 7 => ⟨S512x1024, .i1⟩
  | 8 => ⟨S_, .i32⟩
  | 9 => ⟨S_, .i32⟩
  | 10 => ⟨S512x1024, .i32⟩
  | 11 => ⟨S512x1024, .i32⟩
  | 12 => ⟨S512x1024, .f32⟩
  | 13 => ⟨S512x1024x1x1, .f32⟩
  | 14 => ⟨S20x20, .i32⟩
  | 15 => ⟨S20x20, .i32⟩
  | 16 => ⟨S_, .i32⟩
  | 17 => ⟨S20x20, .i32⟩
  | 18 => ⟨S20x20, .i32⟩
  | 19 => ⟨S20x20, .i1⟩
  | 20 => ⟨S20x20, .f32⟩
  | 21 => ⟨S8x20x20, .f32⟩
  | 22 => ⟨S8x20x20, .f32⟩
  | 23 => ⟨S_, .f32⟩
  | 24 => ⟨S8x20x20, .f32⟩
  | 25 => ⟨S8x20x20, .f32⟩
  | 26 => ⟨S_, .f32⟩
  | 27 => ⟨S8x20x20, .f32⟩
  | 28 => ⟨S8x20x20, .f32⟩
  | 29 => ⟨S8x20x20, .f32⟩
  | 30 => ⟨S8x20x20, .f32⟩
  | 31 => ⟨S8x20x20, .i1⟩
  | 32 => ⟨S8x20x20, .f32⟩
  | 33 => ⟨S8x20x20, .f32⟩
  | 34 => ⟨S8x20x20, .f32⟩
  | 35 => ⟨S8x20x20, .f32⟩
  | 36 => ⟨S8x20x20, .f32⟩
  | 37 => ⟨S8x20x20, .f32⟩
  | 38 => ⟨S8x20x20, .f32⟩
  | 39 => ⟨S8x20x20, .f32⟩
  | 40 => ⟨S_, .f32⟩
  | 41 => ⟨S20x20, .f32⟩
  | 42 => ⟨S20x20, .f32⟩
  | 43 => ⟨S1x20x20, .f32⟩
  | 44 => ⟨S8x20x20, .f32⟩
  | 45 => ⟨S8x20x20, .f32⟩
  | 46 => ⟨S1x1x20, .f32⟩
  | 47 => ⟨S8x20x20, .f32⟩
  | 48 => ⟨S8x20x20, .f32⟩
  | 49 => ⟨S_, .f32⟩
  | 50 => ⟨S8x20, .f32⟩
  | 51 => ⟨S8x20x1, .f32⟩
  | 52 => ⟨S1x20x20, .f32⟩
  | 53 => ⟨S8x20x20, .f32⟩
  | 54 => ⟨S8x20x20, .f32⟩
  | 55 => ⟨S8x20x20, .f32⟩
  | 56 => ⟨S8x20x20, .f32⟩
  | 57 => ⟨S1x20x1, .f32⟩
  | 58 => ⟨S8x20x1, .f32⟩
  | 59 => ⟨S8x20x1, .f32⟩
  | 60 => ⟨S_, .f32⟩
  | 61 => ⟨S8x1, .f32⟩
  | 62 => ⟨S8x1x1, .f32⟩
  | 63 => ⟨S_, .f32⟩
  | 64 => ⟨S8x1x1, .f32⟩
  | 65 => ⟨S8x1x1, .f32⟩
  | 66 => ⟨S8x20x20, .f32⟩
  | 67 => ⟨S8x20x20, .f32⟩
  | 68 => ⟨S_, .f32⟩
  | 69 => ⟨S512, .f32⟩
  | 70 => ⟨S512, .f32⟩
  | 71 => ⟨S512, .f32⟩
  | 72 => ⟨S512, .f32⟩
  | 73 => ⟨S512, .i1⟩
  | 74 => ⟨S512, .f32⟩
  | 75 => ⟨S512, .f32⟩
  | 76 => ⟨S512, .f32⟩
  | 77 => ⟨S512, .f32⟩
  | 78 => ⟨S512, .f32⟩
  | 79 => ⟨S512, .f32⟩
  | 80 => ⟨S512, .f32⟩
  | 81 => ⟨S512, .f32⟩
  | 82 => ⟨S_, .i32⟩
  | 83 => ⟨S512, .i32⟩
  | 84 => ⟨S512, .i1⟩
  | 85 => ⟨S_, .i32⟩
  | 86 => ⟨S512, .i32⟩
  | 87 => ⟨S512, .i32⟩
  | 88 => ⟨S512, .i32⟩
  | 89 => ⟨S512x1, .i32⟩
  | 90 => ⟨S512, .f32⟩
  | 91 => ⟨S512x1x1x1, .f32⟩
  | 92 => ⟨S1x8x20x20, .f32⟩
  | 93 => ⟨S512x8x20x20, .f32⟩
  | 94 => ⟨S512x8x20x20, .f32⟩
  | 95 => ⟨S512x8x20x20, .f32⟩
  | 96 => ⟨S_, .f32⟩
  | 97 => ⟨S512x8x20x20, .f32⟩
  | 98 => ⟨S512x8x20x20, .f32⟩
  | 99 => ⟨S20x20, .i32⟩
  | 100 => ⟨S20x20, .i32⟩
  | 101 => ⟨S_, .i32⟩
  | 102 => ⟨S20x20, .i32⟩
  | 103 => ⟨S20x20, .i32⟩
  | 104 => ⟨S20x20, .i1⟩
  | 105 => ⟨S20x20, .f32⟩
  | 106 => ⟨S1x1x20x20, .f32⟩
  | 107 => ⟨S512x8x20x20, .f32⟩
  | 108 => ⟨S512x8x20x20, .f32⟩
  | 109 => ⟨S512x8x20x20, .f32⟩
  | 110 => ⟨S_, .f32⟩
  | 111 => ⟨S512x8x20x20, .f32⟩
  | 112 => ⟨S512x8x20x20, .f32⟩
  | 113 => ⟨S512x8x20x20, .f32⟩
  | 114 => ⟨S512x8x20x20, .f32⟩
  | 115 => ⟨S_, .f32⟩
  | 116 => ⟨S512x8x20x20, .f32⟩
  | 117 => ⟨S512x8x20x20, .f32⟩
  | 118 => ⟨S512x8x20x20, .f32⟩
  | 119 => ⟨S512x8x20x20, .f32⟩
  | 120 => ⟨S_, .f32⟩
  | 121 => ⟨S512x8x20x20, .f32⟩
  | 122 => ⟨S512x8x20x20, .f32⟩
  | 123 => ⟨S512x8x20x20, .f32⟩
  | 124 => ⟨S512x8x20x20, .f32⟩
  | 125 => ⟨S_, .f32⟩
  | 126 => ⟨S512x8x20x20, .f32⟩
  | 127 => ⟨S512x8x20x20, .f32⟩
  | _ => ⟨S512x1024, .i32⟩

abbrev hbmTy0_1 (i : Nat) : BufTy := match i % 128 with
  | 0 => ⟨S512x8x20x20, .f32⟩
  | 1 => ⟨S512x8x20x20, .f32⟩
  | 2 => ⟨S_, .f32⟩
  | 3 => ⟨S512x8x20x20, .f32⟩
  | 4 => ⟨S512x8x20x20, .f32⟩
  | 5 => ⟨S512x8x20x20, .f32⟩
  | 6 => ⟨S512x8x20x20, .f32⟩
  | 7 => ⟨S_, .f32⟩
  | 8 => ⟨S512x8x20x20, .f32⟩
  | 9 => ⟨S512x8x20x20, .f32⟩
  | 10 => ⟨S512x8x20x20, .f32⟩
  | 11 => ⟨S512x8x20x20, .f32⟩
  | 12 => ⟨S_, .f32⟩
  | 13 => ⟨S512x8x20x20, .f32⟩
  | 14 => ⟨S512x8x20x20, .f32⟩
  | 15 => ⟨S512x8x20x20, .f32⟩
  | 16 => ⟨S512x8x20x20, .f32⟩
  | 17 => ⟨S_, .f32⟩
  | 18 => ⟨S512x8x20x20, .f32⟩
  | 19 => ⟨S512x8x20x20, .f32⟩
  | 20 => ⟨S512x8x20x20, .f32⟩
  | 21 => ⟨S512x8x20x20, .f32⟩
  | 22 => ⟨S_, .f32⟩
  | 23 => ⟨S512x8x20x20, .f32⟩
  | 24 => ⟨S512x8x20x20, .f32⟩
  | 25 => ⟨S512x8x20x20, .f32⟩
  | 26 => ⟨S512x8x20x20, .f32⟩
  | 27 => ⟨S_, .f32⟩
  | 28 => ⟨S512x8x20x20, .f32⟩
  | 29 => ⟨S512x8x20x20, .f32⟩
  | 30 => ⟨S512x8x20x20, .f32⟩
  | 31 => ⟨S512x8x20x20, .f32⟩
  | 32 => ⟨S_, .f32⟩
  | 33 => ⟨S512x8x20x20, .f32⟩
  | 34 => ⟨S512x8x20x20, .f32⟩
  | 35 => ⟨S512x8x20x20, .f32⟩
  | 36 => ⟨S512x8x20x20, .f32⟩
  | 37 => ⟨S_, .f32⟩
  | 38 => ⟨S512x8x20x20, .f32⟩
  | 39 => ⟨S512x8x20x20, .f32⟩
  | 40 => ⟨S512x8x20x20, .f32⟩
  | 41 => ⟨S512x8x20x20, .f32⟩
  | 42 => ⟨S_, .f32⟩
  | 43 => ⟨S512x8x20x20, .f32⟩
  | 44 => ⟨S512x8x20x20, .f32⟩
  | 45 => ⟨S512x8x20x20, .f32⟩
  | 46 => ⟨S512x8x20x20, .f32⟩
  | 47 => ⟨S_, .f32⟩
  | 48 => ⟨S512x8x20x20, .f32⟩
  | 49 => ⟨S512x8x20x20, .f32⟩
  | 50 => ⟨S512x8x20x20, .f32⟩
  | 51 => ⟨S512x8x20x20, .f32⟩
  | 52 => ⟨S_, .f32⟩
  | 53 => ⟨S512x8x20x20, .f32⟩
  | 54 => ⟨S512x8x20x20, .f32⟩
  | 55 => ⟨S512x8x20x20, .f32⟩
  | 56 => ⟨S512x8x20x20, .f32⟩
  | 57 => ⟨S512x8x20x20, .f32⟩
  | 58 => ⟨S512x8x20x20, .f32⟩
  | 59 => ⟨S512x8x20x20, .f32⟩
  | 60 => ⟨S512x8x20x20, .f32⟩
  | 61 => ⟨S512x8x20x20, .f32⟩
  | 62 => ⟨S512, .i32⟩
  | 63 => ⟨S512x1, .i32⟩
  | 64 => ⟨S_, .i32⟩
  | 65 => ⟨S512x1, .i32⟩
  | 66 => ⟨S512x1, .i1⟩
  | 67 => ⟨S_, .i32⟩
  | 68 => ⟨S512x1, .i32⟩
  | 69 => ⟨S512x1, .i32⟩
  | 70 => ⟨S512x1, .i32⟩
  | 71 => ⟨S_, .i32⟩
  | 72 => ⟨S512x1024, .i32⟩
  | 73 => ⟨S512x1024, .i1⟩
  | 74 => ⟨S_, .i32⟩
  | 75 => ⟨S512x1024, .i32⟩
  | 76 => ⟨S512x1024, .i32⟩
  | 77 => ⟨S512x1024, .i32⟩
  | 78 => ⟨S512x1024, .i32⟩
  | 79 => ⟨S512x1024x1, .i32⟩
  | 80 => ⟨S512x1024x1, .i32⟩
  | 81 => ⟨S512x1024x2, .i32⟩
  | 82 => ⟨S512x1024x8x20, .f32⟩
  | 83 => ⟨S512x1024x8x20, .f32⟩
  | 84 => ⟨S512x1024x8x20, .f32⟩
  | 85 => ⟨S_, .i32⟩
  | 86 => ⟨S_, .f32⟩
  | 87 => ⟨S512x1024x8x26, .f32⟩
  | 88 => ⟨S512x1024x1, .i32⟩
  | 89 => ⟨S1x1x26, .i32⟩
  | 90 => ⟨S512x1024x26, .i32⟩
  | 91 => ⟨S512x1024x26, .i32⟩
  | 92 => ⟨S512x1024x26, .i1⟩
  | 93 => ⟨S512x1024x26, .f32⟩
  | 94 => ⟨S512x1024x1x26, .f32⟩
  | 95 => ⟨S_, .f32⟩
  | 96 => ⟨S512x1024x1x1, .f32⟩
  | 97 => ⟨S512x1024x1x1, .f32⟩
  | 98 => ⟨S512x1024x1x26, .f32⟩
  | 99 => ⟨S512x1024x1x26, .f32⟩
  | 100 => ⟨S512x1024x8x26, .f32⟩
  | 101 => ⟨S512x1024x8x26, .f32⟩
  | 102 => ⟨S512x1024x208, .f32⟩
  | _ => ⟨S512x1024, .i32⟩

abbrev hbmTy (i : Nat) : BufTy := match i / 128 with
  | 0 => hbmTy0_0 i
  | 1 => hbmTy0_1 i
  | _ => ⟨S512x1024, .i32⟩

abbrev bufTy : (tb : Table) → Fin (tcTables nBuf tb) → BufTy
  | .hbm, ⟨i, _⟩ => hbmTy i
  | _, _ => ⟨S512x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_v40 : Ref sig .tc := ⟨.hbm, 81, rfl⟩
abbrev main_c_6 : Ref sig .tc := ⟨.hbm, 82, rfl⟩
abbrev main_v41 : Ref sig .tc := ⟨.hbm, 83, rfl⟩
abbrev main_v42 : Ref sig .tc := ⟨.hbm, 84, rfl⟩
abbrev main_c_7 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_8 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_c_9 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_10 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_11 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_12 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_13 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_14 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_15 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_16 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_17 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_18 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_19 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_20 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_21 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_22 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_23 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_cst_24 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_c_25 : Ref sig .tc := ⟨.hbm, 192, rfl⟩
abbrev main_v132 : Ref sig .tc := ⟨.hbm, 193, rfl⟩
abbrev main_v133 : Ref sig .tc := ⟨.hbm, 194, rfl⟩
abbrev main_c_26 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_c_27 : Ref sig .tc := ⟨.hbm, 199, rfl⟩
abbrev main_v137 : Ref sig .tc := ⟨.hbm, 200, rfl⟩
abbrev main_v138 : Ref sig .tc := ⟨.hbm, 201, rfl⟩
abbrev main_c_28 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_c_29 : Ref sig .tc := ⟨.hbm, 213, rfl⟩
abbrev main_call3_v0 : Ref sig .tc := ⟨.hbm, 214, rfl⟩
abbrev main_v149 : Ref sig .tc := ⟨.hbm, 215, rfl⟩
abbrev main_call4_v0 : Ref sig .tc := ⟨.hbm, 216, rfl⟩
abbrev main_call4_v1 : Ref sig .tc := ⟨.hbm, 217, rfl⟩
abbrev main_call4_v2 : Ref sig .tc := ⟨.hbm, 218, rfl⟩
abbrev main_call4_v3 : Ref sig .tc := ⟨.hbm, 219, rfl⟩
abbrev main_call4_v4 : Ref sig .tc := ⟨.hbm, 220, rfl⟩
abbrev main_v150 : Ref sig .tc := ⟨.hbm, 221, rfl⟩
abbrev main_v151 : Ref sig .tc := ⟨.hbm, 222, rfl⟩
abbrev main_cst_30 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩

abbrev nD : Nat := 1
abbrev τ : Topo := Topo.v7x

variable {F : FTy → Type} [FloatOps F]

class Facts₀ : Prop where
  bcast_S_S512x1024 : S_.BroadcastsInDim S512x1024 (![] : Fin 0 → Fin S512x1024.rank)
  bcast_S512x1024_S512x1024x1x1_0_1 : S512x1024.BroadcastsInDim S512x1024x1x1 (![0, 1] : Fin 2 → Fin S512x1024x1x1.rank)
  bcast_S_S20x20 : S_.BroadcastsInDim S20x20 (![] : Fin 0 → Fin S20x20.rank)
  transposes_S8x20x20_S8x20x20_0_2_1 : S8x20x20.Transposes [0, 2, 1] S8x20x20
  bcast_S_S8x20x20 : S_.BroadcastsInDim S8x20x20 (![] : Fin 0 → Fin S8x20x20.rank)
  bcast_S20x20_S1x20x20_1_2 : S20x20.BroadcastsInDim S1x20x20 (![1, 2] : Fin 2 → Fin S1x20x20.rank)
  bcast_S1x20x20_S8x20x20_0_1_2 : S1x20x20.BroadcastsInDim S8x20x20 (![0, 1, 2] : Fin 3 → Fin S8x20x20.rank)
  bcast_S20_S1x1x20_2 : S20.BroadcastsInDim S1x1x20 (![2] : Fin 1 → Fin S1x1x20.rank)
  bcast_S1x1x20_S8x20x20_0_1_2 : S1x1x20.BroadcastsInDim S8x20x20 (![0, 1, 2] : Fin 3 → Fin S8x20x20.rank)
  reducesTo_S8x20x20_S8x20_d2 : S8x20x20.ReducesTo [2] S8x20
  h_S_ : 0 < S_.numel
  bcast_S8x20_S8x20x1_0_1 : S8x20.BroadcastsInDim S8x20x1 (![0, 1] : Fin 2 → Fin S8x20x1.rank)
  bcast_S8x20x1_S8x20x20_0_1_2 : S8x20x1.BroadcastsInDim S8x20x20 (![0, 1, 2] : Fin 3 → Fin S8x20x20.rank)
  bcast_S20_S1x20x1_1 : S20.BroadcastsInDim S1x20x1 (![1] : Fin 1 → Fin S1x20x1.rank)
  bcast_S1x20x1_S8x20x1_0_1_2 : S1x20x1.BroadcastsInDim S8x20x1 (![0, 1, 2] : Fin 3 → Fin S8x20x1.rank)
  reducesTo_S8x20x1_S8x1_d1 : S8x20x1.ReducesTo [1] S8x1
  bcast_S8x1_S8x1x1_0_2 : S8x1.BroadcastsInDim S8x1x1 (![0, 2] : Fin 2 → Fin S8x1x1.rank)
  bcast_S_S8x1x1 : S_.BroadcastsInDim S8x1x1 (![] : Fin 0 → Fin S8x1x1.rank)
  bcast_S8x1x1_S8x20x20_0_1_2 : S8x1x1.BroadcastsInDim S8x20x20 (![0, 1, 2] : Fin 3 → Fin S8x20x20.rank)
  bcast_S_S512 : S_.BroadcastsInDim S512 (![] : Fin 0 → Fin S512.rank)
  bcast_S512_S512x1_0 : S512.BroadcastsInDim S512x1 (![0] : Fin 1 → Fin S512x1.rank)
  bcast_S512_S512x1x1x1_0 : S512.BroadcastsInDim S512x1x1x1 (![0] : Fin 1 → Fin S512x1x1x1.rank)
  bcast_S8x20x20_S1x8x20x20_1_2_3 : S8x20x20.BroadcastsInDim S1x8x20x20 (![1, 2, 3] : Fin 3 → Fin S1x8x20x20.rank)
  bcast_S512x1x1x1_S512x8x20x20_0_1_2_3 : S512x1x1x1.BroadcastsInDim S512x8x20x20 (![0, 1, 2, 3] : Fin 4 → Fin S512x8x20x20.rank)
  bcast_S1x8x20x20_S512x8x20x20_0_1_2_3 : S1x8x20x20.BroadcastsInDim S512x8x20x20 (![0, 1, 2, 3] : Fin 4 → Fin S512x8x20x20.rank)
  bcast_S_S512x8x20x20 : S_.BroadcastsInDim S512x8x20x20 (![] : Fin 0 → Fin S512x8x20x20.rank)
  bcast_S20x20_S1x1x20x20_2_3 : S20x20.BroadcastsInDim S1x1x20x20 (![2, 3] : Fin 2 → Fin S1x1x20x20.rank)
  bcast_S1x1x20x20_S512x8x20x20_0_1_2_3 : S1x1x20x20.BroadcastsInDim S512x8x20x20 (![0, 1, 2, 3] : Fin 4 → Fin S512x8x20x20.rank)
  bcast_S_S512x1 : S_.BroadcastsInDim S512x1 (![] : Fin 0 → Fin S512x1.rank)
  bcast_S512x1_S512x1024_0_1 : S512x1.BroadcastsInDim S512x1024 (![0, 1] : Fin 2 → Fin S512x1024.rank)
  bcast_S512x1024_S512x1024x1_0_1 : S512x1024.BroadcastsInDim S512x1024x1 (![0, 1] : Fin 2 → Fin S512x1024x1.rank)
  concatenates_S512x1024x1_S512x1024x1_S512x1024x2_d2 : Shape.Concatenates [S512x1024x1, S512x1024x1] S512x1024x2 2
  bcast_S512x1024x1x1_S512x1024x8x20_0_1_2_3 : S512x1024x1x1.BroadcastsInDim S512x1024x8x20 (![0, 1, 2, 3] : Fin 4 → Fin S512x1024x8x20.rank)
  pads_S512x1024x8x20_S512x1024x8x26_000_000_000_060 : S512x1024x8x20.Pads (![0, 0, 0, 0] : Fin 4 → Nat) ![0, 0, 0, 6] ![0, 0, 0, 0] S512x1024x8x26
  bcast_S512x1024x1_S512x1024x26_0_1_2 : S512x1024x1.BroadcastsInDim S512x1024x26 (![0, 1, 2] : Fin 3 → Fin S512x1024x26.rank)
  bcast_S1x1x26_S512x1024x26_0_1_2 : S1x1x26.BroadcastsInDim S512x1024x26 (![0, 1, 2] : Fin 3 → Fin S512x1024x26.rank)
  bcast_S512x1024x26_S512x1024x1x26_0_1_3 : S512x1024x26.BroadcastsInDim S512x1024x1x26 (![0, 1, 3] : Fin 3 → Fin S512x1024x1x26.rank)
  bcast_S_S512x1024x1x1 : S_.BroadcastsInDim S512x1024x1x1 (![] : Fin 0 → Fin S512x1024x1x1.rank)
  bcast_S512x1024x1x1_S512x1024x1x26_0_1_2_3 : S512x1024x1x1.BroadcastsInDim S512x1024x1x26 (![0, 1, 2, 3] : Fin 4 → Fin S512x1024x1x26.rank)
  bcast_S512x1024x1x26_S512x1024x8x26_0_1_2_3 : S512x1024x1x26.BroadcastsInDim S512x1024x8x26 (![0, 1, 2, 3] : Fin 4 → Fin S512x1024x8x26.rank)
  shapeCasts_S512x1024x8x26_S512x1024x208 : S512x1024x8x26.ShapeCasts S512x1024x208
  gather_S512_S512x1_S512_n_0_n_n_0_1_1_wf : GatherDims.WF S512 S512x1 S512 [] [0] [] [0] [] 1 ![1]
  dot_S512x8x20x20_S512x8x20x20_S512x8x20x20_3_2_2_3_01_01_wf : DotDims.WF S512x8x20x20 S512x8x20x20 S512x8x20x20 [3] [2] [2] [3] [0, 1] [0, 1]
  gather_S512x8x20x20_S512x1024x2_S512x1024x8x20_23_02_n_n_02_2_18120_wf : GatherDims.WF S512x8x20x20 S512x1024x2 S512x1024x8x20 [2, 3] [0, 2] [] [0, 2] [] 2 ![1, 8, 1, 20]

variable [Facts₀]

def gather_S512_S512x1_S512_n_0_n_n_0_1_1 : GatherDims S512 S512x1 S512 where
  offsetDims := []
  collapsedSliceDims := [0]
  operandBatchingDims := []
  startIndicesBatchingDims := []
  startIndexMap := [0]
  indexVectorDim := 1
  sliceSizes := ![1]
  wf := gather_S512_S512x1_S512_n_0_n_n_0_1_1_wf
def dot_S512x8x20x20_S512x8x20x20_S512x8x20x20_3_2_2_3_01_01 : DotDims S512x8x20x20 S512x8x20x20 S512x8x20x20 where
  lhsContracting := [3]
  rhsContracting := [2]
  lhsNonContracting := [2]
  rhsNonContracting := [3]
  lhsBatch := [0, 1]
  rhsBatch := [0, 1]
  wf := dot_S512x8x20x20_S512x8x20x20_S512x8x20x20_3_2_2_3_01_01_wf
def gather_S512x8x20x20_S512x1024x2_S512x1024x8x20_23_02_n_n_02_2_18120 : GatherDims S512x8x20x20 S512x1024x2 S512x1024x8x20 where
  offsetDims := [2, 3]
  collapsedSliceDims := [0, 2]
  operandBatchingDims := []
  startIndicesBatchingDims := []
  startIndexMap := [0, 2]
  indexVectorDim := 2
  sliceSizes := ![1, 8, 1, 20]
  wf := gather_S512x8x20x20_S512x1024x2_S512x1024x8x20_23_02_n_n_02_2_18120_wf

class Facts : Prop extends Facts₀ where

variable [Facts]
-- ==== Proof.Spec.lean ====
/-
  The mathematics both programs compute, stated once over the extended reals with no program in sight.

  A 20 × 20 matrix is a function of its row and column. `mm` is the matrix product, `madd` the entrywise sum,
  `mdiv` the entrywise quotient by a constant, `eye` the identity matrix. `expm A` is the scaling-and-squaring
  exponential both programs spell out: with `s = A / 64`, the order-16 Taylor polynomial
  `I + s + s²/2! + … + s¹⁶/16!` accumulated term by term (`t_{i+1} = (t_i · s) / (i+1)`, `p_{i+1} = p_i + t_{i+1}`),
  then six squarings. No law of the extended reals is used: the two programs perform the same operations in the same
  order on each (batch, rate) slice, so the slices are equal term by term.

  `row` is the looked-up row of the extended table for a token `e < 26`: for a standard token (`e < 20`) the row `e`
  of each of the eight transition matrices, padded from 20 to 26 columns with zeros; for a special token the one-hot
  pattern of `e` repeated in each of the eight blocks. `out` is the result entry for a token word: that row when the
  word, read unsigned, is below 26, and zero otherwise.
-/
import Idealize.ShloMosaic.PureOps.Ideal
import Idealize.ShloMosaic.Lib.ValueIdx

noncomputable section

open scoped BigOperators

namespace Cert.Spec

open Idealize.ShloMosaic

/-- A 20 × 20 matrix of extended reals. -/
abbrev Mat : Type := Fin 20 → Fin 20 → EReal

/-- The matrix product. -/
def mm (X Y : Mat) : Mat := fun i j => ∑ k : Fin 20, X i k * Y k j
/-- The entrywise sum. -/
def madd (X Y : Mat) : Mat := fun i j => X i j + Y i j
/-- The entrywise quotient by a constant. -/
def mdiv (X : Mat) (c : EReal) : Mat := fun i j => Ideal.div (X i j) c
/-- The identity matrix. -/
def eye : Mat := fun i j => if i = j then 1 else 0
/-- An f32 literal read exactly. -/
def lit (w : BitVec 32) : EReal := Ideal.ofBits .f32 w

/-- The order-16 Taylor polynomial of `A / 64`, squared six times. -/
def expm (A : Mat) : Mat :=
  let s : Mat := mdiv A (lit 0x42800000#32)
  let p1 : Mat := madd eye s
  let t2 : Mat := mdiv (mm s s) (lit 0x40000000#32)
  let p2 : Mat := madd p1 t2
  let t3 : Mat := mdiv (mm t2 s) (lit 0x40400000#32)
  let p3 : Mat := madd p2 t3
  let t4 : Mat := mdiv (mm t3 s) (lit 0x40800000#32)
  let p4 : Mat := madd p3 t4
  let t5 : Mat := mdiv (mm t4 s) (lit 0x40A00000#32)
  let p5 : Mat := madd p4 t5
  let t6 : Mat := mdiv (mm t5 s) (lit 0x40C00000#32)
  let p6 : Mat := madd p5 t6
  let t7 : Mat := mdiv (mm t6 s) (lit 0x40E00000#32)
  let p7 : Mat := madd p6 t7
  let t8 : Mat := mdiv (mm t7 s) (lit 0x41000000#32)
  let p8 : Mat := madd p7 t8
  let t9 : Mat := mdiv (mm t8 s) (lit 0x41100000#32)
  let p9 : Mat := madd p8 t9
  let t10 : Mat := mdiv (mm t9 s) (lit 0x41200000#32)
  let p10 : Mat := madd p9 t10
  let t11 : Mat := mdiv (mm t10 s) (lit 0x41300000#32)
  let p11 : Mat := madd p10 t11
  let t12 : Mat := mdiv (mm t11 s) (lit 0x41400000#32)
  let p12 : Mat := madd p11 t12
  let t13 : Mat := mdiv (mm t12 s) (lit 0x41500000#32)
  let p13 : Mat := madd p12 t13
  let t14 : Mat := mdiv (mm t13 s) (lit 0x41600000#32)
  let p14 : Mat := madd p13 t14
  let t15 : Mat := mdiv (mm t14 s) (lit 0x41700000#32)
  let p15 : Mat := madd p14 t15
  let t16 : Mat := mdiv (mm t15 s) (lit 0x41800000#32)
  let p16 : Mat := madd p15 t16
  let q1 : Mat := mm p16 p16
  let q2 : Mat := mm q1 q1
  let q3 : Mat := mm q2 q2
  let q4 : Mat := mm q3 q3
  let q5 : Mat := mm q4 q4
  mm q5 q5

/-- A column `j < 208 = 8 · 26` of the flattened result lies in block `j / 26` … -/
def blk (j : Fin 208) : Fin 8 := ⟨j.val / 26, by have := j.isLt; omega⟩
/-- … at column `j % 26` of that block. -/
def col (j : Fin 208) : Fin 26 := ⟨j.val % 26, Nat.mod_lt _ (by decide)⟩

/-- Eight transition matrices (one per rate category). -/
abbrev Mats : Type := Fin 8 → Mat

/-- Row `e` of the extended lookup table at block `k`, column `s`. -/
def row (P : Mats) (e : Fin 26) (k : Fin 8) (s : Fin 26) : EReal :=
  if he : e.val < 20 then (if hs : s.val < 20 then P k ⟨e.val, he⟩ ⟨s.val, hs⟩ else 0)
  else (if s = e then 1 else 0)

/-- The result entry for the token word `w` at block `k`, column `s`: a token outside `0 … 25` selects nothing. -/
def out (w : BitVec 32) (P : Mats) (k : Fin 8) (s : Fin 26) : EReal :=
  if h : w.toNat < 26 then row P ⟨w.toNat, h⟩ k s else 0

/-- The one-hot coefficient of token word `w` at table row `e`. -/
def oh (w : BitVec 32) (e : Fin 26) : EReal := if w.toNat = e.val then 1 else 0

/-- A one-hot combination of table rows picks the row of the token (or nothing), with no finiteness needed:
    `0 · x = 0` and `1 · x = x` hold for every extended real. -/
theorem sum_oh (w : BitVec 32) (f : Fin 26 → EReal) :
    ∑ e : Fin 26, oh w e * f e = if h : w.toNat < 26 then f ⟨w.toNat, h⟩ else 0 := by
  unfold oh
  split
  · next h =>
    rw [Finset.sum_eq_single (⟨w.toNat, h⟩ : Fin 26)]
    · simp
    · intro b _ hb
      have : ¬ w.toNat = b.val := fun hh => hb (Fin.ext hh.symm)
      simp [this]
    · intro hh; exact absurd (Finset.mem_univ _) hh
  · next h =>
    apply Finset.sum_eq_zero
    intro b _
    have : ¬ w.toNat = b.val := fun hh => h (hh ▸ b.isLt)
    simp [this]

end Cert.Spec

end
-- ==== Proof.PreDecode.lean ====
/-
  What the precondition says of the tokens. The precondition is a conjunction whose last conjunct is
  `all (inputs ≥ 0)`: a reduction by `and`, from 1, of the signed comparison of every token word with the zero word.
  If the whole predicate is 1 then that reduction is 1, so every comparison is 1, so every token word read signed is
  nonnegative.
-/
import proofs.«402584_j57200374448411_3_alg».proof.Pre_finite_inputs
import Idealize.ShloMosaic.Lib.ReduceAll
import Idealize.ShloMosaic.Lib.ValueIdx
import Idealize.ShloMosaic.PureOps.Ideal

noncomputable section

namespace Cert.PreDecode

open Idealize.ShloMosaic Cert.Pre_finite_inputs

variable [Cert.Pre_finite_inputs.Facts]

instance : Subsingleton S_.Idx := ⟨fun a b => funext fun d => d.elim0⟩

/-- Under the precondition every token word, read signed, is at least zero. -/
theorem tokens_nonneg {F : FTy → Type} [FloatOps F] (a0 : IVec S512x1024 32) (a1 : IVec S512 32) (a2 : FVec F S512 .f32)
    (a3 : FVec F S8x20x20 .f32) (a4 : FVec F S20 .f32)
    (h : Cert.Pre_finite_inputs.fn (F := F) a0 a1 a2 a3 a4 = fun _ => 1#1) (i : S512x1024.Idx) : 0 ≤ (a0 i).toInt := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 i
  have h3 : (0#32 : BitVec 32).toInt ≤ (a0 i).toInt := IntOp.cmpi_sge.1 h2
  simpa using h3

end Cert.PreDecode

end
-- ==== Proof.RVa.lean ====
/-
  Stretches 0 to 3: the token mask, and the exchange rates up to the unnormalised rate matrices.

  The reference program's 226 host operations are read stretch by stretch. A stretch is a short run of consecutive
  operations; it is read over ARBITRARY contents `W` of the device's buffers before it: as soon as the buffers the
  stretch reads hold the values of the earlier stages (`val_…`, one definition per operation, each over the stages
  before it), the buffers it writes hold the values of its own stages, and every other buffer is left as it was.
  No law of the floats is used, and the float family `F` is arbitrary: the two sides are the same operations applied
  to the same earlier values.
-/
import proofs.«402584_j57200374448411_3_alg».proof.Proof.RefStages
import Idealize.ShloMosaic.Lib.StableHlo.Run

set_option maxRecDepth 8192

noncomputable section

namespace Cert.ReferenceIdeal.RefVal

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-! ## Stretch 0: operations 0 … 8 -/

/-- Operations %c … %4: the mask `tok < 20`, the standard token `where(tok < 20, tok, 0)`, and the mask as a float of shape [512,1024,1,1]. -/
abbrev chunk0 : List (HloOp τ sig (Elt F)) :=
  [ nullary main_c (constantI S_ 32 20#32),
    unary main_c main_v0 (broadcastInDim S512x1024 ![] bcast_S_S512x1024 : (⟨S_, .i32⟩ : BufTy).Contents (Elt F) → (⟨S512x1024, .i32⟩ : BufTy).Contents (Elt F)),
    binary main_arg0 main_v0 main_v1 (cmpi .slt : (⟨S512x1024, .i32⟩ : BufTy).Contents (Elt F) → (⟨S512x1024, .i32⟩ : BufTy).Contents (Elt F) → (⟨S512x1024, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S512x1024, .i32⟩) main_call0_v1) (broadcastInDim S512x1024 ![] bcast_S_S512x1024),
    TRef.ternary (TRef.of (T := ⟨S512x1024, .i1⟩) main_v1) (TRef.of (T := ⟨S512x1024, .i32⟩) main_arg0) (TRef.of (T := ⟨S512x1024, .i32⟩) main_call0_v1) (TRef.of (T := ⟨S512x1024, .i32⟩) main_v2) select,
    unary main_v1 main_v3 (uitofp .f32 : (⟨S512x1024, .i1⟩ : BufTy).Contents (Elt F) → (⟨S512x1024, .f32⟩ : BufTy).Contents (Elt F)),
    unary main_v3 main_v4 (broadcastInDim S512x1024x1x1 ![0, 1] bcast_S512x1024_S512x1024x1x1_0_1 : (⟨S512x1024, .f32⟩ : BufTy).Contents (Elt F) → (⟨S512x1024x1x1, .f32⟩ : BufTy).Contents (Elt F)) ]

set_option maxHeartbeats 2000000 in
/-- What the stretch leaves at %v2: that stage's value, as soon as the buffers the stretch reads hold the earlier stages' values. -/
theorem chunk0_v2 (W : Valuation τ sig (Elt F))
    (x0 : (⟨S512x1024, .i32⟩ : BufTy).Contents (Elt F))
    (h_arg0 : W (Proc.devRef .tc main_arg0) = x0) :
    after (chunk0 (F := F)) W (Proc.devRef .tc main_v2) = val_main_v2 (F := F) x0 := by
  dsimp only [chunk0]
  after_results
  try simp only [TRef.ofBuf, TRef.toBuf, cast_eq]
  rw [h_arg0]
  rfl

set_option maxHeartbeats 2000000 in
/-- What the stretch leaves at %v4: that stage's value, as soon as the buffers the stretch reads hold the earlier stages' values. -/
theorem chunk0_v4 (W : Valuation τ sig (Elt F))
    (x0 : (⟨S512x1024, .i32⟩ : BufTy).Contents (Elt F))
    (h_arg0 : W (Proc.devRef .tc main_arg0) = x0) :
    after (chunk0 (F := F)) W (Proc.devRef .tc main_v4) = val_main_v4 (F := F) x0 := by
  dsimp only [chunk0]
  after_results
  try simp only [TRef.ofBuf, TRef.toBuf, cast_eq]
  rw [h_arg0]
  rfl

/-- The stretch does not write %arg0. -/
theorem chunk0_keep_arg0 (W : Valuation τ sig (Elt F)) :
    after (chunk0 (F := F)) W (Proc.devRef .tc main_arg0) = W (Proc.devRef .tc main_arg0) := by
  dsimp only [chunk0]
  after_results <;> rfl

/-- The stretch does not write %arg1. -/
theorem chunk0_keep_arg1 (W : Valuation τ sig (Elt F)) :
    after (chunk0 (F := F)) W (Proc.devRef .tc main_arg1) = W (Proc.devRef .tc main_arg1) := by
  dsimp only [chunk0]
  after_results <;> rfl

/-- The stretch does not write %arg2. -/
theorem chunk0_keep_arg2 (W : Valuation τ sig (Elt F)) :
    after (chunk0 (F := F)) W (Proc.devRef .tc main_arg2) = W (Proc.devRef .tc main_arg2) := by
  dsimp only [chunk0]
  after_results <;> rfl

/-- The stretch does not write %arg3. -/
theorem chunk0_keep_arg3 (W : Valuation τ sig (Elt F)) :
    after (chunk0 (F := F)) W (Proc.devRef .tc main_arg3) = W (Proc.devRef .tc main_arg3) := by
  dsimp only [chunk0]
  after_results <;> rfl

/-- The stretch does not write %arg4. -/
theorem chunk0_keep_arg4 (W : Valuation τ sig (Elt F)) :
    after (chunk0 (F := F)) W (Proc.devRef .tc main_arg4) = W (Proc.devRef .tc main_arg4) := by
  dsimp only [chunk0]
  after_results <;> rfl

/-! ## Stretch 1: operations 9 … 20 -/

/-- The 20 × 20 identity pattern, and half the sum of the exchange rates and their transpose. -/
abbrev chunk1 : List (HloOp τ sig (Elt F)) :=
  [ nullary main_v5 (iotaInDim S20x20 32 0),
    nullary main_v6 (iotaInDim S20x20 32 1),
    nullary main_c_1 (constantI S_ 32 0#32),
    unary main_c_1 main_v7 (broadcastInDim S20x20 ![] bcast_S_S20x20 : (⟨S_, .i32⟩ : BufTy).Contents (Elt F) → (⟨S20x20, .i32⟩ : BufTy).Contents (Elt F)),
    binary main_v5 main_v7 main_v8 (addi : (⟨S20x20, .i32⟩ : BufTy).Contents (Elt F) → (⟨S20x20, .i32⟩ : BufTy).Contents (Elt F) → (⟨S20x20, .i32⟩ : BufTy).Contents (Elt F)),
    binary main_v8 main_v6 main_v9 (cmpi .eq : (⟨S20x20, .i32⟩ : BufTy).Contents (Elt F) → (⟨S20x20, .i32⟩ : BufTy).Contents (Elt F) → (⟨S20x20, .i1⟩ : BufTy).Contents (Elt F)),
    unary main_v9 main_v10 (uitofp .f32 : (⟨S20x20, .i1⟩ : BufTy).Contents (Elt F) → (⟨S20x20, .f32⟩ : BufTy).Contents (Elt F)),
    unary main_arg3 main_v11 ((transpose S8x20x20 [0, 2, 1] · transposes_S8x20x20_S8x20x20_0_2_1) : (⟨S8x20x20, .f32⟩ : BufTy).Contents (Elt F) → (⟨S8x20x20, .f32⟩ : BufTy).Contents (Elt F)),
    binary main_arg3 main_v11 main_v12 (addf : (⟨S8x20x20, .f32⟩ : BufTy).Contents (Elt F) → (⟨S8x20x20, .f32⟩ : BufTy).Contents (Elt F) → (⟨S8x20x20, .f32⟩ : BufTy).Contents (Elt F)),
    nullary main_cst (constant S_ .f32 0x3F000000#32),
    unary main_cst main_v13 (broadcastInDim S8x20x20 ![] bcast_S_S8x20x20 : (⟨S_, .f32⟩ : BufTy).Contents (Elt F) → (⟨S8x20x20, .f32⟩ : BufTy).Contents (Elt F)),
    binary main_v13 main_v12 main_v14 (mulf : (⟨S8x20x20, .f32⟩ : BufTy).Contents (Elt F) → (⟨S8x20x20, .f32⟩ : BufTy).Contents (Elt F) → (⟨S8x20x20, .f32⟩ : BufTy).Contents (Elt F)) ]

set_option maxHeartbeats 2000000 in
/-- What the stretch leaves at %v10: that stage's value, as soon as the buffers the stretch reads hold the earlier stages' values. -/
theorem chunk1_v10 (W : Valuation τ sig (Elt F)) :
    after (chunk1 (F := F)) W (Proc.devRef .tc main_v10) = val_main_v10 (F := F) := by
  dsimp only [chunk1]
  after_results
  try simp only [TRef.ofBuf, TRef.toBuf, cast_eq]
  rfl

set_option maxHeartbeats 2000000 in
/-- What the stretch leaves at %v14: that stage's value, as soon as the buffers the stretch reads hold the earlier stages' values. -/
theorem chunk1_v14 (W : Valuation τ sig (Elt F))
    (x3 : (⟨S8x20x20, .f32⟩ : BufTy).Contents (Elt F))
    (h_arg3 : W (Proc.devRef .tc main_arg3) = x3) :
    after (chunk1 (F := F)) W (Proc.devRef .tc main_v14) = val_main_v14 (F := F) x3 := by
  dsimp only [chunk1]
  after_results
  try simp only [TRef.ofBuf, TRef.toBuf, cast_eq]
  rw [h_arg3]
  rfl

/-- The stretch does not write %arg0. -/
theorem chunk1_keep_arg0 (W : Valuation τ sig (Elt F)) :
    after (chunk1 (F := F)) W (Proc.devRef .tc main_arg0) = W (Proc.devRef .tc main_arg0) := by
  dsimp only [chunk1]
  after_results <;> rfl

/-- The stretch does not write %arg1. -/
theorem chunk1_keep_arg1 (W : Valuation τ sig (Elt F)) :
    after (chunk1 (F := F)) W (Proc.devRef .tc main_arg1) = W (Proc.devRef .tc main_arg1) := by
  dsimp only [chunk1]
  after_results <;> rfl

/-- The stretch does not write %arg2. -/
theorem chunk1_keep_arg2 (W : Valuation τ sig (Elt F)) :
    after (chunk1 (F := F)) W (Proc.devRef .tc main_arg2) = W (Proc.devRef .tc main_arg2) := by
  dsimp only [chunk1]
  after_results <;> rfl

/-- The stretch does not write %arg4. -/
theorem chunk1_keep_arg4 (W : Valuation τ sig (Elt F)) :
    after (chunk1 (F := F)) W (Proc.devRef .tc main_arg4) = W (Proc.devRef .tc main_arg4) := by
  dsimp only [chunk1]
  after_results <;> rfl

/-- The stretch does not write %v2. -/
theorem chunk1_keep_v2 (W : Valuation τ sig (Elt F)) :
    after (chunk1 (F := F)) W (Proc.devRef .tc main_v2) = W (Proc.devRef .tc main_v2) := by
  dsimp only [chunk1]
  after_results <;> rfl

/-- The stretch does not write %v4. -/
theorem chunk1_keep_v4 (W : Valuation τ sig (Elt F)) :
    after (chunk1 (F := F)) W (Proc.devRef .tc main_v4) = W (Proc.devRef .tc main_v4) := by
  dsimp only [chunk1]
  after_results <;> rfl

/-! ## Stretch 2: operations 21 … 34 -/

/-- The softplus, entry by entry, of the symmetrised exchange rates. -/
abbrev chunk2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S8x20x20, .f32⟩) main_call1_v0) (broadcastInDim S8x20x20 ![] bcast_S_S8x20x20),
    TRef.binary (TRef.of (T := ⟨S8x20x20, .f32⟩) main_v14) (TRef.of (T := ⟨S8x20x20, .f32⟩) main_call1_v0) (TRef.of (T := ⟨S8x20x20, .f32⟩) main_call1_v1) maximumf,
    TRef.unary (TRef.of (T := ⟨S_, .f32⟩) main_call1_cst) (TRef.of (T := ⟨S8x20x20, .f32⟩) main_call1_v2) (broadcastInDim S8x20x20 ![] bcast_S_S8x20x20),
    TRef.binary (TRef.of (T := ⟨S8x20x20, .f32⟩) main_v14) (TRef.of (T := ⟨S8x20x20, .f32⟩) main_call1_v2) (TRef.of (T := ⟨S8x20x20, .f32⟩) main_call1_v3) subf,
    TRef.binary (TRef.of (T := ⟨S8x20x20, .f32⟩) main_call1_v3) (TRef.of (T := ⟨S8x20x20, .f32⟩) main_call1_v3) (TRef.of (T := ⟨S8x20x20, .i1⟩) main_call1_v4) (cmpf .une),
    TRef.unary (TRef.of (T := ⟨S_, .f32⟩) main_call1_cst) (TRef.of (T := ⟨S8x20x20, .f32⟩) main_call1_v5) (broadcastInDim S8x20x20 ![] bcast_S_S8x20x20),
    TRef.binary (TRef.of (T := ⟨S8x20x20, .f32⟩) main_v14) (TRef.of (T := ⟨S8x20x20, .f32⟩) main_call1_v5) (TRef.of (T := ⟨S8x20x20, .f32⟩) main_call1_v6) addf,
    TRef.unary (TRef.of (T := ⟨S8x20x20, .f32⟩) main_call1_v3) (TRef.of (T := ⟨S8x20x20, .f32⟩) main_call1_v7) Host.absf,
    TRef.unary (TRef.of (T := ⟨S8x20x20, .f32⟩) main_call1_v7) (TRef.of (T := ⟨S8x20x20, .f32⟩) main_call1_v8) Host.negf,
    TRef.unary (TRef.of (T := ⟨S8x20x20, .f32⟩) main_call1_v8) (TRef.of (T := ⟨S8x20x20, .f32⟩) main_call1_v9) Host.exp,
    TRef.unary (TRef.of (T := ⟨S8x20x20, .f32⟩) main_call1_v9) (TRef.of (T := ⟨S8x20x20, .f32⟩) main_call1_v10) Host.log1p,
    TRef.binary (TRef.of (T := ⟨S8x20x20, .f32⟩) main_call1_v1) (TRef.of (T := ⟨S8x20x20, .f32⟩) main_call1_v10) (TRef.of (T := ⟨S8x20x20, .f32⟩) main_call1_v11) addf,
    TRef.ternary (TRef.of (T := ⟨S8x20x20, .i1⟩) main_call1_v4) (TRef.of (T := ⟨S8x20x20, .f32⟩) main_call1_v6) (TRef.of (T := ⟨S8x20x20, .f32⟩) main_call1_v11) (TRef.of (T := ⟨S8x20x20, .f32⟩) main_v15) select ]

set_option maxHeartbeats 2000000 in
/-- What the stretch leaves at %v15: that stage's value, as soon as the buffers the stretch reads hold the earlier stages' values. -/
theorem chunk2_v15 (W : Valuation τ sig (Elt F))
    (x3 : (⟨S8x20x20, .f32⟩ : BufTy).Contents (Elt F))
    (h_v14 : W (Proc.devRef .tc main_v14) = val_main_v14 (F := F) x3) :
    after (chunk2 (F := F)) W (Proc.devRef .tc main_v15) = val_main_v15 (F := F) x3 := by
  dsimp only [chunk2]
  after_results
  try simp only [TRef.ofBuf, TRef.toBuf, cast_eq]
  rw [h_v14]
  rfl

/-- The stretch does not write %arg0. -/
theorem chunk2_keep_arg0 (W : Valuation τ sig (Elt F)) :
    after (chunk2 (F := F)) W (Proc.devRef .tc main_arg0) = W (Proc.devRef .tc main_arg0) := by
  dsimp only [chunk2]
  after_results <;> rfl

/-- The stretch does not write %arg1. -/
theorem chunk2_keep_arg1 (W : Valuation τ sig (Elt F)) :
    after (chunk2 (F := F)) W (Proc.devRef .tc main_arg1) = W (Proc.devRef .tc main_arg1) := by
  dsimp only [chunk2]
  after_results <;> rfl

/-- The stretch does not write %arg2. -/
theorem chunk2_keep_arg2 (W : Valuation τ sig (Elt F)) :
    after (chunk2 (F := F)) W (Proc.devRef .tc main_arg2) = W (Proc.devRef .tc main_arg2) := by
  dsimp only [chunk2]
  after_results <;> rfl

/-- The stretch does not write %arg4. -/
theorem chunk2_keep_arg4 (W : Valuation τ sig (Elt F)) :
    after (chunk2 (F := F)) W (Proc.devRef .tc main_arg4) = W (Proc.devRef .tc main_arg4) := by
  dsimp only [chunk2]
  after_results <;> rfl

/-- The stretch does not write %v2. -/
theorem chunk2_keep_v2 (W : Valuation τ sig (Elt F)) :
    after (chunk2 (F := F)) W (Proc.devRef .tc main_v2) = W (Proc.devRef .tc main_v2) := by
  dsimp only [chunk2]
  after_results <;> rfl

/-- The stretch does not write %v4. -/
theorem chunk2_keep_v4 (W : Valuation τ sig (Elt F)) :
    after (chunk2 (F := F)) W (Proc.devRef .tc main_v4) = W (Proc.devRef .tc main_v4) := by
  dsimp only [chunk2]
  after_results <;> rfl

/-- The stretch does not write %v10. -/
theorem chunk2_keep_v10 (W : Valuation τ sig (Elt F)) :
    after (chunk2 (F := F)) W (Proc.devRef .tc main_v10) = W (Proc.devRef .tc main_v10) := by
  dsimp only [chunk2]
  after_results <;> rfl

/-! ## Stretch 3: operations 35 … 51 -/

/-- The off-diagonal rates times the stationary frequencies, their row sums, and the rates with the row sums taken off the diagonal. -/
abbrev chunk3 : List (HloOp τ sig (Elt F)) :=
  [ nullary main_cst_2 (constant S_ .f32 0x3F800000#32),
    unary main_cst_2 main_v16 (broadcastInDim S20x20 ![] bcast_S_S20x20 : (⟨S_, .f32⟩ : BufTy).Contents (Elt F) → (⟨S20x20, .f32⟩ : BufTy).Contents (Elt F)),
    binary main_v16 main_v10 main_v17 (subf : (⟨S20x20, .f32⟩ : BufTy).Contents (Elt F) → (⟨S20x20, .f32⟩ : BufTy).Contents (Elt F) → (⟨S20x20, .f32⟩ : BufTy).Contents (Elt F)),
    unary main_v17 main_v18 (broadcastInDim S1x20x20 ![1, 2] bcast_S20x20_S1x20x20_1_2 : (⟨S20x20, .f32⟩ : BufTy).Contents (Elt F) → (⟨S1x20x20, .f32⟩ : BufTy).Contents (Elt F)),
    unary main_v18 main_v19 (broadcastInDim S8x20x20 ![0, 1, 2] bcast_S1x20x20_S8x20x20_0_1_2 : (⟨S1x20x20, .f32⟩ : BufTy).Contents (Elt F) → (⟨S8x20x20, .f32⟩ : BufTy).Contents (Elt F)),
    binary main_v15 main_v19 main_v20 (mulf : (⟨S8x20x20, .f32⟩ : BufTy).Contents (Elt F) → (⟨S8x20x20, .f32⟩ : BufTy).Contents (Elt F) → (⟨S8x20x20, .f32⟩ : BufTy).Contents (Elt F)),
    unary main_arg4 main_v21 (broadcastInDim S1x1x20 ![2] bcast_S20_S1x1x20_2 : (⟨S20, .f32⟩ : BufTy).Contents (Elt F) → (⟨S1x1x20, .f32⟩ : BufTy).Contents (Elt F)),
    unary main_v21 main_v22 (broadcastInDim S8x20x20 ![0, 1, 2] bcast_S1x1x20_S8x20x20_0_1_2 : (⟨S1x1x20, .f32⟩ : BufTy).Contents (Elt F) → (⟨S8x20x20, .f32⟩ : BufTy).Contents (Elt F)),
    binary main_v20 main_v22 main_v23 (mulf : (⟨S8x20x20, .f32⟩ : BufTy).Contents (Elt F) → (⟨S8x20x20, .f32⟩ : BufTy).Contents (Elt F) → (⟨S8x20x20, .f32⟩ : BufTy).Contents (Elt F)),
    nullary main_cst_3 (constant S_ .f32 0x00000000#32),
    binary main_v23 main_cst_3 main_v24 ((fun x v => Host.reduceAdd x v reducesTo_S8x20x20_S8x20_d2 h_S_) : (⟨S8x20x20, .f32⟩ : BufTy).Contents (Elt F) → (⟨S_, .f32⟩ : BufTy).Contents (Elt F) → (⟨S8x20, .f32⟩ : BufTy).Contents (Elt F)),
    unary main_v24 main_v25 (broadcastInDim S8x20x1 ![0, 1] bcast_S8x20_S8x20x1_0_1 : (⟨S8x20, .f32⟩ : BufTy).Contents (Elt F) → (⟨S8x20x1, .f32⟩ : BufTy).Contents (Elt F)),
    unary main_v10 main_v26 (broadcastInDim S1x20x20 ![1, 2] bcast_S20x20_S1x20x20_1_2 : (⟨S20x20, .f32⟩ : BufTy).Contents (Elt F) → (⟨S1x20x20, .f32⟩ : BufTy).Contents (Elt F)),
    unary main_v25 main_v27 (broadcastInDim S8x20x20 ![0, 1, 2] bcast_S8x20x1_S8x20x20_0_1_2 : (⟨S8x20x1, .f32⟩ : BufTy).Contents (Elt F) → (⟨S8x20x20, .f32⟩ : BufTy).Contents (Elt F)),
    unary main_v26 main_v28 (broadcastInDim S8x20x20 ![0, 1, 2] bcast_S1x20x20_S8x20x20_0_1_2 : (⟨S1x20x20, .f32⟩ : BufTy).Contents (Elt F) → (⟨S8x20x20, .f32⟩ : BufTy).Contents (Elt F)),
    binary main_v27 main_v28 main_v29 (mulf : (⟨S8x20x20, .f32⟩ : BufTy).Contents (Elt F) → (⟨S8x20x20, .f32⟩ : BufTy).Contents (Elt F) → (⟨S8x20x20, .f32⟩ : BufTy).Contents (Elt F)),
    binary main_v23 main_v29 main_v30 (subf : (⟨S8x20x20, .f32⟩ : BufTy).Contents (Elt F) → (⟨S8x20x20, .f32⟩ : BufTy).Contents (Elt F) → (⟨S8x20x20, .f32⟩ : BufTy).Contents (Elt F)) ]

set_option maxHeartbeats 2000000 in
/-- What the stretch leaves at %v25: that stage's value, as soon as the buffers the stretch reads hold the earlier stages' values. -/
theorem chunk3_v25 (W : Valuation τ sig (Elt F))
    (x3 : (⟨S8x20x20, .f32⟩ : BufTy).Contents (Elt F))
    (x4 : (⟨S20, .f32⟩ : BufTy).Contents (Elt F))
    (h_arg4 : W (Proc.devRef .tc main_arg4) = x4)
    (h_v10 : W (Proc.devRef .tc main_v10) = val_main_v10 (F := F))
    (h_v15 : W (Proc.devRef .tc main_v15) = val_main_v15 (F := F) x3) :
    after (chunk3 (F := F)) W (Proc.devRef .tc main_v25) = val_main_v25 (F := F) x3 x4 := by
  dsimp only [chunk3]
  after_results
  try simp only [TRef.ofBuf, TRef.toBuf, cast_eq]
  rw [h_arg4, h_v10, h_v15]
  rfl

set_option maxHeartbeats 2000000 in
/-- What the stretch leaves at %v30: that stage's value, as soon as the buffers the stretch reads hold the earlier stages' values. -/
theorem chunk3_v30 (W : Valuation τ sig (Elt F))
    (x3 : (⟨S8x20x20, .f32⟩ : BufTy).Contents (Elt F))
    (x4 : (⟨S20, .f32⟩ : BufTy).Contents (Elt F))
    (h_arg4 : W (Proc.devRef .tc main_arg4) = x4)
    (h_v10 : W (Proc.devRef .tc main_v10) = val_main_v10 (F := F))
    (h_v15 : W (Proc.devRef .tc main_v15) = val_main_v15 (F := F) x3) :
    after (chunk3 (F := F)) W (Proc.devRef .tc main_v30) = val_main_v30 (F := F) x3 x4 := by
  dsimp only [chunk3]
  after_results
  try simp only [TRef.ofBuf, TRef.toBuf, cast_eq]
  rw [h_arg4, h_v10, h_v15]
  rfl

/-- The stretch does not write %arg0. -/
theorem chunk3_keep_arg0 (W : Valuation τ sig (Elt F)) :
    after (chunk3 (F := F)) W (Proc.devRef .tc main_arg0) = W (Proc.devRef .tc main_arg0) := by
  dsimp only [chunk3]
  after_results <;> rfl

/-- The stretch does not write %arg1. -/
theorem chunk3_keep_arg1 (W : Valuation τ sig (Elt F)) :
    after (chunk3 (F := F)) W (Proc.devRef .tc main_arg1) = W (Proc.devRef .tc main_arg1) := by
  dsimp only [chunk3]
  after_results <;> rfl

/-- The stretch does not write %arg2. -/
theorem chunk3_keep_arg2 (W : Valuation τ sig (Elt F)) :
    after (chunk3 (F := F)) W (Proc.devRef .tc main_arg2) = W (Proc.devRef .tc main_arg2) := by
  dsimp only [chunk3]
  after_results <;> rfl

/-- The stretch does not write %arg4. -/
theorem chunk3_keep_arg4 (W : Valuation τ sig (Elt F)) :
    after (chunk3 (F := F)) W (Proc.devRef .tc main_arg4) = W (Proc.devRef .tc main_arg4) := by
  dsimp only [chunk3]
  after_results <;> rfl

/-- The stretch does not write %v2. -/
theorem chunk3_keep_v2 (W : Valuation τ sig (Elt F)) :
    after (chunk3 (F := F)) W (Proc.devRef .tc main_v2) = W (Proc.devRef .tc main_v2) := by
  dsimp only [chunk3]
  after_results <;> rfl

/-- The stretch does not write %v4. -/
theorem chunk3_keep_v4 (W : Valuation τ sig (Elt F)) :
    after (chunk3 (F := F)) W (Proc.devRef .tc main_v4) = W (Proc.devRef .tc main_v4) := by
  dsimp only [chunk3]
  after_results <;> rfl

end Cert.ReferenceIdeal.RefVal

end
-- ==== Proof.RVb.lean ====
/-
  Stretches 4 to 7: the normalised rate matrices, the branch lengths, the array A, and the start of the exponential.

  The reference program's 226 host operations are read stretch by stretch. A stretch is a short run of consecutive
  operations; it is read over ARBITRARY contents `W` of the device's buffers before it: as soon as the buffers the
  stretch reads hold the values of the earlier stages (`val_…`, one definition per operation, each over the stages
  before it), the buffers it writes hold the values of its own stages, and every other buffer is left as it was.
  No law of the floats is used, and the float family `F` is arbitrary: the two sides are the same operations applied
  to the same earlier values.
-/
import proofs.«402584_j57200374448411_3_alg».proof.Proof.RefStages
import Idealize.ShloMosaic.Lib.StableHlo.Run

set_option maxRecDepth 8192

noncomputable section

namespace Cert.ReferenceIdeal.RefVal

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-! ## Stretch 4: operations 52 … 62 -/

/-- The mean rate (floored away from zero) and the rate matrices divided by it. -/
abbrev chunk4 : List (HloOp τ sig (Elt F)) :=
  [ unary main_arg4 main_v31 (broadcastInDim S1x20x1 ![1] bcast_S20_S1x20x1_1 : (⟨S20, .f32⟩ : BufTy).Contents (Elt F) → (⟨S1x20x1, .f32⟩ : BufTy).Contents (Elt F)),
    unary main_v31 main_v32 (broadcastInDim S8x20x1 ![0, 1, 2] bcast_S1x20x1_S8x20x1_0_1_2 : (⟨S1x20x1, .f32⟩ : BufTy).Contents (Elt F) → (⟨S8x20x1, .f32⟩ : BufTy).Contents (Elt F)),
    binary main_v32 main_v25 main_v33 (mulf : (⟨S8x20x1, .f32⟩ : BufTy).Contents (Elt F) → (⟨S8x20x1, .f32⟩ : BufTy).Contents (Elt F) → (⟨S8x20x1, .f32⟩ : BufTy).Contents (Elt F)),
    nullary main_cst_4 (constant S_ .f32 0x00000000#32),
    binary main_v33 main_cst_4 main_v34 ((fun x v => Host.reduceAdd x v reducesTo_S8x20x1_S8x1_d1 h_S_) : (⟨S8x20x1, .f32⟩ : BufTy).Contents (Elt F) → (⟨S_, .f32⟩ : BufTy).Contents (Elt F) → (⟨S8x1, .f32⟩ : BufTy).Contents (Elt F)),
    unary main_v34 main_v35 (broadcastInDim S8x1x1 ![0, 2] bcast_S8x1_S8x1x1_0_2 : (⟨S8x1, .f32⟩ : BufTy).Contents (Elt F) → (⟨S8x1x1, .f32⟩ : BufTy).Contents (Elt F)),
    nullary main_cst_5 (constant S_ .f32 0x24E69595#32),
    unary main_cst_5 main_v36 (broadcastInDim S8x1x1 ![] bcast_S_S8x1x1 : (⟨S_, .f32⟩ : BufTy).Contents (Elt F) → (⟨S8x1x1, .f32⟩ : BufTy).Contents (Elt F)),
    binary main_v35 main_v36 main_v37 (maximumf : (⟨S8x1x1, .f32⟩ : BufTy).Contents (Elt F) → (⟨S8x1x1, .f32⟩ : BufTy).Contents (Elt F) → (⟨S8x1x1, .f32⟩ : BufTy).Contents (Elt F)),
    unary main_v37 main_v38 (broadcastInDim S8x20x20 ![0, 1, 2] bcast_S8x1x1_S8x20x20_0_1_2 : (⟨S8x1x1, .f32⟩ : BufTy).Contents (Elt F) → (⟨S8x20x20, .f32⟩ : BufTy).Contents (Elt F)),
    binary main_v30 main_v38 main_v39 (Host.divf : (⟨S8x20x20, .f32⟩ : BufTy).Contents (Elt F) → (⟨S8x20x20, .f32⟩ : BufTy).Contents (Elt F) → (⟨S8x20x20, .f32⟩ : BufTy).Contents (Elt F)) ]

set_option maxHeartbeats 2000000 in
/-- What the stretch leaves at %v39: that stage's value, as soon as the buffers the stretch reads hold the earlier stages' values. -/
theorem chunk4_v39 (W : Valuation τ sig (Elt F))
    (x3 : (⟨S8x20x20, .f32⟩ : BufTy).Contents (Elt F))
    (x4 : (⟨S20, .f32⟩ : BufTy).Contents (Elt F))
    (h_arg4 : W (Proc.devRef .tc main_arg4) = x4)
    (h_v25 : W (Proc.devRef .tc main_v25) = val_main_v25 (F := F) x3 x4)
    (h_v30 : W (Proc.devRef .tc main_v30) = val_main_v30 (F := F) x3 x4) :
    after (chunk4 (F := F)) W (Proc.devRef .tc main_v39) = val_main_v39 (F := F) x3 x4 := by
  dsimp only [chunk4]
  after_results
  try simp only [TRef.ofBuf, TRef.toBuf, cast_eq]
  rw [h_arg4, h_v25, h_v30]
  rfl

/-- The stretch does not write %arg0. -/
theorem chunk4_keep_arg0 (W : Valuation τ sig (Elt F)) :
    after (chunk4 (F := F)) W (Proc.devRef .tc main_arg0) = W (Proc.devRef .tc main_arg0) := by
  dsimp only [chunk4]
  after_results <;> rfl

/-- The stretch does not write %arg1. -/
theorem chunk4_keep_arg1 (W : Valuation τ sig (Elt F)) :
    after (chunk4 (F := F)) W (Proc.devRef .tc main_arg1) = W (Proc.devRef .tc main_arg1) := by
  dsimp only [chunk4]
  after_results <;> rfl

/-- The stretch does not write %arg2. -/
theorem chunk4_keep_arg2 (W : Valuation τ sig (Elt F)) :
    after (chunk4 (F := F)) W (Proc.devRef .tc main_arg2) = W (Proc.devRef .tc main_arg2) := by
  dsimp only [chunk4]
  after_results <;> rfl

/-- The stretch does not write %v2. -/
theorem chunk4_keep_v2 (W : Valuation τ sig (Elt F)) :
    after (chunk4 (F := F)) W (Proc.devRef .tc main_v2) = W (Proc.devRef .tc main_v2) := by
  dsimp only [chunk4]
  after_results <;> rfl

/-- The stretch does not write %v4. -/
theorem chunk4_keep_v4 (W : Valuation τ sig (Elt F)) :
    after (chunk4 (F := F)) W (Proc.devRef .tc main_v4) = W (Proc.devRef .tc main_v4) := by
  dsimp only [chunk4]
  after_results <;> rfl

/-! ## Stretch 5: operations 63 … 76 -/

/-- The softplus of the branch lengths. -/
abbrev chunk5 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S512, .f32⟩) main_call2_v0) (broadcastInDim S512 ![] bcast_S_S512),
    TRef.binary (TRef.of (T := ⟨S512, .f32⟩) main_arg2) (TRef.of (T := ⟨S512, .f32⟩) main_call2_v0) (TRef.of (T := ⟨S512, .f32⟩) main_call2_v1) maximumf,
    TRef.unary (TRef.of (T := ⟨S_, .f32⟩) main_call2_cst) (TRef.of (T := ⟨S512, .f32⟩) main_call2_v2) (broadcastInDim S512 ![] bcast_S_S512),
    TRef.binary (TRef.of (T := ⟨S512, .f32⟩) main_arg2) (TRef.of (T := ⟨S512, .f32⟩) main_call2_v2) (TRef.of (T := ⟨S512, .f32⟩) main_call2_v3) subf,
    TRef.binary (TRef.of (T := ⟨S512, .f32⟩) main_call2_v3) (TRef.of (T := ⟨S512, .f32⟩) main_call2_v3) (TRef.of (T := ⟨S512, .i1⟩) main_call2_v4) (cmpf .une),
    TRef.unary (TRef.of (T := ⟨S_, .f32⟩) main_call2_cst) (TRef.of (T := ⟨S512, .f32⟩) main_call2_v5) (broadcastInDim S512 ![] bcast_S_S512),
    TRef.binary (TRef.of (T := ⟨S512, .f32⟩) main_arg2) (TRef.of (T := ⟨S512, .f32⟩) main_call2_v5) (TRef.of (T := ⟨S512, .f32⟩) main_call2_v6) addf,
    TRef.unary (TRef.of (T := ⟨S512, .f32⟩) main_call2_v3) (TRef.of (T := ⟨S512, .f32⟩) main_call2_v7) Host.absf,
    TRef.unary (TRef.of (T := ⟨S512, .f32⟩) main_call2_v7) (TRef.of (T := ⟨S512, .f32⟩) main_call2_v8) Host.negf,
    TRef.unary (TRef.of (T := ⟨S512, .f32⟩) main_call2_v8) (TRef.of (T := ⟨S512, .f32⟩) main_call2_v9) Host.exp,
    TRef.unary (TRef.of (T := ⟨S512, .f32⟩) main_call2_v9) (TRef.of (T := ⟨S512, .f32⟩) main_call2_v10) Host.log1p,
    TRef.binary (TRef.of (T := ⟨S512, .f32⟩) main_call2_v1) (TRef.of (T := ⟨S512, .f32⟩) main_call2_v10) (TRef.of (T := ⟨S512, .f32⟩) main_call2_v11) addf,
    TRef.ternary (TRef.of (T := ⟨S512, .i1⟩) main_call2_v4) (TRef.of (T := ⟨S512, .f32⟩) main_call2_v6) (TRef.of (T := ⟨S512, .f32⟩) main_call2_v11) (TRef.of (T := ⟨S512, .f32⟩) main_v40) select ]

set_option maxHeartbeats 2000000 in
/-- What the stretch leaves at %v40: that stage's value, as soon as the buffers the stretch reads hold the earlier stages' values. -/
theorem chunk5_v40 (W : Valuation τ sig (Elt F))
    (x2 : (⟨S512, .f32⟩ : BufTy).Contents (Elt F))
    (h_arg2 : W (Proc.devRef .tc main_arg2) = x2) :
    after (chunk5 (F := F)) W (Proc.devRef .tc main_v40) = val_main_v40 (F := F) x2 := by
  dsimp only [chunk5]
  after_results
  try simp only [TRef.ofBuf, TRef.toBuf, cast_eq]
  rw [h_arg2]
  rfl

/-- The stretch does not write %arg0. -/
theorem chunk5_keep_arg0 (W : Valuation τ sig (Elt F)) :
    after (chunk5 (F := F)) W (Proc.devRef .tc main_arg0) = W (Proc.devRef .tc main_arg0) := by
  dsimp only [chunk5]
  after_results <;> rfl

/-- The stretch does not write %arg1. -/
theorem chunk5_keep_arg1 (W : Valuation τ sig (Elt F)) :
    after (chunk5 (F := F)) W (Proc.devRef .tc main_arg1) = W (Proc.devRef .tc main_arg1) := by
  dsimp only [chunk5]
  after_results <;> rfl

/-- The stretch does not write %v2. -/
theorem chunk5_keep_v2 (W : Valuation τ sig (Elt F)) :
    after (chunk5 (F := F)) W (Proc.devRef .tc main_v2) = W (Proc.devRef .tc main_v2) := by
  dsimp only [chunk5]
  after_results <;> rfl

/-- The stretch does not write %v4. -/
theorem chunk5_keep_v4 (W : Valuation τ sig (Elt F)) :
    after (chunk5 (F := F)) W (Proc.devRef .tc main_v4) = W (Proc.devRef .tc main_v4) := by
  dsimp only [chunk5]
  after_results <;> rfl

/-- The stretch does not write %v39. -/
theorem chunk5_keep_v39 (W : Valuation τ sig (Elt F)) :
    after (chunk5 (F := F)) W (Proc.devRef .tc main_v39) = W (Proc.devRef .tc main_v39) := by
  dsimp only [chunk5]
  after_results <;> rfl

/-! ## Stretch 6: operations 77 … 90 -/

/-- The branch length gathered at the wrapped rate index, times the normalised rate matrices: the array A. -/
abbrev chunk6 : List (HloOp τ sig (Elt F)) :=
  [ nullary main_c_6 (constantI S_ 32 0#32),
    unary main_c_6 main_v41 (broadcastInDim S512 ![] bcast_S_S512 : (⟨S_, .i32⟩ : BufTy).Contents (Elt F) → (⟨S512, .i32⟩ : BufTy).Contents (Elt F)),
    binary main_arg1 main_v41 main_v42 (cmpi .slt : (⟨S512, .i32⟩ : BufTy).Contents (Elt F) → (⟨S512, .i32⟩ : BufTy).Contents (Elt F) → (⟨S512, .i1⟩ : BufTy).Contents (Elt F)),
    nullary main_c_7 (constantI S_ 32 512#32),
    unary main_c_7 main_v43 (broadcastInDim S512 ![] bcast_S_S512 : (⟨S_, .i32⟩ : BufTy).Contents (Elt F) → (⟨S512, .i32⟩ : BufTy).Contents (Elt F)),
    binary main_arg1 main_v43 main_v44 (addi : (⟨S512, .i32⟩ : BufTy).Contents (Elt F) → (⟨S512, .i32⟩ : BufTy).Contents (Elt F) → (⟨S512, .i32⟩ : BufTy).Contents (Elt F)),
    ternary main_v42 main_v44 main_arg1 main_v45 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v45 main_v46 (broadcastInDim S512x1 ![0] bcast_S512_S512x1_0 : (⟨S512, .i32⟩ : BufTy).Contents (Elt F) → (⟨S512x1, .i32⟩ : BufTy).Contents (Elt F)),
    binary main_v40 main_v46 main_v47 ((fun x i => Host.gather gather_S512_S512x1_S512_n_0_n_n_0_1_1 x i) : (⟨S512, .f32⟩ : BufTy).Contents (Elt F) → (⟨S512x1, .i32⟩ : BufTy).Contents (Elt F) → (⟨S512, .f32⟩ : BufTy).Contents (Elt F)),
    unary main_v47 main_v48 (broadcastInDim S512x1x1x1 ![0] bcast_S512_S512x1x1x1_0 : (⟨S512, .f32⟩ : BufTy).Contents (Elt F) → (⟨S512x1x1x1, .f32⟩ : BufTy).Contents (Elt F)),
    unary main_v39 main_v49 (broadcastInDim S1x8x20x20 ![1, 2, 3] bcast_S8x20x20_S1x8x20x20_1_2_3 : (⟨S8x20x20, .f32⟩ : BufTy).Contents (Elt F) → (⟨S1x8x20x20, .f32⟩ : BufTy).Contents (Elt F)),
    unary main_v48 main_v50 (broadcastInDim S512x8x20x20 ![0, 1, 2, 3] bcast_S512x1x1x1_S512x8x20x20_0_1_2_3 : (⟨S512x1x1x1, .f32⟩ : BufTy).Contents (Elt F) → (⟨S512x8x20x20, .f32⟩ : BufTy).Contents (Elt F)),
    unary main_v49 main_v51 (broadcastInDim S512x8x20x20 ![0, 1, 2, 3] bcast_S1x8x20x20_S512x8x20x20_0_1_2_3 : (⟨S1x8x20x20, .f32⟩ : BufTy).Contents (Elt F) → (⟨S512x8x20x20, .f32⟩ : BufTy).Contents (Elt F)),
    binary main_v50 main_v51 main_v52 (mulf : (⟨S512x8x20x20, .f32⟩ : BufTy).Contents (Elt F) → (⟨S512x8x20x20, .f32⟩ : BufTy).Contents (Elt F) → (⟨S512x8x20x20, .f32⟩ : BufTy).Contents (Elt F)) ]

set_option maxHeartbeats 2000000 in
/-- What the stretch leaves at %v52: that stage's value, as soon as the buffers the stretch reads hold the earlier stages' values. -/
theorem chunk6_v52 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_arg1 : W (Proc.devRef .tc main_arg1) = x1)
    (h_v39 : W (Proc.devRef .tc main_v39) = val_main_v39 (F := F) x3 x4)
    (h_v40 : W (Proc.devRef .tc main_v40) = val_main_v40 (F := F) x2) :
    after (chunk6 (F := F)) W (Proc.devRef .tc main_v52) = val_main_v52 (F := F) x1 x2 x3 x4 := by
  dsimp only [chunk6]
  after_results
  try simp only [TRef.ofBuf, TRef.toBuf, cast_eq]
  rw [h_arg1, h_v39, h_v40]
  rfl

/-- The stretch does not write %arg0. -/
theorem chunk6_keep_arg0 (W : Valuation τ sig (Elt F)) :
    after (chunk6 (F := F)) W (Proc.devRef .tc main_arg0) = W (Proc.devRef .tc main_arg0) := by
  dsimp only [chunk6]
  after_results <;> rfl

/-- The stretch does not write %v2. -/
theorem chunk6_keep_v2 (W : Valuation τ sig (Elt F)) :
    after (chunk6 (F := F)) W (Proc.devRef .tc main_v2) = W (Proc.devRef .tc main_v2) := by
  dsimp only [chunk6]
  after_results <;> rfl

/-- The stretch does not write %v4. -/
theorem chunk6_keep_v4 (W : Valuation τ sig (Elt F)) :
    after (chunk6 (F := F)) W (Proc.devRef .tc main_v4) = W (Proc.devRef .tc main_v4) := by
  dsimp only [chunk6]
  after_results <;> rfl

/-! ## Stretch 7: operations 91 … 103 -/

/-- The scaled matrix s = A / 64 and the first partial sum p₁ = I + s. -/
abbrev chunk7 : List (HloOp τ sig (Elt F)) :=
  [ nullary main_cst_8 (constant S_ .f32 0x42800000#32),
    unary main_cst_8 main_v53 (broadcastInDim S512x8x20x20 ![] bcast_S_S512x8x20x20 : (⟨S_, .f32⟩ : BufTy).Contents (Elt F) → (⟨S512x8x20x20, .f32⟩ : BufTy).Contents (Elt F)),
    binary main_v52 main_v53 main_v54 (Host.divf : (⟨S512x8x20x20, .f32⟩ : BufTy).Contents (Elt F) → (⟨S512x8x20x20, .f32⟩ : BufTy).Contents (Elt F) → (⟨S512x8x20x20, .f32⟩ : BufTy).Contents (Elt F)),
    nullary main_v55 (iotaInDim S20x20 32 0),
    nullary main_v56 (iotaInDim S20x20 32 1),
    nullary main_c_9 (constantI S_ 32 0#32),
    unary main_c_9 main_v57 (broadcastInDim S20x20 ![] bcast_S_S20x20 : (⟨S_, .i32⟩ : BufTy).Contents (Elt F) → (⟨S20x20, .i32⟩ : BufTy).Contents (Elt F)),
    binary main_v55 main_v57 main_v58 (addi : (⟨S20x20, .i32⟩ : BufTy).Contents (Elt F) → (⟨S20x20, .i32⟩ : BufTy).Contents (Elt F) → (⟨S20x20, .i32⟩ : BufTy).Contents (Elt F)),
    binary main_v58 main_v56 main_v59 (cmpi .eq : (⟨S20x20, .i32⟩ : BufTy).Contents (Elt F) → (⟨S20x20, .i32⟩ : BufTy).Contents (Elt F) → (⟨S20x20, .i1⟩ : BufTy).Contents (Elt F)),
    unary main_v59 main_v60 (uitofp .f32 : (⟨S20x20, .i1⟩ : BufTy).Contents (Elt F) → (⟨S20x20, .f32⟩ : BufTy).Contents (Elt F)),
    unary main_v60 main_v61 (broadcastInDim S1x1x20x20 ![2, 3] bcast_S20x20_S1x1x20x20_2_3 : (⟨S20x20, .f32⟩ : BufTy).Contents (Elt F) → (⟨S1x1x20x20, .f32⟩ : BufTy).Contents (Elt F)),
    unary main_v61 main_v62 (broadcastInDim S512x8x20x20 ![0, 1, 2, 3] bcast_S1x1x20x20_S512x8x20x20_0_1_2_3 : (⟨S1x1x20x20, .f32⟩ : BufTy).Contents (Elt F) → (⟨S512x8x20x20, .f32⟩ : BufTy).Contents (Elt F)),
    binary main_v62 main_v54 main_v63 (addf : (⟨S512x8x20x20, .f32⟩ : BufTy).Contents (Elt F) → (⟨S512x8x20x20, .f32⟩ : BufTy).Contents (Elt F) → (⟨S512x8x20x20, .f32⟩ : BufTy).Contents (Elt F)) ]

set_option maxHeartbeats 2000000 in
/-- What the stretch leaves at %v54: that stage's value, as soon as the buffers the stretch reads hold the earlier stages' values. -/
theorem chunk7_v54 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v52 : W (Proc.devRef .tc main_v52) = val_main_v52 (F := F) x1 x2 x3 x4) :
    after (chunk7 (F := F)) W (Proc.devRef .tc main_v54) = val_main_v54 (F := F) x1 x2 x3 x4 := by
  dsimp only [chunk7]
  after_results
  try simp only [TRef.ofBuf, TRef.toBuf, cast_eq]
  rw [h_v52]
  rfl

set_option maxHeartbeats 2000000 in
/-- What the stretch leaves at %v63: that stage's value, as soon as the buffers the stretch reads hold the earlier stages' values. -/
theorem chunk7_v63 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v52 : W (Proc.devRef .tc main_v52) = val_main_v52 (F := F) x1 x2 x3 x4) :
    after (chunk7 (F := F)) W (Proc.devRef .tc main_v63) = val_main_v63 (F := F) x1 x2 x3 x4 := by
  dsimp only [chunk7]
  after_results
  try simp only [TRef.ofBuf, TRef.toBuf, cast_eq]
  rw [h_v52]
  rfl

/-- The stretch does not write %arg0. -/
theorem chunk7_keep_arg0 (W : Valuation τ sig (Elt F)) :
    after (chunk7 (F := F)) W (Proc.devRef .tc main_arg0) = W (Proc.devRef .tc main_arg0) := by
  dsimp only [chunk7]
  after_results <;> rfl

/-- The stretch does not write %v2. -/
theorem chunk7_keep_v2 (W : Valuation τ sig (Elt F)) :
    after (chunk7 (F := F)) W (Proc.devRef .tc main_v2) = W (Proc.devRef .tc main_v2) := by
  dsimp only [chunk7]
  after_results <;> rfl

/-- The stretch does not write %v4. -/
theorem chunk7_keep_v4 (W : Valuation τ sig (Elt F)) :
    after (chunk7 (F := F)) W (Proc.devRef .tc main_v4) = W (Proc.devRef .tc main_v4) := by
  dsimp only [chunk7]
  after_results <;> rfl

end Cert.ReferenceIdeal.RefVal

end
-- ==== Proof.RVc.lean ====
/-
  Stretches 8 to 12: the fifteen Taylor steps of the exponential.

  The reference program's 226 host operations are read stretch by stretch. A stretch is a short run of consecutive
  operations; it is read over ARBITRARY contents `W` of the device's buffers before it: as soon as the buffers the
  stretch reads hold the values of the earlier stages (`val_…`, one definition per operation, each over the stages
  before it), the buffers it writes hold the values of its own stages, and every other buffer is left as it was.
  No law of the floats is used, and the float family `F` is arbitrary: the two sides are the same operations applied
  to the same earlier values.
-/
import proofs.«402584_j57200374448411_3_alg».proof.Proof.RefStages
import Idealize.ShloMosaic.Lib.StableHlo.Run

set_option maxRecDepth 8192

noncomputable section

namespace Cert.ReferenceIdeal.RefVal

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-! ## Stretch 8: operations 104 … 118 -/

/-- Three Taylor steps, t ↦ (t · s) / (i+1) and p ↦ p + t, for i = 1, 2, 3. -/
abbrev chunk8 : List (HloOp τ sig (Elt F)) :=
  [ binary main_v54 main_v54 main_v64 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_10 (constant S_ .f32 0x40000000#32),
    unary main_cst_10 main_v65 (broadcastInDim S512x8x20x20 ![] bcast_S_S512x8x20x20 : (⟨S_, .f32⟩ : BufTy).Contents (Elt F) → (⟨S512x8x20x20, .f32⟩ : BufTy).Contents (Elt F)),
    binary main_v64 main_v65 main_v66 (Host.divf : (⟨S512x8x20x20, .f32⟩ : BufTy).Contents (Elt F) → (⟨S512x8x20x20, .f32⟩ : BufTy).Contents (Elt F) → (⟨S512x8x20x20, .f32⟩ : BufTy).Contents (Elt F)),
    binary main_v63 main_v66 main_v67 (addf : (⟨S512x8x20x20, .f32⟩ : BufTy).Contents (Elt F) → (⟨S512x8x20x20, .f32⟩ : BufTy).Contents (Elt F) → (⟨S512x8x20x20, .f32⟩ : BufTy).Contents (Elt F)),
    binary main_v66 main_v54 main_v68 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_11 (constant S_ .f32 0x40400000#32),
    unary main_cst_11 main_v69 (broadcastInDim S512x8x20x20 ![] bcast_S_S512x8x20x20 : (⟨S_, .f32⟩ : BufTy).Contents (Elt F) → (⟨S512x8x20x20, .f32⟩ : BufTy).Contents (Elt F)),
    binary main_v68 main_v69 main_v70 (Host.divf : (⟨S512x8x20x20, .f32⟩ : BufTy).Contents (Elt F) → (⟨S512x8x20x20, .f32⟩ : BufTy).Contents (Elt F) → (⟨S512x8x20x20, .f32⟩ : BufTy).Contents (Elt F)),
    binary main_v67 main_v70 main_v71 (addf : (⟨S512x8x20x20, .f32⟩ : BufTy).Contents (Elt F) → (⟨S512x8x20x20, .f32⟩ : BufTy).Contents (Elt F) → (⟨S512x8x20x20, .f32⟩ : BufTy).Contents (Elt F)),
    binary main_v70 main_v54 main_v72 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_12 (constant S_ .f32 0x40800000#32),
    unary main_cst_12 main_v73 (broadcastInDim S512x8x20x20 ![] bcast_S_S512x8x20x20 : (⟨S_, .f32⟩ : BufTy).Contents (Elt F) → (⟨S512x8x20x20, .f32⟩ : BufTy).Contents (Elt F)),
    binary main_v72 main_v73 main_v74 (Host.divf : (⟨S512x8x20x20, .f32⟩ : BufTy).Contents (Elt F) → (⟨S512x8x20x20, .f32⟩ : BufTy).Contents (Elt F) → (⟨S512x8x20x20, .f32⟩ : BufTy).Contents (Elt F)),
    binary main_v71 main_v74 main_v75 (addf : (⟨S512x8x20x20, .f32⟩ : BufTy).Contents (Elt F) → (⟨S512x8x20x20, .f32⟩ : BufTy).Contents (Elt F) → (⟨S512x8x20x20, .f32⟩ : BufTy).Contents (Elt F)) ]

set_option maxHeartbeats 2000000 in
/-- What the stretch leaves at %v74: that stage's value, as soon as the buffers the stretch reads hold the earlier stages' values. -/
theorem chunk8_v74 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v54 : W (Proc.devRef .tc main_v54) = val_main_v54 (F := F) x1 x2 x3 x4) :
    after (chunk8 (F := F)) W (Proc.devRef .tc main_v74) = val_main_v74 (F := F) x1 x2 x3 x4 := by
  dsimp only [chunk8]
  after_results
  try simp only [TRef.ofBuf, TRef.toBuf, cast_eq]
  rw [h_v54]
  rfl

set_option maxHeartbeats 2000000 in
/-- What the stretch leaves at %v75: that stage's value, as soon as the buffers the stretch reads hold the earlier stages' values. -/
theorem chunk8_v75 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v54 : W (Proc.devRef .tc main_v54) = val_main_v54 (F := F) x1 x2 x3 x4)
    (h_v63 : W (Proc.devRef .tc main_v63) = val_main_v63 (F := F) x1 x2 x3 x4) :
    after (chunk8 (F := F)) W (Proc.devRef .tc main_v75) = val_main_v75 (F := F) x1 x2 x3 x4 := by
  dsimp only [chunk8]
  after_results
  try simp only [TRef.ofBuf, TRef.toBuf, cast_eq]
  rw [h_v54, h_v63]
  rfl

/-- The stretch does not write %arg0. -/
theorem chunk8_keep_arg0 (W : Valuation τ sig (Elt F)) :
    after (chunk8 (F := F)) W (Proc.devRef .tc main_arg0) = W (Proc.devRef .tc main_arg0) := by
  dsimp only [chunk8]
  after_results <;> rfl

/-- The stretch does not write %v2. -/
theorem chunk8_keep_v2 (W : Valuation τ sig (Elt F)) :
    after (chunk8 (F := F)) W (Proc.devRef .tc main_v2) = W (Proc.devRef .tc main_v2) := by
  dsimp only [chunk8]
  after_results <;> rfl

/-- The stretch does not write %v4. -/
theorem chunk8_keep_v4 (W : Valuation τ sig (Elt F)) :
    after (chunk8 (F := F)) W (Proc.devRef .tc main_v4) = W (Proc.devRef .tc main_v4) := by
  dsimp only [chunk8]
  after_results <;> rfl

/-- The stretch does not write %v54. -/
theorem chunk8_keep_v54 (W : Valuation τ sig (Elt F)) :
    after (chunk8 (F := F)) W (Proc.devRef .tc main_v54) = W (Proc.devRef .tc main_v54) := by
  dsimp only [chunk8]
  after_results <;> rfl

/-! ## Stretch 9: operations 119 … 133 -/

/-- Three Taylor steps, t ↦ (t · s) / (i+1) and p ↦ p + t, for i = 4, 5, 6. -/
abbrev chunk9 : List (HloOp τ sig (Elt F)) :=
  [ binary main_v74 main_v54 main_v76 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_13 (constant S_ .f32 0x40A00000#32),
    unary main_cst_13 main_v77 (broadcastInDim S512x8x20x20 ![] bcast_S_S512x8x20x20 : (⟨S_, .f32⟩ : BufTy).Contents (Elt F) → (⟨S512x8x20x20, .f32⟩ : BufTy).Contents (Elt F)),
    binary main_v76 main_v77 main_v78 (Host.divf : (⟨S512x8x20x20, .f32⟩ : BufTy).Contents (Elt F) → (⟨S512x8x20x20, .f32⟩ : BufTy).Contents (Elt F) → (⟨S512x8x20x20, .f32⟩ : BufTy).Contents (Elt F)),
    binary main_v75 main_v78 main_v79 (addf : (⟨S512x8x20x20, .f32⟩ : BufTy).Contents (Elt F) → (⟨S512x8x20x20, .f32⟩ : BufTy).Contents (Elt F) → (⟨S512x8x20x20, .f32⟩ : BufTy).Contents (Elt F)),
    binary main_v78 main_v54 main_v80 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_14 (constant S_ .f32 0x40C00000#32),
    unary main_cst_14 main_v81 (broadcastInDim S512x8x20x20 ![] bcast_S_S512x8x20x20 : (⟨S_, .f32⟩ : BufTy).Contents (Elt F) → (⟨S512x8x20x20, .f32⟩ : BufTy).Contents (Elt F)),
    binary main_v80 main_v81 main_v82 (Host.divf : (⟨S512x8x20x20, .f32⟩ : BufTy).Contents (Elt F) → (⟨S512x8x20x20, .f32⟩ : BufTy).Contents (Elt F) → (⟨S512x8x20x20, .f32⟩ : BufTy).Contents (Elt F)),
    binary main_v79 main_v82 main_v83 (addf : (⟨S512x8x20x20, .f32⟩ : BufTy).Contents (Elt F) → (⟨S512x8x20x20, .f32⟩ : BufTy).Contents (Elt F) → (⟨S512x8x20x20, .f32⟩ : BufTy).Contents (Elt F)),
    binary main_v82 main_v54 main_v84 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_15 (constant S_ .f32 0x40E00000#32),
    unary main_cst_15 main_v85 (broadcastInDim S512x8x20x20 ![] bcast_S_S512x8x20x20 : (⟨S_, .f32⟩ : BufTy).Contents (Elt F) → (⟨S512x8x20x20, .f32⟩ : BufTy).Contents (Elt F)),
    binary main_v84 main_v85 main_v86 (Host.divf : (⟨S512x8x20x20, .f32⟩ : BufTy).Contents (Elt F) → (⟨S512x8x20x20, .f32⟩ : BufTy).Contents (Elt F) → (⟨S512x8x20x20, .f32⟩ : BufTy).Contents (Elt F)),
    binary main_v83 main_v86 main_v87 (addf : (⟨S512x8x20x20, .f32⟩ : BufTy).Contents (Elt F) → (⟨S512x8x20x20, .f32⟩ : BufTy).Contents (Elt F) → (⟨S512x8x20x20, .f32⟩ : BufTy).Contents (Elt F)) ]

set_option maxHeartbeats 2000000 in
/-- What the stretch leaves at %v86: that stage's value, as soon as the buffers the stretch reads hold the earlier stages' values. -/
theorem chunk9_v86 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v54 : W (Proc.devRef .tc main_v54) = val_main_v54 (F := F) x1 x2 x3 x4)
    (h_v74 : W (Proc.devRef .tc main_v74) = val_main_v74 (F := F) x1 x2 x3 x4) :
    after (chunk9 (F := F)) W (Proc.devRef .tc main_v86) = val_main_v86 (F := F) x1 x2 x3 x4 := by
  dsimp only [chunk9]
  after_results
  try simp only [TRef.ofBuf, TRef.toBuf, cast_eq]
  rw [h_v54, h_v74]
  rfl

set_option maxHeartbeats 2000000 in
/-- What the stretch leaves at %v87: that stage's value, as soon as the buffers the stretch reads hold the earlier stages' values. -/
theorem chunk9_v87 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v54 : W (Proc.devRef .tc main_v54) = val_main_v54 (F := F) x1 x2 x3 x4)
    (h_v74 : W (Proc.devRef .tc main_v74) = val_main_v74 (F := F) x1 x2 x3 x4)
    (h_v75 : W (Proc.devRef .tc main_v75) = val_main_v75 (F := F) x1 x2 x3 x4) :
    after (chunk9 (F := F)) W (Proc.devRef .tc main_v87) = val_main_v87 (F := F) x1 x2 x3 x4 := by
  dsimp only [chunk9]
  after_results
  try simp only [TRef.ofBuf, TRef.toBuf, cast_eq]
  rw [h_v54, h_v74, h_v75]
  rfl

/-- The stretch does not write %arg0. -/
theorem chunk9_keep_arg0 (W : Valuation τ sig (Elt F)) :
    after (chunk9 (F := F)) W (Proc.devRef .tc main_arg0) = W (Proc.devRef .tc main_arg0) := by
  dsimp only [chunk9]
  after_results <;> rfl

/-- The stretch does not write %v2. -/
theorem chunk9_keep_v2 (W : Valuation τ sig (Elt F)) :
    after (chunk9 (F := F)) W (Proc.devRef .tc main_v2) = W (Proc.devRef .tc main_v2) := by
  dsimp only [chunk9]
  after_results <;> rfl

/-- The stretch does not write %v4. -/
theorem chunk9_keep_v4 (W : Valuation τ sig (Elt F)) :
    after (chunk9 (F := F)) W (Proc.devRef .tc main_v4) = W (Proc.devRef .tc main_v4) := by
  dsimp only [chunk9]
  after_results <;> rfl

/-- The stretch does not write %v54. -/
theorem chunk9_keep_v54 (W : Valuation τ sig (Elt F)) :
    after (chunk9 (F := F)) W (Proc.devRef .tc main_v54) = W (Proc.devRef .tc main_v54) := by
  dsimp only [chunk9]
  after_results <;> rfl

/-! ## Stretch 10: operations 134 … 148 -/

/-- Three Taylor steps, t ↦ (t · s) / (i+1) and p ↦ p + t, for i = 7, 8, 9. -/
abbrev chunk10 : List (HloOp τ sig (Elt F)) :=
  [ binary main_v86 main_v54 main_v88 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_16 (constant S_ .f32 0x41000000#32),
    unary main_cst_16 main_v89 (broadcastInDim S512x8x20x20 ![] bcast_S_S512x8x20x20 : (⟨S_, .f32⟩ : BufTy).Contents (Elt F) → (⟨S512x8x20x20, .f32⟩ : BufTy).Contents (Elt F)),
    binary main_v88 main_v89 main_v90 (Host.divf : (⟨S512x8x20x20, .f32⟩ : BufTy).Contents (Elt F) → (⟨S512x8x20x20, .f32⟩ : BufTy).Contents (Elt F) → (⟨S512x8x20x20, .f32⟩ : BufTy).Contents (Elt F)),
    binary main_v87 main_v90 main_v91 (addf : (⟨S512x8x20x20, .f32⟩ : BufTy).Contents (Elt F) → (⟨S512x8x20x20, .f32⟩ : BufTy).Contents (Elt F) → (⟨S512x8x20x20, .f32⟩ : BufTy).Contents (Elt F)),
    binary main_v90 main_v54 main_v92 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_17 (constant S_ .f32 0x41100000#32),
    unary main_cst_17 main_v93 (broadcastInDim S512x8x20x20 ![] bcast_S_S512x8x20x20 : (⟨S_, .f32⟩ : BufTy).Contents (Elt F) → (⟨S512x8x20x20, .f32⟩ : BufTy).Contents (Elt F)),
    binary main_v92 main_v93 main_v94 (Host.divf : (⟨S512x8x20x20, .f32⟩ : BufTy).Contents (Elt F) → (⟨S512x8x20x20, .f32⟩ : BufTy).Contents (Elt F) → (⟨S512x8x20x20, .f32⟩ : BufTy).Contents (Elt F)),
    binary main_v91 main_v94 main_v95 (addf : (⟨S512x8x20x20, .f32⟩ : BufTy).Contents (Elt F) → (⟨S512x8x20x20, .f32⟩ : BufTy).Contents (Elt F) → (⟨S512x8x20x20, .f32⟩ : BufTy).Contents (Elt F)),
    binary main_v94 main_v54 main_v96 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_18 (constant S_ .f32 0x41200000#32),
    unary main_cst_18 main_v97 (broadcastInDim S512x8x20x20 ![] bcast_S_S512x8x20x20 : (⟨S_, .f32⟩ : BufTy).Contents (Elt F) → (⟨S512x8x20x20, .f32⟩ : BufTy).Contents (Elt F)),
    binary main_v96 main_v97 main_v98 (Host.divf : (⟨S512x8x20x20, .f32⟩ : BufTy).Contents (Elt F) → (⟨S512x8x20x20, .f32⟩ : BufTy).Contents (Elt F) → (⟨S512x8x20x20, .f32⟩ : BufTy).Contents (Elt F)),
    binary main_v95 main_v98 main_v99 (addf : (⟨S512x8x20x20, .f32⟩ : BufTy).Contents (Elt F) → (⟨S512x8x20x20, .f32⟩ : BufTy).Contents (Elt F) → (⟨S512x8x20x20, .f32⟩ : BufTy).Contents (Elt F)) ]

set_option maxHeartbeats 2000000 in
/-- What the stretch leaves at %v98: that stage's value, as soon as the buffers the stretch reads hold the earlier stages' values. -/
theorem chunk10_v98 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v54 : W (Proc.devRef .tc main_v54) = val_main_v54 (F := F) x1 x2 x3 x4)
    (h_v86 : W (Proc.devRef .tc main_v86) = val_main_v86 (F := F) x1 x2 x3 x4) :
    after (chunk10 (F := F)) W (Proc.devRef .tc main_v98) = val_main_v98 (F := F) x1 x2 x3 x4 := by
  dsimp only [chunk10]
  after_results
  try simp only [TRef.ofBuf, TRef.toBuf, cast_eq]
  rw [h_v54, h_v86]
  rfl

set_option maxHeartbeats 2000000 in
/-- What the stretch leaves at %v99: that stage's value, as soon as the buffers the stretch reads hold the earlier stages' values. -/
theorem chunk10_v99 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v54 : W (Proc.devRef .tc main_v54) = val_main_v54 (F := F) x1 x2 x3 x4)
    (h_v86 : W (Proc.devRef .tc main_v86) = val_main_v86 (F := F) x1 x2 x3 x4)
    (h_v87 : W (Proc.devRef .tc main_v87) = val_main_v87 (F := F) x1 x2 x3 x4) :
    after (chunk10 (F := F)) W (Proc.devRef .tc main_v99) = val_main_v99 (F := F) x1 x2 x3 x4 := by
  dsimp only [chunk10]
  after_results
  try simp only [TRef.ofBuf, TRef.toBuf, cast_eq]
  rw [h_v54, h_v86, h_v87]
  rfl

/-- The stretch does not write %arg0. -/
theorem chunk10_keep_arg0 (W : Valuation τ sig (Elt F)) :
    after (chunk10 (F := F)) W (Proc.devRef .tc main_arg0) = W (Proc.devRef .tc main_arg0) := by
  dsimp only [chunk10]
  after_results <;> rfl

/-- The stretch does not write %v2. -/
theorem chunk10_keep_v2 (W : Valuation τ sig (Elt F)) :
    after (chunk10 (F := F)) W (Proc.devRef .tc main_v2) = W (Proc.devRef .tc main_v2) := by
  dsimp only [chunk10]
  after_results <;> rfl

/-- The stretch does not write %v4. -/
theorem chunk10_keep_v4 (W : Valuation τ sig (Elt F)) :
    after (chunk10 (F := F)) W (Proc.devRef .tc main_v4) = W (Proc.devRef .tc main_v4) := by
  dsimp only [chunk10]
  after_results <;> rfl

/-- The stretch does not write %v54. -/
theorem chunk10_keep_v54 (W : Valuation τ sig (Elt F)) :
    after (chunk10 (F := F)) W (Proc.devRef .tc main_v54) = W (Proc.devRef .tc main_v54) := by
  dsimp only [chunk10]
  after_results <;> rfl

/-! ## Stretch 11: operations 149 … 163 -/

/-- Three Taylor steps, t ↦ (t · s) / (i+1) and p ↦ p + t, for i = 10, 11, 12. -/
abbrev chunk11 : List (HloOp τ sig (Elt F)) :=
  [ binary main_v98 main_v54 main_v100 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_19 (constant S_ .f32 0x41300000#32),
    unary main_cst_19 main_v101 (broadcastInDim S512x8x20x20 ![] bcast_S_S512x8x20x20 : (⟨S_, .f32⟩ : BufTy).Contents (Elt F) → (⟨S512x8x20x20, .f32⟩ : BufTy).Contents (Elt F)),
    binary main_v100 main_v101 main_v102 (Host.divf : (⟨S512x8x20x20, .f32⟩ : BufTy).Contents (Elt F) → (⟨S512x8x20x20, .f32⟩ : BufTy).Contents (Elt F) → (⟨S512x8x20x20, .f32⟩ : BufTy).Contents (Elt F)),
    binary main_v99 main_v102 main_v103 (addf : (⟨S512x8x20x20, .f32⟩ : BufTy).Contents (Elt F) → (⟨S512x8x20x20, .f32⟩ : BufTy).Contents (Elt F) → (⟨S512x8x20x20, .f32⟩ : BufTy).Contents (Elt F)),
    binary main_v102 main_v54 main_v104 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_20 (constant S_ .f32 0x41400000#32),
    unary main_cst_20 main_v105 (broadcastInDim S512x8x20x20 ![] bcast_S_S512x8x20x20 : (⟨S_, .f32⟩ : BufTy).Contents (Elt F) → (⟨S512x8x20x20, .f32⟩ : BufTy).Contents (Elt F)),
    binary main_v104 main_v105 main_v106 (Host.divf : (⟨S512x8x20x20, .f32⟩ : BufTy).Contents (Elt F) → (⟨S512x8x20x20, .f32⟩ : BufTy).Contents (Elt F) → (⟨S512x8x20x20, .f32⟩ : BufTy).Contents (Elt F)),
    binary main_v103 main_v106 main_v107 (addf : (⟨S512x8x20x20, .f32⟩ : BufTy).Contents (Elt F) → (⟨S512x8x20x20, .f32⟩ : BufTy).Contents (Elt F) → (⟨S512x8x20x20, .f32⟩ : BufTy).Contents (Elt F)),
    binary main_v106 main_v54 main_v108 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_21 (constant S_ .f32 0x41500000#32),
    unary main_cst_21 main_v109 (broadcastInDim S512x8x20x20 ![] bcast_S_S512x8x20x20 : (⟨S_, .f32⟩ : BufTy).Contents (Elt F) → (⟨S512x8x20x20, .f32⟩ : BufTy).Contents (Elt F)),
    binary main_v108 main_v109 main_v110 (Host.divf : (⟨S512x8x20x20, .f32⟩ : BufTy).Contents (Elt F) → (⟨S512x8x20x20, .f32⟩ : BufTy).Contents (Elt F) → (⟨S512x8x20x20, .f32⟩ : BufTy).Contents (Elt F)),
    binary main_v107 main_v110 main_v111 (addf : (⟨S512x8x20x20, .f32⟩ : BufTy).Contents (Elt F) → (⟨S512x8x20x20, .f32⟩ : BufTy).Contents (Elt F) → (⟨S512x8x20x20, .f32⟩ : BufTy).Contents (Elt F)) ]

set_option maxHeartbeats 2000000 in
/-- What the stretch leaves at %v110: that stage's value, as soon as the buffers the stretch reads hold the earlier stages' values. -/
theorem chunk11_v110 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v54 : W (Proc.devRef .tc main_v54) = val_main_v54 (F := F) x1 x2 x3 x4)
    (h_v98 : W (Proc.devRef .tc main_v98) = val_main_v98 (F := F) x1 x2 x3 x4) :
    after (chunk11 (F := F)) W (Proc.devRef .tc main_v110) = val_main_v110 (F := F) x1 x2 x3 x4 := by
  dsimp only [chunk11]
  after_results
  try simp only [TRef.ofBuf, TRef.toBuf, cast_eq]
  rw [h_v54, h_v98]
  rfl

set_option maxHeartbeats 2000000 in
/-- What the stretch leaves at %v111: that stage's value, as soon as the buffers the stretch reads hold the earlier stages' values. -/
theorem chunk11_v111 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v54 : W (Proc.devRef .tc main_v54) = val_main_v54 (F := F) x1 x2 x3 x4)
    (h_v98 : W (Proc.devRef .tc main_v98) = val_main_v98 (F := F) x1 x2 x3 x4)
    (h_v99 : W (Proc.devRef .tc main_v99) = val_main_v99 (F := F) x1 x2 x3 x4) :
    after (chunk11 (F := F)) W (Proc.devRef .tc main_v111) = val_main_v111 (F := F) x1 x2 x3 x4 := by
  dsimp only [chunk11]
  after_results
  try simp only [TRef.ofBuf, TRef.toBuf, cast_eq]
  rw [h_v54, h_v98, h_v99]
  rfl

/-- The stretch does not write %arg0. -/
theorem chunk11_keep_arg0 (W : Valuation τ sig (Elt F)) :
    after (chunk11 (F := F)) W (Proc.devRef .tc main_arg0) = W (Proc.devRef .tc main_arg0) := by
  dsimp only [chunk11]
  after_results <;> rfl

/-- The stretch does not write %v2. -/
theorem chunk11_keep_v2 (W : Valuation τ sig (Elt F)) :
    after (chunk11 (F := F)) W (Proc.devRef .tc main_v2) = W (Proc.devRef .tc main_v2) := by
  dsimp only [chunk11]
  after_results <;> rfl

/-- The stretch does not write %v4. -/
theorem chunk11_keep_v4 (W : Valuation τ sig (Elt F)) :
    after (chunk11 (F := F)) W (Proc.devRef .tc main_v4) = W (Proc.devRef .tc main_v4) := by
  dsimp only [chunk11]
  after_results <;> rfl

/-- The stretch does not write %v54. -/
theorem chunk11_keep_v54 (W : Valuation τ sig (Elt F)) :
    after (chunk11 (F := F)) W (Proc.devRef .tc main_v54) = W (Proc.devRef .tc main_v54) := by
  dsimp only [chunk11]
  after_results <;> rfl

/-! ## Stretch 12: operations 164 … 178 -/

/-- Three Taylor steps, t ↦ (t · s) / (i+1) and p ↦ p + t, for i = 13, 14, 15: the order-16 polynomial p₁₆. -/
abbrev chunk12 : List (HloOp τ sig (Elt F)) :=
  [ binary main_v110 main_v54 main_v112 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_22 (constant S_ .f32 0x41600000#32),
    unary main_cst_22 main_v113 (broadcastInDim S512x8x20x20 ![] bcast_S_S512x8x20x20 : (⟨S_, .f32⟩ : BufTy).Contents (Elt F) → (⟨S512x8x20x20, .f32⟩ : BufTy).Contents (Elt F)),
    binary main_v112 main_v113 main_v114 (Host.divf : (⟨S512x8x20x20, .f32⟩ : BufTy).Contents (Elt F) → (⟨S512x8x20x20, .f32⟩ : BufTy).Contents (Elt F) → (⟨S512x8x20x20, .f32⟩ : BufTy).Contents (Elt F)),
    binary main_v111 main_v114 main_v115 (addf : (⟨S512x8x20x20, .f32⟩ : BufTy).Contents (Elt F) → (⟨S512x8x20x20, .f32⟩ : BufTy).Contents (Elt F) → (⟨S512x8x20x20, .f32⟩ : BufTy).Contents (Elt F)),
    binary main_v114 main_v54 main_v116 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_23 (constant S_ .f32 0x41700000#32),
    unary main_cst_23 main_v117 (broadcastInDim S512x8x20x20 ![] bcast_S_S512x8x20x20 : (⟨S_, .f32⟩ : BufTy).Contents (Elt F) → (⟨S512x8x20x20, .f32⟩ : BufTy).Contents (Elt F)),
    binary main_v116 main_v117 main_v118 (Host.divf : (⟨S512x8x20x20, .f32⟩ : BufTy).Contents (Elt F) → (⟨S512x8x20x20, .f32⟩ : BufTy).Contents (Elt F) → (⟨S512x8x20x20, .f32⟩ : BufTy).Contents (Elt F)),
    binary main_v115 main_v118 main_v119 (addf : (⟨S512x8x20x20, .f32⟩ : BufTy).Contents (Elt F) → (⟨S512x8x20x20, .f32⟩ : BufTy).Contents (Elt F) → (⟨S512x8x20x20, .f32⟩ : BufTy).Contents (Elt F)),
    binary main_v118 main_v54 main_v120 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    nullary main_cst_24 (constant S_ .f32 0x41800000#32),
    unary main_cst_24 main_v121 (broadcastInDim S512x8x20x20 ![] bcast_S_S512x8x20x20 : (⟨S_, .f32⟩ : BufTy).Contents (Elt F) → (⟨S512x8x20x20, .f32⟩ : BufTy).Contents (Elt F)),
    binary main_v120 main_v121 main_v122 (Host.divf : (⟨S512x8x20x20, .f32⟩ : BufTy).Contents (Elt F) → (⟨S512x8x20x20, .f32⟩ : BufTy).Contents (Elt F) → (⟨S512x8x20x20, .f32⟩ : BufTy).Contents (Elt F)),
    binary main_v119 main_v122 main_v123 (addf : (⟨S512x8x20x20, .f32⟩ : BufTy).Contents (Elt F) → (⟨S512x8x20x20, .f32⟩ : BufTy).Contents (Elt F) → (⟨S512x8x20x20, .f32⟩ : BufTy).Contents (Elt F)) ]

set_option maxHeartbeats 2000000 in
/-- What the stretch leaves at %v123: that stage's value, as soon as the buffers the stretch reads hold the earlier stages' values. -/
theorem chunk12_v123 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v54 : W (Proc.devRef .tc main_v54) = val_main_v54 (F := F) x1 x2 x3 x4)
    (h_v110 : W (Proc.devRef .tc main_v110) = val_main_v110 (F := F) x1 x2 x3 x4)
    (h_v111 : W (Proc.devRef .tc main_v111) = val_main_v111 (F := F) x1 x2 x3 x4) :
    after (chunk12 (F := F)) W (Proc.devRef .tc main_v123) = val_main_v123 (F := F) x1 x2 x3 x4 := by
  dsimp only [chunk12]
  after_results
  try simp only [TRef.ofBuf, TRef.toBuf, cast_eq]
  rw [h_v54, h_v110, h_v111]
  rfl

/-- The stretch does not write %arg0. -/
theorem chunk12_keep_arg0 (W : Valuation τ sig (Elt F)) :
    after (chunk12 (F := F)) W (Proc.devRef .tc main_arg0) = W (Proc.devRef .tc main_arg0) := by
  dsimp only [chunk12]
  after_results <;> rfl

/-- The stretch does not write %v2. -/
theorem chunk12_keep_v2 (W : Valuation τ sig (Elt F)) :
    after (chunk12 (F := F)) W (Proc.devRef .tc main_v2) = W (Proc.devRef .tc main_v2) := by
  dsimp only [chunk12]
  after_results <;> rfl

/-- The stretch does not write %v4. -/
theorem chunk12_keep_v4 (W : Valuation τ sig (Elt F)) :
    after (chunk12 (F := F)) W (Proc.devRef .tc main_v4) = W (Proc.devRef .tc main_v4) := by
  dsimp only [chunk12]
  after_results <;> rfl

end Cert.ReferenceIdeal.RefVal

end
-- ==== Proof.RVd.lean ====
/-
  Stretches 13 to 17: the six squarings, the gathered rows, the one-hot rows and the result.

  The reference program's 226 host operations are read stretch by stretch. A stretch is a short run of consecutive
  operations; it is read over ARBITRARY contents `W` of the device's buffers before it: as soon as the buffers the
  stretch reads hold the values of the earlier stages (`val_…`, one definition per operation, each over the stages
  before it), the buffers it writes hold the values of its own stages, and every other buffer is left as it was.
  No law of the floats is used, and the float family `F` is arbitrary: the two sides are the same operations applied
  to the same earlier values.
-/
import proofs.«402584_j57200374448411_3_alg».proof.Proof.RefStages
import Idealize.ShloMosaic.Lib.StableHlo.Run

set_option maxRecDepth 8192

noncomputable section

namespace Cert.ReferenceIdeal.RefVal

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-! ## Stretch 13: operations 179 … 184 -/

/-- The six squarings. -/
abbrev chunk13 : List (HloOp τ sig (Elt F)) :=
  [ binary main_v123 main_v123 main_v124 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    binary main_v124 main_v124 main_v125 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    binary main_v125 main_v125 main_v126 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    binary main_v126 main_v126 main_v127 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    binary main_v127 main_v127 main_v128 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)),
    binary main_v128 main_v128 main_v129 ((fun l r => Host.dotGeneral dot_S512x8x20x20_S512x8x20x20_S512x8x20x20_3_2_2_3_01_01 none l r) : (⟨S512x8x20x20, .f32⟩ : BufTy).Contents (Elt F) → (⟨S512x8x20x20, .f32⟩ : BufTy).Contents (Elt F) → (⟨S512x8x20x20, .f32⟩ : BufTy).Contents (Elt F)) ]

set_option maxHeartbeats 2000000 in
/-- What the stretch leaves at %v129: that stage's value, as soon as the buffers the stretch reads hold the earlier stages' values. -/
theorem chunk13_v129 (W : Valuation τ sig (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v123 : W (Proc.devRef .tc main_v123) = val_main_v123 (F := F) x1 x2 x3 x4) :
    after (chunk13 (F := F)) W (Proc.devRef .tc main_v129) = val_main_v129 (F := F) x1 x2 x3 x4 := by
  dsimp only [chunk13]
  after_results
  try simp only [TRef.ofBuf, TRef.toBuf, cast_eq]
  rw [h_v123]
  rfl

/-- The stretch does not write %arg0. -/
theorem chunk13_keep_arg0 (W : Valuation τ sig (Elt F)) :
    after (chunk13 (F := F)) W (Proc.devRef .tc main_arg0) = W (Proc.devRef .tc main_arg0) := by
  dsimp only [chunk13]
  after_results <;> rfl

/-- The stretch does not write %v2. -/
theorem chunk13_keep_v2 (W : Valuation τ sig (Elt F)) :
    after (chunk13 (F := F)) W (Proc.devRef .tc main_v2) = W (Proc.devRef .tc main_v2) := by
  dsimp only [chunk13]
  after_results <;> rfl

/-- The stretch does not write %v4. -/
theorem chunk13_keep_v4 (W : Valuation τ sig (Elt F)) :
    after (chunk13 (F := F)) W (Proc.devRef .tc main_v4) = W (Proc.devRef .tc main_v4) := by
  dsimp only [chunk13]
  after_results <;> rfl

/-! ## Stretch 14: operations 185 … 200 -/

/-- The batch index as a column, and the standard token with a negative value wrapped by 20. -/
abbrev chunk14 : List (HloOp τ sig (Elt F)) :=
  [ nullary main_v130 (iotaInDim S512 32 0),
    unary main_v130 main_v131 (broadcastInDim S512x1 ![0] bcast_S512_S512x1_0 : (⟨S512, .i32⟩ : BufTy).Contents (Elt F) → (⟨S512x1, .i32⟩ : BufTy).Contents (Elt F)),
    nullary main_c_25 (constantI S_ 32 0#32),
    unary main_c_25 main_v132 (broadcastInDim S512x1 ![] bcast_S_S512x1 : (⟨S_, .i32⟩ : BufTy).Contents (Elt F) → (⟨S512x1, .i32⟩ : BufTy).Contents (Elt F)),
    binary main_v131 main_v132 main_v133 (cmpi .slt : (⟨S512x1, .i32⟩ : BufTy).Contents (Elt F) → (⟨S512x1, .i32⟩ : BufTy).Contents (Elt F) → (⟨S512x1, .i1⟩ : BufTy).Contents (Elt F)),
    nullary main_c_26 (constantI S_ 32 512#32),
    unary main_c_26 main_v134 (broadcastInDim S512x1 ![] bcast_S_S512x1 : (⟨S_, .i32⟩ : BufTy).Contents (Elt F) → (⟨S512x1, .i32⟩ : BufTy).Contents (Elt F)),
    binary main_v131 main_v134 main_v135 (addi : (⟨S512x1, .i32⟩ : BufTy).Contents (Elt F) → (⟨S512x1, .i32⟩ : BufTy).Contents (Elt F) → (⟨S512x1, .i32⟩ : BufTy).Contents (Elt F)),
    ternary main_v133 main_v135 main_v131 main_v136 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    nullary main_c_27 (constantI S_ 32 0#32),
    unary main_c_27 main_v137 (broadcastInDim S512x1024 ![] bcast_S_S512x1024 : (⟨S_, .i32⟩ : BufTy).Contents (Elt F) → (⟨S512x1024, .i32⟩ : BufTy).Contents (Elt F)),
    binary main_v2 main_v137 main_v138 (cmpi .slt : (⟨S512x1024, .i32⟩ : BufTy).Contents (Elt F) → (⟨S512x1024, .i32⟩ : BufTy).Contents (Elt F) → (⟨S512x1024, .i1⟩ : BufTy).Contents (Elt F)),
    nullary main_c_28 (constantI S_ 32 20#32),
    unary main_c_28 main_v139 (broadcastInDim S512x1024 ![] bcast_S_S512x1024 : (⟨S_, .i32⟩ : BufTy).Contents (Elt F) → (⟨S512x1024, .i32⟩ : BufTy).Contents (Elt F)),
    binary main_v2 main_v139 main_v140 (addi : (⟨S512x1024, .i32⟩ : BufTy).Contents (Elt F) → (⟨S512x1024, .i32⟩ : BufTy).Contents (Elt F) → (⟨S512x1024, .i32⟩ : BufTy).Contents (Elt F)),
    ternary main_v138 main_v140 main_v2 main_v141 (select : (⟨S512x1024, .i1⟩ : BufTy).Contents (Elt F) → (⟨S512x1024, .i32⟩ : BufTy).Contents (Elt F) → (⟨S512x1024, .i32⟩ : BufTy).Contents (Elt F) → (⟨S512x1024, .i32⟩ : BufTy).Contents (Elt F)) ]

set_option maxHeartbeats 2000000 in
/-- What the stretch leaves at %v136: that stage's value, as soon as the buffers the stretch reads hold the earlier stages' values. -/
theorem chunk14_v136 (W : Valuation τ sig (Elt F)) :
    after (chunk14 (F := F)) W (Proc.devRef .tc main_v136) = val_main_v136 (F := F) := by
  dsimp only [chunk14]
  after_results
  try simp only [TRef.ofBuf, TRef.toBuf, cast_eq]
  rfl

set_option maxHeartbeats 2000000 in
/-- What the stretch leaves at %v141: that stage's value, as soon as the buffers the stretch reads hold the earlier stages' values. -/
theorem chunk14_v141 (W : Valuation τ sig (Elt F))
    (x0 : (⟨S512x1024, .i32⟩ : BufTy).Contents (Elt F))
    (h_v2 : W (Proc.devRef .tc main_v2) = val_main_v2 (F := F) x0) :
    after (chunk14 (F := F)) W (Proc.devRef .tc main_v141) = val_main_v141 (F := F) x0 := by
  dsimp only [chunk14]
  after_results
  try simp only [TRef.ofBuf, TRef.toBuf, cast_eq]
  rw [h_v2]
  rfl

/-- The stretch does not write %arg0. -/
theorem chunk14_keep_arg0 (W : Valuation τ sig (Elt F)) :
    after (chunk14 (F := F)) W (Proc.devRef .tc main_arg0) = W (Proc.devRef .tc main_arg0) := by
  dsimp only [chunk14]
  after_results <;> rfl

/-- The stretch does not write %v4. -/
theorem chunk14_keep_v4 (W : Valuation τ sig (Elt F)) :
    after (chunk14 (F := F)) W (Proc.devRef .tc main_v4) = W (Proc.devRef .tc main_v4) := by
  dsimp only [chunk14]
  after_results <;> rfl

/-- The stretch does not write %v129. -/
theorem chunk14_keep_v129 (W : Valuation τ sig (Elt F)) :
    after (chunk14 (F := F)) W (Proc.devRef .tc main_v129) = W (Proc.devRef .tc main_v129) := by
  dsimp only [chunk14]
  after_results <;> rfl

/-! ## Stretch 15: operations 201 … 204 -/

/-- The index pairs (batch, standard token). -/
abbrev chunk15 : List (HloOp τ sig (Elt F)) :=
  [ unary main_v136 main_v142 (broadcastInDim S512x1024 ![0, 1] bcast_S512x1_S512x1024_0_1 : (⟨S512x1, .i32⟩ : BufTy).Contents (Elt F) → (⟨S512x1024, .i32⟩ : BufTy).Contents (Elt F)),
    unary main_v142 main_v143 (broadcastInDim S512x1024x1 ![0, 1] bcast_S512x1024_S512x1024x1_0_1 : (⟨S512x1024, .i32⟩ : BufTy).Contents (Elt F) → (⟨S512x1024x1, .i32⟩ : BufTy).Contents (Elt F)),
    unary main_v141 main_v144 (broadcastInDim S512x1024x1 ![0, 1] bcast_S512x1024_S512x1024x1_0_1 : (⟨S512x1024, .i32⟩ : BufTy).Contents (Elt F) → (⟨S512x1024x1, .i32⟩ : BufTy).Contents (Elt F)),
    binary main_v143 main_v144 main_v145 ((fun a b => concatenate S512x1024x2 2 [⟨S512x1024x1, a⟩, ⟨S512x1024x1, b⟩] concatenates_S512x1024x1_S512x1024x1_S512x1024x2_d2) : (⟨S512x1024x1, .i32⟩ : BufTy).Contents (Elt F) → (⟨S512x1024x1, .i32⟩ : BufTy).Contents (Elt F) → (⟨S512x1024x2, .i32⟩ : BufTy).Contents (Elt F)) ]

set_option maxHeartbeats 2000000 in
/-- What the stretch leaves at %v145: that stage's value, as soon as the buffers the stretch reads hold the earlier stages' values. -/
theorem chunk15_v145 (W : Valuation τ sig (Elt F))
    (x0 : (⟨S512x1024, .i32⟩ : BufTy).Contents (Elt F))
    (h_v136 : W (Proc.devRef .tc main_v136) = val_main_v136 (F := F))
    (h_v141 : W (Proc.devRef .tc main_v141) = val_main_v141 (F := F) x0) :
    after (chunk15 (F := F)) W (Proc.devRef .tc main_v145) = val_main_v145 (F := F) x0 := by
  dsimp only [chunk15]
  after_results
  try simp only [TRef.ofBuf, TRef.toBuf, cast_eq]
  rw [h_v136, h_v141]
  rfl

/-- The stretch does not write %arg0. -/
theorem chunk15_keep_arg0 (W : Valuation τ sig (Elt F)) :
    after (chunk15 (F := F)) W (Proc.devRef .tc main_arg0) = W (Proc.devRef .tc main_arg0) := by
  dsimp only [chunk15]
  after_results <;> rfl

/-- The stretch does not write %v4. -/
theorem chunk15_keep_v4 (W : Valuation τ sig (Elt F)) :
    after (chunk15 (F := F)) W (Proc.devRef .tc main_v4) = W (Proc.devRef .tc main_v4) := by
  dsimp only [chunk15]
  after_results <;> rfl

/-- The stretch does not write %v129. -/
theorem chunk15_keep_v129 (W : Valuation τ sig (Elt F)) :
    after (chunk15 (F := F)) W (Proc.devRef .tc main_v129) = W (Proc.devRef .tc main_v129) := by
  dsimp only [chunk15]
  after_results <;> rfl

/-! ## Stretch 16: operations 205 … 210 -/

/-- The gathered rows of the squared polynomial, times the mask, padded from 20 to 26 columns with zeros. -/
abbrev chunk16 : List (HloOp τ sig (Elt F)) :=
  [ binary main_v129 main_v145 main_v146 ((fun x i => Host.gather gather_S512x8x20x20_S512x1024x2_S512x1024x8x20_23_02_n_n_02_2_18120 x i) : (⟨S512x8x20x20, .f32⟩ : BufTy).Contents (Elt F) → (⟨S512x1024x2, .i32⟩ : BufTy).Contents (Elt F) → (⟨S512x1024x8x20, .f32⟩ : BufTy).Contents (Elt F)),
    unary main_v4 main_v147 (broadcastInDim S512x1024x8x20 ![0, 1, 2, 3] bcast_S512x1024x1x1_S512x1024x8x20_0_1_2_3 : (⟨S512x1024x1x1, .f32⟩ : BufTy).Contents (Elt F) → (⟨S512x1024x8x20, .f32⟩ : BufTy).Contents (Elt F)),
    binary main_v146 main_v147 main_v148 (mulf : (⟨S512x1024x8x20, .f32⟩ : BufTy).Contents (Elt F) → (⟨S512x1024x8x20, .f32⟩ : BufTy).Contents (Elt F) → (⟨S512x1024x8x20, .f32⟩ : BufTy).Contents (Elt F)),
    nullary main_c_29 (constantI S_ 32 0#32),
    TRef.unary (TRef.of (T := ⟨S_, .i32⟩) main_c_29) (TRef.of (T := ⟨S_, .f32⟩) main_call3_v0) (sitofp .f32),
    TRef.binary (TRef.of (T := ⟨S512x1024x8x20, .f32⟩) main_v148) (TRef.of (T := ⟨S_, .f32⟩) main_call3_v0) (TRef.of (T := ⟨S512x1024x8x26, .f32⟩) main_v149) (fun x v => pad S512x1024x8x26 ![0, 0, 0, 0] ![0, 0, 0, 6] ![0, 0, 0, 0] x v pads_S512x1024x8x20_S512x1024x8x26_000_000_000_060 h_S_) ]

set_option maxHeartbeats 2000000 in
/-- What the stretch leaves at %v149: that stage's value, as soon as the buffers the stretch reads hold the earlier stages' values. -/
theorem chunk16_v149 (W : Valuation τ sig (Elt F))
    (x0 : (⟨S512x1024, .i32⟩ : BufTy).Contents (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_v4 : W (Proc.devRef .tc main_v4) = val_main_v4 (F := F) x0)
    (h_v129 : W (Proc.devRef .tc main_v129) = val_main_v129 (F := F) x1 x2 x3 x4)
    (h_v145 : W (Proc.devRef .tc main_v145) = val_main_v145 (F := F) x0) :
    after (chunk16 (F := F)) W (Proc.devRef .tc main_v149) = val_main_v149 (F := F) x0 x1 x2 x3 x4 := by
  dsimp only [chunk16]
  after_results
  try simp only [TRef.ofBuf, TRef.toBuf, cast_eq]
  rw [h_v4, h_v129, h_v145]
  rfl

/-- The stretch does not write %arg0. -/
theorem chunk16_keep_arg0 (W : Valuation τ sig (Elt F)) :
    after (chunk16 (F := F)) W (Proc.devRef .tc main_arg0) = W (Proc.devRef .tc main_arg0) := by
  dsimp only [chunk16]
  after_results <;> rfl

/-- The stretch does not write %v4. -/
theorem chunk16_keep_v4 (W : Valuation τ sig (Elt F)) :
    after (chunk16 (F := F)) W (Proc.devRef .tc main_v4) = W (Proc.devRef .tc main_v4) := by
  dsimp only [chunk16]
  after_results <;> rfl

/-! ## Stretch 17: operations 211 … 225 -/

/-- The one-hot pattern of the token times one minus the mask, repeated over the eight rate categories, added to the padded rows, and the result flattened to [512,1024,208]. -/
abbrev chunk17 : List (HloOp τ sig (Elt F)) :=
  [ TRef.unary (TRef.of (T := ⟨S512x1024, .i32⟩) main_arg0) (TRef.of (T := ⟨S512x1024x1, .i32⟩) main_call4_v0) (broadcastInDim S512x1024x1 ![0, 1] bcast_S512x1024_S512x1024x1_0_1),
    TRef.nullary (TRef.of (T := ⟨S1x1x26, .i32⟩) main_call4_v1) (iotaInDim S1x1x26 32 2),
    TRef.unary (TRef.of (T := ⟨S512x1024x1, .i32⟩) main_call4_v0) (TRef.of (T := ⟨S512x1024x26, .i32⟩) main_call4_v2) (broadcastInDim S512x1024x26 ![0, 1, 2] bcast_S512x1024x1_S512x1024x26_0_1_2),
    TRef.unary (TRef.of (T := ⟨S1x1x26, .i32⟩) main_call4_v1) (TRef.of (T := ⟨S512x1024x26, .i32⟩) main_call4_v3) (broadcastInDim S512x1024x26 ![0, 1, 2] bcast_S1x1x26_S512x1024x26_0_1_2),
    TRef.binary (TRef.of (T := ⟨S512x1024x26, .i32⟩) main_call4_v2) (TRef.of (T := ⟨S512x1024x26, .i32⟩) main_call4_v3) (TRef.of (T := ⟨S512x1024x26, .i1⟩) main_call4_v4) (cmpi .eq),
    TRef.unary (TRef.of (T := ⟨S512x1024x26, .i1⟩) main_call4_v4) (TRef.of (T := ⟨S512x1024x26, .f32⟩) main_v150) (uitofp .f32),
    unary main_v150 main_v151 (broadcastInDim S512x1024x1x26 ![0, 1, 3] bcast_S512x1024x26_S512x1024x1x26_0_1_3 : (⟨S512x1024x26, .f32⟩ : BufTy).Contents (Elt F) → (⟨S512x1024x1x26, .f32⟩ : BufTy).Contents (Elt F)),
    nullary main_cst_30 (constant S_ .f32 0x3F800000#32),
    unary main_cst_30 main_v152 (broadcastInDim S512x1024x1x1 ![] bcast_S_S512x1024x1x1 : (⟨S_, .f32⟩ : BufTy).Contents (Elt F) → (⟨S512x1024x1x1, .f32⟩ : BufTy).Contents (Elt F)),
    binary main_v152 main_v4 main_v153 (subf : (⟨S512x1024x1x1, .f32⟩ : BufTy).Contents (Elt F) → (⟨S512x1024x1x1, .f32⟩ : BufTy).Contents (Elt F) → (⟨S512x1024x1x1, .f32⟩ : BufTy).Contents (Elt F)),
    unary main_v153 main_v154 (broadcastInDim S512x1024x1x26 ![0, 1, 2, 3] bcast_S512x1024x1x1_S512x1024x1x26_0_1_2_3 : (⟨S512x1024x1x1, .f32⟩ : BufTy).Contents (Elt F) → (⟨S512x1024x1x26, .f32⟩ : BufTy).Contents (Elt F)),
    binary main_v151 main_v154 main_v155 (mulf : (⟨S512x1024x1x26, .f32⟩ : BufTy).Contents (Elt F) → (⟨S512x1024x1x26, .f32⟩ : BufTy).Contents (Elt F) → (⟨S512x1024x1x26, .f32⟩ : BufTy).Contents (Elt F)),
    unary main_v155 main_v156 (broadcastInDim S512x1024x8x26 ![0, 1, 2, 3] bcast_S512x1024x1x26_S512x1024x8x26_0_1_2_3 : (⟨S512x1024x1x26, .f32⟩ : BufTy).Contents (Elt F) → (⟨S512x1024x8x26, .f32⟩ : BufTy).Contents (Elt F)),
    binary main_v149 main_v156 main_v157 (addf : (⟨S512x1024x8x26, .f32⟩ : BufTy).Contents (Elt F) → (⟨S512x1024x8x26, .f32⟩ : BufTy).Contents (Elt F) → (⟨S512x1024x8x26, .f32⟩ : BufTy).Contents (Elt F)),
    reshape main_v157 main_v158 rfl shapeCasts_S512x1024x8x26_S512x1024x208 ]

set_option maxHeartbeats 2000000 in
/-- What the stretch leaves at %v158: that stage's value, as soon as the buffers the stretch reads hold the earlier stages' values. -/
theorem chunk17_v158 (W : Valuation τ sig (Elt F))
    (x0 : (⟨S512x1024, .i32⟩ : BufTy).Contents (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (h_arg0 : W (Proc.devRef .tc main_arg0) = x0)
    (h_v4 : W (Proc.devRef .tc main_v4) = val_main_v4 (F := F) x0)
    (h_v149 : W (Proc.devRef .tc main_v149) = val_main_v149 (F := F) x0 x1 x2 x3 x4) :
    after (chunk17 (F := F)) W (Proc.devRef .tc main_v158) = val_main_v158 (F := F) x0 x1 x2 x3 x4 := by
  dsimp only [chunk17]
  after_results
  try simp only [TRef.ofBuf, TRef.toBuf, cast_eq]
  rw [h_arg0, h_v4, h_v149]
  rfl

end Cert.ReferenceIdeal.RefVal

end
-- ==== Proof.RefVal.lean ====
/-
  The reference program's result buffer holds the last stage.

  The 226 host operations are cut into eighteen consecutive stretches. `Vk k` is what the device's buffers hold after the
  first `k` stretches, from the launch memory. Each stretch has been read over arbitrary contents before it
  (the stretch modules); here the readings are chained: after each stretch every buffer a later stretch reads
  holds its stage's value (or, for an argument, the launch memory's contents), so after the last one the result buffer
  holds the stage of the last operation. The float family is arbitrary throughout.
-/
import proofs.«402584_j57200374448411_3_alg».proof.Proof.RefRun
import proofs.«402584_j57200374448411_3_alg».proof.Proof.RefStages
import Idealize.ShloMosaic.Lib.StableHlo.Run
import proofs.«402584_j57200374448411_3_alg».proof.Proof.RVa
import proofs.«402584_j57200374448411_3_alg».proof.Proof.RVb
import proofs.«402584_j57200374448411_3_alg».proof.Proof.RVc
import proofs.«402584_j57200374448411_3_alg».proof.Proof.RVd

set_option maxRecDepth 8192

noncomputable section

namespace Cert.ReferenceIdeal.RefVal

open Cert.ReferenceIdeal Cert.ReferenceIdeal.Gen Cert.ReferenceIdeal.RefRun Cert.ReferenceIdeal.Stages Idealize.ShloMosaic Idealize.ShloMosaic.TcCoe Idealize.SL.Sem Idealize.ShloMosaic.StableHlo

variable {F : FTy → Type} [FloatOps F]

/-- The contents after two lines of operations in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxHeartbeats 4000000 in
/-- The 226 operations are the eighteen stretches in a row. -/
theorem ops_cut : (ops : List (HloOp τ sig (Elt F)))
    = chunk0 ++ (chunk1 ++ (chunk2 ++ (chunk3 ++ (chunk4 ++ (chunk5 ++ (chunk6 ++ (chunk7 ++ (chunk8 ++ (chunk9 ++ (chunk10 ++ (chunk11 ++ (chunk12 ++ (chunk13 ++ (chunk14 ++ (chunk15 ++ (chunk16 ++ (chunk17))))))))))))))))) := rfl

/-- The device's buffers at the launch. -/
def Vk0 (m : (ℓ : Loc nD τ sig) → Buf (Elt F) ℓ) (c : Dev nD) : Valuation τ sig (Elt F) := launchContents m c
/-- The device's buffers after stretches 0 … 0. -/
def Vk1 (m : (ℓ : Loc nD τ sig) → Buf (Elt F) ℓ) (c : Dev nD) : Valuation τ sig (Elt F) := after (chunk0 (F := F)) (Vk0 m c)
/-- The device's buffers after stretches 0 … 1. -/
def Vk2 (m : (ℓ : Loc nD τ sig) → Buf (Elt F) ℓ) (c : Dev nD) : Valuation τ sig (Elt F) := after (chunk1 (F := F)) (Vk1 m c)
/-- The device's buffers after stretches 0 … 2. -/
def Vk3 (m : (ℓ : Loc nD τ sig) → Buf (Elt F) ℓ) (c : Dev nD) : Valuation τ sig (Elt F) := after (chunk2 (F := F)) (Vk2 m c)
/-- The device's buffers after stretches 0 … 3. -/
def Vk4 (m : (ℓ : Loc nD τ sig) → Buf (Elt F) ℓ) (c : Dev nD) : Valuation τ sig (Elt F) := after (chunk3 (F := F)) (Vk3 m c)
/-- The device's buffers after stretches 0 … 4. -/
def Vk5 (m : (ℓ : Loc nD τ sig) → Buf (Elt F) ℓ) (c : Dev nD) : Valuation τ sig (Elt F) := after (chunk4 (F := F)) (Vk4 m c)
/-- The device's buffers after stretches 0 … 5. -/
def Vk6 (m : (ℓ : Loc nD τ sig) → Buf (Elt F) ℓ) (c : Dev nD) : Valuation τ sig (Elt F) := after (chunk5 (F := F)) (Vk5 m c)
/-- The device's buffers after stretches 0 … 6. -/
def Vk7 (m : (ℓ : Loc nD τ sig) → Buf (Elt F) ℓ) (c : Dev nD) : Valuation τ sig (Elt F) := after (chunk6 (F := F)) (Vk6 m c)
/-- The device's buffers after stretches 0 … 7. -/
def Vk8 (m : (ℓ : Loc nD τ sig) → Buf (Elt F) ℓ) (c : Dev nD) : Valuation τ sig (Elt F) := after (chunk7 (F := F)) (Vk7 m c)
/-- The device's buffers after stretches 0 … 8. -/
def Vk9 (m : (ℓ : Loc nD τ sig) → Buf (Elt F) ℓ) (c : Dev nD) : Valuation τ sig (Elt F) := after (chunk8 (F := F)) (Vk8 m c)
/-- The device's buffers after stretches 0 … 9. -/
def Vk10 (m : (ℓ : Loc nD τ sig) → Buf (Elt F) ℓ) (c : Dev nD) : Valuation τ sig (Elt F) := after (chunk9 (F := F)) (Vk9 m c)
/-- The device's buffers after stretches 0 … 10. -/
def Vk11 (m : (ℓ : Loc nD τ sig) → Buf (Elt F) ℓ) (c : Dev nD) : Valuation τ sig (Elt F) := after (chunk10 (F := F)) (Vk10 m c)
/-- The device's buffers after stretches 0 … 11. -/
def Vk12 (m : (ℓ : Loc nD τ sig) → Buf (Elt F) ℓ) (c : Dev nD) : Valuation τ sig (Elt F) := after (chunk11 (F := F)) (Vk11 m c)
/-- The device's buffers after stretches 0 … 12. -/
def Vk13 (m : (ℓ : Loc nD τ sig) → Buf (Elt F) ℓ) (c : Dev nD) : Valuation τ sig (Elt F) := after (chunk12 (F := F)) (Vk12 m c)
/-- The device's buffers after stretches 0 … 13. -/
def Vk14 (m : (ℓ : Loc nD τ sig) → Buf (Elt F) ℓ) (c : Dev nD) : Valuation τ sig (Elt F) := after (chunk13 (F := F)) (Vk13 m c)
/-- The device's buffers after stretches 0 … 14. -/
def Vk15 (m : (ℓ : Loc nD τ sig) → Buf (Elt F) ℓ) (c : Dev nD) : Valuation τ sig (Elt F) := after (chunk14 (F := F)) (Vk14 m c)
/-- The device's buffers after stretches 0 … 15. -/
def Vk16 (m : (ℓ : Loc nD τ sig) → Buf (Elt F) ℓ) (c : Dev nD) : Valuation τ sig (Elt F) := after (chunk15 (F := F)) (Vk15 m c)
/-- The device's buffers after stretches 0 … 16. -/
def Vk17 (m : (ℓ : Loc nD τ sig) → Buf (Elt F) ℓ) (c : Dev nD) : Valuation τ sig (Elt F) := after (chunk16 (F := F)) (Vk16 m c)
/-- The device's buffers after stretches 0 … 17. -/
def Vk18 (m : (ℓ : Loc nD τ sig) → Buf (Elt F) ℓ) (c : Dev nD) : Valuation τ sig (Elt F) := after (chunk17 (F := F)) (Vk17 m c)

/-- The result buffer's contents after the run are its contents after the last stretch. -/
theorem res_Vk (m : (ℓ : Loc nD τ sig) → Buf (Elt F) ℓ) (c : Dev nD) :
    res_main_v158 (F := F) m c = Vk18 m c (Proc.devRef .tc main_v158) := by
  unfold res_main_v158
  rw [ops_cut]
  simp only [after_app]
  rfl

set_option maxHeartbeats 4000000 in
/-- The chain of the eighteen readings, over names for the five arguments' contents at the launch. -/
theorem res_eq_of (m : (ℓ : Loc nD τ sig) → Buf (Elt F) ℓ) (c : Dev nD)
    (x0 : (⟨S512x1024, .i32⟩ : BufTy).Contents (Elt F))
    (x1 : (⟨S512, .i32⟩ : BufTy).Contents (Elt F))
    (x2 : (⟨S512, .f32⟩ : BufTy).Contents (Elt F))
    (x3 : (⟨S8x20x20, .f32⟩ : BufTy).Contents (Elt F))
    (x4 : (⟨S20, .f32⟩ : BufTy).Contents (Elt F))
    (a_arg0 : Vk0 m c (Proc.devRef .tc main_arg0) = x0)
    (a_arg1 : Vk0 m c (Proc.devRef .tc main_arg1) = x1)
    (a_arg2 : Vk0 m c (Proc.devRef .tc main_arg2) = x2)
    (a_arg3 : Vk0 m c (Proc.devRef .tc main_arg3) = x3)
    (a_arg4 : Vk0 m c (Proc.devRef .tc main_arg4) = x4) :
    res_main_v158 (F := F) m c = val_main_v158 (F := F) x0 x1 x2 x3 x4 := by
  -- after stretch 0
  have k0_arg0 : Vk1 m c (Proc.devRef .tc main_arg0) = x0 := (chunk0_keep_arg0 (Vk0 m c)).trans a_arg0
  have k0_arg1 : Vk1 m c (Proc.devRef .tc main_arg1) = x1 := (chunk0_keep_arg1 (Vk0 m c)).trans a_arg1
  have k0_arg2 : Vk1 m c (Proc.devRef .tc main_arg2) = x2 := (chunk0_keep_arg2 (Vk0 m c)).trans a_arg2
  have k0_arg3 : Vk1 m c (Proc.devRef .tc main_arg3) = x3 := (chunk0_keep_arg3 (Vk0 m c)).trans a_arg3
  have k0_arg4 : Vk1 m c (Proc.devRef .tc main_arg4) = x4 := (chunk0_keep_arg4 (Vk0 m c)).trans a_arg4
  have k0_v2 : Vk1 m c (Proc.devRef .tc main_v2) = val_main_v2 (F := F) x0 :=
    chunk0_v2 (Vk0 m c) x0 a_arg0
  have k0_v4 : Vk1 m c (Proc.devRef .tc main_v4) = val_main_v4 (F := F) x0 :=
    chunk0_v4 (Vk0 m c) x0 a_arg0
  -- after stretch 1
  have k1_arg0 : Vk2 m c (Proc.devRef .tc main_arg0) = x0 := (chunk1_keep_arg0 (Vk1 m c)).trans k0_arg0
  have k1_arg1 : Vk2 m c (Proc.devRef .tc main_arg1) = x1 := (chunk1_keep_arg1 (Vk1 m c)).trans k0_arg1
  have k1_arg2 : Vk2 m c (Proc.devRef .tc main_arg2) = x2 := (chunk1_keep_arg2 (Vk1 m c)).trans k0_arg2
  have k1_arg4 : Vk2 m c (Proc.devRef .tc main_arg4) = x4 := (chunk1_keep_arg4 (Vk1 m c)).trans k0_arg4
  have k1_v2 : Vk2 m c (Proc.devRef .tc main_v2) = val_main_v2 (F := F) x0 := (chunk1_keep_v2 (Vk1 m c)).trans k0_v2
  have k1_v4 : Vk2 m c (Proc.devRef .tc main_v4) = val_main_v4 (F := F) x0 := (chunk1_keep_v4 (Vk1 m c)).trans k0_v4
  have k1_v10 : Vk2 m c (Proc.devRef .tc main_v10) = val_main_v10 (F := F) :=
    chunk1_v10 (Vk1 m c)
  have k1_v14 : Vk2 m c (Proc.devRef .tc main_v14) = val_main_v14 (F := F) x3 :=
    chunk1_v14 (Vk1 m c) x3 k0_arg3
  -- after stretch 2
  have k2_arg0 : Vk3 m c (Proc.devRef .tc main_arg0) = x0 := (chunk2_keep_arg0 (Vk2 m c)).trans k1_arg0
  have k2_arg1 : Vk3 m c (Proc.devRef .tc main_arg1) = x1 := (chunk2_keep_arg1 (Vk2 m c)).trans k1_arg1
  have k2_arg2 : Vk3 m c (Proc.devRef .tc main_arg2) = x2 := (chunk2_keep_arg2 (Vk2 m c)).trans k1_arg2
  have k2_arg4 : Vk3 m c (Proc.devRef .tc main_arg4) = x4 := (chunk2_keep_arg4 (Vk2 m c)).trans k1_arg4
  have k2_v2 : Vk3 m c (Proc.devRef .tc main_v2) = val_main_v2 (F := F) x0 := (chunk2_keep_v2 (Vk2 m c)).trans k1_v2
  have k2_v4 : Vk3 m c (Proc.devRef .tc main_v4) = val_main_v4 (F := F) x0 := (chunk2_keep_v4 (Vk2 m c)).trans k1_v4
  have k2_v10 : Vk3 m c (Proc.devRef .tc main_v10) = val_main_v10 (F := F) := (chunk2_keep_v10 (Vk2 m c)).trans k1_v10
  have k2_v15 : Vk3 m c (Proc.devRef .tc main_v15) = val_main_v15 (F := F) x3 :=
    chunk2_v15 (Vk2 m c) x3 k1_v14
  -- after stretch 3
  have k3_arg0 : Vk4 m c (Proc.devRef .tc main_arg0) = x0 := (chunk3_keep_arg0 (Vk3 m c)).trans k2_arg0
  have k3_arg1 : Vk4 m c (Proc.devRef .tc main_arg1) = x1 := (chunk3_keep_arg1 (Vk3 m c)).trans k2_arg1
  have k3_arg2 : Vk4 m c (Proc.devRef .tc main_arg2) = x2 := (chunk3_keep_arg2 (Vk3 m c)).trans k2_arg2
  have k3_arg4 : Vk4 m c (Proc.devRef .tc main_arg4) = x4 := (chunk3_keep_arg4 (Vk3 m c)).trans k2_arg4
  have k3_v2 : Vk4 m c (Proc.devRef .tc main_v2) = val_main_v2 (F := F) x0 := (chunk3_keep_v2 (Vk3 m c)).trans k2_v2
  have k3_v4 : Vk4 m c (Proc.devRef .tc main_v4) = val_main_v4 (F := F) x0 := (chunk3_keep_v4 (Vk3 m c)).trans k2_v4
  have k3_v25 : Vk4 m c (Proc.devRef .tc main_v25) = val_main_v25 (F := F) x3 x4 :=
    chunk3_v25 (Vk3 m c) x3 x4 k2_arg4 k2_v10 k2_v15
  have k3_v30 : Vk4 m c (Proc.devRef .tc main_v30) = val_main_v30 (F := F) x3 x4 :=
    chunk3_v30 (Vk3 m c) x3 x4 k2_arg4 k2_v10 k2_v15
  -- after stretch 4
  have k4_arg0 : Vk5 m c (Proc.devRef .tc main_arg0) = x0 := (chunk4_keep_arg0 (Vk4 m c)).trans k3_arg0
  have k4_arg1 : Vk5 m c (Proc.devRef .tc main_arg1) = x1 := (chunk4_keep_arg1 (Vk4 m c)).trans k3_arg1
  have k4_arg2 : Vk5 m c (Proc.devRef .tc main_arg2) = x2 := (chunk4_keep_arg2 (Vk4 m c)).trans k3_arg2
  have k4_v2 : Vk5 m c (Proc.devRef .tc main_v2) = val_main_v2 (F := F) x0 := (chunk4_keep_v2 (Vk4 m c)).trans k3_v2
  have k4_v4 : Vk5 m c (Proc.devRef .tc main_v4) = val_main_v4 (F := F) x0 := (chunk4_keep_v4 (Vk4 m c)).trans k3_v4
  have k4_v39 : Vk5 m c (Proc.devRef .tc main_v39) = val_main_v39 (F := F) x3 x4 :=
    chunk4_v39 (Vk4 m c) x3 x4 k3_arg4 k3_v25 k3_v30
  -- after stretch 5
  have k5_arg0 : Vk6 m c (Proc.devRef .tc main_arg0) = x0 := (chunk5_keep_arg0 (Vk5 m c)).trans k4_arg0
  have k5_arg1 : Vk6 m c (Proc.devRef .tc main_arg1) = x1 := (chunk5_keep_arg1 (Vk5 m c)).trans k4_arg1
  have k5_v2 : Vk6 m c (Proc.devRef .tc main_v2) = val_main_v2 (F := F) x0 := (chunk5_keep_v2 (Vk5 m c)).trans k4_v2
  have k5_v4 : Vk6 m c (Proc.devRef .tc main_v4) = val_main_v4 (F := F) x0 := (chunk5_keep_v4 (Vk5 m c)).trans k4_v4
  have k5_v39 : Vk6 m c (Proc.devRef .tc main_v39) = val_main_v39 (F := F) x3 x4 := (chunk5_keep_v39 (Vk5 m c)).trans k4_v39
  have k5_v40 : Vk6 m c (Proc.devRef .tc main_v40) = val_main_v40 (F := F) x2 :=
    chunk5_v40 (Vk5 m c) x2 k4_arg2
  -- after stretch 6
  have k6_arg0 : Vk7 m c (Proc.devRef .tc main_arg0) = x0 := (chunk6_keep_arg0 (Vk6 m c)).trans k5_arg0
  have k6_v2 : Vk7 m c (Proc.devRef .tc main_v2) = val_main_v2 (F := F) x0 := (chunk6_keep_v2 (Vk6 m c)).trans k5_v2
  have k6_v4 : Vk7 m c (Proc.devRef .tc main_v4) = val_main_v4 (F := F) x0 := (chunk6_keep_v4 (Vk6 m c)).trans k5_v4
  have k6_v52 : Vk7 m c (Proc.devRef .tc main_v52) = val_main_v52 (F := F) x1 x2 x3 x4 :=
    chunk6_v52 (Vk6 m c) x1 x2 x3 x4 k5_arg1 k5_v39 k5_v40
  -- after stretch 7
  have k7_arg0 : Vk8 m c (Proc.devRef .tc main_arg0) = x0 := (chunk7_keep_arg0 (Vk7 m c)).trans k6_arg0
  have k7_v2 : Vk8 m c (Proc.devRef .tc main_v2) = val_main_v2 (F := F) x0 := (chunk7_keep_v2 (Vk7 m c)).trans k6_v2
  have k7_v4 : Vk8 m c (Proc.devRef .tc main_v4) = val_main_v4 (F := F) x0 := (chunk7_keep_v4 (Vk7 m c)).trans k6_v4
  have k7_v54 : Vk8 m c (Proc.devRef .tc main_v54) = val_main_v54 (F := F) x1 x2 x3 x4 :=
    chunk7_v54 (Vk7 m c) x1 x2 x3 x4 k6_v52
  have k7_v63 : Vk8 m c (Proc.devRef .tc main_v63) = val_main_v63 (F := F) x1 x2 x3 x4 :=
    chunk7_v63 (Vk7 m c) x1 x2 x3 x4 k6_v52
  -- after stretch 8
  have k8_arg0 : Vk9 m c (Proc.devRef .tc main_arg0) = x0 := (chunk8_keep_arg0 (Vk8 m c)).trans k7_arg0
  have k8_v2 : Vk9 m c (Proc.devRef .tc main_v2) = val_main_v2 (F := F) x0 := (chunk8_keep_v2 (Vk8 m c)).trans k7_v2
  have k8_v4 : Vk9 m c (Proc.devRef .tc main_v4) = val_main_v4 (F := F) x0 := (chunk8_keep_v4 (Vk8 m c)).trans k7_v4
  have k8_v54 : Vk9 m c (Proc.devRef .tc main_v54) = val_main_v54 (F := F) x1 x2 x3 x4 := (chunk8_keep_v54 (Vk8 m c)).trans k7_v54
  have k8_v74 : Vk9 m c (Proc.devRef .tc main_v74) = val_main_v74 (F := F) x1 x2 x3 x4 :=
    chunk8_v74 (Vk8 m c) x1 x2 x3 x4 k7_v54
  have k8_v75 : Vk9 m c (Proc.devRef .tc main_v75) = val_main_v75 (F := F) x1 x2 x3 x4 :=
    chunk8_v75 (Vk8 m c) x1 x2 x3 x4 k7_v54 k7_v63
  -- after stretch 9
  have k9_arg0 : Vk10 m c (Proc.devRef .tc main_arg0) = x0 := (chunk9_keep_arg0 (Vk9 m c)).trans k8_arg0
  have k9_v2 : Vk10 m c (Proc.devRef .tc main_v2) = val_main_v2 (F := F) x0 := (chunk9_keep_v2 (Vk9 m c)).trans k8_v2
  have k9_v4 : Vk10 m c (Proc.devRef .tc main_v4) = val_main_v4 (F := F) x0 := (chunk9_keep_v4 (Vk9 m c)).trans k8_v4
  have k9_v54 : Vk10 m c (Proc.devRef .tc main_v54) = val_main_v54 (F := F) x1 x2 x3 x4 := (chunk9_keep_v54 (Vk9 m c)).trans k8_v54
  have k9_v86 : Vk10 m c (Proc.devRef .tc main_v86) = val_main_v86 (F := F) x1 x2 x3 x4 :=
    chunk9_v86 (Vk9 m c) x1 x2 x3 x4 k8_v54 k8_v74
  have k9_v87 : Vk10 m c (Proc.devRef .tc main_v87) = val_main_v87 (F := F) x1 x2 x3 x4 :=
    chunk9_v87 (Vk9 m c) x1 x2 x3 x4 k8_v54 k8_v74 k8_v75
  -- after stretch 10
  have k10_arg0 : Vk11 m c (Proc.devRef .tc main_arg0) = x0 := (chunk10_keep_arg0 (Vk10 m c)).trans k9_arg0
  have k10_v2 : Vk11 m c (Proc.devRef .tc main_v2) = val_main_v2 (F := F) x0 := (chunk10_keep_v2 (Vk10 m c)).trans k9_v2
  have k10_v4 : Vk11 m c (Proc.devRef .tc main_v4) = val_main_v4 (F := F) x0 := (chunk10_keep_v4 (Vk10 m c)).trans k9_v4
  have k10_v54 : Vk11 m c (Proc.devRef .tc main_v54) = val_main_v54 (F := F) x1 x2 x3 x4 := (chunk10_keep_v54 (Vk10 m c)).trans k9_v54
  have k10_v98 : Vk11 m c (Proc.devRef .tc main_v98) = val_main_v98 (F := F) x1 x2 x3 x4 :=
    chunk10_v98 (Vk10 m c) x1 x2 x3 x4 k9_v54 k9_v86
  have k10_v99 : Vk11 m c (Proc.devRef .tc main_v99) = val_main_v99 (F := F) x1 x2 x3 x4 :=
    chunk10_v99 (Vk10 m c) x1 x2 x3 x4 k9_v54 k9_v86 k9_v87
  -- after stretch 11
  have k11_arg0 : Vk12 m c (Proc.devRef .tc main_arg0) = x0 := (chunk11_keep_arg0 (Vk11 m c)).trans k10_arg0
  have k11_v2 : Vk12 m c (Proc.devRef .tc main_v2) = val_main_v2 (F := F) x0 := (chunk11_keep_v2 (Vk11 m c)).trans k10_v2
  have k11_v4 : Vk12 m c (Proc.devRef .tc main_v4) = val_main_v4 (F := F) x0 := (chunk11_keep_v4 (Vk11 m c)).trans k10_v4
  have k11_v54 : Vk12 m c (Proc.devRef .tc main_v54) = val_main_v54 (F := F) x1 x2 x3 x4 := (chunk11_keep_v54 (Vk11 m c)).trans k10_v54
  have k11_v110 : Vk12 m c (Proc.devRef .tc main_v110) = val_main_v110 (F := F) x1 x2 x3 x4 :=
    chunk11_v110 (Vk11 m c) x1 x2 x3 x4 k10_v54 k10_v98
  have k11_v111 : Vk12 m c (Proc.devRef .tc main_v111) = val_main_v111 (F := F) x1 x2 x3 x4 :=
    chunk11_v111 (Vk11 m c) x1 x2 x3 x4 k10_v54 k10_v98 k10_v99
  -- after stretch 12
  have k12_arg0 : Vk13 m c (Proc.devRef .tc main_arg0) = x0 := (chunk12_keep_arg0 (Vk12 m c)).trans k11_arg0
  have k12_v2 : Vk13 m c (Proc.devRef .tc main_v2) = val_main_v2 (F := F) x0 := (chunk12_keep_v2 (Vk12 m c)).trans k11_v2
  have k12_v4 : Vk13 m c (Proc.devRef .tc main_v4) = val_main_v4 (F := F) x0 := (chunk12_keep_v4 (Vk12 m c)).trans k11_v4
  have k12_v123 : Vk13 m c (Proc.devRef .tc main_v123) = val_main_v123 (F := F) x1 x2 x3 x4 :=
    chunk12_v123 (Vk12 m c) x1 x2 x3 x4 k11_v54 k11_v110 k11_v111
  -- after stretch 13
  have k13_arg0 : Vk14 m c (Proc.devRef .tc main_arg0) = x0 := (chunk13_keep_arg0 (Vk13 m c)).trans k12_arg0
  have k13_v2 : Vk14 m c (Proc.devRef .tc main_v2) = val_main_v2 (F := F) x0 := (chunk13_keep_v2 (Vk13 m c)).trans k12_v2
  have k13_v4 : Vk14 m c (Proc.devRef .tc main_v4) = val_main_v4 (F := F) x0 := (chunk13_keep_v4 (Vk13 m c)).trans k12_v4
  have k13_v129 : Vk14 m c (Proc.devRef .tc main_v129) = val_main_v129 (F := F) x1 x2 x3 x4 :=
    chunk13_v129 (Vk13 m c) x1 x2 x3 x4 k12_v123
  -- after stretch 14
  have k14_arg0 : Vk15 m c (Proc.devRef .tc main_arg0) = x0 := (chunk14_keep_arg0 (Vk14 m c)).trans k13_arg0
  have k14_v4 : Vk15 m c (Proc.devRef .tc main_v4) = val_main_v4 (F := F) x0 := (chunk14_keep_v4 (Vk14 m c)).trans k13_v4
  have k14_v129 : Vk15 m c (Proc.devRef .tc main_v129) = val_main_v129 (F := F) x1 x2 x3 x4 := (chunk14_keep_v129 (Vk14 m c)).trans k13_v129
  have k14_v136 : Vk15 m c (Proc.devRef .tc main_v136) = val_main_v136 (F := F) :=
    chunk14_v136 (Vk14 m c)
  have k14_v141 : Vk15 m c (Proc.devRef .tc main_v141) = val_main_v141 (F := F) x0 :=
    chunk14_v141 (Vk14 m c) x0 k13_v2
  -- after stretch 15
  have k15_arg0 : Vk16 m c (Proc.devRef .tc main_arg0) = x0 := (chunk15_keep_arg0 (Vk15 m c)).trans k14_arg0
  have k15_v4 : Vk16 m c (Proc.devRef .tc main_v4) = val_main_v4 (F := F) x0 := (chunk15_keep_v4 (Vk15 m c)).trans k14_v4
  have k15_v129 : Vk16 m c (Proc.devRef .tc main_v129) = val_main_v129 (F := F) x1 x2 x3 x4 := (chunk15_keep_v129 (Vk15 m c)).trans k14_v129
  have k15_v145 : Vk16 m c (Proc.devRef .tc main_v145) = val_main_v145 (F := F) x0 :=
    chunk15_v145 (Vk15 m c) x0 k14_v136 k14_v141
  -- after stretch 16
  have k16_arg0 : Vk17 m c (Proc.devRef .tc main_arg0) = x0 := (chunk16_keep_arg0 (Vk16 m c)).trans k15_arg0
  have k16_v4 : Vk17 m c (Proc.devRef .tc main_v4) = val_main_v4 (F := F) x0 := (chunk16_keep_v4 (Vk16 m c)).trans k15_v4
  have k16_v149 : Vk17 m c (Proc.devRef .tc main_v149) = val_main_v149 (F := F) x0 x1 x2 x3 x4 :=
    chunk16_v149 (Vk16 m c) x0 x1 x2 x3 x4 k15_v4 k15_v129 k15_v145
  -- after stretch 17
  have k17_v158 : Vk18 m c (Proc.devRef .tc main_v158) = val_main_v158 (F := F) x0 x1 x2 x3 x4 :=
    chunk17_v158 (Vk17 m c) x0 x1 x2 x3 x4 k16_arg0 k16_v4 k16_v149
  exact (res_Vk m c).trans k17_v158

/-- The reference program's result buffer, as its 226 host operations leave it from the launch memory, is the last
    stage applied to the five arguments' contents at the launch. -/
theorem res_eq {F : FTy → Type} [FloatOps F] (m : (ℓ : Loc nD τ sig) → Buf (Elt F) ℓ) (c : Dev nD) :
    Cert.ReferenceIdeal.RefRun.res_main_v158 (F := F) m c
      = Cert.ReferenceIdeal.Stages.val_main_v158 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  res_eq_of m c _ _ _ _ _ rfl rfl rfl rfl rfl

end Cert.ReferenceIdeal.RefVal

end
-- ==== Proof.R1.lean ====
/-
  The reference's twenty-one matrix products compute, on every (batch, rate) slice, the specification's matrix
  exponential of that slice of %52.

  PART 1 — slices and kinds of step. The (b, k) slice of a [512, 8, 20, 20] array is a 20 × 20 matrix, and each kind
  of step the reference takes on such arrays is, slice by slice, one of the specification's matrix operations: a
  product contracting the last axis of the left operand with the third axis of the right one, batched over the first
  two axes, is the matrix product of the slices (`sl4_dot`); the entrywise quotient by an array filled with one f32
  literal is the quotient of the slice by that literal (`sl4_div`); the entrywise sum is the sum of the slices
  (`sl4_add`). `eye_elt` reads one entry of the identity matrix as the reference builds it: the row number (plus the
  constant zero) compared with the column number, the one-bit answer converted to a float. Row and column numbers are
  below 20, far below 2³², so equal 32-bit words mean equal numbers; the bit read unsigned is the natural number 1 or
  0, and its extended real is 1 or 0.

  PART 2 — the program, one operation at a time. Each lemma `stN` reads the (b, k) slice of the array the operation
  %N writes as one specification operation on the slices of its operands: %54 scales by 1/64, %62 is the identity,
  %63 the first partial sum; then for n = 2 … 16 the product t(n-1) · s (%(56+4n)), its quotient by n (%(58+4n), the
  term tn) and the partial sum pn (%(59+4n)); then six squarings (%124 … %129). The index maps of every product send
  (b, k, i, j) and a contraction position c to (b, k, i, c) and (b, k, c, j).

  PART 3 — the statement. Chained from %123 back to %52 the stage lemmas give the order-16 Taylor polynomial of the
  slice divided by 64 (`ref_taylor`); chained from %129 back to %123 they give six squarings of it; and the
  specification's `expm` is, by its definition, exactly that polynomial squared six times. No law of the extended
  reals is used: the two sides are the same expression.
-/
import proofs.«402584_j57200374448411_3_alg».proof.Proof.RefStages
import proofs.«402584_j57200374448411_3_alg».proof.Proof.Spec
import Idealize.ShloMosaic.PureOps.Ideal
import Idealize.ShloMosaic.Lib.ValueIdx

noncomputable section

open scoped BigOperators

namespace Cert.ReferenceIdeal.R1

open Cert.ReferenceIdeal Cert.ReferenceIdeal.Gen Cert.ReferenceIdeal.Stages Idealize.ShloMosaic Idealize.ShloMosaic.TcCoe
  Idealize.SL.Sem Idealize.ShloMosaic.ValueIdx

/-! ## Part 1: slices and kinds of step -/

/-- The shape [512, 8, 20, 20] of the arrays the matrix exponential is computed on. -/
abbrev Sh4 : Shape := ⟨4, ![512, 8, 20, 20]⟩

/-- An f32 array of that shape, read over the extended reals. -/
abbrev Arr4 : Type := (⟨Sh4, .f32⟩ : BufTy).Contents (Elt Ideal)

/-- The (b, k) slice of a [512, 8, 20, 20] array, as a 20 × 20 matrix. -/
def sl4 (X : Arr4) (b : Fin 512) (k : Fin 8) : Cert.Spec.Mat := fun i j => X (ix4 b k i j)

/-- A batched product that reads its left operand at (b, k, i, ·) and its right operand at (b, k, ·, j) is, on each
    slice, the matrix product of the operands' slices. -/
theorem sl4_dot (D L R : Arr4) (lidx ridx : Sh4.Idx → Fin 20 → Sh4.Idx)
    (hl : ∀ (b : Fin 512) (k : Fin 8) (i j kk : Fin 20), lidx (ix4 b k i j) kk = ix4 b k i kk)
    (hr : ∀ (b : Fin 512) (k : Fin 8) (i j kk : Fin 20), ridx (ix4 b k i j) kk = ix4 b k kk j)
    (h : ∀ i, D i = ∑ kk : Fin 20, L (lidx i kk) * R (ridx i kk)) (b : Fin 512) (k : Fin 8) :
    sl4 D b k = Cert.Spec.mm (sl4 L b k) (sl4 R b k) := by
  funext i j
  show D (ix4 b k i j) = ∑ kk : Fin 20, L (ix4 b k i kk) * R (ix4 b k kk j)
  rw [h]
  refine Finset.sum_congr rfl fun kk _ => ?_
  rw [hl, hr]

/-- The entrywise quotient by an array that holds one f32 literal everywhere is, on each slice, the quotient of the
    slice by that literal. -/
theorem sl4_div (D N C : Arr4) (w : BitVec 32)
    (h : ∀ i, D i = FloatOps.hostDivf (F := Ideal) (φ := .f32) (N i) (C i))
    (hc : ∀ i, C i = FloatOps.ofBits (F := Ideal) .f32 w) (b : Fin 512) (k : Fin 8) :
    sl4 D b k = Cert.Spec.mdiv (sl4 N b k) (Cert.Spec.lit w) := by
  funext i j
  show D (ix4 b k i j) = Ideal.div (N (ix4 b k i j)) (Ideal.ofBits .f32 w)
  exact (h (ix4 b k i j)).trans (congrArg (fun c => Ideal.div (N (ix4 b k i j)) c) (hc (ix4 b k i j)))

/-- The entrywise sum is, on each slice, the sum of the slices. -/
theorem sl4_add (D X Y : Arr4)
    (h : ∀ i, D i = FloatOps.addf (F := Ideal) (φ := .f32) (X i) (Y i)) (b : Fin 512) (k : Fin 8) :
    sl4 D b k = Cert.Spec.madd (sl4 X b k) (sl4 Y b k) := by
  funext i j
  show D (ix4 b k i j) = X (ix4 b k i j) + Y (ix4 b k i j)
  exact h (ix4 b k i j)

/-- The bit of "row number + 0 = column number", read unsigned as a float, is the identity matrix's entry. -/
theorem eye_elt (i j : Fin 20) :
    FloatOps.uitofp (F := Ideal) .f32
        (IntOp.cmpi .eq (IntOp.addi (BitVec.ofNat 32 i.val) 0#32) (BitVec.ofNat 32 j.val))
      = Cert.Spec.eye i j := by
  -- the comparison's answer is the truth value of i = j: numbers below 20 are their own 32-bit words
  have hb : (IntOp.addi (BitVec.ofNat 32 i.val) 0#32 == BitVec.ofNat 32 j.val) = decide (i = j) := by
    show (BitVec.ofNat 32 i.val + 0#32 == BitVec.ofNat 32 j.val) = decide (i = j)
    rw [BitVec.add_zero]
    by_cases h : i = j
    · subst h
      simp
    · have hne : BitVec.ofNat 32 i.val ≠ BitVec.ofNat 32 j.val := by
        intro e
        apply h
        apply Fin.ext
        have e' : (BitVec.ofNat 32 i.val).toNat = (BitVec.ofNat 32 j.val).toNat := congrArg BitVec.toNat e
        simp only [BitVec.toNat_ofNat] at e'
        have hi : i.val < 20 := i.isLt
        have hj : j.val < 20 := j.isLt
        omega
      rw [decide_eq_false h]
      exact beq_eq_false_iff_ne.mpr hne
  show (((BitVec.ofBool (IntOp.addi (BitVec.ofNat 32 i.val) 0#32 == BitVec.ofNat 32 j.val)).toNat : ℝ) : EReal)
      = if i = j then 1 else 0
  rw [hb]
  by_cases h : i = j
  · simp [h]
  · simp [h]

/-! ## Part 2: the program, one operation at a time -/

/-- Two rank-4 indices built from the same coordinates are equal: axis by axis. -/
local macro "idx4" : tactic =>
  `(tactic| (intro b k i j kk; funext a; match a with
      | ⟨0, _⟩ => rfl | ⟨1, _⟩ => rfl | ⟨2, _⟩ => rfl | ⟨3, _⟩ => rfl))

section Stages

variable (x1 : (⟨S512, .i32⟩ : BufTy).Contents (Elt Ideal)) (x2 : (⟨S512, .f32⟩ : BufTy).Contents (Elt Ideal))
  (x3 : (⟨S8x20x20, .f32⟩ : BufTy).Contents (Elt Ideal)) (x4 : (⟨S20, .f32⟩ : BufTy).Contents (Elt Ideal))
  (b : Fin 512) (k : Fin 8)

/-- %54 = %52 / 64: the scaled matrix s. -/
theorem st54 : sl4 (val_main_v54 (F := Ideal) x1 x2 x3 x4) b k = Cert.Spec.mdiv (sl4 (val_main_v52 (F := Ideal) x1 x2 x3 x4) b k) (Cert.Spec.lit 0x42800000#32) :=
  sl4_div (val_main_v54 (F := Ideal) x1 x2 x3 x4) (val_main_v52 (F := Ideal) x1 x2 x3 x4) (val_main_v53 (F := Ideal)) 0x42800000#32
    (val_main_v54_apply (F := Ideal) x1 x2 x3 x4)
    (fun i => (val_main_v53_apply (F := Ideal) i).trans (val_main_cst_8_apply (F := Ideal) _)) b k

/-- %55 … %62: the identity matrix, broadcast over the batch and the rate axes. -/
theorem st62 : sl4 (val_main_v62 (F := Ideal)) b k = Cert.Spec.eye := by
  funext i j
  show val_main_v62 (F := Ideal) (ix4 b k i j) = Cert.Spec.eye i j
  rw [val_main_v62_apply, val_main_v61_apply, val_main_v60_apply, val_main_v59_apply, val_main_v58_apply,
    val_main_v55_apply, val_main_v57_apply, val_main_c_9_apply, val_main_v56_apply]
  exact eye_elt i j

/-- %63 = I + s: the first partial sum p1. -/
theorem st63 : sl4 (val_main_v63 (F := Ideal) x1 x2 x3 x4) b k = Cert.Spec.madd Cert.Spec.eye (sl4 (val_main_v54 (F := Ideal) x1 x2 x3 x4) b k) := by
  rw [sl4_add (val_main_v63 (F := Ideal) x1 x2 x3 x4) (val_main_v62 (F := Ideal)) (val_main_v54 (F := Ideal) x1 x2 x3 x4) (val_main_v63_apply (F := Ideal) x1 x2 x3 x4) b k, st62]

/-- %64 = s · s. -/
theorem st64 : sl4 (val_main_v64 (F := Ideal) x1 x2 x3 x4) b k = Cert.Spec.mm (sl4 (val_main_v54 (F := Ideal) x1 x2 x3 x4) b k) (sl4 (val_main_v54 (F := Ideal) x1 x2 x3 x4) b k) :=
  sl4_dot (val_main_v64 (F := Ideal) x1 x2 x3 x4) (val_main_v54 (F := Ideal) x1 x2 x3 x4) (val_main_v54 (F := Ideal) x1 x2 x3 x4) lidx_main_v64 ridx_main_v64 (by idx4) (by idx4)
    (val_main_v64_apply x1 x2 x3 x4) b k
/-- %66 = %64 / 2: the Taylor term t2. -/
theorem st66 : sl4 (val_main_v66 (F := Ideal) x1 x2 x3 x4) b k = Cert.Spec.mdiv (sl4 (val_main_v64 (F := Ideal) x1 x2 x3 x4) b k) (Cert.Spec.lit 0x40000000#32) :=
  sl4_div (val_main_v66 (F := Ideal) x1 x2 x3 x4) (val_main_v64 (F := Ideal) x1 x2 x3 x4) (val_main_v65 (F := Ideal)) 0x40000000#32
    (val_main_v66_apply (F := Ideal) x1 x2 x3 x4)
    (fun i => (val_main_v65_apply (F := Ideal) i).trans (val_main_cst_10_apply (F := Ideal) _)) b k
/-- %67 = p1 + t2: the partial sum p2. -/
theorem st67 : sl4 (val_main_v67 (F := Ideal) x1 x2 x3 x4) b k = Cert.Spec.madd (sl4 (val_main_v63 (F := Ideal) x1 x2 x3 x4) b k) (sl4 (val_main_v66 (F := Ideal) x1 x2 x3 x4) b k) :=
  sl4_add (val_main_v67 (F := Ideal) x1 x2 x3 x4) (val_main_v63 (F := Ideal) x1 x2 x3 x4) (val_main_v66 (F := Ideal) x1 x2 x3 x4) (val_main_v67_apply (F := Ideal) x1 x2 x3 x4) b k

/-- %68 = t2 · s. -/
theorem st68 : sl4 (val_main_v68 (F := Ideal) x1 x2 x3 x4) b k = Cert.Spec.mm (sl4 (val_main_v66 (F := Ideal) x1 x2 x3 x4) b k) (sl4 (val_main_v54 (F := Ideal) x1 x2 x3 x4) b k) :=
  sl4_dot (val_main_v68 (F := Ideal) x1 x2 x3 x4) (val_main_v66 (F := Ideal) x1 x2 x3 x4) (val_main_v54 (F := Ideal) x1 x2 x3 x4) lidx_main_v68 ridx_main_v68 (by idx4) (by idx4)
    (val_main_v68_apply x1 x2 x3 x4) b k
/-- %70 = %68 / 3: the Taylor term t3. -/
theorem st70 : sl4 (val_main_v70 (F := Ideal) x1 x2 x3 x4) b k = Cert.Spec.mdiv (sl4 (val_main_v68 (F := Ideal) x1 x2 x3 x4) b k) (Cert.Spec.lit 0x40400000#32) :=
  sl4_div (val_main_v70 (F := Ideal) x1 x2 x3 x4) (val_main_v68 (F := Ideal) x1 x2 x3 x4) (val_main_v69 (F := Ideal)) 0x40400000#32
    (val_main_v70_apply (F := Ideal) x1 x2 x3 x4)
    (fun i => (val_main_v69_apply (F := Ideal) i).trans (val_main_cst_11_apply (F := Ideal) _)) b k
/-- %71 = p2 + t3: the partial sum p3. -/
theorem st71 : sl4 (val_main_v71 (F := Ideal) x1 x2 x3 x4) b k = Cert.Spec.madd (sl4 (val_main_v67 (F := Ideal) x1 x2 x3 x4) b k) (sl4 (val_main_v70 (F := Ideal) x1 x2 x3 x4) b k) :=
  sl4_add (val_main_v71 (F := Ideal) x1 x2 x3 x4) (val_main_v67 (F := Ideal) x1 x2 x3 x4) (val_main_v70 (F := Ideal) x1 x2 x3 x4) (val_main_v71_apply (F := Ideal) x1 x2 x3 x4) b k

/-- %72 = t3 · s. -/
theorem st72 : sl4 (val_main_v72 (F := Ideal) x1 x2 x3 x4) b k = Cert.Spec.mm (sl4 (val_main_v70 (F := Ideal) x1 x2 x3 x4) b k) (sl4 (val_main_v54 (F := Ideal) x1 x2 x3 x4) b k) :=
  sl4_dot (val_main_v72 (F := Ideal) x1 x2 x3 x4) (val_main_v70 (F := Ideal) x1 x2 x3 x4) (val_main_v54 (F := Ideal) x1 x2 x3 x4) lidx_main_v72 ridx_main_v72 (by idx4) (by idx4)
    (val_main_v72_apply x1 x2 x3 x4) b k
/-- %74 = %72 / 4: the Taylor term t4. -/
theorem st74 : sl4 (val_main_v74 (F := Ideal) x1 x2 x3 x4) b k = Cert.Spec.mdiv (sl4 (val_main_v72 (F := Ideal) x1 x2 x3 x4) b k) (Cert.Spec.lit 0x40800000#32) :=
  sl4_div (val_main_v74 (F := Ideal) x1 x2 x3 x4) (val_main_v72 (F := Ideal) x1 x2 x3 x4) (val_main_v73 (F := Ideal)) 0x40800000#32
    (val_main_v74_apply (F := Ideal) x1 x2 x3 x4)
    (fun i => (val_main_v73_apply (F := Ideal) i).trans (val_main_cst_12_apply (F := Ideal) _)) b k
/-- %75 = p3 + t4: the partial sum p4. -/
theorem st75 : sl4 (val_main_v75 (F := Ideal) x1 x2 x3 x4) b k = Cert.Spec.madd (sl4 (val_main_v71 (F := Ideal) x1 x2 x3 x4) b k) (sl4 (val_main_v74 (F := Ideal) x1 x2 x3 x4) b k) :=
  sl4_add (val_main_v75 (F := Ideal) x1 x2 x3 x4) (val_main_v71 (F := Ideal) x1 x2 x3 x4) (val_main_v74 (F := Ideal) x1 x2 x3 x4) (val_main_v75_apply (F := Ideal) x1 x2 x3 x4) b k

/-- %76 = t4 · s. -/
theorem st76 : sl4 (val_main_v76 (F := Ideal) x1 x2 x3 x4) b k = Cert.Spec.mm (sl4 (val_main_v74 (F := Ideal) x1 x2 x3 x4) b k) (sl4 (val_main_v54 (F := Ideal) x1 x2 x3 x4) b k) :=
  sl4_dot (val_main_v76 (F := Ideal) x1 x2 x3 x4) (val_main_v74 (F := Ideal) x1 x2 x3 x4) (val_main_v54 (F := Ideal) x1 x2 x3 x4) lidx_main_v76 ridx_main_v76 (by idx4) (by idx4)
    (val_main_v76_apply x1 x2 x3 x4) b k
/-- %78 = %76 / 5: the Taylor term t5. -/
theorem st78 : sl4 (val_main_v78 (F := Ideal) x1 x2 x3 x4) b k = Cert.Spec.mdiv (sl4 (val_main_v76 (F := Ideal) x1 x2 x3 x4) b k) (Cert.Spec.lit 0x40A00000#32) :=
  sl4_div (val_main_v78 (F := Ideal) x1 x2 x3 x4) (val_main_v76 (F := Ideal) x1 x2 x3 x4) (val_main_v77 (F := Ideal)) 0x40A00000#32
    (val_main_v78_apply (F := Ideal) x1 x2 x3 x4)
    (fun i => (val_main_v77_apply (F := Ideal) i).trans (val_main_cst_13_apply (F := Ideal) _)) b k
/-- %79 = p4 + t5: the partial sum p5. -/
theorem st79 : sl4 (val_main_v79 (F := Ideal) x1 x2 x3 x4) b k = Cert.Spec.madd (sl4 (val_main_v75 (F := Ideal) x1 x2 x3 x4) b k) (sl4 (val_main_v78 (F := Ideal) x1 x2 x3 x4) b k) :=
  sl4_add (val_main_v79 (F := Ideal) x1 x2 x3 x4) (val_main_v75 (F := Ideal) x1 x2 x3 x4) (val_main_v78 (F := Ideal) x1 x2 x3 x4) (val_main_v79_apply (F := Ideal) x1 x2 x3 x4) b k

/-- %80 = t5 · s. -/
theorem st80 : sl4 (val_main_v80 (F := Ideal) x1 x2 x3 x4) b k = Cert.Spec.mm (sl4 (val_main_v78 (F := Ideal) x1 x2 x3 x4) b k) (sl4 (val_main_v54 (F := Ideal) x1 x2 x3 x4) b k) :=
  sl4_dot (val_main_v80 (F := Ideal) x1 x2 x3 x4) (val_main_v78 (F := Ideal) x1 x2 x3 x4) (val_main_v54 (F := Ideal) x1 x2 x3 x4) lidx_main_v80 ridx_main_v80 (by idx4) (by idx4)
    (val_main_v80_apply x1 x2 x3 x4) b k
/-- %82 = %80 / 6: the Taylor term t6. -/
theorem st82 : sl4 (val_main_v82 (F := Ideal) x1 x2 x3 x4) b k = Cert.Spec.mdiv (sl4 (val_main_v80 (F := Ideal) x1 x2 x3 x4) b k) (Cert.Spec.lit 0x40C00000#32) :=
  sl4_div (val_main_v82 (F := Ideal) x1 x2 x3 x4) (val_main_v80 (F := Ideal) x1 x2 x3 x4) (val_main_v81 (F := Ideal)) 0x40C00000#32
    (val_main_v82_apply (F := Ideal) x1 x2 x3 x4)
    (fun i => (val_main_v81_apply (F := Ideal) i).trans (val_main_cst_14_apply (F := Ideal) _)) b k
/-- %83 = p5 + t6: the partial sum p6. -/
theorem st83 : sl4 (val_main_v83 (F := Ideal) x1 x2 x3 x4) b k = Cert.Spec.madd (sl4 (val_main_v79 (F := Ideal) x1 x2 x3 x4) b k) (sl4 (val_main_v82 (F := Ideal) x1 x2 x3 x4) b k) :=
  sl4_add (val_main_v83 (F := Ideal) x1 x2 x3 x4) (val_main_v79 (F := Ideal) x1 x2 x3 x4) (val_main_v82 (F := Ideal) x1 x2 x3 x4) (val_main_v83_apply (F := Ideal) x1 x2 x3 x4) b k

/-- %84 = t6 · s. -/
theorem st84 : sl4 (val_main_v84 (F := Ideal) x1 x2 x3 x4) b k = Cert.Spec.mm (sl4 (val_main_v82 (F := Ideal) x1 x2 x3 x4) b k) (sl4 (val_main_v54 (F := Ideal) x1 x2 x3 x4) b k) :=
  sl4_dot (val_main_v84 (F := Ideal) x1 x2 x3 x4) (val_main_v82 (F := Ideal) x1 x2 x3 x4) (val_main_v54 (F := Ideal) x1 x2 x3 x4) lidx_main_v84 ridx_main_v84 (by idx4) (by idx4)
    (val_main_v84_apply x1 x2 x3 x4) b k
/-- %86 = %84 / 7: the Taylor term t7. -/
theorem st86 : sl4 (val_main_v86 (F := Ideal) x1 x2 x3 x4) b k = Cert.Spec.mdiv (sl4 (val_main_v84 (F := Ideal) x1 x2 x3 x4) b k) (Cert.Spec.lit 0x40E00000#32) :=
  sl4_div (val_main_v86 (F := Ideal) x1 x2 x3 x4) (val_main_v84 (F := Ideal) x1 x2 x3 x4) (val_main_v85 (F := Ideal)) 0x40E00000#32
    (val_main_v86_apply (F := Ideal) x1 x2 x3 x4)
    (fun i => (val_main_v85_apply (F := Ideal) i).trans (val_main_cst_15_apply (F := Ideal) _)) b k
/-- %87 = p6 + t7: the partial sum p7. -/
theorem st87 : sl4 (val_main_v87 (F := Ideal) x1 x2 x3 x4) b k = Cert.Spec.madd (sl4 (val_main_v83 (F := Ideal) x1 x2 x3 x4) b k) (sl4 (val_main_v86 (F := Ideal) x1 x2 x3 x4) b k) :=
  sl4_add (val_main_v87 (F := Ideal) x1 x2 x3 x4) (val_main_v83 (F := Ideal) x1 x2 x3 x4) (val_main_v86 (F := Ideal) x1 x2 x3 x4) (val_main_v87_apply (F := Ideal) x1 x2 x3 x4) b k

/-- %88 = t7 · s. -/
theorem st88 : sl4 (val_main_v88 (F := Ideal) x1 x2 x3 x4) b k = Cert.Spec.mm (sl4 (val_main_v86 (F := Ideal) x1 x2 x3 x4) b k) (sl4 (val_main_v54 (F := Ideal) x1 x2 x3 x4) b k) :=
  sl4_dot (val_main_v88 (F := Ideal) x1 x2 x3 x4) (val_main_v86 (F := Ideal) x1 x2 x3 x4) (val_main_v54 (F := Ideal) x1 x2 x3 x4) lidx_main_v88 ridx_main_v88 (by idx4) (by idx4)
    (val_main_v88_apply x1 x2 x3 x4) b k
/-- %90 = %88 / 8: the Taylor term t8. -/
theorem st90 : sl4 (val_main_v90 (F := Ideal) x1 x2 x3 x4) b k = Cert.Spec.mdiv (sl4 (val_main_v88 (F := Ideal) x1 x2 x3 x4) b k) (Cert.Spec.lit 0x41000000#32) :=
  sl4_div (val_main_v90 (F := Ideal) x1 x2 x3 x4) (val_main_v88 (F := Ideal) x1 x2 x3 x4) (val_main_v89 (F := Ideal)) 0x41000000#32
    (val_main_v90_apply (F := Ideal) x1 x2 x3 x4)
    (fun i => (val_main_v89_apply (F := Ideal) i).trans (val_main_cst_16_apply (F := Ideal) _)) b k
/-- %91 = p7 + t8: the partial sum p8. -/
theorem st91 : sl4 (val_main_v91 (F := Ideal) x1 x2 x3 x4) b k = Cert.Spec.madd (sl4 (val_main_v87 (F := Ideal) x1 x2 x3 x4) b k) (sl4 (val_main_v90 (F := Ideal) x1 x2 x3 x4) b k) :=
  sl4_add (val_main_v91 (F := Ideal) x1 x2 x3 x4) (val_main_v87 (F := Ideal) x1 x2 x3 x4) (val_main_v90 (F := Ideal) x1 x2 x3 x4) (val_main_v91_apply (F := Ideal) x1 x2 x3 x4) b k

/-- %92 = t8 · s. -/
theorem st92 : sl4 (val_main_v92 (F := Ideal) x1 x2 x3 x4) b k = Cert.Spec.mm (sl4 (val_main_v90 (F := Ideal) x1 x2 x3 x4) b k) (sl4 (val_main_v54 (F := Ideal) x1 x2 x3 x4) b k) :=
  sl4_dot (val_main_v92 (F := Ideal) x1 x2 x3 x4) (val_main_v90 (F := Ideal) x1 x2 x3 x4) (val_main_v54 (F := Ideal) x1 x2 x3 x4) lidx_main_v92 ridx_main_v92 (by idx4) (by idx4)
    (val_main_v92_apply x1 x2 x3 x4) b k
/-- %94 = %92 / 9: the Taylor term t9. -/
theorem st94 : sl4 (val_main_v94 (F := Ideal) x1 x2 x3 x4) b k = Cert.Spec.mdiv (sl4 (val_main_v92 (F := Ideal) x1 x2 x3 x4) b k) (Cert.Spec.lit 0x41100000#32) :=
  sl4_div (val_main_v94 (F := Ideal) x1 x2 x3 x4) (val_main_v92 (F := Ideal) x1 x2 x3 x4) (val_main_v93 (F := Ideal)) 0x41100000#32
    (val_main_v94_apply (F := Ideal) x1 x2 x3 x4)
    (fun i => (val_main_v93_apply (F := Ideal) i).trans (val_main_cst_17_apply (F := Ideal) _)) b k
/-- %95 = p8 + t9: the partial sum p9. -/
theorem st95 : sl4 (val_main_v95 (F := Ideal) x1 x2 x3 x4) b k = Cert.Spec.madd (sl4 (val_main_v91 (F := Ideal) x1 x2 x3 x4) b k) (sl4 (val_main_v94 (F := Ideal) x1 x2 x3 x4) b k) :=
  sl4_add (val_main_v95 (F := Ideal) x1 x2 x3 x4) (val_main_v91 (F := Ideal) x1 x2 x3 x4) (val_main_v94 (F := Ideal) x1 x2 x3 x4) (val_main_v95_apply (F := Ideal) x1 x2 x3 x4) b k

/-- %96 = t9 · s. -/
theorem st96 : sl4 (val_main_v96 (F := Ideal) x1 x2 x3 x4) b k = Cert.Spec.mm (sl4 (val_main_v94 (F := Ideal) x1 x2 x3 x4) b k) (sl4 (val_main_v54 (F := Ideal) x1 x2 x3 x4) b k) :=
  sl4_dot (val_main_v96 (F := Ideal) x1 x2 x3 x4) (val_main_v94 (F := Ideal) x1 x2 x3 x4) (val_main_v54 (F := Ideal) x1 x2 x3 x4) lidx_main_v96 ridx_main_v96 (by idx4) (by idx4)
    (val_main_v96_apply x1 x2 x3 x4) b k
/-- %98 = %96 / 10: the Taylor term t10. -/
theorem st98 : sl4 (val_main_v98 (F := Ideal) x1 x2 x3 x4) b k = Cert.Spec.mdiv (sl4 (val_main_v96 (F := Ideal) x1 x2 x3 x4) b k) (Cert.Spec.lit 0x41200000#32) :=
  sl4_div (val_main_v98 (F := Ideal) x1 x2 x3 x4) (val_main_v96 (F := Ideal) x1 x2 x3 x4) (val_main_v97 (F := Ideal)) 0x41200000#32
    (val_main_v98_apply (F := Ideal) x1 x2 x3 x4)
    (fun i => (val_main_v97_apply (F := Ideal) i).trans (val_main_cst_18_apply (F := Ideal) _)) b k
/-- %99 = p9 + t10: the partial sum p10. -/
theorem st99 : sl4 (val_main_v99 (F := Ideal) x1 x2 x3 x4) b k = Cert.Spec.madd (sl4 (val_main_v95 (F := Ideal) x1 x2 x3 x4) b k) (sl4 (val_main_v98 (F := Ideal) x1 x2 x3 x4) b k) :=
  sl4_add (val_main_v99 (F := Ideal) x1 x2 x3 x4) (val_main_v95 (F := Ideal) x1 x2 x3 x4) (val_main_v98 (F := Ideal) x1 x2 x3 x4) (val_main_v99_apply (F := Ideal) x1 x2 x3 x4) b k

/-- %100 = t10 · s. -/
theorem st100 : sl4 (val_main_v100 (F := Ideal) x1 x2 x3 x4) b k = Cert.Spec.mm (sl4 (val_main_v98 (F := Ideal) x1 x2 x3 x4) b k) (sl4 (val_main_v54 (F := Ideal) x1 x2 x3 x4) b k) :=
  sl4_dot (val_main_v100 (F := Ideal) x1 x2 x3 x4) (val_main_v98 (F := Ideal) x1 x2 x3 x4) (val_main_v54 (F := Ideal) x1 x2 x3 x4) lidx_main_v100 ridx_main_v100 (by idx4) (by idx4)
    (val_main_v100_apply x1 x2 x3 x4) b k
/-- %102 = %100 / 11: the Taylor term t11. -/
theorem st102 : sl4 (val_main_v102 (F := Ideal) x1 x2 x3 x4) b k = Cert.Spec.mdiv (sl4 (val_main_v100 (F := Ideal) x1 x2 x3 x4) b k) (Cert.Spec.lit 0x41300000#32) :=
  sl4_div (val_main_v102 (F := Ideal) x1 x2 x3 x4) (val_main_v100 (F := Ideal) x1 x2 x3 x4) (val_main_v101 (F := Ideal)) 0x41300000#32
    (val_main_v102_apply (F := Ideal) x1 x2 x3 x4)
    (fun i => (val_main_v101_apply (F := Ideal) i).trans (val_main_cst_19_apply (F := Ideal) _)) b k
/-- %103 = p10 + t11: the partial sum p11. -/
theorem st103 : sl4 (val_main_v103 (F := Ideal) x1 x2 x3 x4) b k = Cert.Spec.madd (sl4 (val_main_v99 (F := Ideal) x1 x2 x3 x4) b k) (sl4 (val_main_v102 (F := Ideal) x1 x2 x3 x4) b k) :=
  sl4_add (val_main_v103 (F := Ideal) x1 x2 x3 x4) (val_main_v99 (F := Ideal) x1 x2 x3 x4) (val_main_v102 (F := Ideal) x1 x2 x3 x4) (val_main_v103_apply (F := Ideal) x1 x2 x3 x4) b k

/-- %104 = t11 · s. -/
theorem st104 : sl4 (val_main_v104 (F := Ideal) x1 x2 x3 x4) b k = Cert.Spec.mm (sl4 (val_main_v102 (F := Ideal) x1 x2 x3 x4) b k) (sl4 (val_main_v54 (F := Ideal) x1 x2 x3 x4) b k) :=
  sl4_dot (val_main_v104 (F := Ideal) x1 x2 x3 x4) (val_main_v102 (F := Ideal) x1 x2 x3 x4) (val_main_v54 (F := Ideal) x1 x2 x3 x4) lidx_main_v104 ridx_main_v104 (by idx4) (by idx4)
    (val_main_v104_apply x1 x2 x3 x4) b k
/-- %106 = %104 / 12: the Taylor term t12. -/
theorem st106 : sl4 (val_main_v106 (F := Ideal) x1 x2 x3 x4) b k = Cert.Spec.mdiv (sl4 (val_main_v104 (F := Ideal) x1 x2 x3 x4) b k) (Cert.Spec.lit 0x41400000#32) :=
  sl4_div (val_main_v106 (F := Ideal) x1 x2 x3 x4) (val_main_v104 (F := Ideal) x1 x2 x3 x4) (val_main_v105 (F := Ideal)) 0x41400000#32
    (val_main_v106_apply (F := Ideal) x1 x2 x3 x4)
    (fun i => (val_main_v105_apply (F := Ideal) i).trans (val_main_cst_20_apply (F := Ideal) _)) b k
/-- %107 = p11 + t12: the partial sum p12. -/
theorem st107 : sl4 (val_main_v107 (F := Ideal) x1 x2 x3 x4) b k = Cert.Spec.madd (sl4 (val_main_v103 (F := Ideal) x1 x2 x3 x4) b k) (sl4 (val_main_v106 (F := Ideal) x1 x2 x3 x4) b k) :=
  sl4_add (val_main_v107 (F := Ideal) x1 x2 x3 x4) (val_main_v103 (F := Ideal) x1 x2 x3 x4) (val_main_v106 (F := Ideal) x1 x2 x3 x4) (val_main_v107_apply (F := Ideal) x1 x2 x3 x4) b k

/-- %108 = t12 · s. -/
theorem st108 : sl4 (val_main_v108 (F := Ideal) x1 x2 x3 x4) b k = Cert.Spec.mm (sl4 (val_main_v106 (F := Ideal) x1 x2 x3 x4) b k) (sl4 (val_main_v54 (F := Ideal) x1 x2 x3 x4) b k) :=
  sl4_dot (val_main_v108 (F := Ideal) x1 x2 x3 x4) (val_main_v106 (F := Ideal) x1 x2 x3 x4) (val_main_v54 (F := Ideal) x1 x2 x3 x4) lidx_main_v108 ridx_main_v108 (by idx4) (by idx4)
    (val_main_v108_apply x1 x2 x3 x4) b k
/-- %110 = %108 / 13: the Taylor term t13. -/
theorem st110 : sl4 (val_main_v110 (F := Ideal) x1 x2 x3 x4) b k = Cert.Spec.mdiv (sl4 (val_main_v108 (F := Ideal) x1 x2 x3 x4) b k) (Cert.Spec.lit 0x41500000#32) :=
  sl4_div (val_main_v110 (F := Ideal) x1 x2 x3 x4) (val_main_v108 (F := Ideal) x1 x2 x3 x4) (val_main_v109 (F := Ideal)) 0x41500000#32
    (val_main_v110_apply (F := Ideal) x1 x2 x3 x4)
    (fun i => (val_main_v109_apply (F := Ideal) i).trans (val_main_cst_21_apply (F := Ideal) _)) b k
/-- %111 = p12 + t13: the partial sum p13. -/
theorem st111 : sl4 (val_main_v111 (F := Ideal) x1 x2 x3 x4) b k = Cert.Spec.madd (sl4 (val_main_v107 (F := Ideal) x1 x2 x3 x4) b k) (sl4 (val_main_v110 (F := Ideal) x1 x2 x3 x4) b k) :=
  sl4_add (val_main_v111 (F := Ideal) x1 x2 x3 x4) (val_main_v107 (F := Ideal) x1 x2 x3 x4) (val_main_v110 (F := Ideal) x1 x2 x3 x4) (val_main_v111_apply (F := Ideal) x1 x2 x3 x4) b k

/-- %112 = t13 · s. -/
theorem st112 : sl4 (val_main_v112 (F := Ideal) x1 x2 x3 x4) b k = Cert.Spec.mm (sl4 (val_main_v110 (F := Ideal) x1 x2 x3 x4) b k) (sl4 (val_main_v54 (F := Ideal) x1 x2 x3 x4) b k) :=
  sl4_dot (val_main_v112 (F := Ideal) x1 x2 x3 x4) (val_main_v110 (F := Ideal) x1 x2 x3 x4) (val_main_v54 (F := Ideal) x1 x2 x3 x4) lidx_main_v112 ridx_main_v112 (by idx4) (by idx4)
    (val_main_v112_apply x1 x2 x3 x4) b k
/-- %114 = %112 / 14: the Taylor term t14. -/
theorem st114 : sl4 (val_main_v114 (F := Ideal) x1 x2 x3 x4) b k = Cert.Spec.mdiv (sl4 (val_main_v112 (F := Ideal) x1 x2 x3 x4) b k) (Cert.Spec.lit 0x41600000#32) :=
  sl4_div (val_main_v114 (F := Ideal) x1 x2 x3 x4) (val_main_v112 (F := Ideal) x1 x2 x3 x4) (val_main_v113 (F := Ideal)) 0x41600000#32
    (val_main_v114_apply (F := Ideal) x1 x2 x3 x4)
    (fun i => (val_main_v113_apply (F := Ideal) i).trans (val_main_cst_22_apply (F := Ideal) _)) b k
/-- %115 = p13 + t14: the partial sum p14. -/
theorem st115 : sl4 (val_main_v115 (F := Ideal) x1 x2 x3 x4) b k = Cert.Spec.madd (sl4 (val_main_v111 (F := Ideal) x1 x2 x3 x4) b k) (sl4 (val_main_v114 (F := Ideal) x1 x2 x3 x4) b k) :=
  sl4_add (val_main_v115 (F := Ideal) x1 x2 x3 x4) (val_main_v111 (F := Ideal) x1 x2 x3 x4) (val_main_v114 (F := Ideal) x1 x2 x3 x4) (val_main_v115_apply (F := Ideal) x1 x2 x3 x4) b k

/-- %116 = t14 · s. -/
theorem st116 : sl4 (val_main_v116 (F := Ideal) x1 x2 x3 x4) b k = Cert.Spec.mm (sl4 (val_main_v114 (F := Ideal) x1 x2 x3 x4) b k) (sl4 (val_main_v54 (F := Ideal) x1 x2 x3 x4) b k) :=
  sl4_dot (val_main_v116 (F := Ideal) x1 x2 x3 x4) (val_main_v114 (F := Ideal) x1 x2 x3 x4) (val_main_v54 (F := Ideal) x1 x2 x3 x4) lidx_main_v116 ridx_main_v116 (by idx4) (by idx4)
    (val_main_v116_apply x1 x2 x3 x4) b k
/-- %118 = %116 / 15: the Taylor term t15. -/
theorem st118 : sl4 (val_main_v118 (F := Ideal) x1 x2 x3 x4) b k = Cert.Spec.mdiv (sl4 (val_main_v116 (F := Ideal) x1 x2 x3 x4) b k) (Cert.Spec.lit 0x41700000#32) :=
  sl4_div (val_main_v118 (F := Ideal) x1 x2 x3 x4) (val_main_v116 (F := Ideal) x1 x2 x3 x4) (val_main_v117 (F := Ideal)) 0x41700000#32
    (val_main_v118_apply (F := Ideal) x1 x2 x3 x4)
    (fun i => (val_main_v117_apply (F := Ideal) i).trans (val_main_cst_23_apply (F := Ideal) _)) b k
/-- %119 = p14 + t15: the partial sum p15. -/
theorem st119 : sl4 (val_main_v119 (F := Ideal) x1 x2 x3 x4) b k = Cert.Spec.madd (sl4 (val_main_v115 (F := Ideal) x1 x2 x3 x4) b k) (sl4 (val_main_v118 (F := Ideal) x1 x2 x3 x4) b k) :=
  sl4_add (val_main_v119 (F := Ideal) x1 x2 x3 x4) (val_main_v115 (F := Ideal) x1 x2 x3 x4) (val_main_v118 (F := Ideal) x1 x2 x3 x4) (val_main_v119_apply (F := Ideal) x1 x2 x3 x4) b k

/-- %120 = t15 · s. -/
theorem st120 : sl4 (val_main_v120 (F := Ideal) x1 x2 x3 x4) b k = Cert.Spec.mm (sl4 (val_main_v118 (F := Ideal) x1 x2 x3 x4) b k) (sl4 (val_main_v54 (F := Ideal) x1 x2 x3 x4) b k) :=
  sl4_dot (val_main_v120 (F := Ideal) x1 x2 x3 x4) (val_main_v118 (F := Ideal) x1 x2 x3 x4) (val_main_v54 (F := Ideal) x1 x2 x3 x4) lidx_main_v120 ridx_main_v120 (by idx4) (by idx4)
    (val_main_v120_apply x1 x2 x3 x4) b k
/-- %122 = %120 / 16: the Taylor term t16. -/
theorem st122 : sl4 (val_main_v122 (F := Ideal) x1 x2 x3 x4) b k = Cert.Spec.mdiv (sl4 (val_main_v120 (F := Ideal) x1 x2 x3 x4) b k) (Cert.Spec.lit 0x41800000#32) :=
  sl4_div (val_main_v122 (F := Ideal) x1 x2 x3 x4) (val_main_v120 (F := Ideal) x1 x2 x3 x4) (val_main_v121 (F := Ideal)) 0x41800000#32
    (val_main_v122_apply (F := Ideal) x1 x2 x3 x4)
    (fun i => (val_main_v121_apply (F := Ideal) i).trans (val_main_cst_24_apply (F := Ideal) _)) b k
/-- %123 = p15 + t16: the partial sum p16. -/
theorem st123 : sl4 (val_main_v123 (F := Ideal) x1 x2 x3 x4) b k = Cert.Spec.madd (sl4 (val_main_v119 (F := Ideal) x1 x2 x3 x4) b k) (sl4 (val_main_v122 (F := Ideal) x1 x2 x3 x4) b k) :=
  sl4_add (val_main_v123 (F := Ideal) x1 x2 x3 x4) (val_main_v119 (F := Ideal) x1 x2 x3 x4) (val_main_v122 (F := Ideal) x1 x2 x3 x4) (val_main_v123_apply (F := Ideal) x1 x2 x3 x4) b k

/-- %124 = %123 · %123: squaring number 1. -/
theorem st124 : sl4 (val_main_v124 (F := Ideal) x1 x2 x3 x4) b k = Cert.Spec.mm (sl4 (val_main_v123 (F := Ideal) x1 x2 x3 x4) b k) (sl4 (val_main_v123 (F := Ideal) x1 x2 x3 x4) b k) :=
  sl4_dot (val_main_v124 (F := Ideal) x1 x2 x3 x4) (val_main_v123 (F := Ideal) x1 x2 x3 x4) (val_main_v123 (F := Ideal) x1 x2 x3 x4) lidx_main_v124 ridx_main_v124 (by idx4) (by idx4)
    (val_main_v124_apply x1 x2 x3 x4) b k
/-- %125 = %124 · %124: squaring number 2. -/
theorem st125 : sl4 (val_main_v125 (F := Ideal) x1 x2 x3 x4) b k = Cert.Spec.mm (sl4 (val_main_v124 (F := Ideal) x1 x2 x3 x4) b k) (sl4 (val_main_v124 (F := Ideal) x1 x2 x3 x4) b k) :=
  sl4_dot (val_main_v125 (F := Ideal) x1 x2 x3 x4) (val_main_v124 (F := Ideal) x1 x2 x3 x4) (val_main_v124 (F := Ideal) x1 x2 x3 x4) lidx_main_v125 ridx_main_v125 (by idx4) (by idx4)
    (val_main_v125_apply x1 x2 x3 x4) b k
/-- %126 = %125 · %125: squaring number 3. -/
theorem st126 : sl4 (val_main_v126 (F := Ideal) x1 x2 x3 x4) b k = Cert.Spec.mm (sl4 (val_main_v125 (F := Ideal) x1 x2 x3 x4) b k) (sl4 (val_main_v125 (F := Ideal) x1 x2 x3 x4) b k) :=
  sl4_dot (val_main_v126 (F := Ideal) x1 x2 x3 x4) (val_main_v125 (F := Ideal) x1 x2 x3 x4) (val_main_v125 (F := Ideal) x1 x2 x3 x4) lidx_main_v126 ridx_main_v126 (by idx4) (by idx4)
    (val_main_v126_apply x1 x2 x3 x4) b k
/-- %127 = %126 · %126: squaring number 4. -/
theorem st127 : sl4 (val_main_v127 (F := Ideal) x1 x2 x3 x4) b k = Cert.Spec.mm (sl4 (val_main_v126 (F := Ideal) x1 x2 x3 x4) b k) (sl4 (val_main_v126 (F := Ideal) x1 x2 x3 x4) b k) :=
  sl4_dot (val_main_v127 (F := Ideal) x1 x2 x3 x4) (val_main_v126 (F := Ideal) x1 x2 x3 x4) (val_main_v126 (F := Ideal) x1 x2 x3 x4) lidx_main_v127 ridx_main_v127 (by idx4) (by idx4)
    (val_main_v127_apply x1 x2 x3 x4) b k
/-- %128 = %127 · %127: squaring number 5. -/
theorem st128 : sl4 (val_main_v128 (F := Ideal) x1 x2 x3 x4) b k = Cert.Spec.mm (sl4 (val_main_v127 (F := Ideal) x1 x2 x3 x4) b k) (sl4 (val_main_v127 (F := Ideal) x1 x2 x3 x4) b k) :=
  sl4_dot (val_main_v128 (F := Ideal) x1 x2 x3 x4) (val_main_v127 (F := Ideal) x1 x2 x3 x4) (val_main_v127 (F := Ideal) x1 x2 x3 x4) lidx_main_v128 ridx_main_v128 (by idx4) (by idx4)
    (val_main_v128_apply x1 x2 x3 x4) b k
/-- %129 = %128 · %128: squaring number 6. -/
theorem st129 : sl4 (val_main_v129 (F := Ideal) x1 x2 x3 x4) b k = Cert.Spec.mm (sl4 (val_main_v128 (F := Ideal) x1 x2 x3 x4) b k) (sl4 (val_main_v128 (F := Ideal) x1 x2 x3 x4) b k) :=
  sl4_dot (val_main_v129 (F := Ideal) x1 x2 x3 x4) (val_main_v128 (F := Ideal) x1 x2 x3 x4) (val_main_v128 (F := Ideal) x1 x2 x3 x4) lidx_main_v129 ridx_main_v129 (by idx4) (by idx4)
    (val_main_v129_apply x1 x2 x3 x4) b k

end Stages

/-! ## Part 3: the statement -/

/-- The order-16 Taylor polynomial of A / 64, accumulated term by term: the specification's matrix exponential before
    its six squarings. -/
def taylor (A : Cert.Spec.Mat) : Cert.Spec.Mat :=
  let s : Cert.Spec.Mat := Cert.Spec.mdiv A (Cert.Spec.lit 0x42800000#32)
  let p1 : Cert.Spec.Mat := Cert.Spec.madd Cert.Spec.eye s
  let t2 : Cert.Spec.Mat := Cert.Spec.mdiv (Cert.Spec.mm s s) (Cert.Spec.lit 0x40000000#32)
  let p2 : Cert.Spec.Mat := Cert.Spec.madd p1 t2
  let t3 : Cert.Spec.Mat := Cert.Spec.mdiv (Cert.Spec.mm t2 s) (Cert.Spec.lit 0x40400000#32)
  let p3 : Cert.Spec.Mat := Cert.Spec.madd p2 t3
  let t4 : Cert.Spec.Mat := Cert.Spec.mdiv (Cert.Spec.mm t3 s) (Cert.Spec.lit 0x40800000#32)
  let p4 : Cert.Spec.Mat := Cert.Spec.madd p3 t4
  let t5 : Cert.Spec.Mat := Cert.Spec.mdiv (Cert.Spec.mm t4 s) (Cert.Spec.lit 0x40A00000#32)
  let p5 : Cert.Spec.Mat := Cert.Spec.madd p4 t5
  let t6 : Cert.Spec.Mat := Cert.Spec.mdiv (Cert.Spec.mm t5 s) (Cert.Spec.lit 0x40C00000#32)
  let p6 : Cert.Spec.Mat := Cert.Spec.madd p5 t6
  let t7 : Cert.Spec.Mat := Cert.Spec.mdiv (Cert.Spec.mm t6 s) (Cert.Spec.lit 0x40E00000#32)
  let p7 : Cert.Spec.Mat := Cert.Spec.madd p6 t7
  let t8 : Cert.Spec.Mat := Cert.Spec.mdiv (Cert.Spec.mm t7 s) (Cert.Spec.lit 0x41000000#32)
  let p8 : Cert.Spec.Mat := Cert.Spec.madd p7 t8
  let t9 : Cert.Spec.Mat := Cert.Spec.mdiv (Cert.Spec.mm t8 s) (Cert.Spec.lit 0x41100000#32)
  let p9 : Cert.Spec.Mat := Cert.Spec.madd p8 t9
  let t10 : Cert.Spec.Mat := Cert.Spec.mdiv (Cert.Spec.mm t9 s) (Cert.Spec.lit 0x41200000#32)
  let p10 : Cert.Spec.Mat := Cert.Spec.madd p9 t10
  let t11 : Cert.Spec.Mat := Cert.Spec.mdiv (Cert.Spec.mm t10 s) (Cert.Spec.lit 0x41300000#32)
  let p11 : Cert.Spec.Mat := Cert.Spec.madd p10 t11
  let t12 : Cert.Spec.Mat := Cert.Spec.mdiv (Cert.Spec.mm t11 s) (Cert.Spec.lit 0x41400000#32)
  let p12 : Cert.Spec.Mat := Cert.Spec.madd p11 t12
  let t13 : Cert.Spec.Mat := Cert.Spec.mdiv (Cert.Spec.mm t12 s) (Cert.Spec.lit 0x41500000#32)
  let p13 : Cert.Spec.Mat := Cert.Spec.madd p12 t13
  let t14 : Cert.Spec.Mat := Cert.Spec.mdiv (Cert.Spec.mm t13 s) (Cert.Spec.lit 0x41600000#32)
  let p14 : Cert.Spec.Mat := Cert.Spec.madd p13 t14
  let t15 : Cert.Spec.Mat := Cert.Spec.mdiv (Cert.Spec.mm t14 s) (Cert.Spec.lit 0x41700000#32)
  let p15 : Cert.Spec.Mat := Cert.Spec.madd p14 t15
  let t16 : Cert.Spec.Mat := Cert.Spec.mdiv (Cert.Spec.mm t15 s) (Cert.Spec.lit 0x41800000#32)
  let p16 : Cert.Spec.Mat := Cert.Spec.madd p15 t16
  p16

/-- %123, slice by slice, is the Taylor polynomial of the slice of %52. -/
theorem ref_taylor (x1 : (⟨S512, .i32⟩ : BufTy).Contents (Elt Ideal)) (x2 : (⟨S512, .f32⟩ : BufTy).Contents (Elt Ideal)) (x3 : (⟨S8x20x20, .f32⟩ : BufTy).Contents (Elt Ideal)) (x4 : (⟨S20, .f32⟩ : BufTy).Contents (Elt Ideal)) (b : Fin 512) (k : Fin 8) :
    sl4 (val_main_v123 (F := Ideal) x1 x2 x3 x4) b k = taylor (sl4 (val_main_v52 (F := Ideal) x1 x2 x3 x4) b k) := by
  rw [
    st123 x1 x2 x3 x4 b k, st122 x1 x2 x3 x4 b k, st120 x1 x2 x3 x4 b k, st119 x1 x2 x3 x4 b k,
    st118 x1 x2 x3 x4 b k, st116 x1 x2 x3 x4 b k, st115 x1 x2 x3 x4 b k, st114 x1 x2 x3 x4 b k,
    st112 x1 x2 x3 x4 b k, st111 x1 x2 x3 x4 b k, st110 x1 x2 x3 x4 b k, st108 x1 x2 x3 x4 b k,
    st107 x1 x2 x3 x4 b k, st106 x1 x2 x3 x4 b k, st104 x1 x2 x3 x4 b k, st103 x1 x2 x3 x4 b k,
    st102 x1 x2 x3 x4 b k, st100 x1 x2 x3 x4 b k, st99 x1 x2 x3 x4 b k, st98 x1 x2 x3 x4 b k,
    st96 x1 x2 x3 x4 b k, st95 x1 x2 x3 x4 b k, st94 x1 x2 x3 x4 b k, st92 x1 x2 x3 x4 b k,
    st91 x1 x2 x3 x4 b k, st90 x1 x2 x3 x4 b k, st88 x1 x2 x3 x4 b k, st87 x1 x2 x3 x4 b k,
    st86 x1 x2 x3 x4 b k, st84 x1 x2 x3 x4 b k, st83 x1 x2 x3 x4 b k, st82 x1 x2 x3 x4 b k,
    st80 x1 x2 x3 x4 b k, st79 x1 x2 x3 x4 b k, st78 x1 x2 x3 x4 b k, st76 x1 x2 x3 x4 b k,
    st75 x1 x2 x3 x4 b k, st74 x1 x2 x3 x4 b k, st72 x1 x2 x3 x4 b k, st71 x1 x2 x3 x4 b k,
    st70 x1 x2 x3 x4 b k, st68 x1 x2 x3 x4 b k, st67 x1 x2 x3 x4 b k, st66 x1 x2 x3 x4 b k,
    st64 x1 x2 x3 x4 b k, st63 x1 x2 x3 x4 b k, st54 x1 x2 x3 x4 b k]
  rfl

/-- %129, entry by entry, is the specification's matrix exponential of the (b, k) slice of %52. -/
theorem ref_expm (x1 : (⟨S512, .i32⟩ : BufTy).Contents (Elt Ideal)) (x2 : (⟨S512, .f32⟩ : BufTy).Contents (Elt Ideal)) (x3 : (⟨S8x20x20, .f32⟩ : BufTy).Contents (Elt Ideal)) (x4 : (⟨S20, .f32⟩ : BufTy).Contents (Elt Ideal)) (b : Fin 512) (k : Fin 8) (i j : Fin 20) :
    val_main_v129 (F := Ideal) x1 x2 x3 x4 (ix4 b k i j)
      = Cert.Spec.expm (fun i' j' => val_main_v52 (F := Ideal) x1 x2 x3 x4 (ix4 b k i' j')) i j := by
  show sl4 (val_main_v129 (F := Ideal) x1 x2 x3 x4) b k i j
      = Cert.Spec.expm (sl4 (val_main_v52 (F := Ideal) x1 x2 x3 x4) b k) i j
  rw [st129 x1 x2 x3 x4 b k, st128 x1 x2 x3 x4 b k, st127 x1 x2 x3 x4 b k, st126 x1 x2 x3 x4 b k, st125 x1 x2 x3 x4 b k, st124 x1 x2 x3 x4 b k,
    ref_taylor x1 x2 x3 x4 b k]
  rfl

end Cert.ReferenceIdeal.R1

end
-- ==== Proof.R2g.lean ====
/-
  Three layout operations of the reference's tail, each read at an index given by its coordinates.

  * The two-piece concatenation along the last axis that builds the start indices: component 0 of row (b, l) is the
    first piece's entry, component 1 the second piece's.
  * The gather of rows of the transition matrices: result element (b, l, k, s) is the operand at (u, k, v, s), where u
    and v are the two components of the start index of row (b, l), each read as a SIGNED integer and clamped into its
    axis (a negative component reads position 0, a component past the end the last position).
  * The pad of the last axis from 20 to 26 columns: a column below 20 reads the operand, a column from 20 on reads the
    padding value.
-/
import proofs.«402584_j57200374448411_3_alg».proof.Proof.Gen.ReferenceIdeal
import Idealize.ShloMosaic.Lib.Pipeline.Value
import Idealize.ShloMosaic.Lib.ValueIdx

noncomputable section

namespace Cert.ReferenceIdeal.R2

open Cert.ReferenceIdeal Cert.ReferenceIdeal.Gen Idealize.ShloMosaic Idealize.ShloMosaic.TcCoe Idealize.SL.Sem Idealize.ShloMosaic.ValueIdx

/-! ## The concatenation of two [512 × 1024 × 1] pieces along the last axis -/

/-- Component 0 of row (b, l) of the concatenation is the first piece at (b, l, 0). -/
theorem concat_comp0 {α : Type} (x₁ x₂ : S512x1024x1.Idx → α)
    (hc : Shape.Concatenates [S512x1024x1, S512x1024x1] S512x1024x2 2) (b : Fin 512) (l : Fin 1024) :
    concatenate S512x1024x2 2 [⟨S512x1024x1, x₁⟩, ⟨S512x1024x1, x₂⟩] hc (ix3 b l (0 : Fin 2))
      = x₁ (ix3 b l (0 : Fin 1)) :=
  concatenate_pair_apply_left 2 x₁ x₂ hc (ix3 b l (0 : Fin 2)) rfl (ix3 b l (0 : Fin 1)) (fun c => by
    match c with
    | ⟨0, _⟩ => rfl
    | ⟨1, _⟩ => rfl
    | ⟨2, _⟩ => rfl)

/-- Component 1 of row (b, l) of the concatenation is the second piece at (b, l, 0). -/
theorem concat_comp1 {α : Type} (x₁ x₂ : S512x1024x1.Idx → α)
    (hc : Shape.Concatenates [S512x1024x1, S512x1024x1] S512x1024x2 2) (b : Fin 512) (l : Fin 1024) :
    concatenate S512x1024x2 2 [⟨S512x1024x1, x₁⟩, ⟨S512x1024x1, x₂⟩] hc (ix3 b l (1 : Fin 2))
      = x₂ (ix3 b l (0 : Fin 1)) :=
  concatenate_pair_apply_right 2 x₁ x₂ hc (ix3 b l (1 : Fin 2)) rfl rfl (ix3 b l (0 : Fin 1)) (fun c hne => by
    match c, hne with
    | ⟨0, _⟩, _ => rfl
    | ⟨1, _⟩, _ => rfl
    | ⟨2, _⟩, hne => exact (hne (Fin.ext rfl)).elim) rfl

/-! ## The gather of rows -/

/-- The gather's dimension numbers: offset axes [2, 3] of the result, collapsed operand axes [0, 2], start index map
    [0, 2], the index vector on axis 2 of the start indices, slice sizes (1, 8, 1, 20). -/
private abbrev GD : GatherDims S512x8x20x20 S512x1024x2 S512x1024x8x20 :=
  gather_S512x8x20x20_S512x1024x2_S512x1024x8x20_23_02_n_n_02_2_18120

/-- Operand axis 0 is named by the start index map … -/
private theorem mem_sim0 : (0 : Fin S512x8x20x20.rank) ∈ GD.startIndexMap :=
  show (0 : Fin 4) ∈ ([0, 2] : List (Fin 4)) by simp
/-- … and so is operand axis 2; … -/
private theorem mem_sim2 : (2 : Fin S512x8x20x20.rank) ∈ GD.startIndexMap :=
  show (2 : Fin 4) ∈ ([0, 2] : List (Fin 4)) by simp
/-- … axes 1 and 3 are not. -/
private theorem not_mem_sim1 : ¬ (1 : Fin S512x8x20x20.rank) ∈ GD.startIndexMap :=
  show ¬ (1 : Fin 4) ∈ ([0, 2] : List (Fin 4)) by decide
private theorem not_mem_sim3 : ¬ (3 : Fin S512x8x20x20.rank) ∈ GD.startIndexMap :=
  show ¬ (3 : Fin 4) ∈ ([0, 2] : List (Fin 4)) by decide
/-- Operand axes 0 and 2 are collapsed, 1 and 3 are not. -/
private theorem mem_coll0 : (0 : Fin S512x8x20x20.rank) ∈ GD.collapsedSliceDims :=
  show (0 : Fin 4) ∈ ([0, 2] : List (Fin 4)) by simp
private theorem mem_coll2 : (2 : Fin S512x8x20x20.rank) ∈ GD.collapsedSliceDims :=
  show (2 : Fin 4) ∈ ([0, 2] : List (Fin 4)) by simp
private theorem not_mem_coll1 : ¬ (1 : Fin S512x8x20x20.rank) ∈ GD.collapsedSliceDims :=
  show ¬ (1 : Fin 4) ∈ ([0, 2] : List (Fin 4)) by decide
private theorem not_mem_coll3 : ¬ (3 : Fin S512x8x20x20.rank) ∈ GD.collapsedSliceDims :=
  show ¬ (3 : Fin 4) ∈ ([0, 2] : List (Fin 4)) by decide
/-- No operand axis is a batching one. -/
private theorem not_mem_batching (a : Fin S512x8x20x20.rank) : ¬ a ∈ GD.operandBatchingDims :=
  show ¬ a ∈ ([] : List (Fin 4)) from List.not_mem_nil

/-- The operand coordinate on a GATHERED axis (collapsed, named by the start index map, no batching): the clamped start
    alone. -/
private theorem coord_gathered {w : Nat} (J : S512x1024x8x20.Idx) (idx : IVec S512x1024x2 w)
    (a : Fin S512x8x20x20.rank) (hcl : a ∈ GD.collapsedSliceDims) :
    (GD.operandIdx J idx a).val = GD.start J idx a := by
  have hb : GD.batchCoord J a = 0 := GatherDims.batchCoord_eq_zero GD J a (not_mem_batching a)
  have ho : GD.offCoord J a = 0 :=
    GatherDims.offCoord_eq_zero GD J a (fun h => ((GatherDims.mem_sKept GD a).mp h).1 hcl)
  show GD.start J idx a + GD.batchCoord J a + GD.offCoord J a = GD.start J idx a
  omega

/-- The operand coordinate on a KEPT axis (not collapsed, not named by the start index map, no batching): the offset
    coordinate alone. -/
private theorem coord_kept {w : Nat} (J : S512x1024x8x20.Idx) (idx : IVec S512x1024x2 w)
    (a : Fin S512x8x20x20.rank) (hs : ¬ a ∈ GD.startIndexMap) :
    (GD.operandIdx J idx a).val = GD.offCoord J a := by
  have h1 : GD.start J idx a = 0 := by
    unfold GatherDims.start
    exact dif_neg hs
  have hb : GD.batchCoord J a = 0 := GatherDims.batchCoord_eq_zero GD J a (not_mem_batching a)
  show GD.start J idx a + GD.batchCoord J a + GD.offCoord J a = GD.offCoord J a
  omega

/-- THE GATHER READ AT (b, l, k, s): the operand at (u, k, v, s), u and v the components 0 and 1 of the start index of
    row (b, l), read signed and clamped into [0, 511] and [0, 19]. -/
theorem gather_rows_apply {α : Type} {w : Nat} (x : S512x8x20x20.Idx → α) (idx : IVec S512x1024x2 w)
    (b : Fin 512) (l : Fin 1024) (k : Fin 8) (s : Fin 20) :
    Host.gather gather_S512x8x20x20_S512x1024x2_S512x1024x8x20_23_02_n_n_02_2_18120 x idx (ix4 b l k s)
      = x (ix4 (⟨min (idx (ix3 b l (0 : Fin 2))).toInt.toNat 511, by omega⟩ : Fin 512) k
            (⟨min (idx (ix3 b l (1 : Fin 2))).toInt.toNat 19, by omega⟩ : Fin 20) s) := by
  unfold Host.gather
  congr 1
  funext a
  refine Fin.ext ?_
  match a with
  | ⟨0, _⟩ =>
    refine (coord_gathered (ix4 b l k s) idx 0 mem_coll0).trans ?_
    unfold GatherDims.start
    rw [dif_pos mem_sim0]
    have hsi : GD.siIdx (ix4 b l k s) ⟨List.idxOf (0 : Fin S512x8x20x20.rank) GD.startIndexMap,
        List.idxOf_lt_length_iff.2 mem_sim0⟩ = ix3 b l (0 : Fin 2) := by
      funext e; refine Fin.ext ?_
      match e with
      | ⟨0, _⟩ => rfl
      | ⟨1, _⟩ => rfl
      | ⟨2, _⟩ => rfl
    rw [hsi]
    rfl
  | ⟨1, _⟩ =>
    refine (coord_kept (ix4 b l k s) idx 1 not_mem_sim1).trans ?_
    unfold GatherDims.offCoord
    rw [dif_pos ((GatherDims.mem_sKept GD _).mpr ⟨not_mem_coll1, not_mem_batching 1⟩)]
    rfl
  | ⟨2, _⟩ =>
    refine (coord_gathered (ix4 b l k s) idx 2 mem_coll2).trans ?_
    unfold GatherDims.start
    rw [dif_pos mem_sim2]
    have hsi : GD.siIdx (ix4 b l k s) ⟨List.idxOf (2 : Fin S512x8x20x20.rank) GD.startIndexMap,
        List.idxOf_lt_length_iff.2 mem_sim2⟩ = ix3 b l (1 : Fin 2) := by
      funext e; refine Fin.ext ?_
      match e with
      | ⟨0, _⟩ => rfl
      | ⟨1, _⟩ => rfl
      | ⟨2, _⟩ => rfl
    rw [hsi]
    rfl
  | ⟨3, _⟩ =>
    refine (coord_kept (ix4 b l k s) idx 3 not_mem_sim3).trans ?_
    unfold GatherDims.offCoord
    rw [dif_pos ((GatherDims.mem_sKept GD _).mpr ⟨not_mem_coll3, not_mem_batching 3⟩)]
    rfl

/-! ## The pad of the last axis, 20 → 26 -/

/-- THE PAD READ AT (b, l, k, s), s one of the 26 padded columns: the operand at column s when s is below 20, else the
    padding value. -/
theorem pad_cols_apply {α : Type} (x : S512x1024x8x20.Idx → α) (v : S_.Idx → α)
    (hp : S512x1024x8x20.Pads (![0, 0, 0, 0] : Fin 4 → Nat) ![0, 0, 0, 6] ![0, 0, 0, 0] S512x1024x8x26)
    (hu : 0 < S_.numel) (b : Fin 512) (l : Fin 1024) (k : Fin 8) (s : Fin 26) :
    pad S512x1024x8x26 ![0, 0, 0, 0] ![0, 0, 0, 6] ![0, 0, 0, 0] x v hp hu (ix4 b l k s)
      = if h : s.val < 20 then x (ix4 b l k (⟨s.val, h⟩ : Fin 20)) else v (Shape.Idx.first hu) := by
  unfold pad
  by_cases h : s.val < 20
  · rw [dif_pos h]
    split
    · congr 1
      funext a
      refine Fin.ext ?_
      match a with
      | ⟨0, _⟩ => show (b.val - 0) / (0 + 1) = b.val; rw [Nat.sub_zero, Nat.zero_add, Nat.div_one]
      | ⟨1, _⟩ => show (l.val - 0) / (0 + 1) = l.val; rw [Nat.sub_zero, Nat.zero_add, Nat.div_one]
      | ⟨2, _⟩ => show (k.val - 0) / (0 + 1) = k.val; rw [Nat.sub_zero, Nat.zero_add, Nat.div_one]
      | ⟨3, _⟩ => show (s.val - 0) / (0 + 1) = s.val; rw [Nat.sub_zero, Nat.zero_add, Nat.div_one]
    · next hnin =>
      exfalso
      apply hnin
      intro a
      match a with
      | ⟨0, _⟩ =>
        show 0 ≤ b.val ∧ (b.val - 0) % (0 + 1) = 0 ∧ (b.val - 0) / (0 + 1) < 512
        refine ⟨Nat.zero_le _, Nat.mod_one _, ?_⟩
        rw [Nat.sub_zero, Nat.zero_add, Nat.div_one]; exact b.isLt
      | ⟨1, _⟩ =>
        show 0 ≤ l.val ∧ (l.val - 0) % (0 + 1) = 0 ∧ (l.val - 0) / (0 + 1) < 1024
        refine ⟨Nat.zero_le _, Nat.mod_one _, ?_⟩
        rw [Nat.sub_zero, Nat.zero_add, Nat.div_one]; exact l.isLt
      | ⟨2, _⟩ =>
        show 0 ≤ k.val ∧ (k.val - 0) % (0 + 1) = 0 ∧ (k.val - 0) / (0 + 1) < 8
        refine ⟨Nat.zero_le _, Nat.mod_one _, ?_⟩
        rw [Nat.sub_zero, Nat.zero_add, Nat.div_one]; exact k.isLt
      | ⟨3, _⟩ =>
        show 0 ≤ s.val ∧ (s.val - 0) % (0 + 1) = 0 ∧ (s.val - 0) / (0 + 1) < 20
        refine ⟨Nat.zero_le _, Nat.mod_one _, ?_⟩
        rw [Nat.sub_zero, Nat.zero_add, Nat.div_one]; exact h
  · rw [dif_neg h]
    split
    · next hin =>
      exfalso
      apply h
      have h3lt : 3 < S512x1024x8x20.rank := by decide
      have h3 : (s.val - 0) / (0 + 1) < 20 := (hin ⟨3, h3lt⟩).2.2
      rw [Nat.sub_zero, Nat.zero_add, Nat.div_one] at h3
      exact h3
    · rfl

end Cert.ReferenceIdeal.R2

end
-- ==== Proof.R2a.lean ====
/-
  The integer side of the reference's tail at one token (b, l) whose word is non-negative as a signed integer.

  The mask is "the token is below 20"; the standardised token is the token itself under the mask and 0 otherwise; its
  negative-index normalisation is never taken (a standardised token is never negative); the batch index is the word
  of b, never negative either. So the start index of row (b, l) has the components (word of b, standardised token),
  and clamping them into [0, 511] and [0, 19] changes nothing.
-/
import proofs.«402584_j57200374448411_3_alg».proof.Proof.RefStages
import proofs.«402584_j57200374448411_3_alg».proof.Proof.R2g
import Idealize.ShloMosaic.Lib.StableHlo.Predicate

noncomputable section

namespace Cert.ReferenceIdeal.R2

open Cert.ReferenceIdeal Cert.ReferenceIdeal.Gen Cert.ReferenceIdeal.Stages Idealize.ShloMosaic Idealize.ShloMosaic.TcCoe Idealize.SL.Sem Idealize.ShloMosaic.ValueIdx

/-! ## Words -/

/-- A word that is non-negative as a signed integer reads below 2³¹ unsigned. -/
theorem toNat_lt_of_nonneg {w : BitVec 32} (h : 0 ≤ w.toInt) : w.toNat < 2 ^ 31 := by
  have h2 : 2 * w.toNat < 2 ^ 32 := BitVec.toInt_pos_iff.mp h
  omega

/-- The word of a small natural number reads back as that number. -/
theorem toNat_ofNat_small (n : Nat) (hn : n < 2 ^ 31) : (BitVec.ofNat 32 n).toNat = n := by
  rw [BitVec.toNat_ofNat]
  exact Nat.mod_eq_of_lt (by omega)

/-- The standardised token: the token itself when it is one of the twenty standard ones, else 0. -/
def std (w : BitVec 32) : BitVec 32 := if w.toNat < 20 then w else 0#32

theorem std_toNat (w : BitVec 32) : (std w).toNat = if w.toNat < 20 then w.toNat else 0 := by
  unfold std
  by_cases hc : w.toNat < 20
  · rw [if_pos hc, if_pos hc]
  · rw [if_neg hc, if_neg hc]
    try rfl

theorem std_toNat_lt (w : BitVec 32) : (std w).toNat < 20 := by
  rw [std_toNat]
  by_cases hc : w.toNat < 20
  · rw [if_pos hc]; exact hc
  · rw [if_neg hc]; decide

/-- The mask as a float: 1 for a standard token, else 0. -/
def maskf (w : BitVec 32) : EReal := if w.toNat < 20 then 1 else 0

/-- "w < 20" on signed words, for a non-negative w: the bit 1 exactly when w reads below 20. -/
theorem slt_twenty {w : BitVec 32} (h : 0 ≤ w.toInt) :
    IntOp.cmpi .slt w 20#32 = if w.toNat < 20 then 1#1 else 0#1 := by
  have h31 := toNat_lt_of_nonneg h
  have h20 : (20#32 : BitVec 32).toNat < 2 ^ 31 := by decide
  by_cases hc : w.toNat < 20
  · rw [if_pos hc]
    exact (StableHlo.Predicate.slt_iff_toNat h31 h20).mpr hc
  · rw [if_neg hc]
    exact eq_zero_of_ne_one (fun h1 => hc ((StableHlo.Predicate.slt_iff_toNat h31 h20).mp h1))

/-- A word that reads below 2³¹ is not below 0 as a signed word. -/
theorem slt_zero_of_lt {v : BitVec 32} (hv : v.toNat < 2 ^ 31) : IntOp.cmpi .slt v 0#32 = 0#1 := by
  have h0 : (0#32 : BitVec 32).toNat < 2 ^ 31 := by decide
  exact eq_zero_of_ne_one (fun h1 => Nat.not_lt_zero _ ((StableHlo.Predicate.slt_iff_toNat hv h0).mp h1))

/-- The word of b < 512, read signed and clamped into [0, 511], is b. -/
theorem clamp_batch (b : Fin 512) : min (BitVec.ofNat 32 b.val).toInt.toNat 511 = b.val := by
  have hb := b.isLt
  rw [StableHlo.Predicate.toInt_ofNat_small b.val (by omega), Int.toNat_natCast]
  omega

/-- A standardised token, read signed and clamped into [0, 19], is itself. -/
theorem clamp_std (w : BitVec 32) : min (std w).toInt.toNat 19 = (std w).toNat := by
  have hlt := std_toNat_lt w
  rw [StableHlo.Predicate.toInt_eq_toNat_of_lt (a := std w) (by omega), Int.toNat_natCast]
  omega

/-! ## Where the broadcasts of this side read -/

section
variable (x0 : (⟨S512x1024, .i32⟩ : BufTy).Contents (Elt Ideal)) (b : Fin 512) (l : Fin 1024)

theorem idx_v4_at : idx_main_v4 (ix4 b l (0 : Fin 1) (0 : Fin 1)) = ix2 b l := by
  funext a
  match a with
  | ⟨0, _⟩ => rfl
  | ⟨1, _⟩ => rfl

theorem idx_v131_at : idx_main_v131 (ix2 b (0 : Fin 1)) = ix1 b := by
  funext a
  match a with
  | ⟨0, _⟩ => rfl

theorem idx_v142_at : idx_main_v142 (ix2 b l) = ix2 b (0 : Fin 1) := by
  funext a
  match a with
  | ⟨0, _⟩ => rfl
  | ⟨1, _⟩ => rfl

theorem idx_v143_at : idx_main_v143 (ix3 b l (0 : Fin 1)) = ix2 b l := by
  funext a
  match a with
  | ⟨0, _⟩ => rfl
  | ⟨1, _⟩ => rfl

theorem idx_v144_at : idx_main_v144 (ix3 b l (0 : Fin 1)) = ix2 b l := by
  funext a
  match a with
  | ⟨0, _⟩ => rfl
  | ⟨1, _⟩ => rfl

/-! ## The mask and the standardised token at (b, l) -/

/-- The mask bit at (b, l): 1 exactly when the token reads below 20. -/
theorem v1_at (h : 0 ≤ BitVec.toInt (x0 (ix2 b l))) :
    val_main_v1 (F := Ideal) x0 (ix2 b l) = if BitVec.toNat (x0 (ix2 b l)) < 20 then 1#1 else 0#1 := by
  rw [val_main_v1_apply, val_main_v0_apply, val_main_c_apply]
  exact slt_twenty h

/-- The standardised token at (b, l). -/
theorem v2_at (h : 0 ≤ BitVec.toInt (x0 (ix2 b l))) :
    val_main_v2 (F := Ideal) x0 (ix2 b l) = std (x0 (ix2 b l)) := by
  rw [val_main_v2_apply, v1_at x0 b l h, val_main_call0_v1_apply, val_main_call0_v0_apply, val_main_c_0_apply]
  unfold std
  by_cases hc : BitVec.toNat (x0 (ix2 b l)) < 20
  · rw [if_pos hc, if_pos hc, select_one]
  · rw [if_neg hc, if_neg hc, select_zero]

/-- The mask as a float at (b, l). -/
theorem v4_at (h : 0 ≤ BitVec.toInt (x0 (ix2 b l))) :
    val_main_v4 (F := Ideal) x0 (ix4 b l (0 : Fin 1) (0 : Fin 1)) = maskf (x0 (ix2 b l)) := by
  rw [val_main_v4_apply, idx_v4_at, val_main_v3_apply, v1_at x0 b l h]
  unfold maskf
  by_cases hc : BitVec.toNat (x0 (ix2 b l)) < 20
  · rw [if_pos hc, if_pos hc]
    show (((1#1 : BitVec 1).toNat : ℝ) : EReal) = 1
    simp
  · rw [if_neg hc, if_neg hc]
    show (((0#1 : BitVec 1).toNat : ℝ) : EReal) = 0
    simp

/-- The negative-index normalisation leaves a standardised token as it is. -/
theorem v141_at (h : 0 ≤ BitVec.toInt (x0 (ix2 b l))) :
    val_main_v141 (F := Ideal) x0 (ix2 b l) = std (x0 (ix2 b l)) := by
  have hlt : (std (x0 (ix2 b l))).toNat < 2 ^ 31 := lt_of_lt_of_le (std_toNat_lt _) (by decide)
  rw [val_main_v141_apply, val_main_v138_apply, v2_at x0 b l h, val_main_v137_apply, val_main_c_27_apply,
    slt_zero_of_lt hlt, select_zero]

/-! ## The batch index at b -/

theorem v131_at : val_main_v131 (F := Ideal) (ix2 b (0 : Fin 1)) = BitVec.ofNat 32 b.val := by
  rw [val_main_v131_apply, idx_v131_at, val_main_v130_apply]
  try rfl

/-- The batch index's negative-index fix is never taken. -/
theorem v136_at : val_main_v136 (F := Ideal) (ix2 b (0 : Fin 1)) = BitVec.ofNat 32 b.val := by
  have hb : (BitVec.ofNat 32 b.val).toNat < 2 ^ 31 := by
    have := b.isLt
    rw [toNat_ofNat_small _ (by omega)]
    omega
  rw [val_main_v136_apply, val_main_v133_apply, v131_at, val_main_v132_apply, val_main_c_25_apply,
    slt_zero_of_lt hb, select_zero]

/-! ## The start index of row (b, l) -/

theorem v143_at : val_main_v143 (F := Ideal) (ix3 b l (0 : Fin 1)) = BitVec.ofNat 32 b.val := by
  rw [val_main_v143_apply, idx_v143_at, val_main_v142_apply, idx_v142_at, v136_at]

theorem v144_at (h : 0 ≤ BitVec.toInt (x0 (ix2 b l))) :
    val_main_v144 (F := Ideal) x0 (ix3 b l (0 : Fin 1)) = std (x0 (ix2 b l)) := by
  rw [val_main_v144_apply, idx_v144_at, v141_at x0 b l h]

/-- Component 0 of the start index of row (b, l): the word of b. -/
theorem v145_at0 : val_main_v145 (F := Ideal) x0 (ix3 b l (0 : Fin 2)) = BitVec.ofNat 32 b.val := by
  unfold val_main_v145
  refine (concat_comp0 _ _ _ b l).trans ?_
  exact v143_at b l

/-- Component 1 of the start index of row (b, l): the standardised token. -/
theorem v145_at1 (h : 0 ≤ BitVec.toInt (x0 (ix2 b l))) :
    val_main_v145 (F := Ideal) x0 (ix3 b l (1 : Fin 2)) = std (x0 (ix2 b l)) := by
  unfold val_main_v145
  refine (concat_comp1 _ _ _ b l).trans ?_
  exact v144_at x0 b l h

end

end Cert.ReferenceIdeal.R2

end
-- ==== Proof.R2b.lean ====
/-
  The gathered side of the reference's tail at one entry (b, l, k, s), the token of (b, l) non-negative as a signed
  integer: the gather reads row "standardised token" of the transition matrix of (b, k); the product with the mask
  keeps it for a standard token and makes it 0 otherwise; the pad adds six zero columns.
-/
import proofs.«402584_j57200374448411_3_alg».proof.Proof.RefStages
import proofs.«402584_j57200374448411_3_alg».proof.Proof.R2g
import proofs.«402584_j57200374448411_3_alg».proof.Proof.R2a

noncomputable section

namespace Cert.ReferenceIdeal.R2

open Cert.ReferenceIdeal Cert.ReferenceIdeal.Gen Cert.ReferenceIdeal.Stages Idealize.ShloMosaic Idealize.ShloMosaic.TcCoe Idealize.SL.Sem Idealize.ShloMosaic.ValueIdx

section
variable (x0 : (⟨S512x1024, .i32⟩ : BufTy).Contents (Elt Ideal)) (x1 : (⟨S512, .i32⟩ : BufTy).Contents (Elt Ideal))
  (x2 : (⟨S512, .f32⟩ : BufTy).Contents (Elt Ideal)) (x3 : (⟨S8x20x20, .f32⟩ : BufTy).Contents (Elt Ideal))
  (x4 : (⟨S20, .f32⟩ : BufTy).Contents (Elt Ideal)) (b : Fin 512) (l : Fin 1024)

theorem idx_v147_at (k : Fin 8) (s : Fin 20) : idx_main_v147 (ix4 b l k s) = ix4 b l (0 : Fin 1) (0 : Fin 1) := by
  funext a
  match a with
  | ⟨0, _⟩ => rfl
  | ⟨1, _⟩ => rfl
  | ⟨2, _⟩ => rfl
  | ⟨3, _⟩ => rfl

/-- The gather at (b, l, k, s): the transition matrix of (b, k) at row "standardised token", column s. -/
theorem v146_at (h : 0 ≤ BitVec.toInt (x0 (ix2 b l))) (k : Fin 8) (s : Fin 20) :
    val_main_v146 (F := Ideal) x0 x1 x2 x3 x4 (ix4 b l k s)
      = val_main_v129 (F := Ideal) x1 x2 x3 x4
          (ix4 b k (⟨(std (x0 (ix2 b l))).toNat, std_toNat_lt _⟩ : Fin 20) s) := by
  unfold val_main_v146
  rw [gather_rows_apply]
  congr 1
  funext a
  refine Fin.ext ?_
  match a with
  | ⟨0, _⟩ =>
    show min (BitVec.toInt (val_main_v145 (F := Ideal) x0 (ix3 b l (0 : Fin 2)))).toNat 511 = b.val
    rw [v145_at0]
    exact clamp_batch b
  | ⟨1, _⟩ => rfl
  | ⟨2, _⟩ =>
    show min (BitVec.toInt (val_main_v145 (F := Ideal) x0 (ix3 b l (1 : Fin 2)))).toNat 19
      = (std (x0 (ix2 b l))).toNat
    rw [v145_at1 x0 b l h]
    exact clamp_std _
  | ⟨3, _⟩ => rfl

/-- The gathered entry times the mask. -/
theorem v148_at (h : 0 ≤ BitVec.toInt (x0 (ix2 b l))) (k : Fin 8) (s : Fin 20) :
    val_main_v148 (F := Ideal) x0 x1 x2 x3 x4 (ix4 b l k s)
      = val_main_v129 (F := Ideal) x1 x2 x3 x4
          (ix4 b k (⟨(std (x0 (ix2 b l))).toNat, std_toNat_lt _⟩ : Fin 20) s) * maskf (x0 (ix2 b l)) := by
  rw [val_main_v148_apply, v146_at x0 x1 x2 x3 x4 b l h k s, val_main_v147_apply, idx_v147_at, v4_at x0 b l h]
  try rfl

/-- The padded entry at (b, l, k, s), s one of the 26 columns: the masked gathered entry below column 20, else 0. -/
theorem v149_at (h : 0 ≤ BitVec.toInt (x0 (ix2 b l))) (k : Fin 8) (s : Fin 26) :
    val_main_v149 (F := Ideal) x0 x1 x2 x3 x4 (ix4 b l k s)
      = if hs : s.val < 20 then
          val_main_v129 (F := Ideal) x1 x2 x3 x4
            (ix4 b k (⟨(std (x0 (ix2 b l))).toNat, std_toNat_lt _⟩ : Fin 20) (⟨s.val, hs⟩ : Fin 20))
            * maskf (x0 (ix2 b l))
        else 0 := by
  unfold val_main_v149
  rw [pad_cols_apply]
  by_cases hs : s.val < 20
  · rw [dif_pos hs, dif_pos hs, v148_at x0 x1 x2 x3 x4 b l h k ⟨s.val, hs⟩]
  · rw [dif_neg hs, dif_neg hs, val_main_call3_v0_apply, val_main_c_29_apply]
    show (((0#32 : BitVec 32).toInt : ℝ) : EReal) = 0
    simp

end

end Cert.ReferenceIdeal.R2

end
-- ==== Proof.R2c.lean ====
/-
  The one-hot side of the reference's tail at one entry (b, l, k, s), s one of the 26 columns: the one-hot coefficient
  of the token of (b, l) at column s (1 when the token word reads s, else 0), times one minus the mask, the same in
  each of the eight blocks k.
-/
import proofs.«402584_j57200374448411_3_alg».proof.Proof.RefStages
import proofs.«402584_j57200374448411_3_alg».proof.Proof.Spec
import proofs.«402584_j57200374448411_3_alg».proof.Proof.R2a
import Idealize.ShloMosaic.Lib.StableHlo.Predicate
import Idealize.ShloMosaic.Lib.IdealHost

noncomputable section

namespace Cert.ReferenceIdeal.R2

open Cert.ReferenceIdeal Cert.ReferenceIdeal.Gen Cert.ReferenceIdeal.Stages Idealize.ShloMosaic Idealize.ShloMosaic.TcCoe Idealize.SL.Sem Idealize.ShloMosaic.ValueIdx

section
variable (x0 : (⟨S512x1024, .i32⟩ : BufTy).Contents (Elt Ideal)) (b : Fin 512) (l : Fin 1024)

theorem idx_call4_v0_at : idx_main_call4_v0 (ix3 b l (0 : Fin 1)) = ix2 b l := by
  funext a
  match a with
  | ⟨0, _⟩ => rfl
  | ⟨1, _⟩ => rfl

theorem idx_call4_v2_at (s : Fin 26) : idx_main_call4_v2 (ix3 b l s) = ix3 b l (0 : Fin 1) := by
  funext a
  match a with
  | ⟨0, _⟩ => rfl
  | ⟨1, _⟩ => rfl
  | ⟨2, _⟩ => rfl

theorem idx_call4_v3_at (s : Fin 26) : idx_main_call4_v3 (ix3 b l s) = ix3 (0 : Fin 1) (0 : Fin 1) s := by
  funext a
  match a with
  | ⟨0, _⟩ => rfl
  | ⟨1, _⟩ => rfl
  | ⟨2, _⟩ => rfl

theorem idx_v151_at (s : Fin 26) : idx_main_v151 (ix4 b l (0 : Fin 1) s) = ix3 b l s := by
  funext a
  match a with
  | ⟨0, _⟩ => rfl
  | ⟨1, _⟩ => rfl
  | ⟨2, _⟩ => rfl

theorem idx_v154_at (s : Fin 26) : idx_main_v154 (ix4 b l (0 : Fin 1) s) = ix4 b l (0 : Fin 1) (0 : Fin 1) := by
  funext a
  match a with
  | ⟨0, _⟩ => rfl
  | ⟨1, _⟩ => rfl
  | ⟨2, _⟩ => rfl
  | ⟨3, _⟩ => rfl

theorem idx_v156_at (k : Fin 8) (s : Fin 26) : idx_main_v156 (ix4 b l k s) = ix4 b l (0 : Fin 1) s := by
  funext a
  match a with
  | ⟨0, _⟩ => rfl
  | ⟨1, _⟩ => rfl
  | ⟨2, _⟩ => rfl
  | ⟨3, _⟩ => rfl

/-- A word equals the word of a column number s < 26 exactly when it reads s. -/
theorem eq_ofNat_iff (w : BitVec 32) (s : Fin 26) : w = BitVec.ofNat 32 s.val ↔ w.toNat = s.val := by
  have hs : (BitVec.ofNat 32 s.val).toNat = s.val := toNat_ofNat_small _ (by have := s.isLt; omega)
  constructor
  · intro he
    rw [he, hs]
  · intro hn
    apply BitVec.eq_of_toNat_eq
    rw [hn, hs]

/-- The one-hot entry at (b, l, s): 1 when the token word reads s, else 0. -/
theorem v150_at (s : Fin 26) :
    val_main_v150 (F := Ideal) x0 (ix3 b l s) = Cert.Spec.oh (x0 (ix2 b l)) s := by
  rw [val_main_v150_apply, val_main_call4_v4_apply, val_main_call4_v2_apply, idx_call4_v2_at,
    val_main_call4_v0_apply, idx_call4_v0_at, val_main_call4_v3_apply, idx_call4_v3_at, val_main_call4_v1_apply]
  show FloatOps.uitofp (F := Ideal) .f32 (IntOp.cmpi .eq (x0 (ix2 b l)) (BitVec.ofNat 32 s.val)) = _
  unfold Cert.Spec.oh
  by_cases hc : BitVec.toNat (x0 (ix2 b l)) = s.val
  · rw [if_pos hc, StableHlo.Predicate.cmpi_eq_iff.mpr ((eq_ofNat_iff _ s).mpr hc)]
    show (((1#1 : BitVec 1).toNat : ℝ) : EReal) = 1
    simp
  · rw [if_neg hc,
      eq_zero_of_ne_one (fun h1 => hc ((eq_ofNat_iff _ s).mp (StableHlo.Predicate.cmpi_eq_iff.mp h1)))]
    show (((0#1 : BitVec 1).toNat : ℝ) : EReal) = 0
    simp

/-- The one-hot term at (b, l, k, s): the one-hot coefficient times one minus the mask, whatever the block k. -/
theorem v156_at (h : 0 ≤ BitVec.toInt (x0 (ix2 b l))) (k : Fin 8) (s : Fin 26) :
    val_main_v156 (F := Ideal) x0 (ix4 b l k s)
      = Cert.Spec.oh (x0 (ix2 b l)) s * (1 - maskf (x0 (ix2 b l))) := by
  rw [val_main_v156_apply, idx_v156_at, val_main_v155_apply, val_main_v151_apply, idx_v151_at, v150_at,
    val_main_v154_apply, idx_v154_at, val_main_v153_apply, val_main_v152_apply, val_main_cst_30_apply,
    v4_at x0 b l h]
  show Cert.Spec.oh (x0 (ix2 b l)) s * (Ideal.ofBits .f32 0x3F800000#32 - maskf (x0 (ix2 b l))) = _
  rw [Ideal.ofBits_one_f32]

end

end Cert.ReferenceIdeal.R2

end
-- ==== Proof.R2.lean ====
/-
  The reference's tail read at a result index (b, l, j), the token of (b, l) non-negative as a signed integer.

  Column j of the 208 lies in block j / 26 at column j % 26 of the 26. There the result is the padded, masked gathered
  entry plus the one-hot term. For a standard token (below 20) the mask is 1: the gathered entry is row "token" of the
  transition matrix and the one-hot term is multiplied by 1 − 1 = 0. For any other token the mask is 0: the gathered
  entry is multiplied by 0 (which is 0 for every extended real, the infinite ones included) and the one-hot term is the
  one-hot pattern of the token, which is all 0 when the token is 26 or more. Either way it is the row of the extended
  table the specification names.
-/
import proofs.«402584_j57200374448411_3_alg».proof.Proof.RefStages
import proofs.«402584_j57200374448411_3_alg».proof.Proof.Spec
import proofs.«402584_j57200374448411_3_alg».proof.Proof.R2a
import proofs.«402584_j57200374448411_3_alg».proof.Proof.R2b
import proofs.«402584_j57200374448411_3_alg».proof.Proof.R2c

noncomputable section

namespace Cert.ReferenceIdeal.R2

open Cert.ReferenceIdeal Cert.ReferenceIdeal.Gen Cert.ReferenceIdeal.Stages Idealize.ShloMosaic Idealize.ShloMosaic.TcCoe Idealize.SL.Sem Idealize.ShloMosaic.ValueIdx

/-- The extended real 1 minus itself is 0 (it is a real number). -/
theorem one_sub_one : (1 : EReal) - 1 = 0 := by
  rw [← EReal.coe_one, ← EReal.coe_sub, sub_self, EReal.coe_zero]

/-- THE CASE ANALYSIS, with no program in sight: for a token word w, eight matrices P, a block k and a column s of the 26,
    the masked row "standardised token" padded with zeros, plus the one-hot coefficient times one minus the mask, is the
    specification's row for w. -/
theorem tail_math (w : BitVec 32) (P : Cert.Spec.Mats) (k : Fin 8) (s : Fin 26) :
    (if hs : s.val < 20 then
        P k (⟨(std w).toNat, std_toNat_lt w⟩ : Fin 20) (⟨s.val, hs⟩ : Fin 20) * maskf w
      else 0)
      + Cert.Spec.oh w s * (1 - maskf w)
      = Cert.Spec.out w P k s := by
  by_cases hc : w.toNat < 20
  · -- a standard token: the mask is 1 and the one-hot term vanishes
    have hm : maskf w = 1 := if_pos hc
    have hstd : (⟨(std w).toNat, std_toNat_lt w⟩ : Fin 20) = ⟨w.toNat, hc⟩ :=
      Fin.ext (show (std w).toNat = w.toNat by rw [std_toNat, if_pos hc])
    have h26 : w.toNat < 26 := by omega
    have hout : Cert.Spec.out w P k s
        = if hs : s.val < 20 then P k (⟨w.toNat, hc⟩ : Fin 20) (⟨s.val, hs⟩ : Fin 20) else 0 := by
      unfold Cert.Spec.out
      rw [dif_pos h26]
      unfold Cert.Spec.row
      rw [dif_pos (show (⟨w.toNat, h26⟩ : Fin 26).val < 20 from hc)]
    rw [hout, hm, hstd, one_sub_one, mul_zero, add_zero]
    by_cases hs : s.val < 20
    · rw [dif_pos hs, dif_pos hs, mul_one]
    · rw [dif_neg hs, dif_neg hs]
  · -- any other token: the mask is 0, the gathered entry vanishes and the one-hot pattern stays
    have hm : maskf w = 0 := if_neg hc
    have hout : Cert.Spec.out w P k s = Cert.Spec.oh w s := by
      unfold Cert.Spec.out Cert.Spec.oh
      by_cases h26 : w.toNat < 26
      · rw [dif_pos h26]
        unfold Cert.Spec.row
        rw [dif_neg (show ¬ (⟨w.toNat, h26⟩ : Fin 26).val < 20 from hc)]
        by_cases he : w.toNat = s.val
        · rw [if_pos he, if_pos (show s = (⟨w.toNat, h26⟩ : Fin 26) from Fin.ext he.symm)]
        · rw [if_neg he,
            if_neg (show ¬ s = (⟨w.toNat, h26⟩ : Fin 26) from fun hh => he (congrArg Fin.val hh).symm)]
      · rw [dif_neg h26, if_neg (show ¬ w.toNat = s.val from fun he => h26 (by have := s.isLt; omega))]
    rw [hout, hm, sub_zero, mul_one]
    by_cases hs : s.val < 20
    · rw [dif_pos hs, mul_zero, zero_add]
    · rw [dif_neg hs, zero_add]

section
variable (x0 : (⟨S512x1024, .i32⟩ : BufTy).Contents (Elt Ideal)) (x1 : (⟨S512, .i32⟩ : BufTy).Contents (Elt Ideal))
  (x2 : (⟨S512, .f32⟩ : BufTy).Contents (Elt Ideal)) (x3 : (⟨S8x20x20, .f32⟩ : BufTy).Contents (Elt Ideal))
  (x4 : (⟨S20, .f32⟩ : BufTy).Contents (Elt Ideal)) (b : Fin 512) (l : Fin 1024)

/-- Column j of the flattened result is column j % 26 of block j / 26. -/
theorem idx_v158_at (j : Fin 208) :
    idx_main_v158 (ix3 b l j) = ix4 b l (Cert.Spec.blk j) (Cert.Spec.col j) := by
  funext a
  refine Fin.ext ?_
  have hb := b.isLt
  have hl := l.isLt
  have hj := j.isLt
  match a with
  | ⟨0, _⟩ => show ((b.val * 1024 + l.val) * 208 + j.val) / 212992 = b.val; omega
  | ⟨1, _⟩ => show ((b.val * 1024 + l.val) * 208 + j.val) / 208 % 1024 = l.val; omega
  | ⟨2, _⟩ => show ((b.val * 1024 + l.val) * 208 + j.val) / 26 % 8 = j.val / 26; omega
  | ⟨3, _⟩ => show ((b.val * 1024 + l.val) * 208 + j.val) % 26 = j.val % 26; omega

/-- THE REFERENCE'S TAIL AT (b, l, j), the token of (b, l) non-negative: the specification's result entry for that token,
    over the eight transition matrices of b the reference has computed, at block j / 26, column j % 26. -/
theorem ref_tail (j : Fin 208)
    (h : 0 ≤ (x0 (ix2 b l)).toInt) :
    val_main_v158 (F := Ideal) x0 x1 x2 x3 x4 (ix3 b l j)
      = Cert.Spec.out (x0 (ix2 b l)) (fun k i j' => val_main_v129 (F := Ideal) x1 x2 x3 x4 (ix4 b k i j')) (Cert.Spec.blk j) (Cert.Spec.col j) := by
  rw [val_main_v158_apply, idx_v158_at, val_main_v157_apply,
    v149_at x0 x1 x2 x3 x4 b l h (Cert.Spec.blk j) (Cert.Spec.col j),
    v156_at x0 b l h (Cert.Spec.blk j) (Cert.Spec.col j)]
  exact tail_math (x0 (ix2 b l)) (fun k i j' => val_main_v129 (F := Ideal) x1 x2 x3 x4 (ix4 b k i j'))
    (Cert.Spec.blk j) (Cert.Spec.col j)

end

end Cert.ReferenceIdeal.R2

end
-- ==== Proof.KA.lean ====
import proofs.«402584_j57200374448411_3_alg».proof.Proof.Gen.KernelIdeal.Frame
import proofs.«402584_j57200374448411_3_alg».proof.Proof.RefStages

set_option maxRecDepth 16384

noncomputable section

namespace Cert.KernelIdeal.KA

open Cert.KernelIdeal Cert.KernelIdeal.Gen Idealize.ShloMosaic Idealize.ShloMosaic.TcCoe Idealize.SL.Sem Idealize.ShloMosaic.ValueIdx
open Cert.ReferenceIdeal.Stages

/-! # The host prefix of the kernel computes the reference's scaled rate matrices

Both programs build the array A[b, k, :, :] = tau'[b] · Q[k, :, :] by the same operations in the same order:
the symmetrised exchange rates, their softplus, the off-diagonal mask, the stationary frequencies, the row sums on
the diagonal, the normalisation by the mean rate, and the softplus of the branch lengths gathered at the wrapped
rate indices. The five stretches of host operations are read one at a time, each over ARBITRARY contents V of the
buffers before it: what a stretch writes is the reference's stage as soon as what it reads is. No law of the
extended reals is used: the two sides are the same composed term. -/

/-! ## Stretch 1: the identity pattern and the symmetrised exchange rates -/

/-- The 20 × 20 identity pattern as a float matrix. -/
theorem eye_stage (V : Valuation τ sig (Elt Ideal)) :
    StableHlo.after (hostOps0 (F := Ideal)) V (Proc.devRef .tc main_v5) = val_main_v10 (F := Ideal) := by
  dsimp only [hostOps0]
  after_results <;> rfl

/-- Half the sum of the exchange rates and their transpose. -/
theorem sym_stage (V : Valuation τ sig (Elt Ideal)) (x3 : (⟨S8x20x20, .f32⟩ : BufTy).Contents (Elt Ideal))
    (h3 : V (Proc.devRef .tc main_arg3) = x3) :
    StableHlo.after (hostOps0 (F := Ideal)) V (Proc.devRef .tc main_v9) = val_main_v14 (F := Ideal) x3 := by
  dsimp only [hostOps0]
  after_results
  rw [h3]
  rfl

/-- The stretch writes none of the three arguments read later. -/
theorem keep1_arg1 (V : Valuation τ sig (Elt Ideal)) :
    StableHlo.after (hostOps0 (F := Ideal)) V (Proc.devRef .tc main_arg1) = V (Proc.devRef .tc main_arg1) := by
  dsimp only [hostOps0]
  after_results <;> rfl
theorem keep1_arg2 (V : Valuation τ sig (Elt Ideal)) :
    StableHlo.after (hostOps0 (F := Ideal)) V (Proc.devRef .tc main_arg2) = V (Proc.devRef .tc main_arg2) := by
  dsimp only [hostOps0]
  after_results <;> rfl
theorem keep1_arg4 (V : Valuation τ sig (Elt Ideal)) :
    StableHlo.after (hostOps0 (F := Ideal)) V (Proc.devRef .tc main_arg4) = V (Proc.devRef .tc main_arg4) := by
  dsimp only [hostOps0]
  after_results <;> rfl

/-! ## Stretch 2: the softplus of the symmetrised rates -/

/-- The softplus, entry by entry, of what stretch 1 left. -/
theorem softplus_stage (V : Valuation τ sig (Elt Ideal)) (x3 : (⟨S8x20x20, .f32⟩ : BufTy).Contents (Elt Ideal))
    (h9 : V (Proc.devRef .tc main_v9) = val_main_v14 (F := Ideal) x3) :
    StableHlo.after (hostOps0_1 (F := Ideal)) V (Proc.devRef .tc main_v10) = val_main_v15 (F := Ideal) x3 := by
  dsimp only [hostOps0_1]
  after_results
  try simp only [StableHlo.TRef.ofBuf, StableHlo.TRef.toBuf, cast_eq]
  rw [h9]
  rfl

theorem keep2_v5 (V : Valuation τ sig (Elt Ideal)) :
    StableHlo.after (hostOps0_1 (F := Ideal)) V (Proc.devRef .tc main_v5) = V (Proc.devRef .tc main_v5) := by
  dsimp only [hostOps0_1]
  after_results <;> rfl
theorem keep2_arg1 (V : Valuation τ sig (Elt Ideal)) :
    StableHlo.after (hostOps0_1 (F := Ideal)) V (Proc.devRef .tc main_arg1) = V (Proc.devRef .tc main_arg1) := by
  dsimp only [hostOps0_1]
  after_results <;> rfl
theorem keep2_arg2 (V : Valuation τ sig (Elt Ideal)) :
    StableHlo.after (hostOps0_1 (F := Ideal)) V (Proc.devRef .tc main_arg2) = V (Proc.devRef .tc main_arg2) := by
  dsimp only [hostOps0_1]
  after_results <;> rfl
theorem keep2_arg4 (V : Valuation τ sig (Elt Ideal)) :
    StableHlo.after (hostOps0_1 (F := Ideal)) V (Proc.devRef .tc main_arg4) = V (Proc.devRef .tc main_arg4) := by
  dsimp only [hostOps0_1]
  after_results <;> rfl

/-! ## Stretch 3: the normalised rate matrices -/

set_option maxHeartbeats 4000000 in
/-- Off-diagonal rates times frequencies, minus the row sums on the diagonal, over the mean rate. -/
theorem rate_stage (V : Valuation τ sig (Elt Ideal)) (x3 : (⟨S8x20x20, .f32⟩ : BufTy).Contents (Elt Ideal))
    (x4 : (⟨S20, .f32⟩ : BufTy).Contents (Elt Ideal))
    (h10 : V (Proc.devRef .tc main_v10) = val_main_v15 (F := Ideal) x3)
    (h5 : V (Proc.devRef .tc main_v5) = val_main_v10 (F := Ideal))
    (h4 : V (Proc.devRef .tc main_arg4) = x4) :
    StableHlo.after (hostOps0_2 (F := Ideal)) V (Proc.devRef .tc main_v34) = val_main_v39 (F := Ideal) x3 x4 := by
  dsimp only [hostOps0_2]
  after_results_simp
  rw [h10, h5, h4]
  rfl

set_option maxHeartbeats 4000000 in
theorem keep3_arg1 (V : Valuation τ sig (Elt Ideal)) :
    StableHlo.after (hostOps0_2 (F := Ideal)) V (Proc.devRef .tc main_arg1) = V (Proc.devRef .tc main_arg1) := by
  dsimp only [hostOps0_2]
  after_results_simp <;> rfl
set_option maxHeartbeats 4000000 in
theorem keep3_arg2 (V : Valuation τ sig (Elt Ideal)) :
    StableHlo.after (hostOps0_2 (F := Ideal)) V (Proc.devRef .tc main_arg2) = V (Proc.devRef .tc main_arg2) := by
  dsimp only [hostOps0_2]
  after_results_simp <;> rfl

/-! ## Stretch 4: the softplus of the branch lengths -/

theorem tau_stage (V : Valuation τ sig (Elt Ideal)) (x2 : (⟨S512, .f32⟩ : BufTy).Contents (Elt Ideal))
    (h2 : V (Proc.devRef .tc main_arg2) = x2) :
    StableHlo.after (hostOps0_3 (F := Ideal)) V (Proc.devRef .tc main_v35) = val_main_v40 (F := Ideal) x2 := by
  dsimp only [hostOps0_3]
  after_results
  try simp only [StableHlo.TRef.ofBuf, StableHlo.TRef.toBuf, cast_eq]
  rw [h2]
  rfl

theorem keep4_v34 (V : Valuation τ sig (Elt Ideal)) :
    StableHlo.after (hostOps0_3 (F := Ideal)) V (Proc.devRef .tc main_v34) = V (Proc.devRef .tc main_v34) := by
  dsimp only [hostOps0_3]
  after_results <;> rfl
theorem keep4_arg1 (V : Valuation τ sig (Elt Ideal)) :
    StableHlo.after (hostOps0_3 (F := Ideal)) V (Proc.devRef .tc main_arg1) = V (Proc.devRef .tc main_arg1) := by
  dsimp only [hostOps0_3]
  after_results <;> rfl

/-! ## Stretch 5: the gathered branch length times the rate matrix -/

theorem scale_stage (V : Valuation τ sig (Elt Ideal)) (x1 : (⟨S512, .i32⟩ : BufTy).Contents (Elt Ideal))
    (x2 : (⟨S512, .f32⟩ : BufTy).Contents (Elt Ideal)) (x3 : (⟨S8x20x20, .f32⟩ : BufTy).Contents (Elt Ideal))
    (x4 : (⟨S20, .f32⟩ : BufTy).Contents (Elt Ideal))
    (h1 : V (Proc.devRef .tc main_arg1) = x1)
    (h35 : V (Proc.devRef .tc main_v35) = val_main_v40 (F := Ideal) x2)
    (h34 : V (Proc.devRef .tc main_v34) = val_main_v39 (F := Ideal) x3 x4) :
    StableHlo.after (hostOps0_4 (F := Ideal)) V (Proc.devRef .tc main_v47) = val_main_v52 (F := Ideal) x1 x2 x3 x4 := by
  dsimp only [hostOps0_4]
  after_results
  rw [h1, h35, h34]
  rfl

/-! ## The five stretches from the launch memory -/

theorem A_eq (m : (ℓ : Loc nD τ sig) → Buf (Elt Ideal) ℓ) (ρ : Dev nD → PrngReg) (c : Dev nD) :
    (V5 (F := Ideal) m ρ c main_v47 : S512x8x20x20.Idx → EReal)
      = Cert.ReferenceIdeal.Stages.val_main_v52 (F := Ideal) (m ((c.tc : Thread nD τ).loc main_arg1)) (m ((c.tc : Thread nD τ).loc main_arg2)) (m ((c.tc : Thread nD τ).loc main_arg3)) (m ((c.tc : Thread nD τ).loc main_arg4)) := by
  -- the launch memory at the four arguments read
  have a1 : W0 (F := Ideal) m ρ c (Proc.devRef .tc main_arg1) = m ((c.tc : Thread nD τ).loc main_arg1) := rfl
  have a2 : W0 (F := Ideal) m ρ c (Proc.devRef .tc main_arg2) = m ((c.tc : Thread nD τ).loc main_arg2) := rfl
  have a3 : W0 (F := Ideal) m ρ c (Proc.devRef .tc main_arg3) = m ((c.tc : Thread nD τ).loc main_arg3) := rfl
  have a4 : W0 (F := Ideal) m ρ c (Proc.devRef .tc main_arg4) = m ((c.tc : Thread nD τ).loc main_arg4) := rfl
  -- after stretch 1
  have b5 : W1 (F := Ideal) m ρ c (Proc.devRef .tc main_v5) = val_main_v10 (F := Ideal) := eye_stage (W0 m ρ c)
  have b9 : W1 (F := Ideal) m ρ c (Proc.devRef .tc main_v9) = val_main_v14 (F := Ideal) _ := sym_stage (W0 m ρ c) _ a3
  have b1 : W1 (F := Ideal) m ρ c (Proc.devRef .tc main_arg1) = _ := (keep1_arg1 (W0 m ρ c)).trans a1
  have b2 : W1 (F := Ideal) m ρ c (Proc.devRef .tc main_arg2) = _ := (keep1_arg2 (W0 m ρ c)).trans a2
  have b4 : W1 (F := Ideal) m ρ c (Proc.devRef .tc main_arg4) = _ := (keep1_arg4 (W0 m ρ c)).trans a4
  -- after stretch 2
  have c10 : W2 (F := Ideal) m ρ c (Proc.devRef .tc main_v10) = val_main_v15 (F := Ideal) _ := softplus_stage (W1 m ρ c) _ b9
  have c5 : W2 (F := Ideal) m ρ c (Proc.devRef .tc main_v5) = _ := (keep2_v5 (W1 m ρ c)).trans b5
  have c1 : W2 (F := Ideal) m ρ c (Proc.devRef .tc main_arg1) = _ := (keep2_arg1 (W1 m ρ c)).trans b1
  have c2 : W2 (F := Ideal) m ρ c (Proc.devRef .tc main_arg2) = _ := (keep2_arg2 (W1 m ρ c)).trans b2
  have c4 : W2 (F := Ideal) m ρ c (Proc.devRef .tc main_arg4) = _ := (keep2_arg4 (W1 m ρ c)).trans b4
  -- after stretch 3
  have d34 : W3 (F := Ideal) m ρ c (Proc.devRef .tc main_v34) = val_main_v39 (F := Ideal) _ _ := rate_stage (W2 m ρ c) _ _ c10 c5 c4
  have d1 : W3 (F := Ideal) m ρ c (Proc.devRef .tc main_arg1) = _ := (keep3_arg1 (W2 m ρ c)).trans c1
  have d2 : W3 (F := Ideal) m ρ c (Proc.devRef .tc main_arg2) = _ := (keep3_arg2 (W2 m ρ c)).trans c2
  -- after stretch 4
  have e35 : W4 (F := Ideal) m ρ c (Proc.devRef .tc main_v35) = val_main_v40 (F := Ideal) _ := tau_stage (W3 m ρ c) _ d2
  have e34 : W4 (F := Ideal) m ρ c (Proc.devRef .tc main_v34) = _ := (keep4_v34 (W3 m ρ c)).trans d34
  have e1 : W4 (F := Ideal) m ρ c (Proc.devRef .tc main_arg1) = _ := (keep4_arg1 (W3 m ρ c)).trans d1
  -- stretch 5
  exact scale_stage (W4 m ρ c) _ _ _ _ e1 e35 e34

end Cert.KernelIdeal.KA

end
-- ==== Proof.K0a.lean ====
/-
  The body of the first pallas region, read as mathematics. Its staging block of sixteen batch rows is a stack of
  128 = 16 · 8 matrices of size 20 × 20 (slice (b', k) of the block sits at position 8 · b' + k of the stack), and
  every operation of the body acts on each matrix of the stack by itself: a batched product is the matrix product
  of the slices, a quotient by a splat constant and a sum are entrywise, and the two compared iotas are the identity
  matrix. So slice (b', k) of what the body stores is the specification's `expm` of slice (b', k) of what it loads.
-/
import proofs.«402584_j57200374448411_3_alg».proof.Proof.Gen.KernelIdeal.Skeleton
import proofs.«402584_j57200374448411_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.K0

open Cert.KernelIdeal Cert.KernelIdeal.Gen Idealize.ShloMosaic Idealize.ShloMosaic.TcCoe Idealize.SL.Sem Idealize.ShloMosaic.ValueIdx
open Cert.Spec (Mat mm madd mdiv eye lit expm)

/-! ## Slices of a stack, and the stack of a block -/

/-- Matrix `n` of a stack of 128 matrices of size 20 × 20. -/
def mat (X : FVec Ideal S128x20x20 .f32) (n : Fin 128) : Mat := fun i j => X (ix3 n i j)

/-- Slice (b', k) of a block of sixteen batch rows. -/
def blockMat (x : Vec Ideal S16x8x20x20 .f32) (b' : Fin 16) (k : Fin 8) : Mat := fun i j => x (ix4 b' k i j)

/-- The position of slice (b', k) in the stack: row-major, `8 · b' + k`. -/
def pos (b' : Fin 16) (k : Fin 8) : Fin 128 := ⟨8 * b'.val + k.val, by have := b'.isLt; have := k.isLt; omega⟩

/-- The block viewed as a stack reads, at matrix `8 · b' + k`, slice (b', k): the two have the same row-major position. -/
theorem stack_apply (x : Vec Ideal S16x8x20x20 .f32) (b' : Fin 16) (k : Fin 8) (i j : Fin 20) :
    shapeCast S128x20x20 x shapeCasts_S16x8x20x20_S128x20x20 (ix3 (pos b' k) i j) = x (ix4 b' k i j) :=
  shapeCast_apply x shapeCasts_S16x8x20x20_S128x20x20 (ix3 (pos b' k) i j) (ix4 b' k i j) (by
    rw [Shape.rowMajor_val_four, Shape.rowMajor_val_three]
    show ((b'.val * 8 + k.val) * 20 + i.val) * 20 + j.val = ((8 * b'.val + k.val) * 20 + i.val) * 20 + j.val
    omega)

/-- The stack viewed as a block again reads, at slice (b', k), matrix `8 · b' + k`. -/
theorem unstack_apply (X : FVec Ideal S128x20x20 .f32) (b' : Fin 16) (k : Fin 8) (i j : Fin 20) :
    shapeCast S16x8x20x20 X shapeCasts_S128x20x20_S16x8x20x20 (ix4 b' k i j) = X (ix3 (pos b' k) i j) :=
  shapeCast_apply X shapeCasts_S128x20x20_S16x8x20x20 (ix4 b' k i j) (ix3 (pos b' k) i j) (by
    rw [Shape.rowMajor_val_three, Shape.rowMajor_val_four]
    show ((8 * b'.val + k.val) * 20 + i.val) * 20 + j.val = ((b'.val * 8 + k.val) * 20 + i.val) * 20 + j.val
    omega)

/-- Matrix `8 · b' + k` of the block's stack is slice (b', k) of the block. -/
theorem mat_stack (x : Vec Ideal S16x8x20x20 .f32) (b' : Fin 16) (k : Fin 8) :
    mat (shapeCast S128x20x20 (shapeCast S16x8x20x20 x shapeCasts_S16x8x20x20_S16x8x20x20) shapeCasts_S16x8x20x20_S128x20x20) (pos b' k)
      = blockMat x b' k := by
  funext i j
  rw [shapeCast_self]
  exact stack_apply x b' k i j

/-! ## The batched product is the matrix product of the slices -/

/-- The product's left operand index: the batch coordinate, -/
theorem lhs_0 (i : S128x20x20.Idx) (q : dot_S128x20x20_S128x20x20_S128x20x20_2_1_1_2_0_0.contr.Idx) :
    (dot_S128x20x20_S128x20x20_S128x20x20_2_1_1_2_0_0.lhsIdx i q 0).val = (i 0).val := by
  unfold DotDims.lhsIdx
  rw [dif_pos (show (0 : Fin S128x20x20.rank) ∈ dot_S128x20x20_S128x20x20_S128x20x20_2_1_1_2_0_0.lhsBatch by decide)]
  rfl
/-- the row, -/
theorem lhs_1 (i : S128x20x20.Idx) (q : dot_S128x20x20_S128x20x20_S128x20x20_2_1_1_2_0_0.contr.Idx) :
    (dot_S128x20x20_S128x20x20_S128x20x20_2_1_1_2_0_0.lhsIdx i q 1).val = (i 1).val := by
  unfold DotDims.lhsIdx
  rw [dif_neg (show ¬(1 : Fin S128x20x20.rank) ∈ dot_S128x20x20_S128x20x20_S128x20x20_2_1_1_2_0_0.lhsBatch by decide), dif_pos (show (1 : Fin S128x20x20.rank) ∈ dot_S128x20x20_S128x20x20_S128x20x20_2_1_1_2_0_0.lhsNonContracting by decide)]
  rfl
/-- and the summed coordinate. -/
theorem lhs_2 (i : S128x20x20.Idx) (q : dot_S128x20x20_S128x20x20_S128x20x20_2_1_1_2_0_0.contr.Idx) :
    (dot_S128x20x20_S128x20x20_S128x20x20_2_1_1_2_0_0.lhsIdx i q 2).val = (q ⟨0, by decide⟩).val :=
  dot_S128x20x20_S128x20x20_S128x20x20_2_1_1_2_0_0.lhsIdx_val_of_single rfl i q
/-- The right operand index: the batch coordinate, -/
theorem rhs_0 (i : S128x20x20.Idx) (q : dot_S128x20x20_S128x20x20_S128x20x20_2_1_1_2_0_0.contr.Idx) :
    (dot_S128x20x20_S128x20x20_S128x20x20_2_1_1_2_0_0.rhsIdx i q 0).val = (i 0).val := by
  unfold DotDims.rhsIdx
  rw [dif_pos (show (0 : Fin S128x20x20.rank) ∈ dot_S128x20x20_S128x20x20_S128x20x20_2_1_1_2_0_0.rhsBatch by decide)]
  rfl
/-- the summed coordinate, -/
theorem rhs_1 (i : S128x20x20.Idx) (q : dot_S128x20x20_S128x20x20_S128x20x20_2_1_1_2_0_0.contr.Idx) :
    (dot_S128x20x20_S128x20x20_S128x20x20_2_1_1_2_0_0.rhsIdx i q 1).val = (q ⟨0, by decide⟩).val :=
  dot_S128x20x20_S128x20x20_S128x20x20_2_1_1_2_0_0.rhsIdx_val_of_single rfl i q
/-- and the column. -/
theorem rhs_2 (i : S128x20x20.Idx) (q : dot_S128x20x20_S128x20x20_S128x20x20_2_1_1_2_0_0.contr.Idx) :
    (dot_S128x20x20_S128x20x20_S128x20x20_2_1_1_2_0_0.rhsIdx i q 2).val = (i 2).val := by
  unfold DotDims.rhsIdx
  rw [dif_neg (show ¬(2 : Fin S128x20x20.rank) ∈ dot_S128x20x20_S128x20x20_S128x20x20_2_1_1_2_0_0.rhsBatch by decide), dif_pos (show (2 : Fin S128x20x20.rank) ∈ dot_S128x20x20_S128x20x20_S128x20x20_2_1_1_2_0_0.rhsNonContracting by decide)]
  rfl

/-- A batched product into zeros is, matrix by matrix, the matrix product. -/
theorem mat_matmul (X Y : FVec Ideal S128x20x20 .f32) (n : Fin 128) :
    mat (matmul dot_S128x20x20_S128x20x20_S128x20x20_2_1_1_2_0_0 (some .fp32) X Y (constant (F := Ideal) S128x20x20 .f32 0x00000000#32)) n = mm (mat X n) (mat Y n) := by
  funext i j
  show FloatOps.matmul dot_S128x20x20_S128x20x20_S128x20x20_2_1_1_2_0_0 (some .fp32) X Y (constant (F := Ideal) S128x20x20 .f32 0x00000000#32) (ix3 n i j)
      = ∑ k : Fin 20, X (ix3 n i k) * Y (ix3 n k j)
  rw [Ideal.matmul_constant_zero_apply, ← Equiv.sum_comp (contrEquiv1 dot_S128x20x20_S128x20x20_S128x20x20_2_1_1_2_0_0 20 rfl rfl).symm]
  refine Finset.sum_congr rfl fun k _ => ?_
  have hk := contrEquiv1_symm_val dot_S128x20x20_S128x20x20_S128x20x20_2_1_1_2_0_0 20 rfl rfl k
  have el : dot_S128x20x20_S128x20x20_S128x20x20_2_1_1_2_0_0.lhsIdx (ix3 n i j) ((contrEquiv1 dot_S128x20x20_S128x20x20_S128x20x20_2_1_1_2_0_0 20 rfl rfl).symm k) = ix3 n i k := funext fun a => Fin.ext (by
    match a with
    | ⟨0, _⟩ => exact lhs_0 _ _
    | ⟨1, _⟩ => exact lhs_1 _ _
    | ⟨2, _⟩ => exact (lhs_2 _ _).trans hk)
  have er : dot_S128x20x20_S128x20x20_S128x20x20_2_1_1_2_0_0.rhsIdx (ix3 n i j) ((contrEquiv1 dot_S128x20x20_S128x20x20_S128x20x20_2_1_1_2_0_0 20 rfl rfl).symm k) = ix3 n k j := funext fun a => Fin.ext (by
    match a with
    | ⟨0, _⟩ => exact rhs_0 _ _
    | ⟨1, _⟩ => exact (rhs_1 _ _).trans hk
    | ⟨2, _⟩ => exact rhs_2 _ _)
  rw [el, er]

/-! ## The entrywise operations -/

/-- A quotient by a splat constant is, matrix by matrix, the entrywise quotient by that constant. -/
theorem mat_divc (X : FVec Ideal S128x20x20 .f32) (w : BitVec 32) (n : Fin 128) :
    mat (divf X (broadcast S128x20x20 (Scalar.ofBits (F := Ideal) .f32 w))) n = mdiv (mat X n) (lit w) := rfl

/-- A sum is, matrix by matrix, the entrywise sum. -/
theorem mat_addf (X Y : FVec Ideal S128x20x20 .f32) (n : Fin 128) :
    mat (addf X Y) n = madd (mat X n) (mat Y n) := rfl

/-- One Taylor step: the product with the scaled matrix, divided by the next integer. -/
theorem mat_step (T S : FVec Ideal S128x20x20 .f32) (w : BitVec 32) (n : Fin 128) :
    mat (divf (matmul dot_S128x20x20_S128x20x20_S128x20x20_2_1_1_2_0_0 (some .fp32) T S (constant (F := Ideal) S128x20x20 .f32 0x00000000#32))
        (broadcast S128x20x20 (Scalar.ofBits (F := Ideal) .f32 w))) n
      = mdiv (mm (mat T n) (mat S n)) (lit w) := by
  rw [mat_divc, mat_matmul]

/-! ## The identity matrix -/

/-- A one-bit word widened to 32 bits and read as a signed integer is 1 for the bit 1 and 0 for the bit 0. -/
theorem bit_toInt : ∀ b : BitVec 1, (b.setWidth 32).toInt = if b = 1#1 then 1 else 0 := by decide

/-- A Boolean as a one-bit word is the bit 1 exactly when it is true. -/
theorem ofBool_eq_one_iff_true {b : Bool} : BitVec.ofBool b = 1#1 ↔ b = true := by cases b <;> decide

/-- The comparison for equality gives the bit 1 exactly on equal words. -/
theorem cmpi_eq_one_iff (x y : BitVec 32) : IntOp.cmpi .eq x y = 1#1 ↔ x = y := by
  simp only [IntOp.cmpi, ofBool_eq_one_iff_true, beq_iff_eq]

/-- Two numbers below 20 are equal exactly when their 32-bit words are. -/
theorem word_eq_iff (i j : Fin 20) : BitVec.ofNat 32 i.val = BitVec.ofNat 32 j.val ↔ i = j := by
  constructor
  · intro e
    have h := congrArg BitVec.toNat e
    simp only [BitVec.toNat_ofNat] at h
    have hi := i.isLt
    have hj := j.isLt
    exact Fin.ext (by omega)
  · intro e; rw [e]

/-- The row number compared with the column number, widened and converted: 1 on the diagonal, 0 off it. -/
theorem eye_entry (i j : Fin 20) :
    ((((IntOp.cmpi .eq (BitVec.ofNat 32 i.val) (BitVec.ofNat 32 j.val)).setWidth 32).toInt : ℝ) : EReal)
      = if i = j then 1 else 0 := by
  rw [bit_toInt]
  by_cases h : i = j
  · rw [if_pos h, if_pos ((cmpi_eq_one_iff _ _).mpr ((word_eq_iff i j).mpr h))]
    simp
  · rw [if_neg h, if_neg (fun e => h ((word_eq_iff i j).mp ((cmpi_eq_one_iff _ _).mp e)))]
    simp

/-- The compared iotas, converted and broadcast over the stack, are the identity matrix at every position. -/
theorem mat_eye (n : Fin 128) :
    mat (broadcastTo S128x20x20
          (shapeCast S1x20x20
            (shapeCast S1x20x20
              (sitofp (F := Ideal) .f32
                (extui 32 (cmpi .eq (iota .tc S20x20 32 [0] iota_S20x20_d0_w32) (iota .tc S20x20 32 [1] iota_S20x20_d1_w32)) natLt_1_32))
              shapeCasts_S20x20_S1x20x20)
            shapeCasts_S1x20x20_S1x20x20)
          broadcasts_S1x20x20_S128x20x20) n = eye := by
  funext i j
  show broadcastTo S128x20x20 _ broadcasts_S1x20x20_S128x20x20 (ix3 n i j) = if i = j then 1 else 0
  refine (broadcastTo_apply _ broadcasts_S1x20x20_S128x20x20 (ix3 n i j) (ix3 (0 : Fin 1) i j) (fun a => ?_)).trans ?_
  · match a with
    | ⟨0, _⟩ => rfl
    | ⟨1, _⟩ => show i.val = if (20 : Nat) = 1 then 0 else i.val; rw [if_neg (by decide)]
    | ⟨2, _⟩ => show j.val = if (20 : Nat) = 1 then 0 else j.val; rw [if_neg (by decide)]
  · rw [shapeCast_self]
    refine (shapeCast_ab_1ab_apply _ shapeCasts_S20x20_S1x20x20 (0 : Fin 1) i j).trans ?_
    show ((((IntOp.cmpi .eq (iota .tc S20x20 32 [0] iota_S20x20_d0_w32 (ix2 i j)) (iota .tc S20x20 32 [1] iota_S20x20_d1_w32 (ix2 i j))).setWidth 32).toInt : ℝ) : EReal)
        = if i = j then 1 else 0
    rw [iota_single_apply, iota_single_apply]
    exact eye_entry i j

/-! ## The specification's chain, cut where the body's two parts are cut -/

/-- The scaled matrix `A / 64`, -/
def sOf (A : Mat) : Mat := mdiv A (lit 0x42800000#32)
/-- the Taylor terms 2 to 7, each the one before times the scaled matrix, divided by its number, -/
def t2Of (A : Mat) : Mat := mdiv (mm (sOf A) (sOf A)) (lit 0x40000000#32)
def t3Of (A : Mat) : Mat := mdiv (mm (t2Of A) (sOf A)) (lit 0x40400000#32)
def t4Of (A : Mat) : Mat := mdiv (mm (t3Of A) (sOf A)) (lit 0x40800000#32)
def t5Of (A : Mat) : Mat := mdiv (mm (t4Of A) (sOf A)) (lit 0x40A00000#32)
def t6Of (A : Mat) : Mat := mdiv (mm (t5Of A) (sOf A)) (lit 0x40C00000#32)
def t7Of (A : Mat) : Mat := mdiv (mm (t6Of A) (sOf A)) (lit 0x40E00000#32)
/-- and the partial sum through term 7. -/
def p7Of (A : Mat) : Mat :=
  madd (madd (madd (madd (madd (madd (madd eye (sOf A)) (t2Of A)) (t3Of A)) (t4Of A)) (t5Of A)) (t6Of A)) (t7Of A)

/-- The rest of the chain as a function of the scaled matrix `s`, the partial sum `p7` and the product
    `m = t7 · s`: terms 8 to 16 with their partial sums, then five of the six squarings. -/
def tailOf (s p7 m : Mat) : Mat :=
  let t8 : Mat := mdiv m (lit 0x41000000#32)
  let p8 : Mat := madd p7 t8
  let t9 : Mat := mdiv (mm t8 s) (lit 0x41100000#32)
  let p9 : Mat := madd p8 t9
  let t10 : Mat := mdiv (mm t9 s) (lit 0x41200000#32)
  let p10 : Mat := madd p9 t10
  let t11 : Mat := mdiv (mm t10 s) (lit 0x41300000#32)
  let p11 : Mat := madd p10 t11
  let t12 : Mat := mdiv (mm t11 s) (lit 0x41400000#32)
  let p12 : Mat := madd p11 t12
  let t13 : Mat := mdiv (mm t12 s) (lit 0x41500000#32)
  let p13 : Mat := madd p12 t13
  let t14 : Mat := mdiv (mm t13 s) (lit 0x41600000#32)
  let p14 : Mat := madd p13 t14
  let t15 : Mat := mdiv (mm t14 s) (lit 0x41700000#32)
  let p15 : Mat := madd p14 t15
  let t16 : Mat := mdiv (mm t15 s) (lit 0x41800000#32)
  let p16 : Mat := madd p15 t16
  let q1 : Mat := mm p16 p16
  let q2 : Mat := mm q1 q1
  let q3 : Mat := mm q2 q2
  let q4 : Mat := mm q3 q3
  let q5 : Mat := mm q4 q4
  q5

/-- The specification's exponential is that chain followed by the last squaring: the same operations in the same order. -/
theorem expm_eq (A : Mat) :
    expm A = mm (tailOf (sOf A) (p7Of A) (mm (t7Of A) (sOf A))) (tailOf (sOf A) (p7Of A) (mm (t7Of A) (sOf A))) := rfl

/-! ## The body's values, slice by slice -/

variable (x0 : Vec Ideal S16x8x20x20 .f32) (b' : Fin 16) (k : Fin 8)

/-- The block as a stack, divided by 64: the scaled matrix of each slice. -/
theorem mat_pay2 : mat (k0_pay2 x0) (pos b' k) = sOf (blockMat x0 b' k) := by
  refine (mat_divc _ _ _).trans ?_
  rw [mat_stack]
  rfl

theorem mat_pay3 : mat (k0_pay3 x0) (pos b' k) = t2Of (blockMat x0 b' k) := by
  refine (mat_step _ _ _ _).trans ?_
  rw [mat_pay2]
  rfl

theorem mat_pay4 : mat (k0_pay4 x0) (pos b' k) = t3Of (blockMat x0 b' k) := by
  refine (mat_step _ _ _ _).trans ?_
  rw [mat_pay3, mat_pay2]
  rfl

theorem mat_pay5 : mat (k0_pay5 x0) (pos b' k) = t4Of (blockMat x0 b' k) := by
  refine (mat_step _ _ _ _).trans ?_
  rw [mat_pay4, mat_pay2]
  rfl

theorem mat_pay6 : mat (k0_pay6 x0) (pos b' k) = t5Of (blockMat x0 b' k) := by
  refine (mat_step _ _ _ _).trans ?_
  rw [mat_pay5, mat_pay2]
  rfl

theorem mat_pay7 : mat (k0_pay7 x0) (pos b' k) = t6Of (blockMat x0 b' k) := by
  refine (mat_step _ _ _ _).trans ?_
  rw [mat_pay6, mat_pay2]
  rfl

theorem mat_pay8 : mat (k0_pay8 x0) (pos b' k) = t7Of (blockMat x0 b' k) := by
  refine (mat_step _ _ _ _).trans ?_
  rw [mat_pay7, mat_pay2]
  rfl

/-- The partial sum through term 7: the identity plus the scaled matrix plus the terms 2 to 7, in that order. -/
theorem mat_pay9 : mat (k0_pay9 x0) (pos b' k) = p7Of (blockMat x0 b' k) := by
  unfold k0_pay9
  simp only [mat_addf, mat_pay2, mat_pay3, mat_pay4, mat_pay5, mat_pay6, mat_pay7, mat_pay8]
  exact congrArg (fun E : Mat => madd (madd (madd (madd (madd (madd (madd E (sOf (blockMat x0 b' k))) (t2Of (blockMat x0 b' k)))
      (t3Of (blockMat x0 b' k))) (t4Of (blockMat x0 b' k))) (t5Of (blockMat x0 b' k))) (t6Of (blockMat x0 b' k))) (t7Of (blockMat x0 b' k)))
    (mat_eye (pos b' k))

/-- The product the first part hands on: term 7 times the scaled matrix. -/
theorem mat_pay10 : mat (k0_pay10 x0) (pos b' k) = mm (t7Of (blockMat x0 b' k)) (sOf (blockMat x0 b' k)) := by
  refine (mat_matmul _ _ _).trans ?_
  rw [mat_pay8, mat_pay2]

/-- The second part, over any three stacks it is handed: the rest of the chain, matrix by matrix. -/
theorem mat_pay12 (S P M : FVec Ideal S128x20x20 .f32) (n : Fin 128) :
    mat (k0_pay12 S P M (k0_pay11 (F := Ideal))) n = tailOf (mat S n) (mat P n) (mat M n) := by
  unfold k0_pay12 k0_pay11
  simp only [mat_matmul, mat_divc, mat_addf]
  rfl

/-- WHAT THE BODY STORES, at slice (b', k) and entry (i, j): the exponential of slice (b', k) of what it loads. -/
theorem payload_apply (i j : Fin 20) :
    k0_pay1 (k0_pay12 (k0_pay2 x0) (k0_pay9 x0) (k0_pay10 x0) (k0_pay11 (F := Ideal))) (ix4 b' k i j)
      = expm (blockMat x0 b' k) i j := by
  have h : mat (matmul dot_S128x20x20_S128x20x20_S128x20x20_2_1_1_2_0_0 (some .fp32)
        (k0_pay12 (k0_pay2 x0) (k0_pay9 x0) (k0_pay10 x0) (k0_pay11 (F := Ideal)))
        (k0_pay12 (k0_pay2 x0) (k0_pay9 x0) (k0_pay10 x0) (k0_pay11 (F := Ideal)))
        (constant (F := Ideal) S128x20x20 .f32 0x00000000#32)) (pos b' k) = expm (blockMat x0 b' k) := by
    rw [mat_matmul, mat_pay12, mat_pay2, mat_pay9, mat_pay10, expm_eq]
  exact (unstack_apply _ b' k i j).trans (congrFun (congrFun h i) j)

end Cert.KernelIdeal.K0

end
-- ==== Proof.K0.lean ====
/-
  What the first pallas region leaves in its output array. Grid point `t` loads batch rows `16 t … 16 t + 15` of the
  input array, the body turns each (batch, rate) slice of that block into its exponential (the payload module), and
  the point writes the block back to the same rows of the output array; the thirty-two blocks cover the array. So
  the array ends holding, at (b, k, i, j), entry (i, j) of the exponential of slice (b, k) of the input array.
-/
import proofs.«402584_j57200374448411_3_alg».proof.Proof.Gen.KernelIdeal.Frame
import proofs.«402584_j57200374448411_3_alg».proof.Proof.K0a
import Idealize.ShloMosaic.Lib.Pipeline.Value
import Idealize.ShloMosaic.Lib.Tactic

set_option maxRecDepth 16384

noncomputable section

namespace Cert.KernelIdeal.K0

open Cert.KernelIdeal Cert.KernelIdeal.Gen Idealize.ShloMosaic Idealize.ShloMosaic.TcCoe Idealize.SL.Sem Idealize.ShloMosaic.ValueIdx
open Idealize.ShloMosaic.Pipeline (Dat)
open Cert.Spec (Mat expm)

variable (V : (c : Dev nD) → (b : Ref sig .tc) → Buf (Elt Ideal) ((c : Thread nD τ).loc b))

/-- The input array as the region finds it, -/
abbrev inArr (c : Dev nD) : S512x8x20x20.Idx → EReal := V c main_v47
/-- and the input window's block at grid point `t`. -/
abbrev inBlk (c : Dev nD) (t : Fin cfg0.N) : Vec Ideal S16x8x20x20 .f32 := iblk0 V c 0 t

/-- The output array after the region: at (b, k, i, j), entry (i, j) of the exponential of slice (b, k) of the input. -/
def expArr (c : Dev nD) : S512x8x20x20.Idx → EReal := fun y =>
  expm (fun i' j' => inArr V c (ix4 (⟨(y 0).val, (y 0).isLt⟩ : Fin 512) (⟨(y 1).val, (y 1).isLt⟩ : Fin 8) i' j'))
    (⟨(y 2).val, (y 2).isLt⟩ : Fin 20) (⟨(y 3).val, (y 3).isLt⟩ : Fin 20)

/-- It is read at an index through the index's four coordinates. -/
theorem expArr_apply (c : Dev nD) (B : Fin 512) (K : Fin 8) (I J : Fin 20) (y : S512x8x20x20.Idx)
    (h0 : (y 0).val = B.val) (h1 : (y 1).val = K.val) (h2 : (y 2).val = I.val) (h3 : (y 3).val = J.val) :
    expArr V c y = expm (fun i' j' => inArr V c (ix4 B K i' j')) I J := by
  have e : y = ix4 B K I J := funext fun a => Fin.ext (by
    match a with
    | ⟨0, _⟩ => exact h0
    | ⟨1, _⟩ => exact h1
    | ⟨2, _⟩ => exact h2
    | ⟨3, _⟩ => exact h3)
  subst e
  rfl

theorem zero_offsets : (![0, 0, 0, 0] : Fin 4 → Nat) = fun _ => 0 := funext fun a => by fin_cases a <;> rfl

/-- The two windows' index maps, decided over the grid: block `t` starts at batch row `16 t` and takes the other
    three axes whole. -/
theorem block_index : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The input block at point `t` reads the input array at batch row `16 t + b'`. -/
theorem inBlk_apply (c : Dev nD) (t : Fin cfg0.N) (b' : Fin 16) (k : Fin 8) (i j : Fin 20) (B : Fin 512)
    (hB : B.val = 16 * t.val + b'.val) :
    inBlk V c t (ix4 b' k i j) = inArr V c (ix4 B k i j) := by
  obtain ⟨e0, e1, e2, e3, -⟩ := block_index t
  show iblk0 V c 0 t (ix4 b' k i j) = V c main_v47 (ix4 B k i j)
  unfold iblk0
  rw [View.read_apply]
  show V c main_v47 _ = V c main_v47 _
  congr 1
  funext a
  apply Fin.ext
  match a with
  | ⟨0, _⟩ => show win0_0.index t (0 : Fin 4) * 16 + 1 * b'.val = B.val; rw [e0, hB]; omega
  | ⟨1, _⟩ => show win0_0.index t (1 : Fin 4) * 8 + 1 * k.val = k.val; rw [e1]; omega
  | ⟨2, _⟩ => show win0_0.index t (2 : Fin 4) * 20 + 1 * i.val = i.val; rw [e2]; omega
  | ⟨3, _⟩ => show win0_0.index t (3 : Fin 4) * 20 + 1 * j.val = j.val; rw [e3]; omega

/-- WHAT POINT `t` WRITES BACK is block `t` of `expArr`. -/
theorem written_block (c : Dev nD) (t : Fin cfg0.N) :
    (dat0 (F := Ideal) V c).flushed 1 t = ((cfg0.win 1).blk t).view.read (Elt Ideal) (expArr V c) := by
  show (cfg0.win 1).cut (grid0.coords t) ((dat0 (F := Ideal) V c).after 1 t) = _
  rw [after0_1]
  unfold out0_1
  rw [View.canon_unit_zero zero_offsets]
  simp only [View.ld_unit_zero (S := S16x8x20x20) zero_offsets]
  have ht : t.val < 32 := lt_of_lt_of_eq t.isLt N_0
  obtain ⟨-, -, -, -, f0, f1, f2, f3⟩ := block_index t
  refine funext fun (y : S16x8x20x20.Idx) => ?_
  obtain ⟨b', k, i, j, rfl⟩ : ∃ (b' : Fin 16) (k : Fin 8) (i j : Fin 20), y = ix4 b' k i j :=
    ⟨y 0, y 1, y 2, y 3, eq_ix4 y⟩
  show k0_pay1 (k0_pay12 (k0_pay2 (inBlk V c t)) (k0_pay9 (inBlk V c t)) (k0_pay10 (inBlk V c t)) (k0_pay11 (F := Ideal))) (ix4 b' k i j)
      = expArr V c (((cfg0.win 1).blk t).view.emb (ix4 b' k i j))
  have hb : 16 * t.val + b'.val < 512 := by have := b'.isLt; omega
  refine (payload_apply (inBlk V c t) b' k i j).trans ?_
  refine Eq.trans ?_ (expArr_apply V c ⟨16 * t.val + b'.val, hb⟩ k i j _ ?_ ?_ ?_ ?_).symm
  · exact congrArg (fun A : Mat => expm A i j)
      (funext fun i' => funext fun j' => inBlk_apply V c t b' k i' j' ⟨16 * t.val + b'.val, hb⟩ rfl)
  · show win0_1.index t (0 : Fin 4) * 16 + 1 * b'.val = 16 * t.val + b'.val; rw [f0]; omega
  · show win0_1.index t (1 : Fin 4) * 8 + 1 * k.val = k.val; rw [f1]; omega
  · show win0_1.index t (2 : Fin 4) * 20 + 1 * i.val = i.val; rw [f2]; omega
  · show win0_1.index t (3 : Fin 4) * 20 + 1 * j.val = j.val; rw [f3]; omega

/-- An index of the output array is in point `t`'s block iff each coordinate is in the block's range on its axis. -/
theorem mem_block (t : Fin cfg0.N) (y : S512x8x20x20.Idx) :
    y ∈ ((cfg0.win 1).blk t).view.set ↔ ∀ a : Fin 4, win0_1.index t a * S16x8x20x20.size a ≤ (y a).val ∧ (y a).val < win0_1.index t a * S16x8x20x20.size a + S16x8x20x20.size a := by
  show y ∈ ((View.whole main_v48).slice (win0_1.rect t)).set ↔ _
  rw [View.set_slice_whole, Rect.mem_set_unit]
  exact Iff.rfl

/-- Every index of the output array is in some point's block: batch row `r` lies in block `r / 16`. -/
theorem blocks_cover (y : S512x8x20x20.Idx) :
    ∃ t : Fin cfg0.N, (cfg0.win 1).flush t = true ∧ y ∈ ((cfg0.win 1).blk t).view.set := by
  have h0 : (y 0).val < 512 := (y 0).isLt
  have h1 : (y 1).val < 8 := (y 1).isLt
  have h2 : (y 2).val < 20 := (y 2).isLt
  have h3 : (y 3).val < 20 := (y 3).isLt
  have hN : cfg0.N = 32 := N_0
  obtain ⟨t, ht⟩ : ∃ t : Fin cfg0.N, t.val = (y 0).val / 16 := ⟨⟨(y 0).val / 16, by rw [hN]; omega⟩, rfl⟩
  obtain ⟨-, -, -, -, f0, f1, f2, f3⟩ := block_index t
  refine ⟨t, flush0_1 t, ?_⟩
  rw [mem_block]
  intro a
  match a with
  | ⟨0, _⟩ => show win0_1.index t (0 : Fin 4) * 16 ≤ (y 0).val ∧ (y 0).val < win0_1.index t (0 : Fin 4) * 16 + 16; omega
  | ⟨1, _⟩ => show win0_1.index t (1 : Fin 4) * 8 ≤ (y 1).val ∧ (y 1).val < win0_1.index t (1 : Fin 4) * 8 + 8; omega
  | ⟨2, _⟩ => show win0_1.index t (2 : Fin 4) * 20 ≤ (y 2).val ∧ (y 2).val < win0_1.index t (2 : Fin 4) * 20 + 20; omega
  | ⟨3, _⟩ => show win0_1.index t (3 : Fin 4) * 20 ≤ (y 3).val ∧ (y 3).val < win0_1.index t (3 : Fin 4) * 20 + 20; omega

/-- THE OUTPUT ARRAY after the region is `expArr`. -/
theorem region0_array (c : Dev nD) : (dat0 (F := Ideal) V c).arrAt 1 cfg0.N = expArr V c :=
  (dat0 (F := Ideal) V c).arrAt_eq_of_cover 1 (expArr V c) (fun t _ => written_block V c t) blocks_cover

/-- What the first pallas region leaves in its output array: the exponential of each (batch, rate) slice of its input. -/
theorem region0_value (c : Dev nD) (b : Fin 512) (k : Fin 8) (i j : Fin 20) :
    ((dat0 (F := Ideal) V c).arrAt 1 cfg0.N : S512x8x20x20.Idx → EReal) (ix4 b k i j)
      = Cert.Spec.expm (fun i' j' => (V c main_v47 : S512x8x20x20.Idx → EReal) (ix4 b k i' j')) i j := by
  have h := congrFun (region0_array V c) (ix4 b k i j)
  exact h

end Cert.KernelIdeal.K0

end
-- ==== Proof.K1a.lean ====
/-
  The host operations between the two regions, each stage written once as a function of what it reads and then read at
  an index. The table has 26 rows per batch entry and 208 = 8 · 26 columns. Rows 0 … 19 come from the eight 20 × 20
  transition matrices: the row axis is moved in front of the rate axis, every row of 20 entries is padded to 26 with
  zeros, and the rate and column axes are flattened, so column j holds block j / 26 at position j % 26. Rows 20 … 25 hold
  the pattern "column position equals the row number": the column position is computed by the program as a signed
  remainder by 26 followed by a sign correction, which on 0 … 207 is the ordinary remainder; the comparison bit is then
  converted to a float, 1 or 0.
-/
import proofs.«402584_j57200374448411_3_alg».proof.Proof.Gen.KernelIdeal.Frame
import Idealize.ShloMosaic.Lib.Pipeline.Value
import Idealize.ShloMosaic.Lib.KernelVsHost
import Idealize.ShloMosaic.Lib.ValueIdx

noncomputable section

namespace Cert.KernelIdeal.K1

open Cert.KernelIdeal Cert.KernelIdeal.Gen Idealize.ShloMosaic Idealize.ShloMosaic.ValueIdx

/-! ## Words -/

/-- The divisor of the column remainder as the program computes it: 26, replaced by 1 if it were 0. -/
def dvs : BitVec 32 := Scalar.select (IntOp.cmpi .eq 26#32 0#32) 1#32 26#32

/-- The remainder of a word by that divisor the way the program takes it: the signed remainder, moved by one divisor
    when it is not zero and its sign differs from the divisor's. -/
def jrem (w : BitVec 32) : BitVec 32 :=
  Scalar.select
    (IntOp.andi (IntOp.cmpi .ne (IntOp.cmpi .slt (IntOp.remsi .host w dvs) 0#32) (IntOp.cmpi .slt dvs 0#32))
      (IntOp.cmpi .ne (IntOp.remsi .host w dvs) 0#32))
    (IntOp.addi (IntOp.remsi .host w dvs) dvs) (IntOp.remsi .host w dvs)

/-- On the column numbers 0 … 207 it is the ordinary remainder by 26. -/
theorem jrem_fin : ∀ j : Fin 208, jrem (BitVec.ofNat 32 j.val) = BitVec.ofNat 32 (j.val % 26) := by
  decide +kernel

/-- The word comparison of a column position below 26 with the row number 20 + r, r below 6, is the bit of their
    equality as numbers. -/
theorem onehot_fin : ∀ (s : Fin 26) (r : Fin 6),
    IntOp.cmpi .eq (BitVec.ofNat 32 s.val) (IntOp.addi 20#32 (BitVec.ofNat 32 r.val))
      = if s.val = 20 + r.val then 1#1 else 0#1 := by
  decide +kernel

/-- A decided bit converted to a float is 1 or 0. -/
theorem uitofp_bit (p : Prop) [Decidable p] :
    FloatOps.uitofp (F := Ideal) .f32 (if p then 1#1 else 0#1 : BitVec 1) = (if p then 1 else 0 : EReal) := by
  by_cases h : p
  · rw [if_pos h, if_pos h]
    show (((1#1 : BitVec 1).toNat : ℝ) : EReal) = 1
    have e : (1#1 : BitVec 1).toNat = 1 := by decide
    rw [e, Nat.cast_one, EReal.coe_one]
  · rw [if_neg h, if_neg h]
    show (((0#1 : BitVec 1).toNat : ℝ) : EReal) = 0
    have e : (0#1 : BitVec 1).toNat = 0 := by decide
    rw [e, Nat.cast_zero, EReal.coe_zero]

/-- The padding value, the integer zero converted to a float, is zero. -/
theorem sitofp_zero_apply (i : S_.Idx) :
    (sitofp (F := Ideal) .f32 (constantI S_ 32 0#32) : FVec Ideal S_ .f32) i = 0 := by
  show (((0#32 : BitVec 32).toInt : ℝ) : EReal) = 0
  have e : (0#32 : BitVec 32).toInt = 0 := by decide
  rw [e, Int.cast_zero, EReal.coe_zero]

/-! ## The stages -/

/-- Rows 0 … 19: the matrices with the row axis in front of the rate axis, each row of 20 padded to 26 with the converted
    zero, the rate and column axes flattened to 208. -/
def padStage (P : Vec Ideal S512x8x20x20 .f32) : Vec Ideal S512x20x208 .f32 :=
  shapeCast (s := S512x20x8x26) S512x20x208
    (pad (s := S512x20x8x20) S512x20x8x26 ![0, 0, 0, 0] ![0, 0, 0, 6] ![0, 0, 0, 0]
      (transpose (s := S512x8x20x20) S512x20x8x20 [0, 2, 1, 3] P transposes_S512x8x20x20_S512x20x8x20_0_2_1_3)
      (sitofp (F := Ideal) .f32 (constantI S_ 32 0#32) : Vec Ideal S_ .f32)
      pads_S512x20x8x20_S512x20x8x26_000_000_000_060 h_S_)
    shapeCasts_S512x20x8x26_S512x20x208

/-- The six special row numbers 20 + 0 … 20 + 5. -/
def addStage : IVec S6 32 :=
  addi (broadcastInDim (s := S_) S6 ![] bcast_S_S6 (constantI S_ 32 20#32)) (iotaInDim S6 32 0)

/-- The divisor as a rank-0 array: the constant `c8`, replaced by 1 if it were 0. -/
def yOf (c8 : IVec S_ 32) : IVec S_ 32 :=
  select (cmpi .eq c8 (constantI S_ 32 0#32)) (constantI S_ 32 1#32) c8

/-- The sign correction of the signed remainders `x` by the divisor `y`: one divisor is added where the remainder is
    not zero and its sign differs from the divisor's. -/
def remC (x : IVec S208 32) (y : IVec S_ 32) : IVec S208 32 :=
  select
    (andi
      (cmpi .ne (cmpi .slt x (broadcastInDim (s := S_) S208 ![] bcast_S_S208 (constantI S_ 32 0#32)))
        (broadcastInDim (s := S_) S208 ![] bcast_S_S208 (cmpi .slt y (constantI S_ 32 0#32))))
      (cmpi .ne x (broadcastInDim (s := S_) S208 ![] bcast_S_S208 (constantI S_ 32 0#32))))
    (addi x (broadcastInDim (s := S_) S208 ![] bcast_S_S208 y)) x

/-- The column positions: the program's remainder of the column numbers `x55` by the constant `c8`. -/
def remStage (x55 : IVec S208 32) (c8 : IVec S_ 32) : IVec S208 32 :=
  remC (Host.remsi x55 (broadcastInDim (s := S_) S208 ![] bcast_S_S208 (yOf c8))) (yOf c8)

/-- Rows 20 … 25: the bit "column position `x56` equals row number `x54`" as a float, the same for every batch entry. -/
def hotStage (x56 : IVec S208 32) (x54 : IVec S6 32) : Vec Ideal S512x6x208 .f32 :=
  broadcastInDim (s := S1x6x208) S512x6x208 ![0, 1, 2] bcast_S1x6x208_S512x6x208_0_1_2
    (broadcastInDim (s := S6x208) S1x6x208 ![1, 2] bcast_S6x208_S1x6x208_1_2
      (uitofp (F := Ideal) .f32
        (cmpi .eq
          (broadcastInDim (s := S1x208) S6x208 ![0, 1] bcast_S1x208_S6x208_0_1
            (broadcastInDim (s := S208) S1x208 ![1] bcast_S208_S1x208_1 x56))
          (broadcastInDim (s := S6x1) S6x208 ![0, 1] bcast_S6x1_S6x208_0_1
            (broadcastInDim (s := S6) S6x1 ![0] bcast_S6_S6x1_0 x54))) : Vec Ideal S6x208 .f32))

/-- The whole table over the transition matrices `P`: rows 0 … 19 above rows 20 … 25. -/
def table (P : Vec Ideal S512x8x20x20 .f32) : Vec Ideal S512x26x208 .f32 :=
  concatenate S512x26x208 1
    [⟨S512x20x208, padStage P⟩,
     ⟨S512x6x208, hotStage (remStage (iotaInDim S208 32 0) (constantI S_ 32 26#32)) addStage⟩]
    concatenates_S512x20x208_S512x6x208_S512x26x208_d1

/-- The table entry in closed form: for a row below 20 the matrix entry of block j / 26 at (row, j % 26), zero in the
    padding; for a row from 20 on the bit "j % 26 is the row". -/
def tableAt (P : Vec Ideal S512x8x20x20 .f32) (b : Fin 512) (e : Fin 26) (j : Fin 208) : EReal :=
  if he : e.val < 20 then
    (if hs : j.val % 26 < 20 then
      P (ix4 b (⟨j.val / 26, by have := j.isLt; omega⟩ : Fin 8) (⟨e.val, he⟩ : Fin 20) (⟨j.val % 26, hs⟩ : Fin 20))
    else 0)
  else (if (⟨j.val % 26, Nat.mod_lt _ (by decide)⟩ : Fin 26) = e then 1 else 0)

/-! ## The stages read at an index -/

theorem padStage_apply (P : Vec Ideal S512x8x20x20 .f32) (b : Fin 512) (r : Fin 20) (j : Fin 208) :
    padStage P (ix3 b r j)
      = if hs : j.val % 26 < 20 then
          P (ix4 b (⟨j.val / 26, by have := j.isLt; omega⟩ : Fin 8) r (⟨j.val % 26, hs⟩ : Fin 20))
        else 0 := by
  have hj := j.isLt
  have hq : j.val / 26 < 8 := by omega
  have hm : j.val % 26 < 26 := Nat.mod_lt _ (by decide)
  unfold padStage
  -- the flattened column j is the pair (j / 26, j % 26): the two row-major positions agree
  refine (shapeCast_apply _ shapeCasts_S512x20x8x26_S512x20x208 (ix3 b r j)
    (ix4 b r (⟨j.val / 26, hq⟩ : Fin 8) (⟨j.val % 26, hm⟩ : Fin 26)) ?_).trans ?_
  · rw [Shape.rowMajor_val_four, Shape.rowMajor_val_three]
    show ((b.val * 20 + r.val) * 8 + j.val / 26) * 26 + j.val % 26 = (b.val * 20 + r.val) * 208 + j.val
    omega
  · by_cases hs : j.val % 26 < 20
    · rw [dif_pos hs]
      -- inside the unpadded row: the transposed matrices at (b, r, j / 26, j % 26)
      refine (pad_apply_of_inside _ _ _ _ _ pads_S512x20x8x20_S512x20x8x26_000_000_000_060 h_S_ _
        (ix4 b r (⟨j.val / 26, hq⟩ : Fin 8) (⟨j.val % 26, hs⟩ : Fin 20)) ?_).trans ?_
      · intro a
        match a with
        | ⟨0, _⟩ => show b.val = 0 + b.val * (0 + 1); omega
        | ⟨1, _⟩ => show r.val = 0 + r.val * (0 + 1); omega
        | ⟨2, _⟩ => show j.val / 26 = 0 + j.val / 26 * (0 + 1); omega
        | ⟨3, _⟩ => show j.val % 26 = 0 + j.val % 26 * (0 + 1); omega
      · exact transpose_apply _ P transposes_S512x8x20x20_S512x20x8x20_0_2_1_3
          (ix4 b r (⟨j.val / 26, hq⟩ : Fin 8) (⟨j.val % 26, hs⟩ : Fin 20))
          (ix4 b (⟨j.val / 26, hq⟩ : Fin 8) r (⟨j.val % 26, hs⟩ : Fin 20))
          (fun c => match c with | ⟨0, _⟩ => rfl | ⟨1, _⟩ => rfl | ⟨2, _⟩ => rfl | ⟨3, _⟩ => rfl)
    · rw [dif_neg hs]
      -- in the six padding columns: the padding value
      refine (pad_apply_of_not_inside _ _ _ _ _ pads_S512x20x8x20_S512x20x8x26_000_000_000_060 h_S_ _ (3 : Fin 4) ?_).trans
        (sitofp_zero_apply _)
      intro hin
      have e : (j.val % 26 - 0) / (0 + 1) < 20 := hin.2.2
      rw [Nat.sub_zero, Nat.zero_add, Nat.div_one] at e
      exact hs e

theorem addStage_apply (r : Fin 6) : addStage (ix1 r) = IntOp.addi 20#32 (BitVec.ofNat 32 r.val) := rfl

theorem remStage_apply (j : Fin 208) :
    remStage (iotaInDim S208 32 0) (constantI S_ 32 26#32) (ix1 j) = BitVec.ofNat 32 (j.val % 26) :=
  (show remStage (iotaInDim S208 32 0) (constantI S_ 32 26#32) (ix1 j) = jrem (BitVec.ofNat 32 j.val) from rfl).trans
    (jrem_fin j)

theorem hotStage_apply (x56 : IVec S208 32) (x54 : IVec S6 32) (b : Fin 512) (r : Fin 6) (j : Fin 208) :
    hotStage x56 x54 (ix3 b r j)
      = FloatOps.uitofp (F := Ideal) .f32 (IntOp.cmpi .eq (x56 (ix1 j)) (x54 (ix1 r))) := by
  unfold hotStage
  -- the two outer broadcasts copy the [6, 208] pattern to every batch entry
  refine (broadcastInDim_apply _ bcast_S1x6x208_S512x6x208_0_1_2 _ (ix3 b r j) (ix3 (0 : Fin 1) r j)
    (fun a => match a with | ⟨0, _⟩ => rfl | ⟨1, _⟩ => rfl | ⟨2, _⟩ => rfl)).trans ?_
  refine (broadcastInDim_apply _ bcast_S6x208_S1x6x208_1_2 _ (ix3 (0 : Fin 1) r j) (ix2 r j)
    (fun a => match a with | ⟨0, _⟩ => rfl | ⟨1, _⟩ => rfl)).trans ?_
  -- the column positions are copied down the six rows, the row numbers along the 208 columns
  have eA : broadcastInDim (s := S1x208) S6x208 ![0, 1] bcast_S1x208_S6x208_0_1
        (broadcastInDim (s := S208) S1x208 ![1] bcast_S208_S1x208_1 x56) (ix2 r j) = x56 (ix1 j) :=
    (broadcastInDim_apply _ bcast_S1x208_S6x208_0_1
      (broadcastInDim (s := S208) S1x208 ![1] bcast_S208_S1x208_1 x56) (ix2 r j) (ix2 (0 : Fin 1) j)
      (fun a => match a with | ⟨0, _⟩ => rfl | ⟨1, _⟩ => rfl)).trans
    (broadcastInDim_apply _ bcast_S208_S1x208_1 x56 (ix2 (0 : Fin 1) j) (ix1 j)
      (fun a => match a with | ⟨0, _⟩ => rfl))
  have eB : broadcastInDim (s := S6x1) S6x208 ![0, 1] bcast_S6x1_S6x208_0_1
        (broadcastInDim (s := S6) S6x1 ![0] bcast_S6_S6x1_0 x54) (ix2 r j) = x54 (ix1 r) :=
    (broadcastInDim_apply _ bcast_S6x1_S6x208_0_1
      (broadcastInDim (s := S6) S6x1 ![0] bcast_S6_S6x1_0 x54) (ix2 r j) (ix2 r (0 : Fin 1))
      (fun a => match a with | ⟨0, _⟩ => rfl | ⟨1, _⟩ => rfl)).trans
    (broadcastInDim_apply _ bcast_S6_S6x1_0 x54 (ix2 r (0 : Fin 1)) (ix1 r)
      (fun a => match a with | ⟨0, _⟩ => rfl))
  exact congrArg₂ (fun u v : BitVec 32 => FloatOps.uitofp (F := Ideal) .f32 (IntOp.cmpi .eq u v)) eA eB

/-- The table read at (b, e, j). -/
theorem table_apply (P : Vec Ideal S512x8x20x20 .f32) (b : Fin 512) (e : Fin 26) (j : Fin 208) :
    table P (ix3 b e j) = tableAt P b e j := by
  have hm : j.val % 26 < 26 := Nat.mod_lt _ (by decide)
  unfold table tableAt
  by_cases he : e.val < 20
  · rw [dif_pos he]
    -- a row below 20 lies in the first piece, at the same coordinates
    refine (concatenate_pair_apply_left (1 : Fin 3) (padStage P)
      (hotStage (remStage (iotaInDim S208 32 0) (constantI S_ 32 26#32)) addStage)
      concatenates_S512x20x208_S512x6x208_S512x26x208_d1 (ix3 b e j) rfl (ix3 b (⟨e.val, he⟩ : Fin 20) j)
      (fun a => match a with | ⟨0, _⟩ => rfl | ⟨1, _⟩ => rfl | ⟨2, _⟩ => rfl)).trans ?_
    exact padStage_apply P b ⟨e.val, he⟩ j
  · rw [dif_neg he]
    have he' : e.val - 20 < 6 := by have := e.isLt; omega
    -- a row from 20 on lies in the second piece, 20 rows further up
    refine (concatenate_pair_apply_right (1 : Fin 3) (padStage P)
      (hotStage (remStage (iotaInDim S208 32 0) (constantI S_ 32 26#32)) addStage)
      concatenates_S512x20x208_S512x6x208_S512x26x208_d1 (ix3 b e j) rfl rfl (ix3 b (⟨e.val - 20, he'⟩ : Fin 6) j)
      (fun a ha => match a, ha with
        | ⟨0, _⟩, _ => rfl
        | ⟨1, _⟩, h => (h rfl).elim
        | ⟨2, _⟩, _ => rfl) ?_).trans ?_
    · show e.val - 20 + 20 = e.val
      omega
    · rw [hotStage_apply, remStage_apply, addStage_apply]
      have hw := onehot_fin ⟨j.val % 26, hm⟩ ⟨e.val - 20, he'⟩
      have hw' : IntOp.cmpi .eq (BitVec.ofNat 32 (j.val % 26)) (IntOp.addi 20#32 (BitVec.ofNat 32 (e.val - 20)))
          = if j.val % 26 = 20 + (e.val - 20) then 1#1 else 0#1 := hw
      rw [hw', uitofp_bit]
      by_cases h : (⟨j.val % 26, hm⟩ : Fin 26) = e
      · have h2 : j.val % 26 = e.val := congrArg Fin.val h
        have h' : j.val % 26 = 20 + (e.val - 20) := by omega
        rw [if_pos h, if_pos h']
      · have h' : ¬ j.val % 26 = 20 + (e.val - 20) := fun hh =>
          h (Fin.ext (show j.val % 26 = e.val by omega))
        rw [if_neg h, if_neg h']

end Cert.KernelIdeal.K1

end
-- ==== Proof.K1b.lean ====
/-
  The buffers between the two regions. The token array is an argument: no host operation writes it and the first region
  does not, so at the second region's entry it still holds what it held at launch. The lookup table is what the five
  stretches of host operations after the first region compute from that region's result: walking the stretches one by
  one, each buffer the table depends on holds the corresponding stage of the table's definition.
-/
import proofs.«402584_j57200374448411_3_alg».proof.Proof.K1a
import Idealize.ShloMosaic.Lib.StableHlo.Run

set_option maxRecDepth 16384

noncomputable section

namespace Cert.KernelIdeal.K1

open Cert.KernelIdeal Cert.KernelIdeal.Gen Idealize.ShloMosaic Idealize.ShloMosaic.TcCoe Idealize.SL.Sem
open Idealize.ShloMosaic.ValueIdx

/-! ## The tokens are untouched -/

theorem tok_eq (m : (ℓ : Loc nD τ sig) → Buf (Elt Ideal) ℓ) (ρ : Dev nD → PrngReg) (c : Dev nD) :
    V11 (F := Ideal) m ρ c main_arg0 = m ((c.tc : Thread nD τ).loc main_arg0) :=
  calc V11 (F := Ideal) m ρ c main_arg0
    _ = W11 (F := Ideal) m ρ c (Proc.devRef .tc main_arg0) := rfl
    _ = W10 (F := Ideal) m ρ c (Proc.devRef .tc main_arg0) := StableHlo.after_of_forall_not_mem (b := Proc.devRef .tc main_arg0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 (F := Ideal) m ρ c (Proc.devRef .tc main_arg0) := StableHlo.after_of_forall_not_mem (b := Proc.devRef .tc main_arg0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 (F := Ideal) m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 (F := Ideal) m ρ c (Proc.devRef .tc main_arg0) := W6_of_ne m ρ c main_arg0 (by decide)
    _ = W4 (F := Ideal) m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 (F := Ideal) m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 (F := Ideal) m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl

/-! ## The table, stretch by stretch -/

section Stretches
variable (W : Valuation τ sig (Elt Ideal))

/-- After the first three stretches the reshaped buffer holds rows 0 … 19 over the first region's result. -/
theorem s2_v51 :
    StableHlo.after (hostOps1_2 (F := Ideal)) (StableHlo.after (hostOps1_1 (F := Ideal)) (StableHlo.after (hostOps1 (F := Ideal)) W))
        (Proc.devRef .tc main_v51)
      = padStage (W (Proc.devRef .tc main_v48)) := by
  simp only [hostOps1, hostOps1_1, hostOps1_2]
  after_results <;> (try simp only [StableHlo.TRef.ofBuf, StableHlo.TRef.toBuf, cast_eq]) <;> rfl

/-- The third stretch leaves the special row numbers, … -/
theorem s2_v54 : StableHlo.after (hostOps1_2 (F := Ideal)) W (Proc.devRef .tc main_v54) = addStage := by
  simp only [hostOps1_2]
  after_results <;> rfl

/-- … the column numbers … -/
theorem s2_v55 : StableHlo.after (hostOps1_2 (F := Ideal)) W (Proc.devRef .tc main_v55) = (iotaInDim S208 32 0 : IVec S208 32) := by
  simp only [hostOps1_2]
  after_results <;> rfl

/-- … and the constant 26. -/
theorem s2_c8 : StableHlo.after (hostOps1_2 (F := Ideal)) W (Proc.devRef .tc main_c_8) = (constantI S_ 32 26#32 : IVec S_ 32) := by
  simp only [hostOps1_2]
  after_results <;> rfl

/-- The fourth stretch computes the column positions from the column numbers and the constant, … -/
theorem s3_v56 :
    StableHlo.after (hostOps1_3 (F := Ideal)) W (Proc.devRef .tc main_v56)
      = remStage (W (Proc.devRef .tc main_v55)) (W (Proc.devRef .tc main_c_8)) := by
  simp only [hostOps1_3]
  after_results_simp
  simp only [StableHlo.TRef.ofBuf, StableHlo.TRef.toBuf, cast_eq]
  rfl

/-- … and writes neither the reshaped buffer … -/
theorem s3_v51 : StableHlo.after (hostOps1_3 (F := Ideal)) W (Proc.devRef .tc main_v51) = W (Proc.devRef .tc main_v51) := by
  simp only [hostOps1_3]
  after_results <;> rfl

/-- … nor the special row numbers. -/
theorem s3_v54 : StableHlo.after (hostOps1_3 (F := Ideal)) W (Proc.devRef .tc main_v54) = W (Proc.devRef .tc main_v54) := by
  simp only [hostOps1_3]
  after_results <;> rfl

/-- The fifth stretch builds rows 20 … 25 and puts them under rows 0 … 19. -/
theorem s4_v65 :
    StableHlo.after (hostOps1_4 (F := Ideal)) W (Proc.devRef .tc main_v65)
      = (concatenate S512x26x208 1
          [⟨S512x20x208, (W (Proc.devRef .tc main_v51) : Vec Ideal S512x20x208 .f32)⟩,
           ⟨S512x6x208, hotStage (W (Proc.devRef .tc main_v56)) (W (Proc.devRef .tc main_v54))⟩]
          concatenates_S512x20x208_S512x6x208_S512x26x208_d1 : Vec Ideal S512x26x208 .f32) := by
  simp only [hostOps1_4]
  after_results <;> rfl

end Stretches

/-- At the second region's entry the table buffer holds the table over the first region's result. -/
theorem V11_v65 (m : (ℓ : Loc nD τ sig) → Buf (Elt Ideal) ℓ) (ρ : Dev nD → PrngReg) (c : Dev nD) :
    (V11 (F := Ideal) m ρ c main_v65 : Vec Ideal S512x26x208 .f32) = table (V6 (F := Ideal) m ρ c main_v48) := by
  show StableHlo.after (hostOps1_4 (F := Ideal)) (StableHlo.after (hostOps1_3 (F := Ideal)) (StableHlo.after (hostOps1_2 (F := Ideal))
      (StableHlo.after (hostOps1_1 (F := Ideal)) (StableHlo.after (hostOps1 (F := Ideal)) (W6 (F := Ideal) m ρ c)))))
      (Proc.devRef .tc main_v65) = table (W6 (F := Ideal) m ρ c (Proc.devRef .tc main_v48))
  rw [s4_v65, s3_v51, s3_v56, s3_v54, s2_v51, s2_v55, s2_c8, s2_v54]
  rfl

/-- The table buffer read at (b, e, j), in closed form. -/
theorem table_at (m : (ℓ : Loc nD τ sig) → Buf (Elt Ideal) ℓ) (ρ : Dev nD → PrngReg) (c : Dev nD)
    (b : Fin 512) (e : Fin 26) (j : Fin 208) :
    (V11 (F := Ideal) m ρ c main_v65 : Vec Ideal S512x26x208 .f32) (ix3 b e j)
      = tableAt (V6 (F := Ideal) m ρ c main_v48) b e j :=
  (congrFun (V11_v65 m ρ c) (ix3 b e j)).trans (table_apply _ b e j)

end Cert.KernelIdeal.K1

end
-- ==== Proof.K1.lean ====
/-
  What the second region is entered with: the tokens as launched, and the lookup table, whose entry at (b, e, j) is row e
  of the extended table of batch entry b, at block j / 26 and column j % 26, over the first region's result.
-/
import proofs.«402584_j57200374448411_3_alg».proof.Proof.K1b
import proofs.«402584_j57200374448411_3_alg».proof.Proof.Spec

noncomputable section

namespace Cert.KernelIdeal.K1

open Cert.KernelIdeal Cert.KernelIdeal.Gen Idealize.ShloMosaic Idealize.ShloMosaic.TcCoe Idealize.SL.Sem
open Idealize.ShloMosaic.ValueIdx

/-- The table buffer at the second region's entry, read at (b, e, j), is the specification's row. -/
theorem table_eq (m : (ℓ : Loc nD τ sig) → Buf (Elt Ideal) ℓ) (ρ : Dev nD → PrngReg) (c : Dev nD)
    (b : Fin 512) (e : Fin 26) (j : Fin 208) :
    (V11 (F := Ideal) m ρ c main_v65 : S512x26x208.Idx → EReal) (ix3 b e j)
      = Cert.Spec.row (fun k i j' => (V6 (F := Ideal) m ρ c main_v48 : S512x8x20x20.Idx → EReal) (ix4 b k i j')) e
          (Cert.Spec.blk j) (Cert.Spec.col j) :=
  (table_at m ρ c b e j).trans rfl

end Cert.KernelIdeal.K1

end
-- ==== Proof.K2a.lean ====
/-
  The arithmetic of one trip of the lookup region, read at one entry over the extended reals.

  A trip holds a block of 16 × 128 token words and a table block of 16 × 26 × 208 values. It forms the one-hot matrix of
  the tokens against the 26 row numbers (a comparison widened to a word and converted to a float: 1 where the token
  word is the row number, 0 elsewhere) and multiplies it, batch by batch, into the table block, accumulating into zeros.
  Read at (b', r, j) this is the sum over the 26 rows e of the one-hot coefficient of token (b', r) at e times the
  table entry (b', e, j).
-/
import proofs.«402584_j57200374448411_3_alg».proof.Proof.Gen.KernelIdeal.Skeleton
import proofs.«402584_j57200374448411_3_alg».proof.Proof.Spec
import Idealize.ShloMosaic.PureOps.Ideal.Laws
import Idealize.ShloMosaic.Lib.ValueIdx
import Idealize.ShloMosaic.Lib.Pipeline.Value
import Idealize.ShloMosaic.Lib.StableHlo.Predicate

noncomputable section

open scoped BigOperators

namespace Cert.KernelIdeal.K2

open Cert.KernelIdeal Cert.KernelIdeal.Gen Idealize.ShloMosaic Idealize.ShloMosaic.TcCoe Idealize.SL.Sem
open Idealize.ShloMosaic.ValueIdx

/-! ## The operand indices of the batched product, axis by axis -/

theorem lhs_pay_0 (i : S16x128x208.Idx) (q : dot_S16x128x26_S16x26x208_S16x128x208_2_1_1_2_0_0.contr.Idx) :
    (dot_S16x128x26_S16x26x208_S16x128x208_2_1_1_2_0_0.lhsIdx i q 0).val = (i 0).val := by
  unfold DotDims.lhsIdx
  rw [dif_pos (show (0 : Fin S16x128x26.rank) ∈ dot_S16x128x26_S16x26x208_S16x128x208_2_1_1_2_0_0.lhsBatch by decide)]
  rfl
theorem lhs_pay_1 (i : S16x128x208.Idx) (q : dot_S16x128x26_S16x26x208_S16x128x208_2_1_1_2_0_0.contr.Idx) :
    (dot_S16x128x26_S16x26x208_S16x128x208_2_1_1_2_0_0.lhsIdx i q 1).val = (i 1).val := by
  unfold DotDims.lhsIdx
  rw [dif_neg (show ¬(1 : Fin S16x128x26.rank) ∈ dot_S16x128x26_S16x26x208_S16x128x208_2_1_1_2_0_0.lhsBatch by decide), dif_pos (show (1 : Fin S16x128x26.rank) ∈ dot_S16x128x26_S16x26x208_S16x128x208_2_1_1_2_0_0.lhsNonContracting by decide)]
  rfl
theorem lhs_pay_2 (i : S16x128x208.Idx) (q : dot_S16x128x26_S16x26x208_S16x128x208_2_1_1_2_0_0.contr.Idx) :
    (dot_S16x128x26_S16x26x208_S16x128x208_2_1_1_2_0_0.lhsIdx i q 2).val = (q ⟨0, by decide⟩).val :=
  dot_S16x128x26_S16x26x208_S16x128x208_2_1_1_2_0_0.lhsIdx_val_of_single rfl i q
theorem rhs_pay_0 (i : S16x128x208.Idx) (q : dot_S16x128x26_S16x26x208_S16x128x208_2_1_1_2_0_0.contr.Idx) :
    (dot_S16x128x26_S16x26x208_S16x128x208_2_1_1_2_0_0.rhsIdx i q 0).val = (i 0).val := by
  unfold DotDims.rhsIdx
  rw [dif_pos (show (0 : Fin S16x26x208.rank) ∈ dot_S16x128x26_S16x26x208_S16x128x208_2_1_1_2_0_0.rhsBatch by decide)]
  rfl
theorem rhs_pay_1 (i : S16x128x208.Idx) (q : dot_S16x128x26_S16x26x208_S16x128x208_2_1_1_2_0_0.contr.Idx) :
    (dot_S16x128x26_S16x26x208_S16x128x208_2_1_1_2_0_0.rhsIdx i q 1).val = (q ⟨0, by decide⟩).val :=
  dot_S16x128x26_S16x26x208_S16x128x208_2_1_1_2_0_0.rhsIdx_val_of_single rfl i q
theorem rhs_pay_2 (i : S16x128x208.Idx) (q : dot_S16x128x26_S16x26x208_S16x128x208_2_1_1_2_0_0.contr.Idx) :
    (dot_S16x128x26_S16x26x208_S16x128x208_2_1_1_2_0_0.rhsIdx i q 2).val = (i 2).val := by
  unfold DotDims.rhsIdx
  rw [dif_neg (show ¬(2 : Fin S16x26x208.rank) ∈ dot_S16x128x26_S16x26x208_S16x128x208_2_1_1_2_0_0.rhsBatch by decide), dif_pos (show (2 : Fin S16x26x208.rank) ∈ dot_S16x128x26_S16x26x208_S16x128x208_2_1_1_2_0_0.rhsNonContracting by decide)]
  rfl

/-! ## The one-hot coefficient -/

/-- A comparison bit widened to a word and converted signed is 1 when the token word is the word of the row number
    `e < 26`, and 0 otherwise; and the token word is that word exactly when, read unsigned, it is `e`. -/
theorem onehot_word (w : BitVec 32) (e : Fin 26) :
    (FloatOps.sitofp (F := Ideal) .f32 ((IntOp.cmpi .eq w (BitVec.ofNat 32 e.val)).setWidth 32) : EReal) = Cert.Spec.oh w e := by
  show (((((IntOp.cmpi .eq w (BitVec.ofNat 32 e.val)).setWidth 32).toInt : ℤ) : ℝ) : EReal) = Cert.Spec.oh w e
  have he := e.isLt
  unfold Cert.Spec.oh
  by_cases h : w = BitVec.ofNat 32 e.val
  · have h1 : IntOp.cmpi .eq w (BitVec.ofNat 32 e.val) = 1#1 := StableHlo.Predicate.cmpi_eq_iff.mpr h
    have h2 : w.toNat = e.val := by
      rw [h, BitVec.toNat_ofNat]; omega
    have h3 : ((1#1 : BitVec 1).setWidth 32).toInt = 1 := by decide
    rw [h1, if_pos h2, h3]
    simp
  · have h1 : IntOp.cmpi .eq w (BitVec.ofNat 32 e.val) = 0#1 :=
      eq_zero_of_ne_one (fun hh => h (StableHlo.Predicate.cmpi_eq_iff.mp hh))
    have h2 : ¬ w.toNat = e.val := fun hh => h (BitVec.eq_of_toNat_eq (by
      rw [hh, BitVec.toNat_ofNat]; omega))
    have h3 : ((0#1 : BitVec 1).setWidth 32).toInt = 0 := by decide
    rw [h1, if_neg h2, h3]
    simp

/-- The token block cast to a trailing unit axis and broadcast along the 26 row numbers reads the token of its
    (batch, position). -/
theorem tokens_bcast_apply (v6 : Vec Ideal S16x128 .i32) (b' : Fin 16) (r : Fin 128) (e : Fin 26) :
    broadcastTo S16x128x26 (shapeCast S16x128x1 v6 shapeCasts_S16x128_S16x128x1) broadcasts_S16x128x1_S16x128x26 (ix3 b' r e)
      = v6 (ix2 b' r) := by
  refine (broadcastTo_apply (shapeCast S16x128x1 v6 shapeCasts_S16x128_S16x128x1) broadcasts_S16x128x1_S16x128x26
    (ix3 b' r e) (ix3 b' r (0 : Fin 1)) fun ax => ?_).trans ?_
  · match ax with
    | ⟨0, _⟩ => rfl
    | ⟨1, _⟩ => rfl
    | ⟨2, _⟩ => rfl
  · exact shapeCast_apply v6 shapeCasts_S16x128_S16x128x1 (ix3 b' r (0 : Fin 1)) (ix2 b' r) (by
      rw [Shape.rowMajor_val_three, Shape.rowMajor_val_two]
      show b'.val * 128 + r.val = (b'.val * 128 + r.val) * 1 + 0
      omega)

/-! ## The payload at an entry -/

/-- One trip's product at entry (b', r, j): the one-hot combination of the table block's 26 rows at column j of batch b'
    by the token at (b', r). -/
theorem pay1_apply (v0 : Vec Ideal S16x26x208 .f32) (v6 : Vec Ideal S16x128 .i32) (b' : Fin 16) (r : Fin 128) (j : Fin 208) :
    (k1_pay1 (F := Ideal) v0 v6 : S16x128x208.Idx → EReal) (ix3 b' r j)
      = ∑ e : Fin 26, Cert.Spec.oh (v6 (ix2 b' r)) e * (v0 : S16x26x208.Idx → EReal) (ix3 b' e j) := by
  unfold k1_pay1
  refine (Ideal.matmul_constant_zero_apply dot_S16x128x26_S16x26x208_S16x128x208_2_1_1_2_0_0 none _ _ (ix3 b' r j)).trans ?_
  rw [← Equiv.sum_comp (ValueIdx.contrEquiv1 dot_S16x128x26_S16x26x208_S16x128x208_2_1_1_2_0_0 26 rfl rfl).symm]
  refine Finset.sum_congr rfl fun e _ => ?_
  have hk := ValueIdx.contrEquiv1_symm_val dot_S16x128x26_S16x26x208_S16x128x208_2_1_1_2_0_0 26 rfl rfl e
  have el : dot_S16x128x26_S16x26x208_S16x128x208_2_1_1_2_0_0.lhsIdx (ix3 b' r j) ((ValueIdx.contrEquiv1 dot_S16x128x26_S16x26x208_S16x128x208_2_1_1_2_0_0 26 rfl rfl).symm e) = ix3 b' r e := funext fun a => Fin.ext (by
    match a with
    | ⟨0, _⟩ => exact lhs_pay_0 _ _
    | ⟨1, _⟩ => exact lhs_pay_1 _ _
    | ⟨2, _⟩ => exact (lhs_pay_2 _ _).trans hk)
  have er : dot_S16x128x26_S16x26x208_S16x128x208_2_1_1_2_0_0.rhsIdx (ix3 b' r j) ((ValueIdx.contrEquiv1 dot_S16x128x26_S16x26x208_S16x128x208_2_1_1_2_0_0 26 rfl rfl).symm e) = ix3 b' e j := funext fun a => Fin.ext (by
    match a with
    | ⟨0, _⟩ => exact rhs_pay_0 _ _
    | ⟨1, _⟩ => exact (rhs_pay_1 _ _).trans hk
    | ⟨2, _⟩ => exact rhs_pay_2 _ _)
  rw [el, er]
  -- the table block's cast to its own shape is the identity; the left factor is the one-hot coefficient
  rw [shapeCast_self]
  refine congrArg (· * (v0 : S16x26x208.Idx → EReal) (ix3 b' e j)) ?_
  show (FloatOps.sitofp (F := Ideal) .f32
      ((IntOp.cmpi .eq (broadcastTo S16x128x26 (shapeCast S16x128x1 v6 shapeCasts_S16x128_S16x128x1) broadcasts_S16x128x1_S16x128x26 (ix3 b' r e))
        (iota .tc S16x128x26 32 [2] iota_S16x128x26_d2_w32 (ix3 b' r e))).setWidth 32) : EReal) = _
  rw [tokens_bcast_apply, iota_single_apply]
  exact onehot_word (v6 (ix2 b' r)) e

end Cert.KernelIdeal.K2

end
-- ==== Proof.K2b.lean ====
/-
  The pieces the lookup region's body stores into its output block, as found by the run.

  The body loads the table block once, then runs a counted loop; trip k loads the 16 × 128 tokens at columns
  offset(k) … of the token block and stores, at rows offset(k) … of the output block, the one-hot product of those
  tokens with the table block. So every piece of the run's list is, for some trip k, that one store: the rectangle of
  trip k in the output block with the payload of the tokens under the rectangle of trip k in the token block.
-/
import proofs.«402584_j57200374448411_3_alg».proof.Proof.Gen.KernelIdeal.Frame
import Idealize.ShloMosaic.Lib.ValueIdx
import Idealize.ShloMosaic.Lib.Pipeline.Value
import Idealize.ShloMosaic.Lib.Tactic

set_option maxRecDepth 16384

noncomputable section

namespace Cert.KernelIdeal.K2

open Cert.KernelIdeal Cert.KernelIdeal.Gen Idealize.ShloMosaic Idealize.ShloMosaic.TcCoe Idealize.SL.Sem
open Idealize.ShloMosaic.ValueIdx Idealize.ShloMosaic.Tactic

variable {F : FTy → Type} [FloatOps F]

/-- The tokens trip k reads: 16 rows × 128 columns of the token block, from the trip's column offset. -/
abbrev tokRect (k : Fin k1_t1_loop.trips) : Rect S16x1024 :=
  Rect.unit (s := S16x1024) (k1_off1 k) S16x128.size (k1_off1_inb k)
/-- The rows trip k writes: 16 × 128 × 208 of the output block, from the same offset on the middle axis. -/
abbrev outRect (k : Fin k1_t1_loop.trips) : Rect S16x1024x208 :=
  Rect.unit (s := S16x1024x208) (k1_off2 k) S16x128x208.size (k1_off2_inb k)

/-- Trip k's one store: its rows of the output block, holding the one-hot product of its tokens with the table block. -/
abbrev tripPiece (v0 : Vec F S16x26x208 .f32) (x0 : Vec F S16x1024 .i32) (k : Fin k1_t1_loop.trips) :
    View.Piece (Elt F) S16x1024x208 .f32 :=
  ⟨outRect k, k1_pay1 v0 (View.ld x0 (tokRect k))⟩

/-- One trip stores exactly that piece (the trip's run, opened once). -/
theorem tripL_eq (𝒱 : Variants) (c : Dev nD) (bd : Option 𝒱.V) (i : grid1.Coords)
    (arg1 : Memref sig .tc .vmem S16x1024 .i32) (harg1 : arg1.IsWhole) (arg2 : Memref sig .tc .vmem S16x26x208 .f32) (harg2 : arg2.IsWhole)
    (arg3 : Memref sig .tc .vmem S16x1024x208 .f32) (harg3 : arg3.IsWhole)
    (v0 : Vec F S16x26x208 .f32) (X : BufTy.Contents (Elt F) arg1.view.ty) (k : Fin k1_t1_loop.trips) :
    tripL_k1_t1 (F := F) 𝒱 c bd i arg1 harg1 arg2 harg2 arg3 harg3 v0 X k
      = [tripPiece v0 (arg1.view.read (Elt F) X) k] := by
  unfold tripL_k1_t1 trip_k1_t1
  rfl

/-- Every piece of the trips before n is some trip's piece. -/
theorem pb_pieces (𝒱 : Variants) (c : Dev nD) (bd : Option 𝒱.V) (i : grid1.Coords)
    (arg1 : Memref sig .tc .vmem S16x1024 .i32) (harg1 : arg1.IsWhole) (arg2 : Memref sig .tc .vmem S16x26x208 .f32) (harg2 : arg2.IsWhole)
    (arg3 : Memref sig .tc .vmem S16x1024x208 .f32) (harg3 : arg3.IsWhole)
    (v0 : Vec F S16x26x208 .f32) (X : BufTy.Contents (Elt F) arg1.view.ty) :
    ∀ n : ℕ, n ≤ k1_t1_loop.trips → ∀ p ∈ pb_k1_t1 (F := F) 𝒱 c bd i arg1 harg1 arg2 harg2 arg3 harg3 v0 X n,
      ∃ k : Fin k1_t1_loop.trips, p = tripPiece v0 (arg1.view.read (Elt F) X) k
  | 0, _, p, hp => by
    rw [pb_k1_t1] at hp
    exact absurd hp List.not_mem_nil
  | n + 1, hn, p, hp => by
    have e := pb_k1_t1_succ (F := F) 𝒱 c bd i arg1 harg1 arg2 harg2 arg3 harg3 v0 X ⟨n, hn⟩
    change pb_k1_t1 (F := F) 𝒱 c bd i arg1 harg1 arg2 harg2 arg3 harg3 v0 X (n + 1) = _ at e
    rw [e, tripL_eq, List.mem_append, List.mem_singleton] at hp
    rcases hp with rfl | hp
    · exact ⟨⟨n, hn⟩, rfl⟩
    · exact pb_pieces 𝒱 c bd i arg1 harg1 arg2 harg2 arg3 harg3 v0 X n (Nat.le_of_succ_le hn) p hp

theorem hz3 : (![0, 0, 0] : Fin 3 → Nat) = fun _ => 0 := funext fun a => by fin_cases a <;> rfl

/-- The table block as the body loads it: a load through the whole block's rectangle reads the block. -/
theorem table_load (arg2 : Memref sig .tc .vmem S16x26x208 .f32) (harg2 : arg2.IsWhole) (x1 : Vec F S16x26x208 .f32) :
    arg2.view.readAt (Elt F) (Rect.unit (s := S16x26x208) ![0, 0, 0] S16x26x208.size inb_S16x26x208_S16x26x208_0_0_0).toLoadRect
      (harg2.unread x1) = x1 := by
  rw [View.readAt_eq_ld, harg2.read_unread, View.ld_unit_zero (S := S16x26x208) hz3]

/-- The run's pieces (the run, opened once): the pieces of all the trips, over the table block as loaded and the token
    block as held. -/
theorem run_eq (c : Dev nD) (i : grid1.Coords)
    (arg1 : Memref sig .tc .vmem S16x1024 .i32) (harg1 : arg1.IsWhole) (arg2 : Memref sig .tc .vmem S16x26x208 .f32) (harg2 : arg2.IsWhole)
    (arg3 : Memref sig .tc .vmem S16x1024x208 .f32) (harg3 : arg3.IsWhole)
    (x0 : Vec F S16x1024 .i32) (x1 : Vec F S16x26x208 .f32) :
    (kernelRun1_A (F := F) c i arg1 harg1 arg2 harg2 arg3 harg3 x0 x1).1
      = pb_k1_t1 (F := F) Variants.none c none i arg1 harg1 arg2 harg2 arg3 harg3 x1 (harg1.unread x0) k1_t1_loop.trips := by
  unfold kernelRun1_A
  exact congrArg (fun v => pb_k1_t1 (F := F) Variants.none c none i arg1 harg1 arg2 harg2 arg3 harg3 v (harg1.unread x0) k1_t1_loop.trips)
    (table_load arg2 harg2 x1)

/-- Every piece the run stores into the output block is some trip's piece, over the blocks the body was given. -/
theorem run_pieces (c : Dev nD) (i : grid1.Coords)
    (arg1 : Memref sig .tc .vmem S16x1024 .i32) (harg1 : arg1.IsWhole) (arg2 : Memref sig .tc .vmem S16x26x208 .f32) (harg2 : arg2.IsWhole)
    (arg3 : Memref sig .tc .vmem S16x1024x208 .f32) (harg3 : arg3.IsWhole)
    (x0 : Vec F S16x1024 .i32) (x1 : Vec F S16x26x208 .f32) :
    ∀ p ∈ (kernelRun1_A (F := F) c i arg1 harg1 arg2 harg2 arg3 harg3 x0 x1).1,
      ∃ k : Fin k1_t1_loop.trips, p = tripPiece x1 x0 k := by
  intro p hp
  rw [run_eq] at hp
  obtain ⟨k, hk⟩ := pb_pieces Variants.none c none i arg1 harg1 arg2 harg2 arg3 harg3 x1 (harg1.unread x0)
    k1_t1_loop.trips (Nat.le_refl _) p hp
  rw [harg1.read_unread] at hk
  exact ⟨k, hk⟩

end Cert.KernelIdeal.K2

end
-- ==== Proof.K2.lean ====
/-
  What the lookup region leaves in its output array: at (b, l, j) the one-hot combination, by the token at (b, l), of
  the 26 table rows at column j of batch b.

  First the output BLOCK of one grid point as one function of the two input blocks the body was given: every store of
  the run is a block of that function (the payload's arithmetic, read at an entry, and the two rectangles of a trip
  sharing their offset), the stores cover the block, so the block reads as the function everywhere. Then the blocks
  of the 32 grid points tile the array along the batch axis: point t holds batches 16·t … 16·t + 15 of the tokens, of
  the table and of the output alike, so what each point writes back is its block of ONE function of the arrays, and the
  array ends holding that function.
-/
import proofs.«402584_j57200374448411_3_alg».proof.Proof.K2a
import proofs.«402584_j57200374448411_3_alg».proof.Proof.K2b
import Idealize.ShloMosaic.Lib.Pipeline.Value

set_option maxRecDepth 16384

noncomputable section

open scoped BigOperators

namespace Cert.KernelIdeal.K2

open Cert.KernelIdeal Cert.KernelIdeal.Gen Idealize.ShloMosaic Idealize.ShloMosaic.TcCoe Idealize.SL.Sem
open Idealize.ShloMosaic.ValueIdx
open Idealize.ShloMosaic.Pipeline (Dat)

/-! ## The output block as one function of the two input blocks -/

/-- The one-hot combination of the table block's rows at (b', ·, j) by the token at (b', l). -/
def gB (x0 : S16x1024.Idx → BitVec 32) (x1 : S16x26x208.Idx → EReal) (b' : Fin 16) (l : Fin 1024) (j : Fin 208) : EReal :=
  ∑ e : Fin 26, Cert.Spec.oh (x0 (ix2 b' l)) e * x1 (ix3 b' e j)

/-- The same as a function of the output block's index. -/
def GB (x0 : S16x1024.Idx → BitVec 32) (x1 : S16x26x208.Idx → EReal) : S16x1024x208.Idx → EReal :=
  fun y => gB x0 x1 ⟨(y 0).val, (y 0).isLt⟩ ⟨(y 1).val, (y 1).isLt⟩ ⟨(y 2).val, (y 2).isLt⟩

theorem GB_apply (x0 : S16x1024.Idx → BitVec 32) (x1 : S16x26x208.Idx → EReal) (y : S16x1024x208.Idx) :
    GB x0 x1 y = gB x0 x1 ⟨(y 0).val, (y 0).isLt⟩ ⟨(y 1).val, (y 1).isLt⟩ ⟨(y 2).val, (y 2).isLt⟩ := rfl

/-- The two rectangles of a trip start at the same offset on the axis the loop walks, and at zero elsewhere. -/
theorem off1_0 (k : Fin k1_t1_loop.trips) : k1_off1 k 0 = 0 := rfl
theorem off1_1 (k : Fin k1_t1_loop.trips) : k1_off1 k 1 = k1_off2 k 1 := rfl
theorem off2_0 (k : Fin k1_t1_loop.trips) : k1_off2 k 0 = 0 := rfl
theorem off2_2 (k : Fin k1_t1_loop.trips) : k1_off2 k 2 = 0 := rfl

/-- A trip's store is its block of that function: the payload at (b', r, j) combines the table rows by the token under
    the trip's token rectangle at (b', r), which is the token at the output index under the trip's output rectangle. -/
theorem piece_block (x0 : Vec Ideal S16x1024 .i32) (x1 : Vec Ideal S16x26x208 .f32) (k : Fin k1_t1_loop.trips)
    (x : S16x128x208.Idx) :
    (k1_pay1 (F := Ideal) x1 (View.ld x0 (tokRect k)) : S16x128x208.Idx → EReal) x = GB x0 x1 ((outRect k).emb x) := by
  obtain ⟨b', r, j, rfl⟩ : ∃ (b' : Fin 16) (r : Fin 128) (j : Fin 208), x = ix3 b' r j := ⟨x 0, x 1, x 2, eq_ix3 x⟩
  refine (pay1_apply x1 (View.ld x0 (tokRect k)) b' r j).trans ?_
  rw [GB_apply]
  unfold gB
  refine Finset.sum_congr rfl fun e _ => ?_
  have hA : (tokRect k).idx (ix2 b' r)
      = ix2 (⟨((outRect k).emb (ix3 b' r j) 0).val, ((outRect k).emb (ix3 b' r j) 0).isLt⟩ : Fin 16)
          (⟨((outRect k).emb (ix3 b' r j) 1).val, ((outRect k).emb (ix3 b' r j) 1).isLt⟩ : Fin 1024) :=
    funext fun a => Fin.ext (by
      match a with
      | ⟨0, _⟩ => show k1_off1 k 0 + 1 * b'.val = k1_off2 k 0 + 1 * b'.val; rw [off1_0, off2_0]
      | ⟨1, _⟩ => show k1_off1 k 1 + 1 * r.val = k1_off2 k 1 + 1 * r.val; rw [off1_1])
  have hB : ix3 b' e j
      = ix3 (⟨((outRect k).emb (ix3 b' r j) 0).val, ((outRect k).emb (ix3 b' r j) 0).isLt⟩ : Fin 16) e
          (⟨((outRect k).emb (ix3 b' r j) 2).val, ((outRect k).emb (ix3 b' r j) 2).isLt⟩ : Fin 208) :=
    funext fun a => Fin.ext (by
      match a with
      | ⟨0, _⟩ => show b'.val = k1_off2 k 0 + 1 * b'.val; rw [off2_0]; omega
      | ⟨1, _⟩ => rfl
      | ⟨2, _⟩ => show j.val = k1_off2 k 2 + 1 * j.val; rw [off2_2]; omega)
  show Cert.Spec.oh (x0 ((tokRect k).idx (ix2 b' r))) e * x1 (ix3 b' e j) = _
  rw [hA, hB]

/-- The output block after the body, at every index: the stores are blocks of one function and cover the block. -/
theorem out_block (c : Dev nD) (i : grid1.Coords)
    (arg1 : Memref sig .tc .vmem S16x1024 .i32) (harg1 : arg1.IsWhole) (arg2 : Memref sig .tc .vmem S16x26x208 .f32) (harg2 : arg2.IsWhole)
    (arg3 : Memref sig .tc .vmem S16x1024x208 .f32) (harg3 : arg3.IsWhole)
    (x0 : Vec Ideal S16x1024 .i32) (x1 : Vec Ideal S16x26x208 .f32) (y : S16x1024x208.Idx) :
    (out1_A_2 (F := Ideal) c i arg1 harg1 arg2 harg2 arg3 harg3 x0 x1 : S16x1024x208.Idx → EReal) y = GB x0 x1 y := by
  unfold out1_A_2
  rw [View.read_writes_eq_canon _ _ _ (cover1_A_2 c i arg1 harg1 arg2 harg2 arg3 harg3 x0 x1)]
  exact View.canon_apply_of_pieces (Val := Elt Ideal) (e := .f32) (GB x0 x1) _ (fun p hp x => by
      obtain ⟨k, rfl⟩ := run_pieces c i arg1 harg1 arg2 harg2 arg3 harg3 x0 x1 p hp
      exact piece_block x0 x1 k x) y (cover1_A_2 c i arg1 harg1 arg2 harg2 arg3 harg3 x0 x1 y)

/-! ## From the blocks to the array -/

variable (V : (c : Dev nD) → (b : Ref sig .tc) → Buf (Elt Ideal) ((c : Thread nD τ).loc b))

/-- The one-hot combination of the table array's rows at (b, ·, j) by the token at (b, l). -/
def gA (c : Dev nD) (b : Fin 512) (l : Fin 1024) (j : Fin 208) : EReal :=
  ∑ e : Fin 26, Cert.Spec.oh ((V c main_arg0 : S512x1024.Idx → BitVec 32) (ix2 b l)) e
    * (V c main_v65 : S512x26x208.Idx → EReal) (ix3 b e j)

/-- The same as a function of the output array's index. -/
def GA (c : Dev nD) : S512x1024x208.Idx → EReal :=
  fun i => gA V c ⟨(i 0).val, (i 0).isLt⟩ ⟨(i 1).val, (i 1).isLt⟩ ⟨(i 2).val, (i 2).isLt⟩

theorem GA_apply (c : Dev nD) (i : S512x1024x208.Idx) :
    GA V c i = gA V c ⟨(i 0).val, (i 0).isLt⟩ ⟨(i 1).val, (i 1).isLt⟩ ⟨(i 2).val, (i 2).isLt⟩ := rfl

/-- The printed index maps over the grid: each window's block index is the grid point on the batch axis and zero on
    the others. -/
theorem idx_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- The token block of point t at (p, q) is the token array at batch 16·t + p. -/
theorem tokBlk_apply (c : Dev nD) (t : Fin cfg1.N) (p : Fin 16) (q : Fin 1024) (P : Fin 512) (Q : Fin 1024)
    (hP : P.val = 16 * t.val + p.val) (hQ : Q.val = q.val) :
    (iblk1 (F := Ideal) V c 0 t : S16x1024.Idx → BitVec 32) (ix2 p q) = (V c main_arg0 : S512x1024.Idx → BitVec 32) (ix2 P Q) := by
  obtain ⟨e0, e1, -⟩ := idx_facts t
  unfold iblk1
  rw [View.read_apply]
  show (V c main_arg0 : S512x1024.Idx → BitVec 32) _ = (V c main_arg0 : S512x1024.Idx → BitVec 32) _
  congr 1
  funext a
  apply Fin.ext
  match a with
  | ⟨0, _⟩ => show win1_0.index t (0 : Fin 2) * 16 + 1 * p.val = P.val; rw [e0, hP]; omega
  | ⟨1, _⟩ => show win1_0.index t (1 : Fin 2) * 1024 + 1 * q.val = Q.val; rw [e1, hQ]; omega

/-- The table block of point t at (p, e, j) is the table array at batch 16·t + p. -/
theorem tabBlk_apply (c : Dev nD) (t : Fin cfg1.N) (p : Fin 16) (e : Fin 26) (j : Fin 208) (P : Fin 512) (J : Fin 208)
    (hP : P.val = 16 * t.val + p.val) (hJ : J.val = j.val) :
    (iblk1 (F := Ideal) V c 1 t : S16x26x208.Idx → EReal) (ix3 p e j) = (V c main_v65 : S512x26x208.Idx → EReal) (ix3 P e J) := by
  obtain ⟨-, -, e2, e3, e4, -⟩ := idx_facts t
  unfold iblk1
  rw [View.read_apply]
  show (V c main_v65 : S512x26x208.Idx → EReal) _ = (V c main_v65 : S512x26x208.Idx → EReal) _
  congr 1
  funext a
  apply Fin.ext
  match a with
  | ⟨0, _⟩ => show win1_1.index t (0 : Fin 3) * 16 + 1 * p.val = P.val; rw [e2, hP]; omega
  | ⟨1, _⟩ => show win1_1.index t (1 : Fin 3) * 26 + 1 * e.val = e.val; rw [e3]; omega
  | ⟨2, _⟩ => show win1_1.index t (2 : Fin 3) * 208 + 1 * j.val = J.val; rw [e4, hJ]; omega

/-- The block function of point t's input blocks is the array function at the batches the point holds. -/
theorem block_eq_array (c : Dev nD) (t : Fin cfg1.N) (p : Fin 16) (q : Fin 1024) (j : Fin 208)
    (P : Fin 512) (Q : Fin 1024) (J : Fin 208)
    (hP : P.val = 16 * t.val + p.val) (hQ : Q.val = q.val) (hJ : J.val = j.val) :
    gB (iblk1 (F := Ideal) V c 0 t) (iblk1 (F := Ideal) V c 1 t) p q j = gA V c P Q J := by
  unfold gB gA
  refine Finset.sum_congr rfl fun e _ => ?_
  rw [tokBlk_apply V c t p q P Q hP hQ, tabBlk_apply V c t p e j P J hP hJ]

/-- What point t writes back is its block of the array function. -/
theorem flushed_eq (c : Dev nD) (t : Fin cfg1.N) :
    (dat1 (F := Ideal) V c).flushed 2 t = ((cfg1.win 2).blk t).view.read (Elt Ideal) (GA V c) := by
  show (cfg1.win 2).cut (grid1.coords t) ((dat1 (F := Ideal) V c).after 2 t) = _
  rw [after1_2]
  unfold outsAt1
  obtain ⟨-, -, -, -, -, e5, e6, e7⟩ := idx_facts t
  funext y
  rw [View.read_apply]
  refine (out_block c (grid1.coords t) (ms1_0 t) (hs1_0 t) (ms1_1 t) (hs1_1 t) (ms1_2 t) (hs1_2 t)
    (iblk1 (F := Ideal) V c 0 t) (iblk1 (F := Ideal) V c 1 t) ((cfg1.win 2).xinj (grid1.coords t) y)).trans ?_
  rw [GB_apply, GA_apply]
  exact block_eq_array V c t _ _ _ _ _ _
    (by show win1_2.index t (0 : Fin 3) * 16 + 1 * (y 0).val = 16 * t.val + (y 0).val; rw [e5]; omega)
    (by show win1_2.index t (1 : Fin 3) * 1024 + 1 * (y 1).val = (y 1).val; rw [e6]; omega)
    (by show win1_2.index t (2 : Fin 3) * 208 + 1 * (y 2).val = (y 2).val; rw [e7]; omega)

/-- Every index of the output array lies in the block of the point that holds its batch. -/
theorem cover (c : Dev nD) (i : S512x1024x208.Idx) :
    ∃ t : Fin cfg1.N, (cfg1.win 2).flush t = true ∧ i ∈ ((cfg1.win 2).blk t).view.set := by
  have hN : cfg1.N = 32 := N_1
  have hi0 : (i 0).val < 512 := (i 0).isLt
  have hi1 : (i 1).val < 1024 := (i 1).isLt
  have hi2 : (i 2).val < 208 := (i 2).isLt
  obtain ⟨t, ht⟩ : ∃ t : Fin cfg1.N, t.val = (i 0).val / 16 := ⟨⟨(i 0).val / 16, by omega⟩, rfl⟩
  obtain ⟨-, -, -, -, -, e5, e6, e7⟩ := idx_facts t
  refine ⟨t, flush1_2 t, ?_⟩
  show i ∈ ((View.whole main_v66).slice (win1_2.rect t)).set
  rw [View.set_slice_whole, Rect.mem_set_unit]
  intro a
  match a with
  | ⟨0, _⟩ =>
    show win1_2.index t (0 : Fin 3) * 16 ≤ (i 0).val ∧ (i 0).val < win1_2.index t (0 : Fin 3) * 16 + 16
    rw [e5]; omega
  | ⟨1, _⟩ =>
    show win1_2.index t (1 : Fin 3) * 1024 ≤ (i 1).val ∧ (i 1).val < win1_2.index t (1 : Fin 3) * 1024 + 1024
    rw [e6]; omega
  | ⟨2, _⟩ =>
    show win1_2.index t (2 : Fin 3) * 208 ≤ (i 2).val ∧ (i 2).val < win1_2.index t (2 : Fin 3) * 208 + 208
    rw [e7]; omega

/-- So the output array ends holding the array function. -/
theorem final (c : Dev nD) : (dat1 (F := Ideal) V c).arrAt 2 cfg1.N = GA V c :=
  (dat1 (F := Ideal) V c).arrAt_eq_of_cover 2 (GA V c) (fun t _ => flushed_eq V c t) (fun i => cover c i)

/-- The region's output array at (b, l, j): the one-hot combination, by the token at (b, l), of the table's rows at
    column j of batch b. -/
theorem region1_value (c : Dev nD) (b : Fin 512) (l : Fin 1024) (j : Fin 208) :
    ((dat1 (F := Ideal) V c).arrAt 2 cfg1.N : S512x1024x208.Idx → EReal) (ix3 b l j)
      = ∑ e : Fin 26, Cert.Spec.oh ((V c main_arg0 : S512x1024.Idx → BitVec 32) (ix2 b l)) e
          * (V c main_v65 : S512x26x208.Idx → EReal) (ix3 b e j) := by
  rw [final V c]
  rfl

end Cert.KernelIdeal.K2

end
-- ==== Proof.KernelValue.lean ====
/-
  The kernel program's result, entry by entry, as one function of the arguments.

  The launch leaves in the result array what the second region's write-backs fold to. Entry (b, l, j) of that is the
  one-hot combination, over the 26 rows of sequence b's lookup table, of column j — so it is the table's row at the
  token, or zero when the token word is not below 26. Rows 0 … 19 of the table are the rows of the eight transition
  matrices the first region left (row e of matrix k at columns 26k … 26k+19, zeros at 26k+20 … 26k+25); rows 20 … 25
  are the special tokens' one-hot patterns. The first region leaves, in each (b, k) slice, the matrix exponential of
  that slice of its input, and its input is the host prefix's scaled rate matrix — the same stage the reference computes.
-/
import proofs.«402584_j57200374448411_3_alg».proof.Proof.Gen.KernelIdeal.Frame
import proofs.«402584_j57200374448411_3_alg».proof.Proof.Spec
import proofs.«402584_j57200374448411_3_alg».proof.Proof.RefStages
import proofs.«402584_j57200374448411_3_alg».proof.Proof.KA
import proofs.«402584_j57200374448411_3_alg».proof.Proof.K0
import proofs.«402584_j57200374448411_3_alg».proof.Proof.K1
import proofs.«402584_j57200374448411_3_alg».proof.Proof.K2
import Idealize.ShloMosaic.Lib.ValueIdx

noncomputable section

namespace Cert.Proof.Value

open Cert.KernelIdeal Cert.KernelIdeal.Gen Idealize.ShloMosaic Idealize.ShloMosaic.TcCoe Idealize.SL.Sem Idealize.ShloMosaic.ValueIdx

/-- The kernel program's result entry (b, l, j): the launch leaves in the result array what region 1's write-backs fold
    to; that is the one-hot combination of the table's rows at the token; the table's rows are rows of the matrix
    exponentials region 0 left, padded, or the special one-hot patterns; and region 0's input is the host prefix's `A`. -/
theorem kernel_entry (m : (ℓ : Loc nD τ sig) → Buf (Elt Ideal) ℓ) (ρ : Dev nD → PrngReg) (c : Dev nD)
    (b : Fin 512) (l : Fin 1024) (j : Fin 208) :
    (W12 (F := Ideal) m ρ c (Proc.devRef .tc main_v66) : S512x1024x208.Idx → EReal) (ix3 b l j)
      = Cert.Spec.out ((m ((c.tc : Thread nD τ).loc main_arg0) : S512x1024.Idx → BitVec 32) (ix2 b l))
          (fun k i j' => Cert.Spec.expm (fun i' j'' => Cert.ReferenceIdeal.Stages.val_main_v52 (F := Ideal)
            (m ((c.tc : Thread nD τ).loc main_arg1)) (m ((c.tc : Thread nD τ).loc main_arg2))
            (m ((c.tc : Thread nD τ).loc main_arg3)) (m ((c.tc : Thread nD τ).loc main_arg4)) (ix4 b k i' j'')) i j')
          (Cert.Spec.blk j) (Cert.Spec.col j) := by
  have e12 : (W12 (F := Ideal) m ρ c (Proc.devRef .tc main_v66) : S512x1024x208.Idx → EReal)
      = ((dat1 (F := Ideal) (V11 m ρ) c).arrAt 2 cfg1.N : S512x1024x208.Idx → EReal) := W12_arr m ρ c 2
  have e6 : (V6 (F := Ideal) m ρ c main_v48 : S512x8x20x20.Idx → EReal)
      = ((dat0 (F := Ideal) (V5 m ρ) c).arrAt 1 cfg0.N : S512x8x20x20.Idx → EReal) := W6_arr m ρ c 1
  rw [e12, Cert.KernelIdeal.K2.region1_value (V11 m ρ) c b l j, Cert.KernelIdeal.K1.tok_eq m ρ c]
  rw [Finset.sum_congr rfl (fun e _ => by rw [Cert.KernelIdeal.K1.table_eq m ρ c b e j])]
  rw [Cert.Spec.sum_oh]
  unfold Cert.Spec.out
  split
  · next hw =>
    refine congrArg (fun P => Cert.Spec.row P _ _ _) ?_
    funext k i j'
    rw [e6, Cert.KernelIdeal.K0.region0_value (V5 m ρ) c b k i j', Cert.KernelIdeal.KA.A_eq m ρ c]
  · rfl

end Cert.Proof.Value

end
-- ==== Proof.lean ====
/-
  The claim: the kernel program and its reference agree over the extended reals, under "every float input is finite
  and every token is nonnegative".

  Both programs compute, with the same host operations in the same order, the scaled rate matrices A[b, k] = τ_b · Q_k
  (Q from the softplus-symmetrised exchangeabilities and the frequencies, τ from the softplus of the gathered rate).
  Both then take the order-16 Taylor polynomial of A / 64 and square it six times: the kernel in its first region, on
  blocks of sixteen sequences reshaped to 128 matrices, by batched matrix products into zero accumulators; the reference
  on the host, by batched dot products. Slice by slice these are the same operations in the same order, so the two
  arrays of transition matrices are equal term by term — no law of the extended reals is needed.
  The reference then gathers, per token, row min(token, …) of each matrix, masks it, pads it from 20 to 26 columns and
  adds the special tokens' one-hot pattern; the kernel instead builds a 26-row table per sequence (the padded matrix
  rows, then the six special patterns) and multiplies it by the token's one-hot vector in its second region. For a
  token word w ≥ 0 both give: row w of the table if w < 26, zero otherwise (0 · x = 0 and 1 · x = x hold for every
  extended real, so no finiteness is used). A negative token is where they would differ (the reference wraps it to a
  row from the end, the kernel's one-hot vector is zero): the precondition excludes it.
  The three frames are the generated ones (the reference's from its run); the idealization rewrote nothing.
-/
import proofs.«402584_j57200374448411_3_alg».proof.Defs
import proofs.«402584_j57200374448411_3_alg».proof.Proof.Gen.Kernel
import proofs.«402584_j57200374448411_3_alg».proof.Proof.Gen.Kernel.Skeleton
import proofs.«402584_j57200374448411_3_alg».proof.Proof.Gen.Kernel.Loops
import proofs.«402584_j57200374448411_3_alg».proof.Proof.Gen.Kernel.Launch
import proofs.«402584_j57200374448411_3_alg».proof.Proof.Gen.Kernel.Points
import proofs.«402584_j57200374448411_3_alg».proof.Proof.Gen.Kernel.Frame
import proofs.«402584_j57200374448411_3_alg».proof.Proof.Gen.KernelIdeal
import proofs.«402584_j57200374448411_3_alg».proof.Proof.Gen.KernelIdeal.Skeleton
import proofs.«402584_j57200374448411_3_alg».proof.Proof.Gen.KernelIdeal.Loops
import proofs.«402584_j57200374448411_3_alg».proof.Proof.Gen.KernelIdeal.Launch
import proofs.«402584_j57200374448411_3_alg».proof.Proof.Gen.KernelIdeal.Points
import proofs.«402584_j57200374448411_3_alg».proof.Proof.Gen.KernelIdeal.Frame
import proofs.«402584_j57200374448411_3_alg».proof.Proof.Gen.ReferenceIdeal
import proofs.«402584_j57200374448411_3_alg».proof.Proof.Gen.Pre_finite_inputs
import proofs.«402584_j57200374448411_3_alg».proof.Proof.Spec
import proofs.«402584_j57200374448411_3_alg».proof.Proof.PreDecode
import proofs.«402584_j57200374448411_3_alg».proof.Proof.KernelRun
import proofs.«402584_j57200374448411_3_alg».proof.Proof.RefStages
import proofs.«402584_j57200374448411_3_alg».proof.Proof.RefRun
import proofs.«402584_j57200374448411_3_alg».proof.Proof.RefVal
import proofs.«402584_j57200374448411_3_alg».proof.Proof.R1
import proofs.«402584_j57200374448411_3_alg».proof.Proof.R2
import proofs.«402584_j57200374448411_3_alg».proof.Proof.KernelValue
import Idealize.ShloMosaic.Lib.ValueIdx
import Idealize.ShloMosaic.Adequacy
import Idealize.ShloMosaic.Init

noncomputable section

namespace Cert.Proof.Claims

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end with the same result: index by index, the kernel's entry and the reference's entry are the same
    function of the arguments (the reference's under the precondition's "every token is nonnegative"). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W12 (F := Ideal) m ρ c (Proc.devRef .tc Cert.KernelIdeal.main_v66),
    Cert.KernelIdeal.KRun.run_value m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefVal.res_eq, (hagree c).1, (hagree c).2.1, (hagree c).2.2.1, (hagree c).2.2.2.1, (hagree c).2.2.2.2]
  funext idx
  obtain ⟨b, l, j, rfl⟩ : ∃ (b : Fin 512) (l : Fin 1024) (j : Fin 208), idx = ix3 b l j := ⟨idx 0, idx 1, idx 2, eq_ix3 idx⟩
  have hnn := Cert.PreDecode.tokens_nonneg (F := Ideal) _ _ _ _ _ (hpre c) (ix2 b l)
  rw [Cert.ReferenceIdeal.R2.ref_tail _ _ _ _ _ b l j hnn]
  refine (Eq.trans ?_ (Cert.Proof.Value.kernel_entry m ρ c b l j).symm)
  refine congrArg (fun P => Cert.Spec.out _ P _ _) ?_
  funext k i j'
  exact Cert.ReferenceIdeal.R1.ref_expm _ _ _ _ b k i j'

end Cert.Proof.Claims

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
